-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v113)) (v1 : (c : Dev Cert.KernelIdeal.nD) → Buf (Elt Ideal) ((c.tc : Thread Cert.KernelIdeal.nD Cert.KernelIdeal.τ).loc Cert.KernelIdeal.main_v138)) (v2 : (c : Dev Cert.KernelIdeal.nD) → Buf (Elt Ideal) ((c.tc : Thread Cert.KernelIdeal.nD Cert.KernelIdeal.τ).loc Cert.KernelIdeal.main_v102)) (v3 : (c : Dev Cert.KernelIdeal.nD) → Buf (Elt Ideal) ((c.tc : Thread Cert.KernelIdeal.nD Cert.KernelIdeal.τ).loc Cert.KernelIdeal.main_v139)) (v4 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v113) = v0 c
          ∧ r.2.mem ((c.tc : Thread Cert.KernelIdeal.nD Cert.KernelIdeal.τ).loc Cert.KernelIdeal.main_v138) = v1 c
          ∧ r.2.mem ((c.tc : Thread Cert.KernelIdeal.nD Cert.KernelIdeal.τ).loc Cert.KernelIdeal.main_v102) = v2 c
          ∧ r.2.mem ((c.tc : Thread Cert.KernelIdeal.nD Cert.KernelIdeal.τ).loc Cert.KernelIdeal.main_v139) = v3 c
          ∧ r.2.mem ((c.tc : Thread Cert.KernelIdeal.nD Cert.KernelIdeal.τ).loc Cert.KernelIdeal.main_v59) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v117) = v1 c
          ∧ r.2.mem ((c.tc : Thread Cert.ReferenceIdeal.nD Cert.ReferenceIdeal.τ).loc Cert.ReferenceIdeal.main_v92) = v2 c
          ∧ r.2.mem ((c.tc : Thread Cert.ReferenceIdeal.nD Cert.ReferenceIdeal.τ).loc Cert.ReferenceIdeal.main_v118) = v3 c
          ∧ r.2.mem ((c.tc : Thread Cert.ReferenceIdeal.nD Cert.ReferenceIdeal.τ).loc Cert.ReferenceIdeal.main_v56) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1280x32768 : Shape := ⟨2, ![1280, 32768]⟩
abbrev S1280 : Shape := ⟨1, ![1280]⟩
abbrev S32768x128 : Shape := ⟨2, ![32768, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S128x32 : Shape := ⟨2, ![128, 32]⟩
abbrev S32 : Shape := ⟨1, ![32]⟩
abbrev S32x3 : Shape := ⟨2, ![32, 3]⟩
abbrev S3 : Shape := ⟨1, ![3]⟩
abbrev S_ : Shape := ⟨0, ![]⟩

class Facts : Prop where
  bcast_S_S1280x32768 : S_.BroadcastsInDim S1280x32768 (![] : Fin 0 → Fin S1280x32768.rank)
  reducesTo_S1280x32768_S_d0_1 : S1280x32768.ReducesTo [0, 1] S_
  h_S_ : 0 < S_.numel
  bcast_S_S32768x128 : S_.BroadcastsInDim S32768x128 (![] : Fin 0 → Fin S32768x128.rank)
  reducesTo_S32768x128_S_d0_1 : S32768x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x3 : S_.BroadcastsInDim S32x3 (![] : Fin 0 → Fin S32x3.rank)
  reducesTo_S32x3_S_d0_1 : S32x3.ReducesTo [0, 1] S_
  bcast_S_S3 : S_.BroadcastsInDim S3 (![] : Fin 0 → Fin S3.rank)
  reducesTo_S3_S_d0 : S3.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S32 .f32) (main_arg13 : FVec F S32x3 .f32) (main_arg14 : FVec F S3 .f32) (main_v48 : IVec S_ 1) (main_v49 : FVec F S128x32 .f32) (main_v50 : FVec F S128x32 .f32) : IVec S_ 1 :=
  let main_v51 : IVec S128x32 1 := cmpf .olt main_v49 main_v50
  let main_c_19 : IVec S_ 1 := constantI S_ 1 1#1
  let main_v52 : IVec S_ 1 := (fun x v => Host.reduce IntOp.andi x v reducesTo_S128x32_S_d0_1 h_S_) main_v51 main_c_19
  let main_v53 : IVec S_ 1 := andi main_v48 main_v52
  let main_v54 : FVec F S32 .f32 := Host.absf main_arg12
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32x3 .f32 := Host.absf main_arg13
  let main_cst_22 : FVec F S_ .f32 := constant S_ .f32 0x7F800000#32
  let main_v60 : FVec F S32x3 .f32 := broadcastInDim S32x3 ![] bcast_S_S32x3 main_cst_22
  let main_v61 : IVec S32x3 1 := cmpf .olt main_v59 main_v60
  let main_c_23 : IVec S_ 1 := constantI S_ 1 1#1
  let main_v62 : IVec S_ 1 := (fun x v => Host.reduce IntOp.andi x v reducesTo_S32x3_S_d0_1 h_S_) main_v61 main_c_23
  let main_v63 : IVec S_ 1 := andi main_v58 main_v62
  let main_v64 : FVec F S3 .f32 := Host.absf main_arg14
  let main_cst_24 : FVec F S_ .f32 := constant S_ .f32 0x7F800000#32
  let main_v65 : FVec F S3 .f32 := broadcastInDim S3 ![] bcast_S_S3 main_cst_24
  let main_v66 : IVec S3 1 := cmpf .olt main_v64 main_v65
  let main_c_25 : IVec S_ 1 := constantI S_ 1 1#1
  let main_v67 : IVec S_ 1 := (fun x v => Host.reduce IntOp.andi x v reducesTo_S3_S_d0 h_S_) main_v66 main_c_25
  fn_part4 (F := F) main_v63 main_v67

def fn_part2 {F : FTy → Type} [FloatOps F] (main_arg8 : FVec F S2 .f32) (main_arg9 : FVec F S32768x128 .f32) (main_arg10 : FVec F S128 .f32) (main_arg11 : FVec F S128x32 .f32) (main_arg12 : FVec F S32 .f32) (main_arg13 : FVec F S32x3 .f32) (main_arg14 : FVec F S3 .f32) (main_v33 : IVec S_ 1) : IVec S_ 1 :=
  let main_v34 : FVec F S2 .f32 := Host.absf main_arg8
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  let main_v39 : FVec F S32768x128 .f32 := Host.absf main_arg9
  let main_cst_14 : FVec F S_ .f32 := constant S_ .f32 0x7F800000#32
  let main_v40 : FVec F S32768x128 .f32 := broadcastInDim S32768x128 ![] bcast_S_S32768x128 main_cst_14
  let main_v41 : IVec S32768x128 1 := cmpf .olt main_v39 main_v40
  let main_c_15 : IVec S_ 1 := constantI S_ 1 1#1
  let main_v42 : IVec S_ 1 := (fun x v => Host.reduce IntOp.andi x v reducesTo_S32768x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x32 .f32 := Host.absf main_arg11
  let main_cst_18 : FVec F S_ .f32 := constant S_ .f32 0x7F800000#32
  let main_v50 : FVec F S128x32 .f32 := broadcastInDim S128x32 ![] bcast_S_S128x32 main_cst_18
  fn_part3 (F := F) main_arg12 main_arg13 main_arg14 main_v48 main_v49 main_v50

def fn_part1 {F : FTy → Type} [FloatOps F] (main_arg5 : FVec F S128x64 .f32) (main_arg6 : FVec F S64 .f32) (main_arg7 : FVec F S64x2 .f32) (main_arg8 : FVec F S2 .f32) (main_arg9 : FVec F S32768x128 .f32) (main_arg10 : FVec F S128 .f32) (main_arg11 : FVec F S128x32 .f32) (main_arg12 : FVec F S32 .f32) (main_arg13 : FVec F S32x3 .f32) (main_arg14 : FVec F S3 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x2 .f32 := Host.absf main_arg7
  let main_cst_10 : FVec F S_ .f32 := constant S_ .f32 0x7F800000#32
  let main_v30 : FVec F S64x2 .f32 := broadcastInDim S64x2 ![] bcast_S_S64x2 main_cst_10
  let main_v31 : IVec S64x2 1 := cmpf .olt main_v29 main_v30
  let main_c_11 : IVec S_ 1 := constantI S_ 1 1#1
  let main_v32 : IVec S_ 1 := (fun x v => Host.reduce IntOp.andi x v reducesTo_S64x2_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S1280x32768 .f32) (main_arg1 : FVec F S1280x32768 .f32) (main_arg2 : IVec S1280 32) (main_arg3 : FVec F S32768x128 .f32) (main_arg4 : FVec F S128 .f32) (main_arg5 : FVec F S128x64 .f32) (main_arg6 : FVec F S64 .f32) (main_arg7 : FVec F S64x2 .f32) (main_arg8 : FVec F S2 .f32) (main_arg9 : FVec F S32768x128 .f32) (main_arg10 : FVec F S128 .f32) (main_arg11 : FVec F S128x32 .f32) (main_arg12 : FVec F S32 .f32) (main_arg13 : FVec F S32x3 .f32) (main_arg14 : FVec F S3 .f32) : IVec S_ 1 :=
  let main_v0 : FVec F S1280x32768 .f32 := Host.absf main_arg0
  let main_cst : FVec F S_ .f32 := constant S_ .f32 0x7F800000#32
  let main_v1 : FVec F S1280x32768 .f32 := broadcastInDim S1280x32768 ![] bcast_S_S1280x32768 main_cst
  let main_v2 : IVec S1280x32768 1 := cmpf .olt main_v0 main_v1
  let main_c : IVec S_ 1 := constantI S_ 1 1#1
  let main_v3 : IVec S_ 1 := (fun x v => Host.reduce IntOp.andi x v reducesTo_S1280x32768_S_d0_1 h_S_) main_v2 main_c
  let main_v4 : FVec F S1280x32768 .f32 := Host.absf main_arg1
  let main_cst_0 : FVec F S_ .f32 := constant S_ .f32 0x7F800000#32
  let main_v5 : FVec F S1280x32768 .f32 := broadcastInDim S1280x32768 ![] bcast_S_S1280x32768 main_cst_0
  let main_v6 : IVec S1280x32768 1 := cmpf .olt main_v4 main_v5
  let main_c_1 : IVec S_ 1 := constantI S_ 1 1#1
  let main_v7 : IVec S_ 1 := (fun x v => Host.reduce IntOp.andi x v reducesTo_S1280x32768_S_d0_1 h_S_) main_v6 main_c_1
  let main_v8 : IVec S_ 1 := andi main_v3 main_v7
  let main_v9 : FVec F S32768x128 .f32 := Host.absf main_arg3
  let main_cst_2 : FVec F S_ .f32 := constant S_ .f32 0x7F800000#32
  let main_v10 : FVec F S32768x128 .f32 := broadcastInDim S32768x128 ![] bcast_S_S32768x128 main_cst_2
  let main_v11 : IVec S32768x128 1 := cmpf .olt main_v9 main_v10
  let main_c_3 : IVec S_ 1 := constantI S_ 1 1#1
  let main_v12 : IVec S_ 1 := (fun x v => Host.reduce IntOp.andi x v reducesTo_S32768x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_v13 main_v16
-- ==== Kernel.lean ====
abbrev S1280x32768 : Shape := ⟨2, ![1280, 32768]⟩
abbrev S1280 : Shape := ⟨1, ![1280]⟩
abbrev S32768x128 : Shape := ⟨2, ![32768, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S128x32 : Shape := ⟨2, ![128, 32]⟩
abbrev S32 : Shape := ⟨1, ![32]⟩
abbrev S32x3 : Shape := ⟨2, ![32, 3]⟩
abbrev S3 : Shape := ⟨1, ![3]⟩
abbrev S2x5x128x128 : Shape := ⟨4, ![2, 5, 128, 128]⟩
abbrev S2x5x128 : Shape := ⟨3, ![2, 5, 128]⟩
abbrev S1280x1280 : Shape := ⟨2, ![1280, 1280]⟩
abbrev S1280x128 : Shape := ⟨2, ![1280, 128]⟩
abbrev S640x256 : Shape := ⟨2, ![640, 256]⟩
abbrev S1280x256 : Shape := ⟨2, ![1280, 256]⟩
abbrev S256x128 : Shape := ⟨2, ![256, 128]⟩
abbrev S1x5x128x128 : Shape := ⟨4, ![1, 5, 128, 128]⟩
abbrev S1x5x128 : Shape := ⟨3, ![1, 5, 128]⟩
abbrev S640x1280 : Shape := ⟨2, ![640, 1280]⟩
abbrev S640x128 : Shape := ⟨2, ![640, 128]⟩
abbrev S5x128x128 : Shape := ⟨3, ![5, 128, 128]⟩
abbrev S5x128 : Shape := ⟨2, ![5, 128]⟩
abbrev S5x128x256 : Shape := ⟨3, ![5, 128, 256]⟩
abbrev S256x1280 : Shape := ⟨2, ![256, 1280]⟩
abbrev S10x128x128 : Shape := ⟨3, ![10, 128, 128]⟩
abbrev S10x128 : Shape := ⟨2, ![10, 128]⟩
abbrev S10x128x1 : Shape := ⟨3, ![10, 128, 1]⟩
abbrev S10x1x128 : Shape := ⟨3, ![10, 1, 128]⟩
abbrev S_ : Shape := ⟨0, ![]⟩
abbrev S1280x1 : Shape := ⟨2, ![1280, 1]⟩
abbrev S1x1280 : Shape := ⟨2, ![1, 1280]⟩
abbrev S1x128 : Shape := ⟨2, ![1, 128]⟩
abbrev S1280x64 : Shape := ⟨2, ![1280, 64]⟩
abbrev S1x64 : Shape := ⟨2, ![1, 64]⟩
abbrev S1280x2 : Shape := ⟨2, ![1280, 2]⟩
abbrev S1x2 : Shape := ⟨2, ![1, 2]⟩
abbrev S2560x2 : Shape := ⟨2, ![2560, 2]⟩
abbrev S1280x32 : Shape := ⟨2, ![1280, 32]⟩
abbrev S1x32 : Shape := ⟨2, ![1, 32]⟩
abbrev S1280x3 : Shape := ⟨2, ![1280, 3]⟩
abbrev S1x3 : Shape := ⟨2, ![1, 3]⟩
abbrev S1280x1x1 : Shape := ⟨3, ![1280, 1, 1]⟩
abbrev S1 : Shape := ⟨1, ![1]⟩
abbrev S1x1x1 : Shape := ⟨3, ![1, 1, 1]⟩

abbrev nBuf : Space → Nat
  | .hbm => 265
  | .vmem => 32
  | .smem => 0
  | _ => 0

abbrev hbmTy0_0 (i : Nat) : BufTy := match i % 128 with
  | 0 => ⟨S1280x32768, .f32⟩
  | 1 => ⟨S1280x32768, .f32⟩
  | 2 => ⟨S1280, .i32⟩
  | 3 => ⟨S32768x128, .f32⟩
  | 4 => ⟨S128, .f32⟩
  | 5 => ⟨S128x64, .f32⟩
  | 6 => ⟨S64, .f32⟩
  | 7 => ⟨S64x2, .f32⟩
  | 8 => ⟨S2, .f32⟩
  | 9 => ⟨S32768x128, .f32⟩
  | 10 => ⟨S128, .f32⟩
  | 11 => ⟨S128x32, .f32⟩
  | 12 => ⟨S32, .f32⟩
  | 13 => ⟨S32x3, .f32⟩
  | 14 => ⟨S3, .f32⟩
  | 15 => ⟨S2x5x128x128, .f32⟩
  | 16 => ⟨S2x5x128x128, .f32⟩
  | 17 => ⟨S2x5x128, .f32⟩
  | 18 => ⟨S2x5x128, .f32⟩
  | 19 => ⟨S1280x1280, .f32⟩
  | 20 => ⟨S1280x128, .f32⟩
  | 21 => ⟨S1280x128, .f32⟩
  | 22 => ⟨S1280x128, .f32⟩
  | 23 => ⟨S10x128x128, .f32⟩
  | 24 => ⟨S10x128x128, .f32⟩
  | 25 => ⟨S10x128, .f32⟩
  | 26 => ⟨S10x128, .f32⟩
  | 27 => ⟨S10x128x128, .i32⟩
  | 28 => ⟨S10x128x128, .i32⟩
  | 29 => ⟨S10x128x128, .i1⟩
  | 30 => ⟨S10x128x1, .f32⟩
  | 31 => ⟨S10x1x128, .f32⟩
  | 32 => ⟨S10x128x128, .f32⟩
  | 33 => ⟨S10x128x128, .f32⟩
  | 34 => ⟨S10x128x128, .f32⟩
  | 35 => ⟨S_, .f32⟩
  | 36 => ⟨S10x128x128, .f32⟩
  | 37 => ⟨S10x128x128, .f32⟩
  | 38 => ⟨S10x128x128, .f32⟩
  | 39 => ⟨S_, .f32⟩
  | 40 => ⟨S_, .f32⟩
  | 41 => ⟨S10x128x128, .f32⟩
  | 42 => ⟨S10x128x128, .f32⟩
  | 43 => ⟨S10x128x128, .f32⟩
  | 44 => ⟨S_, .f32⟩
  | 45 => ⟨S10x128x128, .f32⟩
  | 46 => ⟨S10x128x128, .f32⟩
  | 47 => ⟨S10x128x128, .f32⟩
  | 48 => ⟨S10x128x128, .i32⟩
  | 49 => ⟨S10x128x128, .i32⟩
  | 50 => ⟨S10x128x128, .i1⟩
  | 51 => ⟨S10x128x1, .f32⟩
  | 52 => ⟨S10x1x128, .f32⟩
  | 53 => ⟨S10x128x128, .f32⟩
  | 54 => ⟨S10x128x128, .f32⟩
  | 55 => ⟨S10x128x128, .f32⟩
  | 56 => ⟨S_, .f32⟩
  | 57 => ⟨S10x128x128, .f32⟩
  | 58 => ⟨S10x128x128, .f32⟩
  | 59 => ⟨S10x128x128, .f32⟩
  | 60 => ⟨S_, .f32⟩
  | 61 => ⟨S_, .f32⟩
  | 62 => ⟨S10x128x128, .f32⟩
  | 63 => ⟨S10x128x128, .f32⟩
  | 64 => ⟨S10x128x128, .f32⟩
  | 65 => ⟨S_, .f32⟩
  | 66 => ⟨S10x128x128, .f32⟩
  | 67 => ⟨S10x128x128, .f32⟩
  | 68 => ⟨S10x128x128, .f32⟩
  | 69 => ⟨S1280, .f32⟩
  | 70 => ⟨S1280, .f32⟩
  | 71 => ⟨S1280x1, .f32⟩
  | 72 => ⟨S1x1280, .f32⟩
  | 73 => ⟨S1280x1280, .f32⟩
  | 74 => ⟨S1280x1280, .f32⟩
  | 75 => ⟨S1280x1280, .f32⟩
  | 76 => ⟨S_, .f32⟩
  | 77 => ⟨S1280x1280, .f32⟩
  | 78 => ⟨S1280x1280, .f32⟩
  | 79 => ⟨S1280x1280, .f32⟩
  | 80 => ⟨S1280x1280, .f32⟩
  | 81 => ⟨S_, .f32⟩
  | 82 => ⟨S1280x1280, .f32⟩
  | 83 => ⟨S1280x1280, .f32⟩
  | 84 => ⟨S1280x1280, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S1x128, .f32⟩
  | 102 => ⟨S1280x128, .f32⟩
  | 103 => ⟨S1280x128, .f32⟩
  | 104 => ⟨S_, .f32⟩
  | 105 => ⟨S1280x128, .f32⟩
  | 106 => ⟨S1280x128, .f32⟩
  | 107 => ⟨S1x128, .f32⟩
  | 108 => ⟨S1280x128, .f32⟩
  | 109 => ⟨S1280x128, .f32⟩
  | 110 => ⟨S_, .f32⟩
  | 111 => ⟨S1280x128, .f32⟩
  | 112 => ⟨S1280x128, .f32⟩
  | 113 => ⟨S1280x64, .f32⟩
  | 114 => ⟨S1x64, .f32⟩
  | 115 => ⟨S1280x64, .f32⟩
  | 116 => ⟨S1280x64, .f32⟩
  | 117 => ⟨S_, .f32⟩
  | 118 => ⟨S1280x64, .f32⟩
  | 119 => ⟨S1280x64, .f32⟩
  | 120 => ⟨S1280x64, .f32⟩
  | 121 => ⟨S1x64, .f32⟩
  | 122 => ⟨S1280x64, .f32⟩
  | 123 => ⟨S1280x64, .f32⟩
  | 124 => ⟨S_, .f32⟩
  | 125 => ⟨S1280x64, .f32⟩
  | 126 => ⟨S1280x64, .f32⟩
  | 127 => ⟨S1280x2, .f32⟩
  | _ => ⟨S1280x32768, .f32⟩

abbrev hbmTy0_1 (i : Nat) : BufTy := match i % 128 with
  | 0 => ⟨S1x2, .f32⟩
  | 1 => ⟨S1280x2, .f32⟩
  | 2 => ⟨S1280x2, .f32⟩
  | 3 => ⟨S1280x2, .f32⟩
  | 4 => ⟨S1280x2, .f32⟩
  | 5 => ⟨S_, .f32⟩
  | 6 => ⟨S1280x2, .f32⟩
  | 7 => ⟨S1280x2, .f32⟩
  | 8 => ⟨S_, .f32⟩
  | 9 => ⟨S1280x2, .f32⟩
  | 10 => ⟨S1280x2, .f32⟩
  | 11 => ⟨S1280x2, .f32⟩
  | 12 => ⟨S1x2, .f32⟩
  | 13 => ⟨S1280x2, .f32⟩
  | 14 => ⟨S1280x2, .f32⟩
  | 15 => ⟨S1280x2, .f32⟩
  | 16 => ⟨S1280x2, .f32⟩
  | 17 => ⟨S_, .f32⟩
  | 18 => ⟨S1280x2, .f32⟩
  | 19 => ⟨S1280x2, .f32⟩
  | 20 => ⟨S_, .f32⟩
  | 21 => ⟨S1280x2, .f32⟩
  | 22 => ⟨S1280x2, .f32⟩
  | 23 => ⟨S_, .f32⟩
  | 24 => ⟨S1280x2, .f32⟩
  | 25 => ⟨S1280x2, .f32⟩
  | 26 => ⟨S1280x2, .f32⟩
  | 27 => ⟨S1280x2, .f32⟩
  | 28 => ⟨S1280x2, .i1⟩
  | 29 => ⟨S1280x2, .f32⟩
  | 30 => ⟨S1280x2, .f32⟩
  | 31 => ⟨S1280x2, .f32⟩
  | 32 => ⟨S1280x2, .f32⟩
  | 33 => ⟨S1280x2, .f32⟩
  | 34 => ⟨S1280x2, .f32⟩
  | 35 => ⟨S1280x2, .f32⟩
  | 36 => ⟨S1280x2, .f32⟩
  | 37 => ⟨S_, .f32⟩
  | 38 => ⟨S1280x2, .f32⟩
  | 39 => ⟨S1280x2, .f32⟩
  | 40 => ⟨S1280x2, .f32⟩
  | 41 => ⟨S1280x2, .f32⟩
  | 42 => ⟨S1280x2, .i1⟩
  | 43 => ⟨S1280x2, .f32⟩
  | 44 => ⟨S1280x2, .f32⟩
  | 45 => ⟨S1280x2, .f32⟩
  | 46 => ⟨S1280x2, .f32⟩
  | 47 => ⟨S1280x2, .f32⟩
  | 48 => ⟨S1280x2, .f32⟩
  | 49 => ⟨S1280x2, .f32⟩
  | 50 => ⟨S1280x2, .f32⟩
  | 51 => ⟨S2560x2, .f32⟩
  | 52 => ⟨S_, .f32⟩
  | 53 => ⟨S_, .f32⟩
  | 54 => ⟨S_, .f32⟩
  | 55 => ⟨S_, .f32⟩
  | 56 => ⟨S1x128, .f32⟩
  | 57 => ⟨S1280x128, .f32⟩
  | 58 => ⟨S1280x128, .f32⟩
  | 59 => ⟨S1280x32, .f32⟩
  | 60 => ⟨S1x32, .f32⟩
  | 61 => ⟨S1280x32, .f32⟩
  | 62 => ⟨S1280x32, .f32⟩
  | 63 => ⟨S1280x3, .f32⟩
  | 64 => ⟨S1x3, .f32⟩
  | 65 => ⟨S1280x3, .f32⟩
  | 66 => ⟨S1280x3, .f32⟩
  | 67 => ⟨S_, .f32⟩
  | 68 => ⟨S1280, .f32⟩
  | 69 => ⟨S_, .f32⟩
  | 70 => ⟨S1280, .f32⟩
  | 71 => ⟨S1280, .f32⟩
  | 72 => ⟨S1280x1, .f32⟩
  | 73 => ⟨S1280x3, .f32⟩
  | 74 => ⟨S1280x3, .f32⟩
  | 75 => ⟨S1280x3, .f32⟩
  | 76 => ⟨S_, .f32⟩
  | 77 => ⟨S1280, .f32⟩
  | 78 => ⟨S1280x1, .f32⟩
  | 79 => ⟨S1280x1, .f32⟩
  | 80 => ⟨S1280x3, .f32⟩
  | 81 => ⟨S1280x3, .f32⟩
  | 82 => ⟨S1280x1, .i32⟩
  | 83 => ⟨S_, .i32⟩
  | 84 => ⟨S1280x1, .i32⟩
  | 85 => ⟨S1280x1, .i1⟩
  | 86 => ⟨S_, .i32⟩
  | 87 => ⟨S1280x1, .i32⟩
  | 88 => ⟨S1280x1, .i32⟩
  | 89 => ⟨S1280x1, .i32⟩
  | 90 => ⟨S1280x1x1, .i32⟩
  | 91 => ⟨S1, .i32⟩
  | 92 => ⟨S_, .i32⟩
  | 93 => ⟨S1280x1x1, .i32⟩
  | 94 => ⟨S1280x1x1, .i1⟩
  | 95 => ⟨S1x1x1, .i32⟩
  | 96 => ⟨S1280x1x1, .i32⟩
  | 97 => ⟨S1280x1x1, .i1⟩
  | 98 => ⟨S1280x1x1, .i1⟩
  | 99 => ⟨S_, .i1⟩
  | 100 => ⟨S1280x1, .i1⟩
  | 101 => ⟨S1280x1, .f32⟩
  | 102 => ⟨S_, .f32⟩
  | 103 => ⟨S1280x1, .f32⟩
  | 104 => ⟨S1280x1, .f32⟩
  | 105 => ⟨S_, .f32⟩
  | 106 => ⟨S_, .f32⟩
  | 107 => ⟨S_, .f32⟩
  | 108 => ⟨S_, .f32⟩
  | 109 => ⟨S_, .f32⟩
  | 110 => ⟨S32768x128, .f32⟩
  | 111 => ⟨S_, .f32⟩
  | 112 => ⟨S_, .f32⟩
  | 113 => ⟨S128, .f32⟩
  | 114 => ⟨S_, .f32⟩
  | 115 => ⟨S_, .f32⟩
  | 116 => ⟨S_, .f32⟩
  | 117 => ⟨S128x32, .f32⟩
  | 118 => ⟨S_, .f32⟩
  | 119 => ⟨S_, .f32⟩
  | 120 => ⟨S_, .f32⟩
  | 121 => ⟨S32, .f32⟩
  | 122 => ⟨S_, .f32⟩
  | 123 => ⟨S_, .f32⟩
  | 124 => ⟨S_, .f32⟩
  | 125 => ⟨S32x3, .f32⟩
  | 126 => ⟨S_, .f32⟩
  | 127 => ⟨S_, .f32⟩
  | _ => ⟨S1280x32768, .f32⟩

abbrev hbmTy0_2 (i : Nat) : BufTy := match i % 128 with
  | 0 => ⟨S_, .f32⟩
  | 1 => ⟨S3, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | _ => ⟨S1280x32768, .f32⟩

abbrev hbmTy (i : Nat) : BufTy := match i / 128 with
  | 0 => hbmTy0_0 i
  | 1 => hbmTy0_1 i
  | 2 => hbmTy0_2 i
  | _ => ⟨S1280x32768, .f32⟩

abbrev bufTy : (tb : Table) → Fin (tcTables nBuf tb) → BufTy
  | .hbm, ⟨i, _⟩ => hbmTy i
  | .local _ .vmem, ⟨0, _⟩ => ⟨S640x256, .f32⟩
  | .local _ .vmem, ⟨1, _⟩ => ⟨S640x256, .f32⟩
  | .local _ .vmem, ⟨2, _⟩ => ⟨S1280x256, .f32⟩
  | .local _ .vmem, ⟨3, _⟩ => ⟨S1280x256, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S1x5x128x128, .f32⟩
  | .local _ .vmem, ⟨9, _⟩ => ⟨S1x5x128x128, .f32⟩
  | .local _ .vmem, ⟨10, _⟩ => ⟨S1x5x128x128, .f32⟩
  | .local _ .vmem, ⟨11, _⟩ => ⟨S1x5x128x128, .f32⟩
  | .local _ .vmem, ⟨12, _⟩ => ⟨S1x5x128, .f32⟩
  | .local _ .vmem, ⟨13, _⟩ => ⟨S1x5x128, .f32⟩
  | .local _ .vmem, ⟨14, _⟩ => ⟨S1x5x128, .f32⟩
  | .local _ .vmem, ⟨15, _⟩ => ⟨S1x5x128, .f32⟩
  | .local _ .vmem, ⟨16, _⟩ => ⟨S640x1280, .f32⟩
  | .local _ .vmem, ⟨17, _⟩ => ⟨S640x1280, .f32⟩
  | .local _ .vmem, ⟨18, _⟩ => ⟨S640x128, .f32⟩
  | .local _ .vmem, ⟨19, _⟩ => ⟨S640x128, .f32⟩
  | .local _ .vmem, ⟨20, _⟩ => ⟨S640x128, .f32⟩
  | .local _ .vmem, ⟨21, _⟩ => ⟨S640x128, .f32⟩
  | .local _ .vmem, ⟨22, _⟩ => ⟨S640x128, .f32⟩
  | .local _ .vmem, ⟨23, _⟩ => ⟨S640x128, .f32⟩
  | .local _ .vmem, ⟨24, _⟩ => ⟨S5x128x128, .f32⟩
  | .local _ .vmem, ⟨25, _⟩ => ⟨S5x128x128, .f32⟩
  | .local _ .vmem, ⟨26, _⟩ => ⟨S5x128, .f32⟩
  | .local _ .vmem, ⟨27, _⟩ => ⟨S5x128, .f32⟩
  | .local _ .vmem, ⟨28, _⟩ => ⟨S640x1280, .f32⟩
  | .local _ .vmem, ⟨29, _⟩ => ⟨S640x128, .f32⟩
  | .local _ .vmem, ⟨30, _⟩ => ⟨S640x128, .f32⟩
  | .local _ .vmem, ⟨31, _⟩ => ⟨S640x128, .f32⟩
  | _, _ => ⟨S1280x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev main_v0_2 : Ref sig .tc := ⟨.hbm, 17, rfl⟩
abbrev main_v0_3 : Ref sig .tc := ⟨.hbm, 18, rfl⟩
abbrev main_v0_4 : Ref sig .tc := ⟨.hbm, 19, rfl⟩
abbrev main_v0_5 : Ref sig .tc := ⟨.hbm, 20, rfl⟩
abbrev main_v0_6 : Ref sig .tc := ⟨.hbm, 21, rfl⟩
abbrev main_v0_7 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst_0 : Ref sig .tc := ⟨.hbm, 39, rfl⟩
abbrev main_call0_v0 : Ref sig .tc := ⟨.hbm, 40, rfl⟩
abbrev main_call0_v1 : Ref sig .tc := ⟨.hbm, 41, rfl⟩
abbrev main_v16 : Ref sig .tc := ⟨.hbm, 42, rfl⟩
abbrev main_v17 : Ref sig .tc := ⟨.hbm, 43, rfl⟩
abbrev main_cst_1 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_2 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_3 : Ref sig .tc := ⟨.hbm, 60, rfl⟩
abbrev main_call1_v0 : Ref sig .tc := ⟨.hbm, 61, rfl⟩
abbrev main_call1_v1 : Ref sig .tc := ⟨.hbm, 62, rfl⟩
abbrev main_v32 : Ref sig .tc := ⟨.hbm, 63, rfl⟩
abbrev main_v33 : Ref sig .tc := ⟨.hbm, 64, rfl⟩
abbrev main_cst_4 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_cst_5 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_6 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_cst_7 : Ref sig .tc := ⟨.hbm, 85, rfl⟩
abbrev main_v51 : Ref sig .tc := ⟨.hbm, 86, rfl⟩
abbrev main_cst_8 : Ref sig .tc := ⟨.hbm, 87, rfl⟩
abbrev main_v52 : Ref sig .tc := ⟨.hbm, 88, rfl⟩
abbrev main_cst_9 : Ref sig .tc := ⟨.hbm, 89, rfl⟩
abbrev main_v53 : Ref sig .tc := ⟨.hbm, 90, rfl⟩
abbrev main_cst_10 : Ref sig .tc := ⟨.hbm, 91, rfl⟩
abbrev main_v54 : Ref sig .tc := ⟨.hbm, 92, rfl⟩
abbrev main_v55 : Ref sig .tc := ⟨.hbm, 93, rfl⟩
abbrev main_cst_11 : Ref sig .tc := ⟨.hbm, 94, rfl⟩
abbrev main_v56 : Ref sig .tc := ⟨.hbm, 95, rfl⟩
abbrev main_cst_12 : Ref sig .tc := ⟨.hbm, 96, rfl⟩
abbrev main_v57 : Ref sig .tc := ⟨.hbm, 97, rfl⟩
abbrev main_v58 : Ref sig .tc := ⟨.hbm, 98, rfl⟩
abbrev main_cst_13 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_call2_cst : Ref sig .tc := ⟨.hbm, 104, rfl⟩
abbrev main_call2_v0 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_call3_cst : Ref sig .tc := ⟨.hbm, 110, rfl⟩
abbrev main_call3_v0 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_call4_cst : Ref sig .tc := ⟨.hbm, 117, rfl⟩
abbrev main_call4_v0 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_call5_cst : Ref sig .tc := ⟨.hbm, 124, rfl⟩
abbrev main_call5_v0 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_cst_14 : Ref sig .tc := ⟨.hbm, 133, rfl⟩
abbrev main_v84 : Ref sig .tc := ⟨.hbm, 134, rfl⟩
abbrev main_v85 : Ref sig .tc := ⟨.hbm, 135, rfl⟩
abbrev main_cst_15 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_16 : Ref sig .tc := ⟨.hbm, 145, rfl⟩
abbrev main_v94 : Ref sig .tc := ⟨.hbm, 146, rfl⟩
abbrev main_v95 : Ref sig .tc := ⟨.hbm, 147, rfl⟩
abbrev main_cst_17 : Ref sig .tc := ⟨.hbm, 148, rfl⟩
abbrev main_v96 : Ref sig .tc := ⟨.hbm, 149, rfl⟩
abbrev main_v97 : Ref sig .tc := ⟨.hbm, 150, rfl⟩
abbrev main_call6_cst : Ref sig .tc := ⟨.hbm, 151, rfl⟩
abbrev main_call6_v0 : Ref sig .tc := ⟨.hbm, 152, rfl⟩
abbrev main_call6_v1 : Ref sig .tc := ⟨.hbm, 153, rfl⟩
abbrev main_call6_v2 : Ref sig .tc := ⟨.hbm, 154, rfl⟩
abbrev main_call6_v3 : Ref sig .tc := ⟨.hbm, 155, rfl⟩
abbrev main_call6_v4 : Ref sig .tc := ⟨.hbm, 156, rfl⟩
abbrev main_call6_v5 : Ref sig .tc := ⟨.hbm, 157, rfl⟩
abbrev main_call6_v6 : Ref sig .tc := ⟨.hbm, 158, rfl⟩
abbrev main_call6_v7 : Ref sig .tc := ⟨.hbm, 159, rfl⟩
abbrev main_call6_v8 : Ref sig .tc := ⟨.hbm, 160, rfl⟩
abbrev main_call6_v9 : Ref sig .tc := ⟨.hbm, 161, rfl⟩
abbrev main_call6_v10 : Ref sig .tc := ⟨.hbm, 162, rfl⟩
abbrev main_call6_v11 : Ref sig .tc := ⟨.hbm, 163, rfl⟩
abbrev main_v98 : Ref sig .tc := ⟨.hbm, 164, rfl⟩
abbrev main_call7_cst : Ref sig .tc := ⟨.hbm, 165, rfl⟩
abbrev main_call7_v0 : Ref sig .tc := ⟨.hbm, 166, rfl⟩
abbrev main_call7_v1 : Ref sig .tc := ⟨.hbm, 167, rfl⟩
abbrev main_call7_v2 : Ref sig .tc := ⟨.hbm, 168, rfl⟩
abbrev main_call7_v3 : Ref sig .tc := ⟨.hbm, 169, rfl⟩
abbrev main_call7_v4 : Ref sig .tc := ⟨.hbm, 170, rfl⟩
abbrev main_call7_v5 : Ref sig .tc := ⟨.hbm, 171, rfl⟩
abbrev main_call7_v6 : Ref sig .tc := ⟨.hbm, 172, rfl⟩
abbrev main_call7_v7 : Ref sig .tc := ⟨.hbm, 173, rfl⟩
abbrev main_call7_v8 : Ref sig .tc := ⟨.hbm, 174, rfl⟩
abbrev main_call7_v9 : Ref sig .tc := ⟨.hbm, 175, rfl⟩
abbrev main_call7_v10 : Ref sig .tc := ⟨.hbm, 176, rfl⟩
abbrev main_call7_v11 : Ref sig .tc := ⟨.hbm, 177, rfl⟩
abbrev main_v99 : Ref sig .tc := ⟨.hbm, 178, rfl⟩
abbrev main_v100 : Ref sig .tc := ⟨.hbm, 179, rfl⟩
abbrev main_cst_18 : Ref sig .tc := ⟨.hbm, 180, rfl⟩
abbrev main_v101 : Ref sig .tc := ⟨.hbm, 181, rfl⟩
abbrev main_cst_19 : Ref sig .tc := ⟨.hbm, 182, rfl⟩
abbrev main_v102 : Ref sig .tc := ⟨.hbm, 183, rfl⟩
abbrev main_v103 : Ref sig .tc := ⟨.hbm, 184, rfl⟩
abbrev main_v104 : Ref sig .tc := ⟨.hbm, 185, rfl⟩
abbrev main_v105 : Ref sig .tc := ⟨.hbm, 186, rfl⟩
abbrev main_v106 : Ref sig .tc := ⟨.hbm, 187, rfl⟩
abbrev main_v107 : Ref sig .tc := ⟨.hbm, 188, rfl⟩
abbrev main_v108 : Ref sig .tc := ⟨.hbm, 189, rfl⟩
abbrev main_v109 : Ref sig .tc := ⟨.hbm, 190, rfl⟩
abbrev main_v110 : Ref sig .tc := ⟨.hbm, 191, rfl⟩
abbrev main_v111 : Ref sig .tc := ⟨.hbm, 192, rfl⟩
abbrev main_v112 : Ref sig .tc := ⟨.hbm, 193, rfl⟩
abbrev main_v113 : Ref sig .tc := ⟨.hbm, 194, rfl⟩
abbrev main_call8_cst : Ref sig .tc := ⟨.hbm, 195, rfl⟩
abbrev main_call8_v0 : Ref sig .tc := ⟨.hbm, 196, rfl⟩
abbrev main_call8_cst_0 : Ref sig .tc := ⟨.hbm, 197, rfl⟩
abbrev main_call8_v1 : Ref sig .tc := ⟨.hbm, 198, rfl⟩
abbrev main_call8_v2 : Ref sig .tc := ⟨.hbm, 199, rfl⟩
abbrev main_call8_v3 : Ref sig .tc := ⟨.hbm, 200, rfl⟩
abbrev main_call8_v4 : Ref sig .tc := ⟨.hbm, 201, rfl⟩
abbrev main_call8_v5 : Ref sig .tc := ⟨.hbm, 202, rfl⟩
abbrev main_call8_v6 : Ref sig .tc := ⟨.hbm, 203, rfl⟩
abbrev main_call8_cst_1 : Ref sig .tc := ⟨.hbm, 204, rfl⟩
abbrev main_call8_v7 : Ref sig .tc := ⟨.hbm, 205, rfl⟩
abbrev main_call8_v8 : Ref sig .tc := ⟨.hbm, 206, rfl⟩
abbrev main_call8_v9 : Ref sig .tc := ⟨.hbm, 207, rfl⟩
abbrev main_call8_v10 : Ref sig .tc := ⟨.hbm, 208, rfl⟩
abbrev main_v114 : Ref sig .tc := ⟨.hbm, 209, rfl⟩
abbrev main_v115 : Ref sig .tc := ⟨.hbm, 210, rfl⟩
abbrev main_call9_c : Ref sig .tc := ⟨.hbm, 211, rfl⟩
abbrev main_call9_v0 : Ref sig .tc := ⟨.hbm, 212, rfl⟩
abbrev main_call9_v1 : Ref sig .tc := ⟨.hbm, 213, rfl⟩
abbrev main_call9_c_0 : Ref sig .tc := ⟨.hbm, 214, rfl⟩
abbrev main_call9_v2 : Ref sig .tc := ⟨.hbm, 215, rfl⟩
abbrev main_call9_v3 : Ref sig .tc := ⟨.hbm, 216, rfl⟩
abbrev main_call9_v4 : Ref sig .tc := ⟨.hbm, 217, rfl⟩
abbrev main_call9_v5 : Ref sig .tc := ⟨.hbm, 218, rfl⟩
abbrev main_call9_c_1 : Ref sig .tc := ⟨.hbm, 219, rfl⟩
abbrev main_call9_c_2 : Ref sig .tc := ⟨.hbm, 220, rfl⟩
abbrev main_call9_v6 : Ref sig .tc := ⟨.hbm, 221, rfl⟩
abbrev main_call9_v7 : Ref sig .tc := ⟨.hbm, 222, rfl⟩
abbrev main_call9_v8 : Ref sig .tc := ⟨.hbm, 223, rfl⟩
abbrev main_call9_v9 : Ref sig .tc := ⟨.hbm, 224, rfl⟩
abbrev main_call9_v10 : Ref sig .tc := ⟨.hbm, 225, rfl⟩
abbrev main_call9_v11 : Ref sig .tc := ⟨.hbm, 226, rfl⟩
abbrev main_call9_c_3 : Ref sig .tc := ⟨.hbm, 227, rfl⟩
abbrev main_call9_v12 : Ref sig .tc := ⟨.hbm, 228, rfl⟩
abbrev main_call9_v13 : Ref sig .tc := ⟨.hbm, 229, rfl⟩
abbrev main_call9_cst : Ref sig .tc := ⟨.hbm, 230, rfl⟩
abbrev main_call9_v14 : Ref sig .tc := ⟨.hbm, 231, rfl⟩
abbrev main_v116 : Ref sig .tc := ⟨.hbm, 232, rfl⟩
abbrev main_cst_20 : Ref sig .tc := ⟨.hbm, 233, rfl⟩
abbrev main_v117 : Ref sig .tc := ⟨.hbm, 234, rfl⟩
abbrev main_cst_21 : Ref sig .tc := ⟨.hbm, 235, rfl⟩
abbrev main_v118 : Ref sig .tc := ⟨.hbm, 236, rfl⟩
abbrev main_v119 : Ref sig .tc := ⟨.hbm, 237, rfl⟩
abbrev main_v120 : Ref sig .tc := ⟨.hbm, 238, rfl⟩
abbrev main_cst_22 : Ref sig .tc := ⟨.hbm, 239, rfl⟩
abbrev main_v121 : Ref sig .tc := ⟨.hbm, 240, rfl⟩
abbrev main_v122 : Ref sig .tc := ⟨.hbm, 241, rfl⟩
abbrev main_cst_23 : Ref sig .tc := ⟨.hbm, 242, rfl⟩
abbrev main_v123 : Ref sig .tc := ⟨.hbm, 243, rfl⟩
abbrev main_v124 : Ref sig .tc := ⟨.hbm, 244, rfl⟩
abbrev main_v125 : Ref sig .tc := ⟨.hbm, 245, rfl⟩
abbrev main_cst_24 : Ref sig .tc := ⟨.hbm, 246, rfl⟩
abbrev main_v126 : Ref sig .tc := ⟨.hbm, 247, rfl⟩
abbrev main_v127 : Ref sig .tc := ⟨.hbm, 248, rfl⟩
abbrev main_v128 : Ref sig .tc := ⟨.hbm, 249, rfl⟩
abbrev main_cst_25 : Ref sig .tc := ⟨.hbm, 250, rfl⟩
abbrev main_v129 : Ref sig .tc := ⟨.hbm, 251, rfl⟩
abbrev main_v130 : Ref sig .tc := ⟨.hbm, 252, rfl⟩
abbrev main_v131 : Ref sig .tc := ⟨.hbm, 253, rfl⟩
abbrev main_cst_26 : Ref sig .tc := ⟨.hbm, 254, rfl⟩
abbrev main_v132 : Ref sig .tc := ⟨.hbm, 255, rfl⟩
abbrev main_v133 : Ref sig .tc := ⟨.hbm, 256, rfl⟩
abbrev main_v134 : Ref sig .tc := ⟨.hbm, 257, rfl⟩
abbrev main_cst_27 : Ref sig .tc := ⟨.hbm, 258, rfl⟩
abbrev main_v135 : Ref sig .tc := ⟨.hbm, 259, rfl⟩
abbrev main_v136 : Ref sig .tc := ⟨.hbm, 260, rfl⟩
abbrev main_cst_28 : Ref sig .tc := ⟨.hbm, 261, rfl⟩
abbrev main_v137 : Ref sig .tc := ⟨.hbm, 262, rfl⟩
abbrev main_v138 : Ref sig .tc := ⟨.hbm, 263, rfl⟩
abbrev main_v139 : Ref sig .tc := ⟨.hbm, 264, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_scratch7 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![2, 128], ![false, false]⟩

def k0_mult1 (i : grid0.Coords) : BitVec 32 :=
  let arg0 : BitVec 32 := BitVec.ofNat 32 (i 0).val
  let c640_i32 : BitVec 32 := 640#32
  let v3 : BitVec 32 := Scalar.muli arg0 c640_i32
  v3
def k0_off1 (i : grid0.Coords) : Fin 2 → Nat :=
  let arg0 : BitVec 32 := BitVec.ofNat 32 (i 0).val
  let c640_i32 : BitVec 32 := 640#32
  let v3 : BitVec 32 := Scalar.muli arg0 c640_i32
  let v4 : BitVec 32 := v3
  let v7 : Index := Scalar.indexCast v4
  let c0_4 : Index := 0#32
  ![v7.toNat, 0]
def k0_cond2 (i : grid0.Coords) : BitVec 1 :=
  let arg1 : BitVec 32 := BitVec.ofNat 32 (i 1).val
  let c127_i32 : BitVec 32 := 127#32
  let v71 : BitVec 1 := Scalar.cmpi .eq arg1 c127_i32
  let v72 : BitVec 32 := Scalar.extui v71
  let c0_i32_52 : BitVec 32 := 0#32
  let v73 : BitVec 1 := Scalar.cmpi .ne v72 c0_i32_52
  v73

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S640x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1280x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x5x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x5x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x5x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x5x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S640x1280 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S640x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S640x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S640x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

class Facts₀ : Prop where
  inb_S5x128x128_S5x128x128_0_0_0 : ∀ a, (![0, 0, 0] : Fin 3 → Nat) a + S5x128x128.size a ≤ S5x128x128.size a
  h_S5x128x128 : 0 < S5x128x128.numel
  shapeCasts_S5x128x128_S5x128x128 : S5x128x128.ShapeCasts S5x128x128
  inb_S5x128_S5x128_0_0 : ∀ a, (![0, 0] : Fin 2 → Nat) a + S5x128.size a ≤ S5x128.size a
  h_S5x128 : 0 < S5x128.numel
  shapeCasts_S5x128_S5x128 : S5x128.ShapeCasts S5x128
  inb_S640x1280_S640x1280_0_0 : ∀ a, (![0, 0] : Fin 2 → Nat) a + S640x1280.size a ≤ S640x1280.size a
  h_S640x1280 : 0 < S640x1280.numel
  shapeCasts_S640x1280_S640x1280 : S640x1280.ShapeCasts S640x1280
  inb_S640x128_S640x128_0_0 : ∀ a, (![0, 0] : Fin 2 → Nat) a + S640x128.size a ≤ S640x128.size a
  h_S640x128 : 0 < S640x128.numel
  shapeCasts_S640x128_S640x128 : S640x128.ShapeCasts S640x128
  inb_S640x256_S640x256_0_0 : ∀ a, (![0, 0] : Fin 2 → Nat) a + S640x256.size a ≤ S640x256.size a
  h_S640x256 : 0 < S640x256.numel
  inb_S1280x256_S1280x256_0_0 : ∀ a, (![0, 0] : Fin 2 → Nat) a + S1280x256.size a ≤ S1280x256.size a
  h_S1280x256 : 0 < S1280x256.numel
  inb_S256x128_S256x128_0_0 : ∀ a, (![0, 0] : Fin 2 → Nat) a + S256x128.size a ≤ S256x128.size a
  h_S256x128 : 0 < S256x128.numel
  bitsLt_bf16_f32 : FTy.bits .bf16 < FTy.bits .f32
  shapeCasts_S640x256_S5x128x256 : S640x256.ShapeCasts S5x128x256
  reduces_S5x128x256_S5x128 : S5x128x256.Reduces [2] S5x128
  transposes_S1280x256_p1_0_S256x1280 : S1280x256.Transposes [1, 0] S256x1280
  inb_S1x5x128x128_S1x5x128x128_0_0_0_0 : ∀ a, (![0, 0, 0, 0] : Fin 4 → Nat) a + S1x5x128x128.size a ≤ S1x5x128x128.size a
  h_S1x5x128x128 : 0 < S1x5x128x128.numel
  shapeCasts_S1x5x128x128_S5x128x128 : S1x5x128x128.ShapeCasts S5x128x128
  shapeCasts_S5x128x128_S1x5x128x128 : S5x128x128.ShapeCasts S1x5x128x128
  inb_S1x5x128_S1x5x128_0_0_0 : ∀ a, (![0, 0, 0] : Fin 3 → Nat) a + S1x5x128.size a ≤ S1x5x128.size a
  h_S1x5x128 : 0 < S1x5x128.numel
  shapeCasts_S1x5x128_S5x128 : S1x5x128.ShapeCasts S5x128
  shapeCasts_S5x128_S1x5x128 : S5x128.ShapeCasts S1x5x128
  shapeCasts_S2x5x128x128_S10x128x128 : S2x5x128x128.ShapeCasts S10x128x128
  shapeCasts_S2x5x128_S10x128 : S2x5x128.ShapeCasts S10x128
  bcast_S10x128_S10x128x1_0_1 : S10x128.BroadcastsInDim S10x128x1 (![0, 1] : Fin 2 → Fin S10x128x1.rank)
  bcast_S10x128_S10x1x128_0_2 : S10x128.BroadcastsInDim S10x1x128 (![0, 2] : Fin 2 → Fin S10x1x128.rank)
  bcast_S10x128x1_S10x128x128_0_1_2 : S10x128x1.BroadcastsInDim S10x128x128 (![0, 1, 2] : Fin 3 → Fin S10x128x128.rank)
  bcast_S10x1x128_S10x128x128_0_1_2 : S10x1x128.BroadcastsInDim S10x128x128 (![0, 1, 2] : Fin 3 → Fin S10x128x128.rank)
  bcast_S_S10x128x128 : S_.BroadcastsInDim S10x128x128 (![] : Fin 0 → Fin S10x128x128.rank)
  shapeCasts_S10x128_S1280 : S10x128.ShapeCasts S1280
  bcast_S1280_S1280x1_0 : S1280.BroadcastsInDim S1280x1 (![0] : Fin 1 → Fin S1280x1.rank)
  bcast_S1280_S1x1280_1 : S1280.BroadcastsInDim S1x1280 (![1] : Fin 1 → Fin S1x1280.rank)
  bcast_S1280x1_S1280x1280_0_1 : S1280x1.BroadcastsInDim S1280x1280 (![0, 1] : Fin 2 → Fin S1280x1280.rank)
  bcast_S1x1280_S1280x1280_0_1 : S1x1280.BroadcastsInDim S1280x1280 (![0, 1] : Fin 2 → Fin S1280x1280.rank)
  bcast_S_S1280x1280 : S_.BroadcastsInDim S1280x1280 (![] : Fin 0 → Fin S1280x1280.rank)
  reducesTo_S10x128x128_S_d0_1_2 : S10x128x128.ReducesTo [0, 1, 2] S_
  h_S_ : 0 < S_.numel
  reducesTo_S1280x1280_S_d0_1 : S1280x1280.ReducesTo [0, 1] S_
  bcast_S128_S1x128_1 : S128.BroadcastsInDim S1x128 (![1] : Fin 1 → Fin S1x128.rank)
  bcast_S1x128_S1280x128_0_1 : S1x128.BroadcastsInDim S1280x128 (![0, 1] : Fin 2 → Fin S1280x128.rank)
  bcast_S_S1280x128 : S_.BroadcastsInDim S1280x128 (![] : Fin 0 → Fin S1280x128.rank)
  bcast_S64_S1x64_1 : S64.BroadcastsInDim S1x64 (![1] : Fin 1 → Fin S1x64.rank)
  bcast_S1x64_S1280x64_0_1 : S1x64.BroadcastsInDim S1280x64 (![0, 1] : Fin 2 → Fin S1280x64.rank)
  bcast_S_S1280x64 : S_.BroadcastsInDim S1280x64 (![] : Fin 0 → Fin S1280x64.rank)
  bcast_S2_S1x2_1 : S2.BroadcastsInDim S1x2 (![1] : Fin 1 → Fin S1x2.rank)
  bcast_S1x2_S1280x2_0_1 : S1x2.BroadcastsInDim S1280x2 (![0, 1] : Fin 2 → Fin S1280x2.rank)
  bcast_S_S1280x2 : S_.BroadcastsInDim S1280x2 (![] : Fin 0 → Fin S1280x2.rank)
  concatenates_S1280x2_S1280x2_S2560x2_d0 : Shape.Concatenates [S1280x2, S1280x2] S2560x2 0
  reducesTo_S2560x2_S_d0_1 : S2560x2.ReducesTo [0, 1] S_
  bcast_S32_S1x32_1 : S32.BroadcastsInDim S1x32 (![1] : Fin 1 → Fin S1x32.rank)
  bcast_S1x32_S1280x32_0_1 : S1x32.BroadcastsInDim S1280x32 (![0, 1] : Fin 2 → Fin S1280x32.rank)
  bcast_S3_S1x3_1 : S3.BroadcastsInDim S1x3 (![1] : Fin 1 → Fin S1x3.rank)
  bcast_S1x3_S1280x3_0_1 : S1x3.BroadcastsInDim S1280x3 (![0, 1] : Fin 2 → Fin S1280x3.rank)
  reducesTo_S1280x3_S1280_d1 : S1280x3.ReducesTo [1] S1280
  bcast_S_S1280 : S_.BroadcastsInDim S1280 (![] : Fin 0 → Fin S1280.rank)
  bcast_S1280x1_S1280x3_0_1 : S1280x1.BroadcastsInDim S1280x3 (![0, 1] : Fin 2 → Fin S1280x3.rank)
  bcast_S_S1280x1 : S_.BroadcastsInDim S1280x1 (![] : Fin 0 → Fin S1280x1.rank)
  shapeCasts_S1280x1_S1280x1x1 : S1280x1.ShapeCasts S1280x1x1
  bcast_S_S1280x1x1 : S_.BroadcastsInDim S1280x1x1 (![] : Fin 0 → Fin S1280x1x1.rank)
  bcast_S1_S1x1x1_2 : S1.BroadcastsInDim S1x1x1 (![2] : Fin 1 → Fin S1x1x1.rank)
  bcast_S1x1x1_S1280x1x1_0_1_2 : S1x1x1.BroadcastsInDim S1280x1x1 (![0, 1, 2] : Fin 3 → Fin S1280x1x1.rank)
  reducesTo_S1280x1x1_S1280x1_d2 : S1280x1x1.ReducesTo [2] S1280x1
  reducesTo_S1280x1_S_d0_1 : S1280x1.ReducesTo [0, 1] S_
  reducesTo_S32768x128_S_d0_1 : S32768x128.ReducesTo [0, 1] S_
  reducesTo_S128_S_d0 : S128.ReducesTo [0] S_
  reducesTo_S128x32_S_d0_1 : S128x32.ReducesTo [0, 1] S_
  reducesTo_S32_S_d0 : S32.ReducesTo [0] S_
  reducesTo_S32x3_S_d0_1 : S32x3.ReducesTo [0, 1] S_
  reducesTo_S3_S_d0 : S3.ReducesTo [0] S_
  dot_S5x128x256_S5x128x256_S5x128x128_2_2_1_1_0_0_wf : DotDims.WF S5x128x256 S5x128x256 S5x128x128 [2] [2] [1] [1] [0] [0]
  dot_S640x256_S256x1280_S640x1280_1_0_0_1_n_n_wf : DotDims.WF S640x256 S256x1280 S640x1280 [1] [0] [0] [1] [] []
  dot_S640x256_S256x128_S640x128_1_0_0_1_n_n_wf : DotDims.WF S640x256 S256x128 S640x128 [1] [0] [0] [1] [] []
  dot_S1280x128_S128x64_S1280x64_1_0_0_1_n_n_wf : DotDims.WF S1280x128 S128x64 S1280x64 [1] [0] [0] [1] [] []
  dot_S1280x64_S64x2_S1280x2_1_0_0_1_n_n_wf : DotDims.WF S1280x64 S64x2 S1280x2 [1] [0] [0] [1] [] []
  dot_S1280x128_S128x32_S1280x32_1_0_0_1_n_n_wf : DotDims.WF S1280x128 S128x32 S1280x32 [1] [0] [0] [1] [] []
  dot_S1280x32_S32x3_S1280x3_1_0_0_1_n_n_wf : DotDims.WF S1280x32 S32x3 S1280x3 [1] [0] [0] [1] [] []
  gather_S1280x3_S1280x1x1_S1280x1_n_1_0_0_1_2_11_wf : GatherDims.WF S1280x3 S1280x1x1 S1280x1 [] [1] [0] [1] [0] 2 ![1, 1]
  hrank0 : 0 < grid0.rank
  k0_mult1_dvd : ∀ i : grid0.Coords, 8 ∣ (k0_mult1 i).toNat
  k0_off1_inb : ∀ i : grid0.Coords, ∀ a, (k0_off1 i) a + S640x256.size a ≤ S1280x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S640x256.size a ≤ S1280x32768.size a
  hwx0_0 : ∀ i : grid0.Coords, EltTy.bits .f32 = 32 ∨ (Rect.block (s := S1280x32768) S640x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x256.size a ≤ S1280x32768.size a
  hwx0_1 : ∀ i : grid0.Coords, EltTy.bits .f32 = 32 ∨ (Rect.block (s := S1280x32768) S1280x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S32768x128.size a
  hwx0_2 : ∀ i : grid0.Coords, EltTy.bits .f32 = 32 ∨ (Rect.block (s := S32768x128) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S32768x128.size a
  hwx0_3 : ∀ i : grid0.Coords, EltTy.bits .f32 = 32 ∨ (Rect.block (s := S32768x128) S256x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x5x128x128.size a ≤ S2x5x128x128.size a
  hwx0_4 : ∀ i : grid0.Coords, EltTy.bits .f32 = 32 ∨ (Rect.block (s := S2x5x128x128) S1x5x128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x5x128x128.size a ≤ S2x5x128x128.size a
  hwx0_5 : ∀ i : grid0.Coords, EltTy.bits .f32 = 32 ∨ (Rect.block (s := S2x5x128x128) S1x5x128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x5x128.size a ≤ S2x5x128.size a
  hwx0_6 : ∀ i : grid0.Coords, EltTy.bits .f32 = 32 ∨ (Rect.block (s := S2x5x128) S1x5x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x5x128.size a ≤ S2x5x128.size a
  hwx0_7 : ∀ i : grid0.Coords, EltTy.bits .f32 = 32 ∨ (Rect.block (s := S2x5x128) S1x5x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S640x1280.size a ≤ S1280x1280.size a
  hwx0_8 : ∀ i : grid0.Coords, EltTy.bits .f32 = 32 ∨ (Rect.block (s := S1280x1280) S640x1280.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S640x128.size a ≤ S1280x128.size a
  hwx0_9 : ∀ i : grid0.Coords, EltTy.bits .f32 = 32 ∨ (Rect.block (s := S1280x128) S640x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S640x128.size a ≤ S1280x128.size a
  hwx0_10 : ∀ i : grid0.Coords, EltTy.bits .f32 = 32 ∨ (Rect.block (s := S1280x128) S640x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S640x128.size a ≤ S1280x128.size a
  hwx0_11 : ∀ i : grid0.Coords, EltTy.bits .f32 = 32 ∨ (Rect.block (s := S1280x128) S640x128.size (cc0_transform_11 i) (hinb0_11 i)).WholeWords (EltTy.packing .f32)

variable [Facts₀]

def dot_S5x128x256_S5x128x256_S5x128x128_2_2_1_1_0_0 : DotDims S5x128x256 S5x128x256 S5x128x128 where
  lhsContracting := [2]
  rhsContracting := [2]
  lhsNonContracting := [1]
  rhsNonContracting := [1]
  lhsBatch := [0]
  rhsBatch := [0]
  wf := dot_S5x128x256_S5x128x256_S5x128x128_2_2_1_1_0_0_wf
def dot_S640x256_S256x1280_S640x1280_1_0_0_1_n_n : DotDims S640x256 S256x1280 S640x1280 where
  lhsContracting := [1]
  rhsContracting := [0]
  lhsNonContracting := [0]
  rhsNonContracting := [1]
  lhsBatch := []
  rhsBatch := []
  wf := dot_S640x256_S256x1280_S640x1280_1_0_0_1_n_n_wf
def dot_S640x256_S256x128_S640x128_1_0_0_1_n_n : DotDims S640x256 S256x128 S640x128 where
  lhsContracting := [1]
  rhsContracting := [0]
  lhsNonContracting := [0]
  rhsNonContracting := [1]
  lhsBatch := []
  rhsBatch := []
  wf := dot_S640x256_S256x128_S640x128_1_0_0_1_n_n_wf
def dot_S1280x128_S128x64_S1280x64_1_0_0_1_n_n : DotDims S1280x128 S128x64 S1280x64 where
  lhsContracting := [1]
  rhsContracting := [0]
  lhsNonContracting := [0]
  rhsNonContracting := [1]
  lhsBatch := []
  rhsBatch := []
  wf := dot_S1280x128_S128x64_S1280x64_1_0_0_1_n_n_wf
def dot_S1280x64_S64x2_S1280x2_1_0_0_1_n_n : DotDims S1280x64 S64x2 S1280x2 where
  lhsContracting := [1]
  rhsContracting := [0]
  lhsNonContracting := [0]
  rhsNonContracting := [1]
  lhsBatch := []
  rhsBatch := []
  wf := dot_S1280x64_S64x2_S1280x2_1_0_0_1_n_n_wf
def dot_S1280x128_S128x32_S1280x32_1_0_0_1_n_n : DotDims S1280x128 S128x32 S1280x32 where
  lhsContracting := [1]
  rhsContracting := [0]
  lhsNonContracting := [0]
  rhsNonContracting := [1]
  lhsBatch := []
  rhsBatch := []
  wf := dot_S1280x128_S128x32_S1280x32_1_0_0_1_n_n_wf
def dot_S1280x32_S32x3_S1280x3_1_0_0_1_n_n : DotDims S1280x32 S32x3 S1280x3 where
  lhsContracting := [1]
  rhsContracting := [0]
  lhsNonContracting := [0]
  rhsNonContracting := [1]
  lhsBatch := []
  rhsBatch := []
  wf := dot_S1280x32_S32x3_S1280x3_1_0_0_1_n_n_wf
def gather_S1280x3_S1280x1x1_S1280x1_n_1_0_0_1_2_11 : GatherDims S1280x3 S1280x1x1 S1280x1 where
  offsetDims := []
  collapsedSliceDims := [1]
  operandBatchingDims := [0]
  startIndicesBatchingDims := [0]
  startIndexMap := [1]
  indexVectorDim := 2
  sliceSizes := ![1, 1]
  wf := gather_S1280x3_S1280x1x1_S1280x1_n_1_0_0_1_2_11_wf

abbrev win0_0 : Pipeline.Window sig grid0 :=
  Pipeline.Window.ofSpec (Memref.whole main_arg0) S640x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1280x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg9) S256x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x5x128x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x5x128x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S1x5x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_3) S1x5x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_4) S640x1280.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_5) S640x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_6) S640x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v0_7) S640x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun i => !(k0_cond2 i == 1#1) | 5 => fun i => !(k0_cond2 i == 1#1) | 6 => fun i => !(k0_cond2 i == 1#1) | 7 => fun i => !(k0_cond2 i == 1#1) | 8 => fun i => !(k0_cond2 i == 1#1) | 9 => fun i => !(k0_cond2 i == 1#1) | 10 => fun i => !(k0_cond2 i == 1#1) | 11 => fun i => !(k0_cond2 i == 1#1) | ⟨_ + 12, h⟩ => absurd h (Nat.not_lt.2 (Nat.le_add_left _ _))

class Facts : Prop extends Facts₀ where

variable [Facts]
-- ==== ReferenceIdeal.lean ====
abbrev S1280x32768 : Shape := ⟨2, ![1280, 32768]⟩
abbrev S1280 : Shape := ⟨1, ![1280]⟩
abbrev S32768x128 : Shape := ⟨2, ![32768, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S128x32 : Shape := ⟨2, ![128, 32]⟩
abbrev S32 : Shape := ⟨1, ![32]⟩
abbrev S32x3 : Shape := ⟨2, ![32, 3]⟩
abbrev S3 : Shape := ⟨1, ![3]⟩
abbrev S10x128x32768 : Shape := ⟨3, ![10, 128, 32768]⟩
abbrev S_ : Shape := ⟨0, ![]⟩
abbrev S10x128 : Shape := ⟨2, ![10, 128]⟩
abbrev S10x128x1 : Shape := ⟨3, ![10, 128, 1]⟩
abbrev S10x1x128 : Shape := ⟨3, ![10, 1, 128]⟩
abbrev S10x128x128 : Shape := ⟨3, ![10, 128, 128]⟩
abbrev S1280x1 : Shape := ⟨2, ![1280, 1]⟩
abbrev S1x1280 : Shape := ⟨2, ![1, 1280]⟩
abbrev S1280x1280 : Shape := ⟨2, ![1280, 1280]⟩
abbrev S32768x1280 : Shape := ⟨2, ![32768, 1280]⟩
abbrev S2560x32768 : Shape := ⟨2, ![2560, 32768]⟩
abbrev S2560x128 : Shape := ⟨2, ![2560, 128]⟩
abbrev S1x128 : Shape := ⟨2, ![1, 128]⟩
abbrev S2560x64 : Shape := ⟨2, ![2560, 64]⟩
abbrev S1x64 : Shape := ⟨2, ![1, 64]⟩
abbrev S2560x2 : Shape := ⟨2, ![2560, 2]⟩
abbrev S1x2 : Shape := ⟨2, ![1, 2]⟩
abbrev S1280x128 : Shape := ⟨2, ![1280, 128]⟩
abbrev S1280x32 : Shape := ⟨2, ![1280, 32]⟩
abbrev S1x32 : Shape := ⟨2, ![1, 32]⟩
abbrev S1280x3 : Shape := ⟨2, ![1280, 3]⟩
abbrev S1x3 : Shape := ⟨2, ![1, 3]⟩
abbrev S1280x1x1 : Shape := ⟨3, ![1280, 1, 1]⟩
abbrev S1 : Shape := ⟨1, ![1]⟩
abbrev S1x1x1 : Shape := ⟨3, ![1, 1, 1]⟩

abbrev nBuf : Space → Nat
  | .hbm => 214
  | .vmem => 0
  | .smem => 0
  | _ => 0

abbrev hbmTy0_0 (i : Nat) : BufTy := match i % 128 with
  | 0 => ⟨S1280x32768, .f32⟩
  | 1 => ⟨S1280x32768, .f32⟩
  | 2 => ⟨S1280, .i32⟩
  | 3 => ⟨S32768x128, .f32⟩
  | 4 => ⟨S128, .f32⟩
  | 5 => ⟨S128x64, .f32⟩
  | 6 => ⟨S64, .f32⟩
  | 7 => ⟨S64x2, .f32⟩
  | 8 => ⟨S2, .f32⟩
  | 9 => ⟨S32768x128, .f32⟩
  | 10 => ⟨S128, .f32⟩
  | 11 => ⟨S128x32, .f32⟩
  | 12 => ⟨S32, .f32⟩
  | 13 => ⟨S32x3, .f32⟩
  | 14 => ⟨S3, .f32⟩
  | 15 => ⟨S10x128x32768, .f32⟩
  | 16 => ⟨S10x128x32768, .f32⟩
  | 17 => ⟨S10x128x32768, .f32⟩
  | 18 => ⟨S_, .f32⟩
  | 19 => ⟨S10x128, .f32⟩
  | 20 => ⟨S10x128x32768, .f32⟩
  | 21 => ⟨S_, .f32⟩
  | 22 => ⟨S10x128, .f32⟩
  | 23 => ⟨S10x128x1, .f32⟩
  | 24 => ⟨S10x1x128, .f32⟩
  | 25 => ⟨S10x128x128, .f32⟩
  | 26 => ⟨S10x128x128, .f32⟩
  | 27 => ⟨S10x128x128, .f32⟩
  | 28 => ⟨S10x128x128, .f32⟩
  | 29 => ⟨S_, .f32⟩
  | 30 => ⟨S10x128x128, .f32⟩
  | 31 => ⟨S10x128x128, .f32⟩
  | 32 => ⟨S10x128x128, .f32⟩
  | 33 => ⟨S10x128x128, .f32⟩
  | 34 => ⟨S_, .f32⟩
  | 35 => ⟨S10x128x128, .f32⟩
  | 36 => ⟨S10x128x128, .f32⟩
  | 37 => ⟨S10x128x128, .f32⟩
  | 38 => ⟨S10x128x1, .f32⟩
  | 39 => ⟨S10x1x128, .f32⟩
  | 40 => ⟨S10x128x128, .f32⟩
  | 41 => ⟨S10x128x128, .f32⟩
  | 42 => ⟨S10x128x128, .f32⟩
  | 43 => ⟨S10x128x128, .f32⟩
  | 44 => ⟨S_, .f32⟩
  | 45 => ⟨S10x128x128, .f32⟩
  | 46 => ⟨S10x128x128, .f32⟩
  | 47 => ⟨S10x128x128, .f32⟩
  | 48 => ⟨S10x128x128, .f32⟩
  | 49 => ⟨S_, .f32⟩
  | 50 => ⟨S10x128x128, .f32⟩
  | 51 => ⟨S10x128x128, .f32⟩
  | 52 => ⟨S10x128x128, .f32⟩
  | 53 => ⟨S1280, .f32⟩
  | 54 => ⟨S1280, .f32⟩
  | 55 => ⟨S1280x1, .f32⟩
  | 56 => ⟨S1x1280, .f32⟩
  | 57 => ⟨S1280x1280, .f32⟩
  | 58 => ⟨S1280x1280, .f32⟩
  | 59 => ⟨S1280x1280, .f32⟩
  | 60 => ⟨S_, .f32⟩
  | 61 => ⟨S1280x32768, .f32⟩
  | 62 => ⟨S1280x32768, .f32⟩
  | 63 => ⟨S32768x1280, .f32⟩
  | 64 => ⟨S1280x1280, .f32⟩
  | 65 => ⟨S1280x1280, .f32⟩
  | 66 => ⟨S1280x1280, .f32⟩
  | 67 => ⟨S_, .f32⟩
  | 68 => ⟨S1280x1280, .f32⟩
  | 69 => ⟨S1280x1280, .f32⟩
  | 70 => ⟨S1280x1280, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S2560x32768, .f32⟩
  | 88 => ⟨S2560x128, .f32⟩
  | 89 => ⟨S1x128, .f32⟩
  | 90 => ⟨S2560x128, .f32⟩
  | 91 => ⟨S2560x128, .f32⟩
  | 92 => ⟨S_, .f32⟩
  | 93 => ⟨S2560x128, .f32⟩
  | 94 => ⟨S2560x128, .f32⟩
  | 95 => ⟨S2560x64, .f32⟩
  | 96 => ⟨S1x64, .f32⟩
  | 97 => ⟨S2560x64, .f32⟩
  | 98 => ⟨S2560x64, .f32⟩
  | 99 => ⟨S_, .f32⟩
  | 100 => ⟨S2560x64, .f32⟩
  | 101 => ⟨S2560x64, .f32⟩
  | 102 => ⟨S2560x2, .f32⟩
  | 103 => ⟨S1x2, .f32⟩
  | 104 => ⟨S2560x2, .f32⟩
  | 105 => ⟨S2560x2, .f32⟩
  | 106 => ⟨S2560x2, .f32⟩
  | 107 => ⟨S2560x2, .f32⟩
  | 108 => ⟨S_, .f32⟩
  | 109 => ⟨S2560x2, .f32⟩
  | 110 => ⟨S2560x2, .f32⟩
  | 111 => ⟨S_, .f32⟩
  | 112 => ⟨S2560x2, .f32⟩
  | 113 => ⟨S2560x2, .f32⟩
  | 114 => ⟨S1280x128, .f32⟩
  | 115 => ⟨S1x128, .f32⟩
  | 116 => ⟨S1280x128, .f32⟩
  | 117 => ⟨S1280x128, .f32⟩
  | 118 => ⟨S1280x32, .f32⟩
  | 119 => ⟨S1x32, .f32⟩
  | 120 => ⟨S1280x32, .f32⟩
  | 121 => ⟨S1280x32, .f32⟩
  | 122 => ⟨S1280x3, .f32⟩
  | 123 => ⟨S1x3, .f32⟩
  | 124 => ⟨S1280x3, .f32⟩
  | 125 => ⟨S1280x3, .f32⟩
  | 126 => ⟨S_, .f32⟩
  | 127 => ⟨S2560x2, .f32⟩
  | _ => ⟨S1280x32768, .f32⟩

abbrev hbmTy0_1 (i : Nat) : BufTy := match i % 128 with
  | 0 => ⟨S2560x2, .f32⟩
  | 1 => ⟨S2560x2, .f32⟩
  | 2 => ⟨S2560x2, .f32⟩
  | 3 => ⟨S2560x2, .i1⟩
  | 4 => ⟨S2560x2, .f32⟩
  | 5 => ⟨S2560x2, .f32⟩
  | 6 => ⟨S2560x2, .f32⟩
  | 7 => ⟨S2560x2, .f32⟩
  | 8 => ⟨S2560x2, .f32⟩
  | 9 => ⟨S2560x2, .f32⟩
  | 10 => ⟨S2560x2, .f32⟩
  | 11 => ⟨S2560x2, .f32⟩
  | 12 => ⟨S_, .f32⟩
  | 13 => ⟨S_, .f32⟩
  | 14 => ⟨S_, .f32⟩
  | 15 => ⟨S_, .f32⟩
  | 16 => ⟨S_, .f32⟩
  | 17 => ⟨S1280, .f32⟩
  | 18 => ⟨S_, .f32⟩
  | 19 => ⟨S1280, .f32⟩
  | 20 => ⟨S1280, .f32⟩
  | 21 => ⟨S1280x1, .f32⟩
  | 22 => ⟨S1280x3, .f32⟩
  | 23 => ⟨S1280x3, .f32⟩
  | 24 => ⟨S1280x3, .f32⟩
  | 25 => ⟨S_, .f32⟩
  | 26 => ⟨S1280, .f32⟩
  | 27 => ⟨S1280x1, .f32⟩
  | 28 => ⟨S1280x1, .f32⟩
  | 29 => ⟨S1280x3, .f32⟩
  | 30 => ⟨S1280x3, .f32⟩
  | 31 => ⟨S1280x1, .i32⟩
  | 32 => ⟨S_, .i32⟩
  | 33 => ⟨S1280x1, .i32⟩
  | 34 => ⟨S1280x1, .i1⟩
  | 35 => ⟨S_, .i32⟩
  | 36 => ⟨S1280x1, .i32⟩
  | 37 => ⟨S1280x1, .i32⟩
  | 38 => ⟨S1280x1, .i32⟩
  | 39 => ⟨S1280x1x1, .i32⟩
  | 40 => ⟨S1, .i32⟩
  | 41 => ⟨S_, .i32⟩
  | 42 => ⟨S1280x1x1, .i32⟩
  | 43 => ⟨S1280x1x1, .i1⟩
  | 44 => ⟨S1x1x1, .i32⟩
  | 45 => ⟨S1280x1x1, .i32⟩
  | 46 => ⟨S1280x1x1, .i1⟩
  | 47 => ⟨S1280x1x1, .i1⟩
  | 48 => ⟨S_, .i1⟩
  | 49 => ⟨S1280x1, .i1⟩
  | 50 => ⟨S1280x1, .f32⟩
  | 51 => ⟨S_, .f32⟩
  | 52 => ⟨S1280x1, .f32⟩
  | 53 => ⟨S1280x1, .f32⟩
  | 54 => ⟨S_, .f32⟩
  | 55 => ⟨S_, .f32⟩
  | 56 => ⟨S_, .f32⟩
  | 57 => ⟨S_, .f32⟩
  | 58 => ⟨S_, .f32⟩
  | 59 => ⟨S32768x128, .f32⟩
  | 60 => ⟨S_, .f32⟩
  | 61 => ⟨S_, .f32⟩
  | 62 => ⟨S128, .f32⟩
  | 63 => ⟨S_, .f32⟩
  | 64 => ⟨S_, .f32⟩
  | 65 => ⟨S_, .f32⟩
  | 66 => ⟨S128x32, .f32⟩
  | 67 => ⟨S_, .f32⟩
  | 68 => ⟨S_, .f32⟩
  | 69 => ⟨S_, .f32⟩
  | 70 => ⟨S32, .f32⟩
  | 71 => ⟨S_, .f32⟩
  | 72 => ⟨S_, .f32⟩
  | 73 => ⟨S_, .f32⟩
  | 74 => ⟨S32x3, .f32⟩
  | 75 => ⟨S_, .f32⟩
  | 76 => ⟨S_, .f32⟩
  | 77 => ⟨S_, .f32⟩
  | 78 => ⟨S3, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | _ => ⟨S1280x32768, .f32⟩

abbrev hbmTy (i : Nat) : BufTy := match i / 128 with
  | 0 => hbmTy0_0 i
  | 1 => hbmTy0_1 i
  | _ => ⟨S1280x32768, .f32⟩

abbrev bufTy : (tb : Table) → Fin (tcTables nBuf tb) → BufTy
  | .hbm, ⟨i, _⟩ => hbmTy i
  | _, _ => ⟨S1280x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_cst : Ref sig .tc := ⟨.hbm, 18, rfl⟩
abbrev main_v3 : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_3 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_5 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_6 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_7 : Ref sig .tc := ⟨.hbm, 71, rfl⟩
abbrev main_v48 : Ref sig .tc := ⟨.hbm, 72, rfl⟩
abbrev main_cst_8 : Ref sig .tc := ⟨.hbm, 73, rfl⟩
abbrev main_v49 : Ref sig .tc := ⟨.hbm, 74, rfl⟩
abbrev main_cst_9 : Ref sig .tc := ⟨.hbm, 75, rfl⟩
abbrev main_v50 : Ref sig .tc := ⟨.hbm, 76, rfl⟩
abbrev main_cst_10 : Ref sig .tc := ⟨.hbm, 77, rfl⟩
abbrev main_v51 : Ref sig .tc := ⟨.hbm, 78, rfl⟩
abbrev main_v52 : Ref sig .tc := ⟨.hbm, 79, rfl⟩
abbrev main_cst_11 : Ref sig .tc := ⟨.hbm, 80, rfl⟩
abbrev main_v53 : Ref sig .tc := ⟨.hbm, 81, rfl⟩
abbrev main_cst_12 : Ref sig .tc := ⟨.hbm, 82, rfl⟩
abbrev main_v54 : Ref sig .tc := ⟨.hbm, 83, rfl⟩
abbrev main_v55 : Ref sig .tc := ⟨.hbm, 84, rfl⟩
abbrev main_cst_13 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_call0_cst : Ref sig .tc := ⟨.hbm, 92, rfl⟩
abbrev main_call0_v0 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_call1_cst : Ref sig .tc := ⟨.hbm, 99, rfl⟩
abbrev main_call1_v0 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_14 : Ref sig .tc := ⟨.hbm, 108, rfl⟩
abbrev main_v74 : Ref sig .tc := ⟨.hbm, 109, rfl⟩
abbrev main_v75 : Ref sig .tc := ⟨.hbm, 110, rfl⟩
abbrev main_cst_15 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_call2_cst : Ref sig .tc := ⟨.hbm, 126, rfl⟩
abbrev main_call2_v0 : Ref sig .tc := ⟨.hbm, 127, rfl⟩
abbrev main_call2_v1 : Ref sig .tc := ⟨.hbm, 128, rfl⟩
abbrev main_call2_v2 : Ref sig .tc := ⟨.hbm, 129, rfl⟩
abbrev main_call2_v3 : Ref sig .tc := ⟨.hbm, 130, rfl⟩
abbrev main_call2_v4 : Ref sig .tc := ⟨.hbm, 131, rfl⟩
abbrev main_call2_v5 : Ref sig .tc := ⟨.hbm, 132, rfl⟩
abbrev main_call2_v6 : Ref sig .tc := ⟨.hbm, 133, rfl⟩
abbrev main_call2_v7 : Ref sig .tc := ⟨.hbm, 134, rfl⟩
abbrev main_call2_v8 : Ref sig .tc := ⟨.hbm, 135, rfl⟩
abbrev main_call2_v9 : Ref sig .tc := ⟨.hbm, 136, rfl⟩
abbrev main_call2_v10 : Ref sig .tc := ⟨.hbm, 137, rfl⟩
abbrev main_call2_v11 : Ref sig .tc := ⟨.hbm, 138, rfl⟩
abbrev main_v90 : Ref sig .tc := ⟨.hbm, 139, rfl⟩
abbrev main_cst_16 : Ref sig .tc := ⟨.hbm, 140, rfl⟩
abbrev main_v91 : Ref sig .tc := ⟨.hbm, 141, rfl⟩
abbrev main_cst_17 : Ref sig .tc := ⟨.hbm, 142, rfl⟩
abbrev main_v92 : Ref sig .tc := ⟨.hbm, 143, rfl⟩
abbrev main_call3_cst : Ref sig .tc := ⟨.hbm, 144, rfl⟩
abbrev main_call3_v0 : Ref sig .tc := ⟨.hbm, 145, rfl⟩
abbrev main_call3_cst_0 : Ref sig .tc := ⟨.hbm, 146, rfl⟩
abbrev main_call3_v1 : Ref sig .tc := ⟨.hbm, 147, rfl⟩
abbrev main_call3_v2 : Ref sig .tc := ⟨.hbm, 148, rfl⟩
abbrev main_call3_v3 : Ref sig .tc := ⟨.hbm, 149, rfl⟩
abbrev main_call3_v4 : Ref sig .tc := ⟨.hbm, 150, rfl⟩
abbrev main_call3_v5 : Ref sig .tc := ⟨.hbm, 151, rfl⟩
abbrev main_call3_v6 : Ref sig .tc := ⟨.hbm, 152, rfl⟩
abbrev main_call3_cst_1 : Ref sig .tc := ⟨.hbm, 153, rfl⟩
abbrev main_call3_v7 : Ref sig .tc := ⟨.hbm, 154, rfl⟩
abbrev main_call3_v8 : Ref sig .tc := ⟨.hbm, 155, rfl⟩
abbrev main_call3_v9 : Ref sig .tc := ⟨.hbm, 156, rfl⟩
abbrev main_call3_v10 : Ref sig .tc := ⟨.hbm, 157, rfl⟩
abbrev main_v93 : Ref sig .tc := ⟨.hbm, 158, rfl⟩
abbrev main_v94 : Ref sig .tc := ⟨.hbm, 159, rfl⟩
abbrev main_call4_c : Ref sig .tc := ⟨.hbm, 160, rfl⟩
abbrev main_call4_v0 : Ref sig .tc := ⟨.hbm, 161, rfl⟩
abbrev main_call4_v1 : Ref sig .tc := ⟨.hbm, 162, rfl⟩
abbrev main_call4_c_0 : Ref sig .tc := ⟨.hbm, 163, rfl⟩
abbrev main_call4_v2 : Ref sig .tc := ⟨.hbm, 164, rfl⟩
abbrev main_call4_v3 : Ref sig .tc := ⟨.hbm, 165, rfl⟩
abbrev main_call4_v4 : Ref sig .tc := ⟨.hbm, 166, rfl⟩
abbrev main_call4_v5 : Ref sig .tc := ⟨.hbm, 167, rfl⟩
abbrev main_call4_c_1 : Ref sig .tc := ⟨.hbm, 168, rfl⟩
abbrev main_call4_c_2 : Ref sig .tc := ⟨.hbm, 169, rfl⟩
abbrev main_call4_v6 : Ref sig .tc := ⟨.hbm, 170, rfl⟩
abbrev main_call4_v7 : Ref sig .tc := ⟨.hbm, 171, rfl⟩
abbrev main_call4_v8 : Ref sig .tc := ⟨.hbm, 172, rfl⟩
abbrev main_call4_v9 : Ref sig .tc := ⟨.hbm, 173, rfl⟩
abbrev main_call4_v10 : Ref sig .tc := ⟨.hbm, 174, rfl⟩
abbrev main_call4_v11 : Ref sig .tc := ⟨.hbm, 175, rfl⟩
abbrev main_call4_c_3 : Ref sig .tc := ⟨.hbm, 176, rfl⟩
abbrev main_call4_v12 : Ref sig .tc := ⟨.hbm, 177, rfl⟩
abbrev main_call4_v13 : Ref sig .tc := ⟨.hbm, 178, rfl⟩
abbrev main_call4_cst : Ref sig .tc := ⟨.hbm, 179, rfl⟩
abbrev main_call4_v14 : Ref sig .tc := ⟨.hbm, 180, rfl⟩
abbrev main_v95 : Ref sig .tc := ⟨.hbm, 181, rfl⟩
abbrev main_cst_18 : Ref sig .tc := ⟨.hbm, 182, rfl⟩
abbrev main_v96 : Ref sig .tc := ⟨.hbm, 183, rfl⟩
abbrev main_cst_19 : Ref sig .tc := ⟨.hbm, 184, rfl⟩
abbrev main_v97 : Ref sig .tc := ⟨.hbm, 185, rfl⟩
abbrev main_v98 : Ref sig .tc := ⟨.hbm, 186, rfl⟩
abbrev main_v99 : Ref sig .tc := ⟨.hbm, 187, rfl⟩
abbrev main_cst_20 : Ref sig .tc := ⟨.hbm, 188, rfl⟩
abbrev main_v100 : Ref sig .tc := ⟨.hbm, 189, rfl⟩
abbrev main_v101 : Ref sig .tc := ⟨.hbm, 190, rfl⟩
abbrev main_cst_21 : Ref sig .tc := ⟨.hbm, 191, rfl⟩
abbrev main_v102 : Ref sig .tc := ⟨.hbm, 192, rfl⟩
abbrev main_v103 : Ref sig .tc := ⟨.hbm, 193, rfl⟩
abbrev main_v104 : Ref sig .tc := ⟨.hbm, 194, rfl⟩
abbrev main_cst_22 : Ref sig .tc := ⟨.hbm, 195, rfl⟩
abbrev main_v105 : Ref sig .tc := ⟨.hbm, 196, rfl⟩
abbrev main_v106 : Ref sig .tc := ⟨.hbm, 197, rfl⟩
abbrev main_v107 : Ref sig .tc := ⟨.hbm, 198, rfl⟩
abbrev main_cst_23 : Ref sig .tc := ⟨.hbm, 199, rfl⟩
abbrev main_v108 : Ref sig .tc := ⟨.hbm, 200, rfl⟩
abbrev main_v109 : Ref sig .tc := ⟨.hbm, 201, rfl⟩
abbrev main_v110 : Ref sig .tc := ⟨.hbm, 202, rfl⟩
abbrev main_cst_24 : Ref sig .tc := ⟨.hbm, 203, rfl⟩
abbrev main_v111 : Ref sig .tc := ⟨.hbm, 204, rfl⟩
abbrev main_v112 : Ref sig .tc := ⟨.hbm, 205, rfl⟩
abbrev main_v113 : Ref sig .tc := ⟨.hbm, 206, rfl⟩
abbrev main_cst_25 : Ref sig .tc := ⟨.hbm, 207, rfl⟩
abbrev main_v114 : Ref sig .tc := ⟨.hbm, 208, rfl⟩
abbrev main_v115 : Ref sig .tc := ⟨.hbm, 209, rfl⟩
abbrev main_cst_26 : Ref sig .tc := ⟨.hbm, 210, rfl⟩
abbrev main_v116 : Ref sig .tc := ⟨.hbm, 211, rfl⟩
abbrev main_v117 : Ref sig .tc := ⟨.hbm, 212, rfl⟩
abbrev main_v118 : Ref sig .tc := ⟨.hbm, 213, rfl⟩

abbrev nD : Nat := 1
abbrev τ : Topo := Topo.v7x

variable {F : FTy → Type} [FloatOps F]

class Facts₀ : Prop where
  shapeCasts_S1280x32768_S10x128x32768 : S1280x32768.ShapeCasts S10x128x32768
  reducesTo_S10x128x32768_S10x128_d2 : S10x128x32768.ReducesTo [2] S10x128
  h_S_ : 0 < S_.numel
  bcast_S10x128_S10x128x1_0_1 : S10x128.BroadcastsInDim S10x128x1 (![0, 1] : Fin 2 → Fin S10x128x1.rank)
  bcast_S10x128_S10x1x128_0_2 : S10x128.BroadcastsInDim S10x1x128 (![0, 2] : Fin 2 → Fin S10x1x128.rank)
  bcast_S10x128x1_S10x128x128_0_1_2 : S10x128x1.BroadcastsInDim S10x128x128 (![0, 1, 2] : Fin 3 → Fin S10x128x128.rank)
  bcast_S10x1x128_S10x128x128_0_1_2 : S10x1x128.BroadcastsInDim S10x128x128 (![0, 1, 2] : Fin 3 → Fin S10x128x128.rank)
  bcast_S_S10x128x128 : S_.BroadcastsInDim S10x128x128 (![] : Fin 0 → Fin S10x128x128.rank)
  shapeCasts_S10x128_S1280 : S10x128.ShapeCasts S1280
  bcast_S1280_S1280x1_0 : S1280.BroadcastsInDim S1280x1 (![0] : Fin 1 → Fin S1280x1.rank)
  bcast_S1280_S1x1280_1 : S1280.BroadcastsInDim S1x1280 (![1] : Fin 1 → Fin S1x1280.rank)
  bcast_S1280x1_S1280x1280_0_1 : S1280x1.BroadcastsInDim S1280x1280 (![0, 1] : Fin 2 → Fin S1280x1280.rank)
  bcast_S1x1280_S1280x1280_0_1 : S1x1280.BroadcastsInDim S1280x1280 (![0, 1] : Fin 2 → Fin S1280x1280.rank)
  bcast_S_S1280x32768 : S_.BroadcastsInDim S1280x32768 (![] : Fin 0 → Fin S1280x32768.rank)
  transposes_S1280x32768_S32768x1280_1_0 : S1280x32768.Transposes [1, 0] S32768x1280
  bcast_S_S1280x1280 : S_.BroadcastsInDim S1280x1280 (![] : Fin 0 → Fin S1280x1280.rank)
  reducesTo_S10x128x128_S_d0_1_2 : S10x128x128.ReducesTo [0, 1, 2] S_
  reducesTo_S1280x1280_S_d0_1 : S1280x1280.ReducesTo [0, 1] S_
  concatenates_S1280x32768_S1280x32768_S2560x32768_d0 : Shape.Concatenates [S1280x32768, S1280x32768] S2560x32768 0
  bcast_S128_S1x128_1 : S128.BroadcastsInDim S1x128 (![1] : Fin 1 → Fin S1x128.rank)
  bcast_S1x128_S2560x128_0_1 : S1x128.BroadcastsInDim S2560x128 (![0, 1] : Fin 2 → Fin S2560x128.rank)
  bcast_S_S2560x128 : S_.BroadcastsInDim S2560x128 (![] : Fin 0 → Fin S2560x128.rank)
  bcast_S64_S1x64_1 : S64.BroadcastsInDim S1x64 (![1] : Fin 1 → Fin S1x64.rank)
  bcast_S1x64_S2560x64_0_1 : S1x64.BroadcastsInDim S2560x64 (![0, 1] : Fin 2 → Fin S2560x64.rank)
  bcast_S_S2560x64 : S_.BroadcastsInDim S2560x64 (![] : Fin 0 → Fin S2560x64.rank)
  bcast_S2_S1x2_1 : S2.BroadcastsInDim S1x2 (![1] : Fin 1 → Fin S1x2.rank)
  bcast_S1x2_S2560x2_0_1 : S1x2.BroadcastsInDim S2560x2 (![0, 1] : Fin 2 → Fin S2560x2.rank)
  bcast_S_S2560x2 : S_.BroadcastsInDim S2560x2 (![] : Fin 0 → Fin S2560x2.rank)
  bcast_S1x128_S1280x128_0_1 : S1x128.BroadcastsInDim S1280x128 (![0, 1] : Fin 2 → Fin S1280x128.rank)
  bcast_S32_S1x32_1 : S32.BroadcastsInDim S1x32 (![1] : Fin 1 → Fin S1x32.rank)
  bcast_S1x32_S1280x32_0_1 : S1x32.BroadcastsInDim S1280x32 (![0, 1] : Fin 2 → Fin S1280x32.rank)
  bcast_S3_S1x3_1 : S3.BroadcastsInDim S1x3 (![1] : Fin 1 → Fin S1x3.rank)
  bcast_S1x3_S1280x3_0_1 : S1x3.BroadcastsInDim S1280x3 (![0, 1] : Fin 2 → Fin S1280x3.rank)
  reducesTo_S2560x2_S_d0_1 : S2560x2.ReducesTo [0, 1] S_
  reducesTo_S1280x3_S1280_d1 : S1280x3.ReducesTo [1] S1280
  bcast_S_S1280 : S_.BroadcastsInDim S1280 (![] : Fin 0 → Fin S1280.rank)
  bcast_S1280x1_S1280x3_0_1 : S1280x1.BroadcastsInDim S1280x3 (![0, 1] : Fin 2 → Fin S1280x3.rank)
  bcast_S_S1280x1 : S_.BroadcastsInDim S1280x1 (![] : Fin 0 → Fin S1280x1.rank)
  shapeCasts_S1280x1_S1280x1x1 : S1280x1.ShapeCasts S1280x1x1
  bcast_S_S1280x1x1 : S_.BroadcastsInDim S1280x1x1 (![] : Fin 0 → Fin S1280x1x1.rank)
  bcast_S1_S1x1x1_2 : S1.BroadcastsInDim S1x1x1 (![2] : Fin 1 → Fin S1x1x1.rank)
  bcast_S1x1x1_S1280x1x1_0_1_2 : S1x1x1.BroadcastsInDim S1280x1x1 (![0, 1, 2] : Fin 3 → Fin S1280x1x1.rank)
  reducesTo_S1280x1x1_S1280x1_d2 : S1280x1x1.ReducesTo [2] S1280x1
  reducesTo_S1280x1_S_d0_1 : S1280x1.ReducesTo [0, 1] S_
  reducesTo_S32768x128_S_d0_1 : S32768x128.ReducesTo [0, 1] S_
  reducesTo_S128_S_d0 : S128.ReducesTo [0] S_
  reducesTo_S128x32_S_d0_1 : S128x32.ReducesTo [0, 1] S_
  reducesTo_S32_S_d0 : S32.ReducesTo [0] S_
  reducesTo_S32x3_S_d0_1 : S32x3.ReducesTo [0, 1] S_
  reducesTo_S3_S_d0 : S3.ReducesTo [0] S_
  dot_S10x128x32768_S10x128x32768_S10x128x128_2_2_1_1_0_0_wf : DotDims.WF S10x128x32768 S10x128x32768 S10x128x128 [2] [2] [1] [1] [0] [0]
  dot_S1280x32768_S32768x1280_S1280x1280_1_0_0_1_n_n_wf : DotDims.WF S1280x32768 S32768x1280 S1280x1280 [1] [0] [0] [1] [] []
  dot_S2560x32768_S32768x128_S2560x128_1_0_0_1_n_n_wf : DotDims.WF S2560x32768 S32768x128 S2560x128 [1] [0] [0] [1] [] []
  dot_S2560x128_S128x64_S2560x64_1_0_0_1_n_n_wf : DotDims.WF S2560x128 S128x64 S2560x64 [1] [0] [0] [1] [] []
  dot_S2560x64_S64x2_S2560x2_1_0_0_1_n_n_wf : DotDims.WF S2560x64 S64x2 S2560x2 [1] [0] [0] [1] [] []
  dot_S1280x32768_S32768x128_S1280x128_1_0_0_1_n_n_wf : DotDims.WF S1280x32768 S32768x128 S1280x128 [1] [0] [0] [1] [] []
  dot_S1280x128_S128x32_S1280x32_1_0_0_1_n_n_wf : DotDims.WF S1280x128 S128x32 S1280x32 [1] [0] [0] [1] [] []
  dot_S1280x32_S32x3_S1280x3_1_0_0_1_n_n_wf : DotDims.WF S1280x32 S32x3 S1280x3 [1] [0] [0] [1] [] []
  gather_S1280x3_S1280x1x1_S1280x1_n_1_0_0_1_2_11_wf : GatherDims.WF S1280x3 S1280x1x1 S1280x1 [] [1] [0] [1] [0] 2 ![1, 1]

variable [Facts₀]

def dot_S10x128x32768_S10x128x32768_S10x128x128_2_2_1_1_0_0 : DotDims S10x128x32768 S10x128x32768 S10x128x128 where
  lhsContracting := [2]
  rhsContracting := [2]
  lhsNonContracting := [1]
  rhsNonContracting := [1]
  lhsBatch := [0]
  rhsBatch := [0]
  wf := dot_S10x128x32768_S10x128x32768_S10x128x128_2_2_1_1_0_0_wf
def dot_S1280x32768_S32768x1280_S1280x1280_1_0_0_1_n_n : DotDims S1280x32768 S32768x1280 S1280x1280 where
  lhsContracting := [1]
  rhsContracting := [0]
  lhsNonContracting := [0]
  rhsNonContracting := [1]
  lhsBatch := []
  rhsBatch := []
  wf := dot_S1280x32768_S32768x1280_S1280x1280_1_0_0_1_n_n_wf
def dot_S2560x32768_S32768x128_S2560x128_1_0_0_1_n_n : DotDims S2560x32768 S32768x128 S2560x128 where
  lhsContracting := [1]
  rhsContracting := [0]
  lhsNonContracting := [0]
  rhsNonContracting := [1]
  lhsBatch := []
  rhsBatch := []
  wf := dot_S2560x32768_S32768x128_S2560x128_1_0_0_1_n_n_wf
def dot_S2560x128_S128x64_S2560x64_1_0_0_1_n_n : DotDims S2560x128 S128x64 S2560x64 where
  lhsContracting := [1]
  rhsContracting := [0]
  lhsNonContracting := [0]
  rhsNonContracting := [1]
  lhsBatch := []
  rhsBatch := []
  wf := dot_S2560x128_S128x64_S2560x64_1_0_0_1_n_n_wf
def dot_S2560x64_S64x2_S2560x2_1_0_0_1_n_n : DotDims S2560x64 S64x2 S2560x2 where
  lhsContracting := [1]
  rhsContracting := [0]
  lhsNonContracting := [0]
  rhsNonContracting := [1]
  lhsBatch := []
  rhsBatch := []
  wf := dot_S2560x64_S64x2_S2560x2_1_0_0_1_n_n_wf
def dot_S1280x32768_S32768x128_S1280x128_1_0_0_1_n_n : DotDims S1280x32768 S32768x128 S1280x128 where
  lhsContracting := [1]
  rhsContracting := [0]
  lhsNonContracting := [0]
  rhsNonContracting := [1]
  lhsBatch := []
  rhsBatch := []
  wf := dot_S1280x32768_S32768x128_S1280x128_1_0_0_1_n_n_wf
def dot_S1280x128_S128x32_S1280x32_1_0_0_1_n_n : DotDims S1280x128 S128x32 S1280x32 where
  lhsContracting := [1]
  rhsContracting := [0]
  lhsNonContracting := [0]
  rhsNonContracting := [1]
  lhsBatch := []
  rhsBatch := []
  wf := dot_S1280x128_S128x32_S1280x32_1_0_0_1_n_n_wf
def dot_S1280x32_S32x3_S1280x3_1_0_0_1_n_n : DotDims S1280x32 S32x3 S1280x3 where
  lhsContracting := [1]
  rhsContracting := [0]
  lhsNonContracting := [0]
  rhsNonContracting := [1]
  lhsBatch := []
  rhsBatch := []
  wf := dot_S1280x32_S32x3_S1280x3_1_0_0_1_n_n_wf
def gather_S1280x3_S1280x1x1_S1280x1_n_1_0_0_1_2_11 : GatherDims S1280x3 S1280x1x1 S1280x1 where
  offsetDims := []
  collapsedSliceDims := [1]
  operandBatchingDims := [0]
  startIndicesBatchingDims := [0]
  startIndexMap := [1]
  indexVectorDim := 2
  sliceSizes := ![1, 1]
  wf := gather_S1280x3_S1280x1x1_S1280x1_n_1_0_0_1_2_11_wf

class Facts : Prop extends Facts₀ where

variable [Facts]
-- ==== Proof.KI.Conds.lean ====
/-
  The kernel body branches twice on the grid position (p, k) of the 2 × 128 grid: it clears its eight accumulators
  when k = 0, and copies them into the output blocks when k = 127. Both conditions are scalar chains over the second
  grid coordinate; here they are named and decided over the 256 points, the point t being (t / 128, t % 128).
-/
import proofs.«409862_j41274635715290_3_alg».proof.Proof.Gen.KernelIdeal.Launch
import proofs.«409862_j41274635715290_3_alg».proof.Proof.Gen.KernelIdeal.Skeleton
import proofs.«409862_j41274635715290_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.Sem
open Cert.KernelIdeal Cert.KernelIdeal.Gen

/-- The accumulators are cleared: k = 0. -/
abbrev cond0_0 (i : grid0.Coords) : Prop :=
  (Scalar.cmpi .ne (Scalar.extui (Scalar.cmpi .eq (BitVec.ofNat 32 (i 1).val) 0#32)) 0#32) = 1#1

/-- k = 0 exactly at the points t with t % 128 = 0. -/
theorem hcond0_0 : ∀ t : Fin cfg0.N, cond0_0 (grid0.coords t) ↔ t.val % 128 = 0 :=
  (by decide +kernel : ∀ t : Fin grid0.N, cond0_0 (grid0.coords t) ↔ t.val % 128 = 0)

/-- The accumulators are copied out: k = 127. -/
abbrev cond0_1 (i : grid0.Coords) : Prop := k0_cond2 i = 1#1

/-- k = 127 exactly at the points t with t % 128 = 127. -/
theorem hcond0_1 : ∀ t : Fin cfg0.N, cond0_1 (grid0.coords t) ↔ t.val % 128 = 127 :=
  (by decide +kernel : ∀ t : Fin grid0.N, cond0_1 (grid0.coords t) ↔ t.val % 128 = 127)

end Cert.KernelIdeal.Fr

end
-- ==== Proof.KI.TailOps.lean ====
/-
  After its one pallas_call the program runs 242 host operations, printed as twenty stretches (a stretch ends where an
  outlined function is entered or left). Here they are listed in program order, for the launch and for the modules that
  read what the stretches compute.
-/
import proofs.«409862_j41274635715290_3_alg».proof.Proof.Gen.KernelIdeal.Launch

noncomputable section

namespace Cert.KernelIdeal.Fr

open Idealize.ShloMosaic Idealize.ShloMosaic.TcCoe
open Cert.KernelIdeal Cert.KernelIdeal.Gen

variable {F : FTy → Type} [FloatOps F]

/-- The host operations after the region, stretch by stretch. -/
abbrev tailOps : List (List (HloOp τ sig (Elt F))) :=
  [hostOps1, hostOps1_1, hostOps1_2, hostOps1_3, hostOps1_4, hostOps1_5, hostOps1_6, hostOps1_7, hostOps1_8, hostOps1_9,
   hostOps1_10, hostOps1_11, hostOps1_12, hostOps1_13, hostOps1_14, hostOps1_15, hostOps1_16, hostOps1_17, hostOps1_18, hostOps1_19]

end Cert.KernelIdeal.Fr

end
-- ==== Proof.KI.Runs.lean ====
/-
  What the three case runs of the kernel body and the frame certificate share. The program is one region on a 2 × 128
  grid followed by 242 host operations in twenty stretches, with no host operation before the region. Here: the buffer
  contents at the region's entry; @main as the region continued by the stretches; that the stretches touch unscoped
  TensorCore references only, allocate nothing, and each writes one buffer — its own result, which is none of the twelve
  arrays of the pipeline and none of the eleven arguments that bypass it —, so that all fifteen arguments end as they
  were launched; the input windows' blocks, present in their staging buffers at every point; where the eight output
  windows are idle (everywhere but at k = 127); and the staging and scratch operands the body is run on.
-/
import proofs.«409862_j41274635715290_3_alg».proof.Proof.KI.Conds
import proofs.«409862_j41274635715290_3_alg».proof.Proof.KI.TailOps

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s TensorCore buffer contents when the region is entered, as a valuation: no host operation precedes the
    region, so these are the launch contents. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-! ## What the host operations after the region write

Each of the 242 operations writes exactly one buffer, its own result, and that result is none of the twelve arrays of
the pipeline and none of the eleven arguments that bypass the region. -/

/-- The references the lines after the region leave alone: the four staged arguments and the eight results of the
    region (the pipeline's arrays), then the eleven arguments no window stages. -/
abbrev keepL : List (Ref sig .tc) :=
  [main_arg0, main_arg1, main_arg3, main_arg9, main_v0_0, main_v0_1, main_v0_2, main_v0_3, main_v0_4, main_v0_5, main_v0_6, main_v0_7,
   main_arg2, main_arg4, main_arg5, main_arg6, main_arg7, main_arg8, main_arg10, main_arg11, main_arg12, main_arg13, main_arg14]

/-- An operation writes one buffer only, and it is not among `keepL`. -/
abbrev WritesOff (op : HloOp τ sig (Elt F)) : Prop :=
  ∃ y : Ref sig .tc, op.writes = {Proc.devRef .tc y} ∧ y ∉ keepL

/-- Such an operation leaves every reference of `keepL` as it was. -/
theorem not_mem_writes_of_off {op : HloOp τ sig (Elt F)} (h : WritesOff op) {b : Ref sig .tc} (hb : b ∈ keepL) :
    Proc.devRef .tc b ∉ op.writes := by
  obtain ⟨y, hw, hy⟩ := h
  rw [hw, Finset.mem_singleton]
  intro e
  exact hy (Proc.devRef_injective _ e ▸ hb)

/-- Every array of the pipeline is among `keepL`. -/
theorem arr_mem_keepL : ∀ w, Pipeline.arrRef spec0 w ∈ keepL := by decide

theorem hostOps1_off : (hostOps1 : List (HloOp τ sig (Elt F))).Forall WritesOff := by
  simp only [List.Forall]
  repeat' (first | exact ⟨_, rfl, by decide⟩ | apply And.intro)
theorem hostOps1_1_off : (hostOps1_1 : List (HloOp τ sig (Elt F))).Forall WritesOff := by
  simp only [List.Forall]
  repeat' (first | exact ⟨_, rfl, by decide⟩ | apply And.intro)
theorem hostOps1_2_off : (hostOps1_2 : List (HloOp τ sig (Elt F))).Forall WritesOff := by
  simp only [List.Forall]
  repeat' (first | exact ⟨_, rfl, by decide⟩ | apply And.intro)
theorem hostOps1_3_off : (hostOps1_3 : List (HloOp τ sig (Elt F))).Forall WritesOff := by
  simp only [List.Forall]
  repeat' (first | exact ⟨_, rfl, by decide⟩ | apply And.intro)
theorem hostOps1_4_off : (hostOps1_4 : List (HloOp τ sig (Elt F))).Forall WritesOff := by
  simp only [List.Forall]
  repeat' (first | exact ⟨_, rfl, by decide⟩ | apply And.intro)
theorem hostOps1_5_off : (hostOps1_5 : List (HloOp τ sig (Elt F))).Forall WritesOff := by
  simp only [List.Forall]
  repeat' (first | exact ⟨_, rfl, by decide⟩ | apply And.intro)
theorem hostOps1_6_off : (hostOps1_6 : List (HloOp τ sig (Elt F))).Forall WritesOff := by
  simp only [List.Forall]
  repeat' (first | exact ⟨_, rfl, by decide⟩ | apply And.intro)
theorem hostOps1_7_off : (hostOps1_7 : List (HloOp τ sig (Elt F))).Forall WritesOff := by
  simp only [List.Forall]
  repeat' (first | exact ⟨_, rfl, by decide⟩ | apply And.intro)
theorem hostOps1_8_off : (hostOps1_8 : List (HloOp τ sig (Elt F))).Forall WritesOff := by
  simp only [List.Forall]
  repeat' (first | exact ⟨_, rfl, by decide⟩ | apply And.intro)
theorem hostOps1_9_off : (hostOps1_9 : List (HloOp τ sig (Elt F))).Forall WritesOff := by
  simp only [List.Forall]
  repeat' (first | exact ⟨_, rfl, by decide⟩ | apply And.intro)
theorem hostOps1_10_off : (hostOps1_10 : List (HloOp τ sig (Elt F))).Forall WritesOff := by
  simp only [List.Forall]
  repeat' (first | exact ⟨_, rfl, by decide⟩ | apply And.intro)
theorem hostOps1_11_off : (hostOps1_11 : List (HloOp τ sig (Elt F))).Forall WritesOff := by
  simp only [List.Forall]
  repeat' (first | exact ⟨_, rfl, by decide⟩ | apply And.intro)
theorem hostOps1_12_off : (hostOps1_12 : List (HloOp τ sig (Elt F))).Forall WritesOff := by
  simp only [List.Forall]
  repeat' (first | exact ⟨_, rfl, by decide⟩ | apply And.intro)
theorem hostOps1_13_off : (hostOps1_13 : List (HloOp τ sig (Elt F))).Forall WritesOff := by
  simp only [List.Forall]
  repeat' (first | exact ⟨_, rfl, by decide⟩ | apply And.intro)
theorem hostOps1_14_off : (hostOps1_14 : List (HloOp τ sig (Elt F))).Forall WritesOff := by
  simp only [List.Forall]
  repeat' (first | exact ⟨_, rfl, by decide⟩ | apply And.intro)
theorem hostOps1_15_off : (hostOps1_15 : List (HloOp τ sig (Elt F))).Forall WritesOff := by
  simp only [List.Forall]
  repeat' (first | exact ⟨_, rfl, by decide⟩ | apply And.intro)
theorem hostOps1_16_off : (hostOps1_16 : List (HloOp τ sig (Elt F))).Forall WritesOff := by
  simp only [List.Forall]
  repeat' (first | exact ⟨_, rfl, by decide⟩ | apply And.intro)
theorem hostOps1_17_off : (hostOps1_17 : List (HloOp τ sig (Elt F))).Forall WritesOff := by
  simp only [List.Forall]
  repeat' (first | exact ⟨_, rfl, by decide⟩ | apply And.intro)
theorem hostOps1_18_off : (hostOps1_18 : List (HloOp τ sig (Elt F))).Forall WritesOff := by
  simp only [List.Forall]
  repeat' (first | exact ⟨_, rfl, by decide⟩ | apply And.intro)
theorem hostOps1_19_off : (hostOps1_19 : List (HloOp τ sig (Elt F))).Forall WritesOff := by
  simp only [List.Forall]
  repeat' (first | exact ⟨_, rfl, by decide⟩ | apply And.intro)

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor
theorem hostOps1_15_fresh : (hostOps1_15 : List (HloOp τ sig (Elt F))).Forall fun op => op.fresh = ∅ := by
  simp only [List.Forall]; repeat' constructor
theorem hostOps1_16_fresh : (hostOps1_16 : List (HloOp τ sig (Elt F))).Forall fun op => op.fresh = ∅ := by
  simp only [List.Forall]; repeat' constructor
theorem hostOps1_17_fresh : (hostOps1_17 : List (HloOp τ sig (Elt F))).Forall fun op => op.fresh = ∅ := by
  simp only [List.Forall]; repeat' constructor
theorem hostOps1_18_fresh : (hostOps1_18 : List (HloOp τ sig (Elt F))).Forall fun op => op.fresh = ∅ := by
  simp only [List.Forall]; repeat' constructor
theorem hostOps1_19_fresh : (hostOps1_19 : List (HloOp τ sig (Elt F))).Forall fun op => op.fresh = ∅ := by
  simp only [List.Forall]; repeat' constructor

/-- Stretch by stretch: each operation touches TensorCore references only. -/
theorem tail_sub : (tailOps (F := F)).Forall fun ops => ops.Forall fun op => op.bufs ⊆ StableHlo.tcRefs τ sig :=
  ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub, hostOps1_15_sub, hostOps1_16_sub, hostOps1_17_sub, hostOps1_18_sub, hostOps1_19_sub⟩
/-- Stretch by stretch: no operation allocates. -/
theorem tail_fresh : (tailOps (F := F)).Forall fun ops => ops.Forall fun op => op.fresh = ∅ :=
  ⟨hostOps1_fresh, hostOps1_1_fresh, hostOps1_2_fresh, hostOps1_3_fresh, hostOps1_4_fresh, hostOps1_5_fresh, hostOps1_6_fresh, hostOps1_7_fresh, hostOps1_8_fresh, hostOps1_9_fresh, hostOps1_10_fresh, hostOps1_11_fresh, hostOps1_12_fresh, hostOps1_13_fresh, hostOps1_14_fresh, hostOps1_15_fresh, hostOps1_16_fresh, hostOps1_17_fresh, hostOps1_18_fresh, hostOps1_19_fresh⟩
/-- Stretch by stretch: each operation writes its own result only, off `keepL`. -/
theorem tail_off : (tailOps (F := F)).Forall fun ops => ops.Forall WritesOff :=
  ⟨hostOps1_off, hostOps1_1_off, hostOps1_2_off, hostOps1_3_off, hostOps1_4_off, hostOps1_5_off, hostOps1_6_off, hostOps1_7_off, hostOps1_8_off, hostOps1_9_off, hostOps1_10_off, hostOps1_11_off, hostOps1_12_off, hostOps1_13_off, hostOps1_14_off, hostOps1_15_off, hostOps1_16_off, hostOps1_17_off, hostOps1_18_off, hostOps1_19_off⟩

/-- @main around the region, at the certificate's variants `𝒱₀`: no host line before it, the region, the twenty stretches
    after it: it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

/-- The lines after the region touch the pipeline's arrays and the bypassing buffers only (each operation's buffers are
    unscoped TensorCore references, and with nothing prefetched every such reference is one or the other). -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op ((List.forall_iff_forall_mem.mp ((List.forall_iff_forall_mem.mp tail_sub) ops hops)) op hop)
/-- They allocate nothing. -/
theorem sfx_fresh : ∀ ops ∈ (tailOps : List (List (HloOp τ sig (Elt F)))), ∀ op ∈ ops, op.fresh = ∅ :=
  fun ops hops op hop => (List.forall_iff_forall_mem.mp ((List.forall_iff_forall_mem.mp tail_fresh) ops hops)) op hop
/-- Each operation of the lines after the region writes off `keepL`. -/
theorem sfx_off : ∀ ops ∈ (tailOps : List (List (HloOp τ sig (Elt F)))), ∀ op ∈ ops, WritesOff op :=
  fun ops hops op hop => (List.forall_iff_forall_mem.mp ((List.forall_iff_forall_mem.mp tail_off) ops hops)) op hop
/-- And write no array of the pipeline (each writes only its own result buffer, which is no array). -/
theorem sfx_keeps : ∀ ops ∈ (tailOps : List (List (HloOp τ sig (Elt F)))), ∀ op ∈ ops,
    ∀ w, Proc.devRef .tc (Pipeline.arrRef spec0 w) ∉ op.writes :=
  fun ops hops op hop w => not_mem_writes_of_off (sfx_off ops hops op hop) (arr_mem_keepL w)

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl
theorem V_main_arg9 (c : Dev nD) : V m c main_arg9 = m ((c : Thread nD τ).loc main_arg9) := rfl
theorem V_main_arg10 (c : Dev nD) : V m c main_arg10 = m ((c : Thread nD τ).loc main_arg10) := rfl
theorem V_main_arg11 (c : Dev nD) : V m c main_arg11 = m ((c : Thread nD τ).loc main_arg11) := rfl
theorem V_main_arg12 (c : Dev nD) : V m c main_arg12 = m ((c : Thread nD τ).loc main_arg12) := rfl
theorem V_main_arg13 (c : Dev nD) : V m c main_arg13 = m ((c : Thread nD τ).loc main_arg13) := rfl
theorem V_main_arg14 (c : Dev nD) : V m c main_arg14 = m ((c : Thread nD τ).loc main_arg14) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for ANY proof data whose array is `V`'s
    (`hA`) and whose body leaves the block in place (`hafter`): the window is fetched at every point, uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, for ANY proof data whose array is `V`'s
    (`hA`) and whose body leaves the block in place (`hafter`): the window is fetched at every point, uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, for ANY proof data whose array is `V`'s
    (`hA`) and whose body leaves the block in place (`hafter`): the window is fetched at every point, uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, for ANY proof data whose array is `V`'s
    (`hA`) and whose body leaves the block in place (`hafter`): the window is fetched at every point, uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- An argument no window stages holds, after the lines that follow the region, what it held at the launch: no line
    writes it, and it is no array of the pipeline. -/
theorem afterTail_kept (dats : (p : Fin 1) → (c : Dev nD) → Dat τ (Elt F) Unit ℕ (UR sig nD τ) ℕ (cfgs p) c) (c : Dev nD)
    (b : Ref sig .tc) (hb : b ∈ keepL) (harr : ∀ w, Pipeline.arrRef spec0 w ≠ b) :
    Pipeline.afterTail₀ cfgs dats 0 (V0 m) tailOps c b = V m c b := by
  unfold Pipeline.afterTail₀
  rw [StableHlo.after_of_forall_not_mem _ _ fun op hop => ?_, Pipeline.withArrays_of_ne _ c (V0 m c) _ b harr]
  obtain ⟨ops, hops, hop'⟩ := List.mem_flatten.mp hop
  exact not_mem_writes_of_off (sfx_off ops hops op hop') hb

/-- The result `main_v113` is unscoped and no array of the pipeline: the frame run's post speaks of it by its second clause. -/
theorem rest_mem_main_v113 : main_v113 ∈ Pipeline.restRefs sig spec0 := Pipeline.mem_restRefs_of main_v113 (by decide) (by decide)
/-- The result `main_v138` is unscoped and no array of the pipeline: the frame run's post speaks of it by its second clause. -/
theorem rest_mem_main_v138 : main_v138 ∈ Pipeline.restRefs sig spec0 := Pipeline.mem_restRefs_of main_v138 (by decide) (by decide)
/-- The result `main_v102` is unscoped and no array of the pipeline: the frame run's post speaks of it by its second clause. -/
theorem rest_mem_main_v102 : main_v102 ∈ Pipeline.restRefs sig spec0 := Pipeline.mem_restRefs_of main_v102 (by decide) (by decide)
/-- The result `main_v139` is unscoped and no array of the pipeline: the frame run's post speaks of it by its second clause. -/
theorem rest_mem_main_v139 : main_v139 ∈ Pipeline.restRefs sig spec0 := Pipeline.mem_restRefs_of main_v139 (by decide) (by decide)
/-- The result `main_v59` is unscoped and no array of the pipeline: the frame run's post speaks of it by its second clause. -/
theorem rest_mem_main_v59 : main_v59 ∈ Pipeline.restRefs sig spec0 := Pipeline.mem_restRefs_of main_v59 (by decide) (by decide)

/-- The fifteen arguments end as they were launched, at one final state `r` of the frame run's post and one core: a
    staged input by the library's reading of an input array at the region's exit, an argument no window stages by the
    post's second clause and `afterTail_kept`. -/
theorem args_kept (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) tailOps) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  ⟨((h c).1 0).trans (((dats 0 c).arrAt_in 0 rfl _).trans ((hA c 0).trans (V_main_arg0 m c))),
   ((h c).1 1).trans (((dats 0 c).arrAt_in 1 rfl _).trans ((hA c 1).trans (V_main_arg1 m c))),
   ((h c).2 main_arg2 (Pipeline.mem_restRefs_of main_arg2 (by decide) (by decide))).trans ((afterTail_kept m dats c main_arg2 (by decide) (by decide)).trans (V_main_arg2 m c)),
   ((h c).1 2).trans (((dats 0 c).arrAt_in 2 rfl _).trans ((hA c 2).trans (V_main_arg3 m c))),
   ((h c).2 main_arg4 (Pipeline.mem_restRefs_of main_arg4 (by decide) (by decide))).trans ((afterTail_kept m dats c main_arg4 (by decide) (by decide)).trans (V_main_arg4 m c)),
   ((h c).2 main_arg5 (Pipeline.mem_restRefs_of main_arg5 (by decide) (by decide))).trans ((afterTail_kept m dats c main_arg5 (by decide) (by decide)).trans (V_main_arg5 m c)),
   ((h c).2 main_arg6 (Pipeline.mem_restRefs_of main_arg6 (by decide) (by decide))).trans ((afterTail_kept m dats c main_arg6 (by decide) (by decide)).trans (V_main_arg6 m c)),
   ((h c).2 main_arg7 (Pipeline.mem_restRefs_of main_arg7 (by decide) (by decide))).trans ((afterTail_kept m dats c main_arg7 (by decide) (by decide)).trans (V_main_arg7 m c)),
   ((h c).2 main_arg8 (Pipeline.mem_restRefs_of main_arg8 (by decide) (by decide))).trans ((afterTail_kept m dats c main_arg8 (by decide) (by decide)).trans (V_main_arg8 m c)),
   ((h c).1 3).trans (((dats 0 c).arrAt_in 3 rfl _).trans ((hA c 3).trans (V_main_arg9 m c))),
   ((h c).2 main_arg10 (Pipeline.mem_restRefs_of main_arg10 (by decide) (by decide))).trans ((afterTail_kept m dats c main_arg10 (by decide) (by decide)).trans (V_main_arg10 m c)),
   ((h c).2 main_arg11 (Pipeline.mem_restRefs_of main_arg11 (by decide) (by decide))).trans ((afterTail_kept m dats c main_arg11 (by decide) (by decide)).trans (V_main_arg11 m c)),
   ((h c).2 main_arg12 (Pipeline.mem_restRefs_of main_arg12 (by decide) (by decide))).trans ((afterTail_kept m dats c main_arg12 (by decide) (by decide)).trans (V_main_arg12 m c)),
   ((h c).2 main_arg13 (Pipeline.mem_restRefs_of main_arg13 (by decide) (by decide))).trans ((afterTail_kept m dats c main_arg13 (by decide) (by decide)).trans (V_main_arg13 m c)),
   ((h c).2 main_arg14 (Pipeline.mem_restRefs_of main_arg14 (by decide) (by decide))).trans ((afterTail_kept m dats c main_arg14 (by decide) (by decide)).trans (V_main_arg14 m c))⟩

/-- THE FRAME from a frame run: for any proof data whose arrays are the region-entry contents (`hA`), a run to the frame
    run's post is the frame claim's post (at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => args_kept m dats hA r h c) h

/-! ## Where the windows are idle (the printed configuration's table `Cfg.idle`) -/

/-- Window 0 is never idle (an input). -/
theorem liveAt0_0 : ∀ t : Fin cfg0.N, cfg0.idle 0 (grid0.coords t) = false := by decide +kernel
/-- Window 1 is never idle (an input). -/
theorem liveAt0_1 : ∀ t : Fin cfg0.N, cfg0.idle 1 (grid0.coords t) = false := by decide +kernel
/-- Window 2 is never idle (an input). -/
theorem liveAt0_2 : ∀ t : Fin cfg0.N, cfg0.idle 2 (grid0.coords t) = false := by decide +kernel
/-- Window 3 is never idle (an input). -/
theorem liveAt0_3 : ∀ t : Fin cfg0.N, cfg0.idle 3 (grid0.coords t) = false := by decide +kernel
/-- At the points with k = 0 output 4 is idle: nothing is stored into it. -/
theorem idleAt0_4_A : ∀ t : Fin cfg0.N, cond0_0 (grid0.coords t) → ¬cond0_1 (grid0.coords t) → cfg0.idle 4 (grid0.coords t) = true := by decide +kernel
/-- At the points with k = 0 output 4's block is not written back. -/
theorem noFlush0_4_A : ∀ t : Fin cfg0.N, cond0_0 (grid0.coords t) → ¬cond0_1 (grid0.coords t) → (cfg0.win 4).flush t = false := by decide +kernel
/-- At the points with 0 < k < 127 output 4 is idle: nothing is stored into it. -/
theorem idleAt0_4_B : ∀ t : Fin cfg0.N, ¬cond0_0 (grid0.coords t) → ¬cond0_1 (grid0.coords t) → cfg0.idle 4 (grid0.coords t) = true := by decide +kernel
/-- At the points with 0 < k < 127 output 4's block is not written back. -/
theorem noFlush0_4_B : ∀ t : Fin cfg0.N, ¬cond0_0 (grid0.coords t) → ¬cond0_1 (grid0.coords t) → (cfg0.win 4).flush t = false := by decide +kernel
/-- At the points with k = 127 output 4 is live: its accumulator is copied into it. -/
theorem liveAt0_4_C : ∀ t : Fin cfg0.N, ¬cond0_0 (grid0.coords t) → cond0_1 (grid0.coords t) → cfg0.idle 4 (grid0.coords t) = false := by decide +kernel
/-- At the points with k = 0 output 5 is idle: nothing is stored into it. -/
theorem idleAt0_5_A : ∀ t : Fin cfg0.N, cond0_0 (grid0.coords t) → ¬cond0_1 (grid0.coords t) → cfg0.idle 5 (grid0.coords t) = true := by decide +kernel
/-- At the points with k = 0 output 5's block is not written back. -/
theorem noFlush0_5_A : ∀ t : Fin cfg0.N, cond0_0 (grid0.coords t) → ¬cond0_1 (grid0.coords t) → (cfg0.win 5).flush t = false := by decide +kernel
/-- At the points with 0 < k < 127 output 5 is idle: nothing is stored into it. -/
theorem idleAt0_5_B : ∀ t : Fin cfg0.N, ¬cond0_0 (grid0.coords t) → ¬cond0_1 (grid0.coords t) → cfg0.idle 5 (grid0.coords t) = true := by decide +kernel
/-- At the points with 0 < k < 127 output 5's block is not written back. -/
theorem noFlush0_5_B : ∀ t : Fin cfg0.N, ¬cond0_0 (grid0.coords t) → ¬cond0_1 (grid0.coords t) → (cfg0.win 5).flush t = false := by decide +kernel
/-- At the points with k = 127 output 5 is live: its accumulator is copied into it. -/
theorem liveAt0_5_C : ∀ t : Fin cfg0.N, ¬cond0_0 (grid0.coords t) → cond0_1 (grid0.coords t) → cfg0.idle 5 (grid0.coords t) = false := by decide +kernel
/-- At the points with k = 0 output 6 is idle: nothing is stored into it. -/
theorem idleAt0_6_A : ∀ t : Fin cfg0.N, cond0_0 (grid0.coords t) → ¬cond0_1 (grid0.coords t) → cfg0.idle 6 (grid0.coords t) = true := by decide +kernel
/-- At the points with k = 0 output 6's block is not written back. -/
theorem noFlush0_6_A : ∀ t : Fin cfg0.N, cond0_0 (grid0.coords t) → ¬cond0_1 (grid0.coords t) → (cfg0.win 6).flush t = false := by decide +kernel
/-- At the points with 0 < k < 127 output 6 is idle: nothing is stored into it. -/
theorem idleAt0_6_B : ∀ t : Fin cfg0.N, ¬cond0_0 (grid0.coords t) → ¬cond0_1 (grid0.coords t) → cfg0.idle 6 (grid0.coords t) = true := by decide +kernel
/-- At the points with 0 < k < 127 output 6's block is not written back. -/
theorem noFlush0_6_B : ∀ t : Fin cfg0.N, ¬cond0_0 (grid0.coords t) → ¬cond0_1 (grid0.coords t) → (cfg0.win 6).flush t = false := by decide +kernel
/-- At the points with k = 127 output 6 is live: its accumulator is copied into it. -/
theorem liveAt0_6_C : ∀ t : Fin cfg0.N, ¬cond0_0 (grid0.coords t) → cond0_1 (grid0.coords t) → cfg0.idle 6 (grid0.coords t) = false := by decide +kernel
/-- At the points with k = 0 output 7 is idle: nothing is stored into it. -/
theorem idleAt0_7_A : ∀ t : Fin cfg0.N, cond0_0 (grid0.coords t) → ¬cond0_1 (grid0.coords t) → cfg0.idle 7 (grid0.coords t) = true := by decide +kernel
/-- At the points with k = 0 output 7's block is not written back. -/
theorem noFlush0_7_A : ∀ t : Fin cfg0.N, cond0_0 (grid0.coords t) → ¬cond0_1 (grid0.coords t) → (cfg0.win 7).flush t = false := by decide +kernel
/-- At the points with 0 < k < 127 output 7 is idle: nothing is stored into it. -/
theorem idleAt0_7_B : ∀ t : Fin cfg0.N, ¬cond0_0 (grid0.coords t) → ¬cond0_1 (grid0.coords t) → cfg0.idle 7 (grid0.coords t) = true := by decide +kernel
/-- At the points with 0 < k < 127 output 7's block is not written back. -/
theorem noFlush0_7_B : ∀ t : Fin cfg0.N, ¬cond0_0 (grid0.coords t) → ¬cond0_1 (grid0.coords t) → (cfg0.win 7).flush t = false := by decide +kernel
/-- At the points with k = 127 output 7 is live: its accumulator is copied into it. -/
theorem liveAt0_7_C : ∀ t : Fin cfg0.N, ¬cond0_0 (grid0.coords t) → cond0_1 (grid0.coords t) → cfg0.idle 7 (grid0.coords t) = false := by decide +kernel
/-- At the points with k = 0 output 8 is idle: nothing is stored into it. -/
theorem idleAt0_8_A : ∀ t : Fin cfg0.N, cond0_0 (grid0.coords t) → ¬cond0_1 (grid0.coords t) → cfg0.idle 8 (grid0.coords t) = true := by decide +kernel
/-- At the points with k = 0 output 8's block is not written back. -/
theorem noFlush0_8_A : ∀ t : Fin cfg0.N, cond0_0 (grid0.coords t) → ¬cond0_1 (grid0.coords t) → (cfg0.win 8).flush t = false := by decide +kernel
/-- At the points with 0 < k < 127 output 8 is idle: nothing is stored into it. -/
theorem idleAt0_8_B : ∀ t : Fin cfg0.N, ¬cond0_0 (grid0.coords t) → ¬cond0_1 (grid0.coords t) → cfg0.idle 8 (grid0.coords t) = true := by decide +kernel
/-- At the points with 0 < k < 127 output 8's block is not written back. -/
theorem noFlush0_8_B : ∀ t : Fin cfg0.N, ¬cond0_0 (grid0.coords t) → ¬cond0_1 (grid0.coords t) → (cfg0.win 8).flush t = false := by decide +kernel
/-- At the points with k = 127 output 8 is live: its accumulator is copied into it. -/
theorem liveAt0_8_C : ∀ t : Fin cfg0.N, ¬cond0_0 (grid0.coords t) → cond0_1 (grid0.coords t) → cfg0.idle 8 (grid0.coords t) = false := by decide +kernel
/-- At the points with k = 0 output 9 is idle: nothing is stored into it. -/
theorem idleAt0_9_A : ∀ t : Fin cfg0.N, cond0_0 (grid0.coords t) → ¬cond0_1 (grid0.coords t) → cfg0.idle 9 (grid0.coords t) = true := by decide +kernel
/-- At the points with k = 0 output 9's block is not written back. -/
theorem noFlush0_9_A : ∀ t : Fin cfg0.N, cond0_0 (grid0.coords t) → ¬cond0_1 (grid0.coords t) → (cfg0.win 9).flush t = false := by decide +kernel
/-- At the points with 0 < k < 127 output 9 is idle: nothing is stored into it. -/
theorem idleAt0_9_B : ∀ t : Fin cfg0.N, ¬cond0_0 (grid0.coords t) → ¬cond0_1 (grid0.coords t) → cfg0.idle 9 (grid0.coords t) = true := by decide +kernel
/-- At the points with 0 < k < 127 output 9's block is not written back. -/
theorem noFlush0_9_B : ∀ t : Fin cfg0.N, ¬cond0_0 (grid0.coords t) → ¬cond0_1 (grid0.coords t) → (cfg0.win 9).flush t = false := by decide +kernel
/-- At the points with k = 127 output 9 is live: its accumulator is copied into it. -/
theorem liveAt0_9_C : ∀ t : Fin cfg0.N, ¬cond0_0 (grid0.coords t) → cond0_1 (grid0.coords t) → cfg0.idle 9 (grid0.coords t) = false := by decide +kernel
/-- At the points with k = 0 output 10 is idle: nothing is stored into it. -/
theorem idleAt0_10_A : ∀ t : Fin cfg0.N, cond0_0 (grid0.coords t) → ¬cond0_1 (grid0.coords t) → cfg0.idle 10 (grid0.coords t) = true := by decide +kernel
/-- At the points with k = 0 output 10's block is not written back. -/
theorem noFlush0_10_A : ∀ t : Fin cfg0.N, cond0_0 (grid0.coords t) → ¬cond0_1 (grid0.coords t) → (cfg0.win 10).flush t = false := by decide +kernel
/-- At the points with 0 < k < 127 output 10 is idle: nothing is stored into it. -/
theorem idleAt0_10_B : ∀ t : Fin cfg0.N, ¬cond0_0 (grid0.coords t) → ¬cond0_1 (grid0.coords t) → cfg0.idle 10 (grid0.coords t) = true := by decide +kernel
/-- At the points with 0 < k < 127 output 10's block is not written back. -/
theorem noFlush0_10_B : ∀ t : Fin cfg0.N, ¬cond0_0 (grid0.coords t) → ¬cond0_1 (grid0.coords t) → (cfg0.win 10).flush t = false := by decide +kernel
/-- At the points with k = 127 output 10 is live: its accumulator is copied into it. -/
theorem liveAt0_10_C : ∀ t : Fin cfg0.N, ¬cond0_0 (grid0.coords t) → cond0_1 (grid0.coords t) → cfg0.idle 10 (grid0.coords t) = false := by decide +kernel
/-- At the points with k = 0 output 11 is idle: nothing is stored into it. -/
theorem idleAt0_11_A : ∀ t : Fin cfg0.N, cond0_0 (grid0.coords t) → ¬cond0_1 (grid0.coords t) → cfg0.idle 11 (grid0.coords t) = true := by decide +kernel
/-- At the points with k = 0 output 11's block is not written back. -/
theorem noFlush0_11_A : ∀ t : Fin cfg0.N, cond0_0 (grid0.coords t) → ¬cond0_1 (grid0.coords t) → (cfg0.win 11).flush t = false := by decide +kernel
/-- At the points with 0 < k < 127 output 11 is idle: nothing is stored into it. -/
theorem idleAt0_11_B : ∀ t : Fin cfg0.N, ¬cond0_0 (grid0.coords t) → ¬cond0_1 (grid0.coords t) → cfg0.idle 11 (grid0.coords t) = true := by decide +kernel
/-- At the points with 0 < k < 127 output 11's block is not written back. -/
theorem noFlush0_11_B : ∀ t : Fin cfg0.N, ¬cond0_0 (grid0.coords t) → ¬cond0_1 (grid0.coords t) → (cfg0.win 11).flush t = false := by decide +kernel
/-- At the points with k = 127 output 11 is live: its accumulator is copied into it. -/
theorem liveAt0_11_C : ∀ t : Fin cfg0.N, ¬cond0_0 (grid0.coords t) → cond0_1 (grid0.coords t) → cfg0.idle 11 (grid0.coords t) = false := by decide +kernel

/-! ## The kernel body's operands: staging memrefs and scratch accumulators -/

/-- One staging buffer of output window 4, through which its contents are stated (the choice does not matter). -/
abbrev VO0_4 : View sig .tc .vmem S1x5x128x128 .f32 := (Memref.whole cc0_stg4_0 : Memref sig .tc .vmem S1x5x128x128 .f32).view
/-- One staging buffer of output window 5, through which its contents are stated (the choice does not matter). -/
abbrev VO0_5 : View sig .tc .vmem S1x5x128x128 .f32 := (Memref.whole cc0_stg5_0 : Memref sig .tc .vmem S1x5x128x128 .f32).view
/-- One staging buffer of output window 6, through which its contents are stated (the choice does not matter). -/
abbrev VO0_6 : View sig .tc .vmem S1x5x128 .f32 := (Memref.whole cc0_stg6_0 : Memref sig .tc .vmem S1x5x128 .f32).view
/-- One staging buffer of output window 7, through which its contents are stated (the choice does not matter). -/
abbrev VO0_7 : View sig .tc .vmem S1x5x128 .f32 := (Memref.whole cc0_stg7_0 : Memref sig .tc .vmem S1x5x128 .f32).view
/-- One staging buffer of output window 8, through which its contents are stated (the choice does not matter). -/
abbrev VO0_8 : View sig .tc .vmem S640x1280 .f32 := (Memref.whole cc0_stg8_0 : Memref sig .tc .vmem S640x1280 .f32).view
/-- One staging buffer of output window 9, through which its contents are stated (the choice does not matter). -/
abbrev VO0_9 : View sig .tc .vmem S640x128 .f32 := (Memref.whole cc0_stg9_0 : Memref sig .tc .vmem S640x128 .f32).view
/-- One staging buffer of output window 10, through which its contents are stated (the choice does not matter). -/
abbrev VO0_10 : View sig .tc .vmem S640x128 .f32 := (Memref.whole cc0_stg10_0 : Memref sig .tc .vmem S640x128 .f32).view
/-- One staging buffer of output window 11, through which its contents are stated (the choice does not matter). -/
abbrev VO0_11 : View sig .tc .vmem S640x128 .f32 := (Memref.whole cc0_stg11_0 : Memref sig .tc .vmem S640x128 .f32).view
/-- Each window's current staging memref at point `t`, spelled as the pipeline passes it, and its wholeness. -/
abbrev ms0_0 (t : Fin cfg0.N) : Memref sig .tc .vmem S640x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1280x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x5x128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x5x128x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x5x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x5x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S640x1280 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S640x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S640x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S640x128 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows; each accumulator the kernel
    carries between points is stated through its view. -/
abbrev scM0_0 : Memref sig .tc .vmem S5x128x128 .f32 := Memref.whole cc0_scratch0
abbrev VS0_0 : View sig .tc .vmem S5x128x128 .f32 := scM0_0.view
abbrev scM0_1 : Memref sig .tc .vmem S5x128x128 .f32 := Memref.whole cc0_scratch1
abbrev VS0_1 : View sig .tc .vmem S5x128x128 .f32 := scM0_1.view
abbrev scM0_2 : Memref sig .tc .vmem S5x128 .f32 := Memref.whole cc0_scratch2
abbrev VS0_2 : View sig .tc .vmem S5x128 .f32 := scM0_2.view
abbrev scM0_3 : Memref sig .tc .vmem S5x128 .f32 := Memref.whole cc0_scratch3
abbrev VS0_3 : View sig .tc .vmem S5x128 .f32 := scM0_3.view
abbrev scM0_4 : Memref sig .tc .vmem S640x1280 .f32 := Memref.whole cc0_scratch4
abbrev VS0_4 : View sig .tc .vmem S640x1280 .f32 := scM0_4.view
abbrev scM0_5 : Memref sig .tc .vmem S640x128 .f32 := Memref.whole cc0_scratch5
abbrev VS0_5 : View sig .tc .vmem S640x128 .f32 := scM0_5.view
abbrev scM0_6 : Memref sig .tc .vmem S640x128 .f32 := Memref.whole cc0_scratch6
abbrev VS0_6 : View sig .tc .vmem S640x128 .f32 := scM0_6.view
abbrev scM0_7 : Memref sig .tc .vmem S640x128 .f32 := Memref.whole cc0_scratch7
abbrev VS0_7 : View sig .tc .vmem S640x128 .f32 := scM0_7.view

/-- The frame kit's invariant with the eight scratch operands as memrefs owned at some contents: what the body
    obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

end Cert.KernelIdeal.Fr

end
-- ==== Proof.KI.RunA.lean ====
/-
  The kernel body at a point with k = 0 (and k ≠ 127), run on any whole memrefs: the four input blocks at their
  contents, the eight output buffers untouched (nothing is stored into them), the eight accumulators at anything —
  each is cleared and then added to, so each ends with two stores written, listed last first.
-/
import proofs.«409862_j41274635715290_3_alg».proof.Proof.KI.Conds

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : cond0_0 i) (hc1 : ¬cond0_1 i)
    (x0 : Vec F S640x256 .f32) (x1 : Vec F S1280x256 .f32) (x2 : Vec F S256x128 .f32) (x3 : Vec F S256x128 .f32) :
    Σ' (LS0 : List (View.Piece (Elt F) S5x128x128 .f32)) (LS1 : List (View.Piece (Elt F) S5x128x128 .f32)) (LS2 : List (View.Piece (Elt F) S5x128 .f32)) (LS3 : List (View.Piece (Elt F) S5x128 .f32)) (LS4 : List (View.Piece (Elt F) S640x1280 .f32)) (LS5 : List (View.Piece (Elt F) S640x128 .f32)) (LS6 : List (View.Piece (Elt F) S640x128 .f32)), { LS7 : List (View.Piece (Elt F) S640x128 .f32) //
      ∀ (xi4 : Vec F S1x5x128x128 .f32) (xi5 : Vec F S1x5x128x128 .f32) (xi6 : Vec F S1x5x128 .f32) (xi7 : Vec F S1x5x128 .f32) (xi8 : Vec F S640x1280 .f32) (xi9 : Vec F S640x128 .f32) (xi10 : Vec F S640x128 .f32) (xi11 : Vec F S640x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xi7 ∗ owns (c : Thread nD τ) arg10 fullShare xi8 ∗ owns (c : Thread nD τ) arg11 fullShare xi9 ∗ owns (c : Thread nD τ) arg12 fullShare xi10 ∗ owns (c : Thread nD τ) arg13 fullShare xi11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xi7 ∗ owns (c : Thread nD τ) arg10 fullShare xi8 ∗ owns (c : Thread nD τ) arg11 fullShare xi9 ∗ owns (c : Thread nD τ) arg12 fullShare xi10 ∗ owns (c : Thread nD τ) arg13 fullShare xi11 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2) ∗ (∃ f, arg17.view.loc (c : Thread nD τ) ↦[arg17.view.set]{fullShare} arg17.view.writes (Elt F) f LS3) ∗ (∃ f, arg18.view.loc (c : Thread nD τ) ↦[arg18.view.set]{fullShare} arg18.view.writes (Elt F) f LS4) ∗ (∃ f, arg19.view.loc (c : Thread nD τ) ↦[arg19.view.set]{fullShare} arg19.view.writes (Elt F) f LS5) ∗ (∃ f, arg20.view.loc (c : Thread nD τ) ↦[arg20.view.set]{fullShare} arg20.view.writes (Elt F) f LS6) ∗ (∃ f, arg21.view.loc (c : Thread nD τ) ↦[arg21.view.set]{fullShare} arg21.view.writes (Elt F) f LS7)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, ?_, fun xi4 xi5 xi6 xi7 xi8 xi9 xi10 xi11 E K => ?run⟩
  case run =>
    simp only [cc0__fused_kernel_eq_skeleton]; unfold cc0__fused_kernel_skel
    simp only [k0_part3_eq_skeleton, k0_part1_eq_skeleton, k0_part4_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    iexists _; iexact HS7

end Cert.KernelIdeal.Fr

end
-- ==== Proof.KI.RunB.lean ====
/-
  The kernel body at a point with 0 < k < 127: the inputs at their contents, the outputs untouched, each accumulator
  at what the point before left in it and ending with one store written.
-/
import proofs.«409862_j41274635715290_3_alg».proof.Proof.KI.RunA

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : ¬cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) :
    Σ' (LS0 : List (View.Piece (Elt F) S5x128x128 .f32)) (LS1 : List (View.Piece (Elt F) S5x128x128 .f32)) (LS2 : List (View.Piece (Elt F) S5x128 .f32)) (LS3 : List (View.Piece (Elt F) S5x128 .f32)) (LS4 : List (View.Piece (Elt F) S640x1280 .f32)) (LS5 : List (View.Piece (Elt F) S640x128 .f32)) (LS6 : List (View.Piece (Elt F) S640x128 .f32)), { LS7 : List (View.Piece (Elt F) S640x128 .f32) //
      ∀ (xi4 : Vec F S1x5x128x128 .f32) (xi5 : Vec F S1x5x128x128 .f32) (xi6 : Vec F S1x5x128 .f32) (xi7 : Vec F S1x5x128 .f32) (xi8 : Vec F S640x1280 .f32) (xi9 : Vec F S640x128 .f32) (xi10 : Vec F S640x128 .f32) (xi11 : Vec F S640x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xi7 ∗ owns (c : Thread nD τ) arg10 fullShare xi8 ∗ owns (c : Thread nD τ) arg11 fullShare xi9 ∗ owns (c : Thread nD τ) arg12 fullShare xi10 ∗ owns (c : Thread nD τ) arg13 fullShare xi11 ∗ owns (c : Thread nD τ) arg14 fullShare xs0 ∗ owns (c : Thread nD τ) arg15 fullShare xs1 ∗ owns (c : Thread nD τ) arg16 fullShare xs2 ∗ owns (c : Thread nD τ) arg17 fullShare xs3 ∗ owns (c : Thread nD τ) arg18 fullShare xs4 ∗ owns (c : Thread nD τ) arg19 fullShare xs5 ∗ owns (c : Thread nD τ) arg20 fullShare xs6 ∗ owns (c : Thread nD τ) arg21 fullShare xs7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xi7 ∗ owns (c : Thread nD τ) arg10 fullShare xi8 ∗ owns (c : Thread nD τ) arg11 fullShare xi9 ∗ owns (c : Thread nD τ) arg12 fullShare xi10 ∗ owns (c : Thread nD τ) arg13 fullShare xi11 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2) ∗ (∃ f, arg17.view.loc (c : Thread nD τ) ↦[arg17.view.set]{fullShare} arg17.view.writes (Elt F) f LS3) ∗ (∃ f, arg18.view.loc (c : Thread nD τ) ↦[arg18.view.set]{fullShare} arg18.view.writes (Elt F) f LS4) ∗ (∃ f, arg19.view.loc (c : Thread nD τ) ↦[arg19.view.set]{fullShare} arg19.view.writes (Elt F) f LS5) ∗ (∃ f, arg20.view.loc (c : Thread nD τ) ↦[arg20.view.set]{fullShare} arg20.view.writes (Elt F) f LS6) ∗ (∃ f, arg21.view.loc (c : Thread nD τ) ↦[arg21.view.set]{fullShare} arg21.view.writes (Elt F) f LS7)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, ⟨?_, fun xi4 xi5 xi6 xi7 xi8 xi9 xi10 xi11 E K => ?run⟩⟩
  case run =>
    simp only [cc0__fused_kernel_eq_skeleton]; unfold cc0__fused_kernel_skel
    simp only [k0_part3_eq_skeleton, k0_part4_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hfs0; obtain rfl := harg15.eq_unread hfs1; obtain rfl := harg16.eq_unread hfs2; obtain rfl := harg17.eq_unread hfs3; obtain rfl := harg18.eq_unread hfs4; obtain rfl := harg19.eq_unread hfs5; obtain rfl := harg20.eq_unread hfs6; obtain rfl := harg21.eq_unread hfs7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    iexists _; iexact HS7

end Cert.KernelIdeal.Fr

end
-- ==== Proof.KI.RunC.lean ====
/-
  The kernel body at a point with k = 127: as for 0 < k < 127, and then each accumulator is copied into its output
  buffer, which is handed over at anything and ends with one store written.
-/
import proofs.«409862_j41274635715290_3_alg».proof.Proof.KI.RunB

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) :
    Σ' (L4 : List (View.Piece (Elt F) S1x5x128x128 .f32)) (L5 : List (View.Piece (Elt F) S1x5x128x128 .f32)) (L6 : List (View.Piece (Elt F) S1x5x128 .f32)) (L7 : List (View.Piece (Elt F) S1x5x128 .f32)) (L8 : List (View.Piece (Elt F) S640x1280 .f32)) (L9 : List (View.Piece (Elt F) S640x128 .f32)) (L10 : List (View.Piece (Elt F) S640x128 .f32)) (L11 : List (View.Piece (Elt F) S640x128 .f32)) (LS0 : List (View.Piece (Elt F) S5x128x128 .f32)) (LS1 : List (View.Piece (Elt F) S5x128x128 .f32)) (LS2 : List (View.Piece (Elt F) S5x128 .f32)) (LS3 : List (View.Piece (Elt F) S5x128 .f32)) (LS4 : List (View.Piece (Elt F) S640x1280 .f32)) (LS5 : List (View.Piece (Elt F) S640x128 .f32)) (LS6 : List (View.Piece (Elt F) S640x128 .f32)), { LS7 : List (View.Piece (Elt F) S640x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs0 ∗ owns (c : Thread nD τ) arg15 fullShare xs1 ∗ owns (c : Thread nD τ) arg16 fullShare xs2 ∗ owns (c : Thread nD τ) arg17 fullShare xs3 ∗ owns (c : Thread nD τ) arg18 fullShare xs4 ∗ owns (c : Thread nD τ) arg19 fullShare xs5 ∗ owns (c : Thread nD τ) arg20 fullShare xs6 ∗ owns (c : Thread nD τ) arg21 fullShare xs7
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2) ∗ (∃ f, arg17.view.loc (c : Thread nD τ) ↦[arg17.view.set]{fullShare} arg17.view.writes (Elt F) f LS3) ∗ (∃ f, arg18.view.loc (c : Thread nD τ) ↦[arg18.view.set]{fullShare} arg18.view.writes (Elt F) f LS4) ∗ (∃ f, arg19.view.loc (c : Thread nD τ) ↦[arg19.view.set]{fullShare} arg19.view.writes (Elt F) f LS5) ∗ (∃ f, arg20.view.loc (c : Thread nD τ) ↦[arg20.view.set]{fullShare} arg20.view.writes (Elt F) f LS6) ∗ (∃ f, arg21.view.loc (c : Thread nD τ) ↦[arg21.view.set]{fullShare} arg21.view.writes (Elt F) f LS7)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, ?_, ?_, ?_, ?_, ?_, ?_, ?_, ?_, ⟨?_, fun E K => ?run⟩⟩
  case run =>
    simp only [cc0__fused_kernel_eq_skeleton]; unfold cc0__fused_kernel_skel
    simp only [k0_part3_eq_skeleton, k0_part4_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, Hk⟩
    obtain rfl := harg2.eq_unread hf0; obtain rfl := harg3.eq_unread hf1; obtain rfl := harg4.eq_unread hf2; obtain rfl := harg5.eq_unread hf3; obtain rfl := harg14.eq_unread hfs0; obtain rfl := harg15.eq_unread hfs1; obtain rfl := harg16.eq_unread hfs2; obtain rfl := harg17.eq_unread hfs3; obtain rfl := harg18.eq_unread hfs4; obtain rfl := harg19.eq_unread hfs5; obtain rfl := harg20.eq_unread hfs6; obtain rfl := harg21.eq_unread hfs7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    iexists _; iexact HS7

end Cert.KernelIdeal.Fr

end
-- ==== Proof.KI.Frame0.lean ====
/-
  What the eight accumulators and the eight output blocks of the kernel hold after each of the 256 grid points, read off
  the three case runs, and the proof data of the one pipeline built from it, with what the body is called with and
  returns at a point.
-/
import proofs.«409862_j41274635715290_3_alg».proof.Proof.KI.Runs
import proofs.«409862_j41274635715290_3_alg».proof.Proof.KI.RunC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the accumulators and the output blocks -/

/-- At a point with k = 0 the stores into accumulator 0 tile it, so they cover it. -/
theorem scover0_A_0 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : cond0_0 i) (hc1 : ¬cond0_1 i)
    (x0 : Vec F S640x256 .f32) (x1 : Vec F S1280x256 .f32) (x2 : Vec F S256x128 .f32) (x3 : Vec F S256x128 .f32) (y : S5x128x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3).1 S5x128x128.size (by sl_kernel_rfl) y

/-- What such a point leaves in accumulator 0: its stores read back. -/
def sout0_A_0 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : cond0_0 i) (hc1 : ¬cond0_1 i)
    (x0 : Vec F S640x256 .f32) (x1 : Vec F S1280x256 .f32) (x2 : Vec F S256x128 .f32) (x3 : Vec F S256x128 .f32) : Vec F S5x128x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3).1)

/-- At a point with k = 0 the stores into accumulator 1 tile it, so they cover it. -/
theorem scover0_A_1 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : cond0_0 i) (hc1 : ¬cond0_1 i)
    (x0 : Vec F S640x256 .f32) (x1 : Vec F S1280x256 .f32) (x2 : Vec F S256x128 .f32) (x3 : Vec F S256x128 .f32) (y : S5x128x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3).2.1 S5x128x128.size (by sl_kernel_rfl) y

/-- What such a point leaves in accumulator 1: its stores read back. -/
def sout0_A_1 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : cond0_0 i) (hc1 : ¬cond0_1 i)
    (x0 : Vec F S640x256 .f32) (x1 : Vec F S1280x256 .f32) (x2 : Vec F S256x128 .f32) (x3 : Vec F S256x128 .f32) : Vec F S5x128x128 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3).2.1)

/-- At a point with k = 0 the stores into accumulator 2 tile it, so they cover it. -/
theorem scover0_A_2 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : cond0_0 i) (hc1 : ¬cond0_1 i)
    (x0 : Vec F S640x256 .f32) (x1 : Vec F S1280x256 .f32) (x2 : Vec F S256x128 .f32) (x3 : Vec F S256x128 .f32) (y : S5x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3).2.2.1 S5x128.size (by sl_kernel_rfl) y

/-- What such a point leaves in accumulator 2: its stores read back. -/
def sout0_A_2 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : cond0_0 i) (hc1 : ¬cond0_1 i)
    (x0 : Vec F S640x256 .f32) (x1 : Vec F S1280x256 .f32) (x2 : Vec F S256x128 .f32) (x3 : Vec F S256x128 .f32) : Vec F S5x128 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3).2.2.1)

/-- At a point with k = 0 the stores into accumulator 3 tile it, so they cover it. -/
theorem scover0_A_3 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : cond0_0 i) (hc1 : ¬cond0_1 i)
    (x0 : Vec F S640x256 .f32) (x1 : Vec F S1280x256 .f32) (x2 : Vec F S256x128 .f32) (x3 : Vec F S256x128 .f32) (y : S5x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3).2.2.2.1 S5x128.size (by sl_kernel_rfl) y

/-- What such a point leaves in accumulator 3: its stores read back. -/
def sout0_A_3 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : cond0_0 i) (hc1 : ¬cond0_1 i)
    (x0 : Vec F S640x256 .f32) (x1 : Vec F S1280x256 .f32) (x2 : Vec F S256x128 .f32) (x3 : Vec F S256x128 .f32) : Vec F S5x128 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3).2.2.2.1)

/-- At a point with k = 0 the stores into accumulator 4 tile it, so they cover it. -/
theorem scover0_A_4 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : cond0_0 i) (hc1 : ¬cond0_1 i)
    (x0 : Vec F S640x256 .f32) (x1 : Vec F S1280x256 .f32) (x2 : Vec F S256x128 .f32) (x3 : Vec F S256x128 .f32) (y : S640x1280.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3).2.2.2.2.1 S640x1280.size (by sl_kernel_rfl) y

/-- What such a point leaves in accumulator 4: its stores read back. -/
def sout0_A_4 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : cond0_0 i) (hc1 : ¬cond0_1 i)
    (x0 : Vec F S640x256 .f32) (x1 : Vec F S1280x256 .f32) (x2 : Vec F S256x128 .f32) (x3 : Vec F S256x128 .f32) : Vec F S640x1280 .f32 :=
  VS0_4.read (Elt F) (VS0_4.writes (Elt F) VS0_4.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3).2.2.2.2.1)

/-- At a point with k = 0 the stores into accumulator 5 tile it, so they cover it. -/
theorem scover0_A_5 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : cond0_0 i) (hc1 : ¬cond0_1 i)
    (x0 : Vec F S640x256 .f32) (x1 : Vec F S1280x256 .f32) (x2 : Vec F S256x128 .f32) (x3 : Vec F S256x128 .f32) (y : S640x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3).2.2.2.2.2.1 S640x128.size (by sl_kernel_rfl) y

/-- What such a point leaves in accumulator 5: its stores read back. -/
def sout0_A_5 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : cond0_0 i) (hc1 : ¬cond0_1 i)
    (x0 : Vec F S640x256 .f32) (x1 : Vec F S1280x256 .f32) (x2 : Vec F S256x128 .f32) (x3 : Vec F S256x128 .f32) : Vec F S640x128 .f32 :=
  VS0_5.read (Elt F) (VS0_5.writes (Elt F) VS0_5.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3).2.2.2.2.2.1)

/-- At a point with k = 0 the stores into accumulator 6 tile it, so they cover it. -/
theorem scover0_A_6 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : cond0_0 i) (hc1 : ¬cond0_1 i)
    (x0 : Vec F S640x256 .f32) (x1 : Vec F S1280x256 .f32) (x2 : Vec F S256x128 .f32) (x3 : Vec F S256x128 .f32) (y : S640x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3).2.2.2.2.2.2.1 S640x128.size (by sl_kernel_rfl) y

/-- What such a point leaves in accumulator 6: its stores read back. -/
def sout0_A_6 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : cond0_0 i) (hc1 : ¬cond0_1 i)
    (x0 : Vec F S640x256 .f32) (x1 : Vec F S1280x256 .f32) (x2 : Vec F S256x128 .f32) (x3 : Vec F S256x128 .f32) : Vec F S640x128 .f32 :=
  VS0_6.read (Elt F) (VS0_6.writes (Elt F) VS0_6.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3).2.2.2.2.2.2.1)

/-- At a point with k = 0 the stores into accumulator 7 tile it, so they cover it. -/
theorem scover0_A_7 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : cond0_0 i) (hc1 : ¬cond0_1 i)
    (x0 : Vec F S640x256 .f32) (x1 : Vec F S1280x256 .f32) (x2 : Vec F S256x128 .f32) (x3 : Vec F S256x128 .f32) (y : S640x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3).2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3).2.2.2.2.2.2.2.1 S640x128.size (by sl_kernel_rfl) y

/-- What such a point leaves in accumulator 7: its stores read back. -/
def sout0_A_7 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : cond0_0 i) (hc1 : ¬cond0_1 i)
    (x0 : Vec F S640x256 .f32) (x1 : Vec F S1280x256 .f32) (x2 : Vec F S256x128 .f32) (x3 : Vec F S256x128 .f32) : Vec F S640x128 .f32 :=
  VS0_7.read (Elt F) (VS0_7.writes (Elt F) VS0_7.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3).2.2.2.2.2.2.2.1)

/-- At a point with 0 < k < 127 the stores into accumulator 0 tile it, so they cover it. -/
theorem scover0_B_0 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : ¬cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) (y : S5x128x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).1 S5x128x128.size (by sl_kernel_rfl) y

/-- What such a point leaves in accumulator 0: its stores read back. -/
def sout0_B_0 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : ¬cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) : Vec F S5x128x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).1)

/-- At a point with 0 < k < 127 the stores into accumulator 1 tile it, so they cover it. -/
theorem scover0_B_1 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : ¬cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) (y : S5x128x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.1 S5x128x128.size (by sl_kernel_rfl) y

/-- What such a point leaves in accumulator 1: its stores read back. -/
def sout0_B_1 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : ¬cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) : Vec F S5x128x128 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.1)

/-- At a point with 0 < k < 127 the stores into accumulator 2 tile it, so they cover it. -/
theorem scover0_B_2 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : ¬cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) (y : S5x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.1 S5x128.size (by sl_kernel_rfl) y

/-- What such a point leaves in accumulator 2: its stores read back. -/
def sout0_B_2 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : ¬cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) : Vec F S5x128 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.1)

/-- At a point with 0 < k < 127 the stores into accumulator 3 tile it, so they cover it. -/
theorem scover0_B_3 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : ¬cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) (y : S5x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.1 S5x128.size (by sl_kernel_rfl) y

/-- What such a point leaves in accumulator 3: its stores read back. -/
def sout0_B_3 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : ¬cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) : Vec F S5x128 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.1)

/-- At a point with 0 < k < 127 the stores into accumulator 4 tile it, so they cover it. -/
theorem scover0_B_4 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : ¬cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) (y : S640x1280.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.1 S640x1280.size (by sl_kernel_rfl) y

/-- What such a point leaves in accumulator 4: its stores read back. -/
def sout0_B_4 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : ¬cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) : Vec F S640x1280 .f32 :=
  VS0_4.read (Elt F) (VS0_4.writes (Elt F) VS0_4.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.1)

/-- At a point with 0 < k < 127 the stores into accumulator 5 tile it, so they cover it. -/
theorem scover0_B_5 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : ¬cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) (y : S640x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.1 S640x128.size (by sl_kernel_rfl) y

/-- What such a point leaves in accumulator 5: its stores read back. -/
def sout0_B_5 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : ¬cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) : Vec F S640x128 .f32 :=
  VS0_5.read (Elt F) (VS0_5.writes (Elt F) VS0_5.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.1)

/-- At a point with 0 < k < 127 the stores into accumulator 6 tile it, so they cover it. -/
theorem scover0_B_6 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : ¬cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) (y : S640x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.1 S640x128.size (by sl_kernel_rfl) y

/-- What such a point leaves in accumulator 6: its stores read back. -/
def sout0_B_6 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : ¬cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) : Vec F S640x128 .f32 :=
  VS0_6.read (Elt F) (VS0_6.writes (Elt F) VS0_6.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.1)

/-- At a point with 0 < k < 127 the stores into accumulator 7 tile it, so they cover it. -/
theorem scover0_B_7 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : ¬cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) (y : S640x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.2.1 S640x128.size (by sl_kernel_rfl) y

/-- What such a point leaves in accumulator 7: its stores read back. -/
def sout0_B_7 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : ¬cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) : Vec F S640x128 .f32 :=
  VS0_7.read (Elt F) (VS0_7.writes (Elt F) VS0_7.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.2.1)

/-- At a point with k = 127 the stores into output block 4 tile it, so they cover it. -/
theorem cover0_C_4 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) (y : S1x5x128x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).1 S1x5x128x128.size (by sl_kernel_rfl) y

/-- What such a point leaves in output block 4: its stores read back. -/
def out0_C_4 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) : Vec F S1x5x128x128 .f32 :=
  VO0_4.read (Elt F) (VO0_4.writes (Elt F) VO0_4.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).1)

/-- At a point with k = 127 the stores into output block 5 tile it, so they cover it. -/
theorem cover0_C_5 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) (y : S1x5x128x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.1 S1x5x128x128.size (by sl_kernel_rfl) y

/-- What such a point leaves in output block 5: its stores read back. -/
def out0_C_5 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) : Vec F S1x5x128x128 .f32 :=
  VO0_5.read (Elt F) (VO0_5.writes (Elt F) VO0_5.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.1)

/-- At a point with k = 127 the stores into output block 6 tile it, so they cover it. -/
theorem cover0_C_6 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) (y : S1x5x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.1 S1x5x128.size (by sl_kernel_rfl) y

/-- What such a point leaves in output block 6: its stores read back. -/
def out0_C_6 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) : Vec F S1x5x128 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.1)

/-- At a point with k = 127 the stores into output block 7 tile it, so they cover it. -/
theorem cover0_C_7 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) (y : S1x5x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.1 S1x5x128.size (by sl_kernel_rfl) y

/-- What such a point leaves in output block 7: its stores read back. -/
def out0_C_7 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) : Vec F S1x5x128 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.1)

/-- At a point with k = 127 the stores into output block 8 tile it, so they cover it. -/
theorem cover0_C_8 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) (y : S640x1280.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.1 S640x1280.size (by sl_kernel_rfl) y

/-- What such a point leaves in output block 8: its stores read back. -/
def out0_C_8 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) : Vec F S640x1280 .f32 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.1)

/-- At a point with k = 127 the stores into output block 9 tile it, so they cover it. -/
theorem cover0_C_9 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) (y : S640x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.1 S640x128.size (by sl_kernel_rfl) y

/-- What such a point leaves in output block 9: its stores read back. -/
def out0_C_9 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) : Vec F S640x128 .f32 :=
  VO0_9.read (Elt F) (VO0_9.writes (Elt F) VO0_9.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.1)

/-- At a point with k = 127 the stores into output block 10 tile it, so they cover it. -/
theorem cover0_C_10 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) (y : S640x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.1 S640x128.size (by sl_kernel_rfl) y

/-- What such a point leaves in output block 10: its stores read back. -/
def out0_C_10 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) : Vec F S640x128 .f32 :=
  VO0_10.read (Elt F) (VO0_10.writes (Elt F) VO0_10.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.1)

/-- At a point with k = 127 the stores into output block 11 tile it, so they cover it. -/
theorem cover0_C_11 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) (y : S640x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.2.1 S640x128.size (by sl_kernel_rfl) y

/-- What such a point leaves in output block 11: its stores read back. -/
def out0_C_11 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) : Vec F S640x128 .f32 :=
  VO0_11.read (Elt F) (VO0_11.writes (Elt F) VO0_11.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.2.1)

/-- At a point with k = 127 the stores into accumulator 0 tile it, so they cover it. -/
theorem scover0_C_0 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) (y : S5x128x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.2.2.1 S5x128x128.size (by sl_kernel_rfl) y

/-- What such a point leaves in accumulator 0: its stores read back. -/
def sout0_C_0 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) : Vec F S5x128x128 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.2.2.1)

/-- At a point with k = 127 the stores into accumulator 1 tile it, so they cover it. -/
theorem scover0_C_1 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) (y : S5x128x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.2.2.2.1 S5x128x128.size (by sl_kernel_rfl) y

/-- What such a point leaves in accumulator 1: its stores read back. -/
def sout0_C_1 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) : Vec F S5x128x128 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.2.2.2.1)

/-- At a point with k = 127 the stores into accumulator 2 tile it, so they cover it. -/
theorem scover0_C_2 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) (y : S5x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.2.2.2.2.1 S5x128.size (by sl_kernel_rfl) y

/-- What such a point leaves in accumulator 2: its stores read back. -/
def sout0_C_2 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) : Vec F S5x128 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.2.2.2.2.1)

/-- At a point with k = 127 the stores into accumulator 3 tile it, so they cover it. -/
theorem scover0_C_3 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) (y : S5x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.2.2.2.2.2.1 S5x128.size (by sl_kernel_rfl) y

/-- What such a point leaves in accumulator 3: its stores read back. -/
def sout0_C_3 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) : Vec F S5x128 .f32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.2.2.2.2.2.1)

/-- At a point with k = 127 the stores into accumulator 4 tile it, so they cover it. -/
theorem scover0_C_4 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) (y : S640x1280.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.2.2.2.2.2.2.1 S640x1280.size (by sl_kernel_rfl) y

/-- What such a point leaves in accumulator 4: its stores read back. -/
def sout0_C_4 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) : Vec F S640x1280 .f32 :=
  VS0_4.read (Elt F) (VS0_4.writes (Elt F) VS0_4.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.2.2.2.2.2.2.1)

/-- At a point with k = 127 the stores into accumulator 5 tile it, so they cover it. -/
theorem scover0_C_5 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) (y : S640x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.2.2.2.2.2.2.2.1 S640x128.size (by sl_kernel_rfl) y

/-- What such a point leaves in accumulator 5: its stores read back. -/
def sout0_C_5 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) : Vec F S640x128 .f32 :=
  VS0_5.read (Elt F) (VS0_5.writes (Elt F) VS0_5.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.2.2.2.2.2.2.2.1)

/-- At a point with k = 127 the stores into accumulator 6 tile it, so they cover it. -/
theorem scover0_C_6 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) (y : S640x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.2.2.2.2.2.2.2.2.1 S640x128.size (by sl_kernel_rfl) y

/-- What such a point leaves in accumulator 6: its stores read back. -/
def sout0_C_6 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) : Vec F S640x128 .f32 :=
  VS0_6.read (Elt F) (VS0_6.writes (Elt F) VS0_6.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.2.2.2.2.2.2.2.2.1)

/-- At a point with k = 127 the stores into accumulator 7 tile it, so they cover it. -/
theorem scover0_C_7 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) (y : S640x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.2.2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.2.2.2.2.2.2.2.2.2.1 S640x128.size (by sl_kernel_rfl) y

/-- What such a point leaves in accumulator 7: its stores read back. -/
def sout0_C_7 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) : Vec F S640x128 .f32 :=
  VS0_7.read (Elt F) (VS0_7.writes (Elt F) VS0_7.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.2.2.2.2.2.2.2.2.2.1)

/-! ## What the outputs and the accumulators hold after each point -/

/-- The eight output blocks' staging contents and the eight accumulators' contents after a point. -/
structure Outs (F : FTy → Type) where
  o4 : Vec F S1x5x128x128 .f32
  o5 : Vec F S1x5x128x128 .f32
  o6 : Vec F S1x5x128 .f32
  o7 : Vec F S1x5x128 .f32
  o8 : Vec F S640x1280 .f32
  o9 : Vec F S640x128 .f32
  o10 : Vec F S640x128 .f32
  o11 : Vec F S640x128 .f32
  s0 : Vec F S5x128x128 .f32
  s1 : Vec F S5x128x128 .f32
  s2 : Vec F S5x128 .f32
  s3 : Vec F S5x128 .f32
  s4 : Vec F S640x1280 .f32
  s5 : Vec F S640x128 .f32
  s6 : Vec F S640x128 .f32
  s7 : Vec F S640x128 .f32

/-- Output block 4 at a point that stores nothing into it: the pipeline neither writes it back there nor reads it
    afterwards, so no contents need be named; a placeholder. -/
def idle0_4 : Vec F S1x5x128x128 .f32 := VO0_4.read (Elt F) VO0_4.junk

/-- Output block 5 at a point that stores nothing into it: the pipeline neither writes it back there nor reads it
    afterwards, so no contents need be named; a placeholder. -/
def idle0_5 : Vec F S1x5x128x128 .f32 := VO0_5.read (Elt F) VO0_5.junk

/-- Output block 6 at a point that stores nothing into it: the pipeline neither writes it back there nor reads it
    afterwards, so no contents need be named; a placeholder. -/
def idle0_6 : Vec F S1x5x128 .f32 := VO0_6.read (Elt F) VO0_6.junk

/-- Output block 7 at a point that stores nothing into it: the pipeline neither writes it back there nor reads it
    afterwards, so no contents need be named; a placeholder. -/
def idle0_7 : Vec F S1x5x128 .f32 := VO0_7.read (Elt F) VO0_7.junk

/-- Output block 8 at a point that stores nothing into it: the pipeline neither writes it back there nor reads it
    afterwards, so no contents need be named; a placeholder. -/
def idle0_8 : Vec F S640x1280 .f32 := VO0_8.read (Elt F) VO0_8.junk

/-- Output block 9 at a point that stores nothing into it: the pipeline neither writes it back there nor reads it
    afterwards, so no contents need be named; a placeholder. -/
def idle0_9 : Vec F S640x128 .f32 := VO0_9.read (Elt F) VO0_9.junk

/-- Output block 10 at a point that stores nothing into it: the pipeline neither writes it back there nor reads it
    afterwards, so no contents need be named; a placeholder. -/
def idle0_10 : Vec F S640x128 .f32 := VO0_10.read (Elt F) VO0_10.junk

/-- Output block 11 at a point that stores nothing into it: the pipeline neither writes it back there nor reads it
    afterwards, so no contents need be named; a placeholder. -/
def idle0_11 : Vec F S640x128 .f32 := VO0_11.read (Elt F) VO0_11.junk

/-- One point of the accumulation: at a point with k = 0 the accumulators are cleared and then added to, from the input
    blocks alone; at the other points they are added to over what the point before left (prev); at a point with
    k = 127 each output block receives its accumulator. The two conditions never hold together. -/
def stepAt0 (c : Dev nD) (t : Fin cfg0.N) (prev : Outs F) : Outs F :=
  if h0 : t.val % 128 = 0 then
    if h1 : t.val % 128 = 127 then False.elim (by omega)
    else
      { o4 := idle0_4,
        o5 := idle0_5,
        o6 := idle0_6,
        o7 := idle0_7,
        o8 := idle0_8,
        o9 := idle0_9,
        o10 := idle0_10,
        o11 := idle0_11,
        s0 := sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t),
        s1 := sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t),
        s2 := sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t),
        s3 := sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t),
        s4 := sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t),
        s5 := sout0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t),
        s6 := sout0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t),
        s7 := sout0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t) }
  else
    if h1 : t.val % 128 = 127 then
      { o4 := out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) prev.s0 prev.s1 prev.s2 prev.s3 prev.s4 prev.s5 prev.s6 prev.s7,
        o5 := out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) prev.s0 prev.s1 prev.s2 prev.s3 prev.s4 prev.s5 prev.s6 prev.s7,
        o6 := out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) prev.s0 prev.s1 prev.s2 prev.s3 prev.s4 prev.s5 prev.s6 prev.s7,
        o7 := out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) prev.s0 prev.s1 prev.s2 prev.s3 prev.s4 prev.s5 prev.s6 prev.s7,
        o8 := out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) prev.s0 prev.s1 prev.s2 prev.s3 prev.s4 prev.s5 prev.s6 prev.s7,
        o9 := out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) prev.s0 prev.s1 prev.s2 prev.s3 prev.s4 prev.s5 prev.s6 prev.s7,
        o10 := out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) prev.s0 prev.s1 prev.s2 prev.s3 prev.s4 prev.s5 prev.s6 prev.s7,
        o11 := out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) prev.s0 prev.s1 prev.s2 prev.s3 prev.s4 prev.s5 prev.s6 prev.s7,
        s0 := sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) prev.s0 prev.s1 prev.s2 prev.s3 prev.s4 prev.s5 prev.s6 prev.s7,
        s1 := sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) prev.s0 prev.s1 prev.s2 prev.s3 prev.s4 prev.s5 prev.s6 prev.s7,
        s2 := sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) prev.s0 prev.s1 prev.s2 prev.s3 prev.s4 prev.s5 prev.s6 prev.s7,
        s3 := sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) prev.s0 prev.s1 prev.s2 prev.s3 prev.s4 prev.s5 prev.s6 prev.s7,
        s4 := sout0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) prev.s0 prev.s1 prev.s2 prev.s3 prev.s4 prev.s5 prev.s6 prev.s7,
        s5 := sout0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) prev.s0 prev.s1 prev.s2 prev.s3 prev.s4 prev.s5 prev.s6 prev.s7,
        s6 := sout0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) prev.s0 prev.s1 prev.s2 prev.s3 prev.s4 prev.s5 prev.s6 prev.s7,
        s7 := sout0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) prev.s0 prev.s1 prev.s2 prev.s3 prev.s4 prev.s5 prev.s6 prev.s7 }
    else
      { o4 := idle0_4,
        o5 := idle0_5,
        o6 := idle0_6,
        o7 := idle0_7,
        o8 := idle0_8,
        o9 := idle0_9,
        o10 := idle0_10,
        o11 := idle0_11,
        s0 := sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) prev.s0 prev.s1 prev.s2 prev.s3 prev.s4 prev.s5 prev.s6 prev.s7,
        s1 := sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) prev.s0 prev.s1 prev.s2 prev.s3 prev.s4 prev.s5 prev.s6 prev.s7,
        s2 := sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) prev.s0 prev.s1 prev.s2 prev.s3 prev.s4 prev.s5 prev.s6 prev.s7,
        s3 := sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) prev.s0 prev.s1 prev.s2 prev.s3 prev.s4 prev.s5 prev.s6 prev.s7,
        s4 := sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) prev.s0 prev.s1 prev.s2 prev.s3 prev.s4 prev.s5 prev.s6 prev.s7,
        s5 := sout0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) prev.s0 prev.s1 prev.s2 prev.s3 prev.s4 prev.s5 prev.s6 prev.s7,
        s6 := sout0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) prev.s0 prev.s1 prev.s2 prev.s3 prev.s4 prev.s5 prev.s6 prev.s7,
        s7 := sout0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) prev.s0 prev.s1 prev.s2 prev.s3 prev.s4 prev.s5 prev.s6 prev.s7 }

/-- Placeholder contents before the first point (the first point has k = 0 and does not read them). -/
def idleOuts : Outs F :=
  { o4 := idle0_4, o5 := idle0_5, o6 := idle0_6, o7 := idle0_7, o8 := idle0_8, o9 := idle0_9, o10 := idle0_10, o11 := idle0_11,
    s0 := VS0_0.read (Elt F) VS0_0.junk, s1 := VS0_1.read (Elt F) VS0_1.junk, s2 := VS0_2.read (Elt F) VS0_2.junk, s3 := VS0_3.read (Elt F) VS0_3.junk, s4 := VS0_4.read (Elt F) VS0_4.junk, s5 := VS0_5.read (Elt F) VS0_5.junk, s6 := VS0_6.read (Elt F) VS0_6.junk, s7 := VS0_7.read (Elt F) VS0_7.junk }

/-- THE ACCUMULATION: the outputs' staging contents and the accumulators after the body at position n, point by point. -/
def outsAt0 (c : Dev nD) : (n : ℕ) → n < cfg0.N → Outs F
  | 0, hn => stepAt0 m c ⟨0, hn⟩ idleOuts
  | n + 1, hn => stepAt0 m c ⟨n + 1, hn⟩ (outsAt0 c n (Nat.lt_of_succ_lt hn))

/-- outsAt0 at a point with k = 0. -/
theorem outsAt0_A (c : Dev nD) (t : Fin cfg0.N) (h0 : t.val % 128 = 0) (h1 : ¬t.val % 128 = 127) :
    outsAt0 m c t.val t.isLt =
      { o4 := idle0_4,
        o5 := idle0_5,
        o6 := idle0_6,
        o7 := idle0_7,
        o8 := idle0_8,
        o9 := idle0_9,
        o10 := idle0_10,
        o11 := idle0_11,
        s0 := sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t),
        s1 := sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t),
        s2 := sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t),
        s3 := sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t),
        s4 := sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t),
        s5 := sout0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t),
        s6 := sout0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t),
        s7 := sout0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t) } := by
  obtain ⟨n, hn⟩ := t
  cases n with
  | zero => show stepAt0 m c ⟨0, hn⟩ idleOuts = _; unfold stepAt0; rw [dif_pos h0, dif_neg h1]
  | succ n => exact (dif_pos h0).trans ((dif_neg h1).trans rfl)

/-- outsAt0 at a point with 0 < k < 127: over what the point before left. -/
theorem outsAt0_B (c : Dev nD) (t : Fin cfg0.N) (h0 : ¬t.val % 128 = 0) (h1 : ¬t.val % 128 = 127) :
    outsAt0 m c t.val t.isLt =
      { o4 := idle0_4,
        o5 := idle0_5,
        o6 := idle0_6,
        o7 := idle0_7,
        o8 := idle0_8,
        o9 := idle0_9,
        o10 := idle0_10,
        o11 := idle0_11,
        s0 := sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7,
        s1 := sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7,
        s2 := sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7,
        s3 := sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7,
        s4 := sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7,
        s5 := sout0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7,
        s6 := sout0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7,
        s7 := sout0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7 } := by
  obtain ⟨n, hn⟩ := t
  cases n with
  | zero => exact (by exfalso; (try dsimp only at h0); exact absurd (Nat.zero_mod _) h0)
  | succ n => exact (dif_neg h0).trans ((dif_neg h1).trans rfl)

/-- outsAt0 at a point with k = 127: over what the point before left. -/
theorem outsAt0_C (c : Dev nD) (t : Fin cfg0.N) (h0 : ¬t.val % 128 = 0) (h1 : t.val % 128 = 127) :
    outsAt0 m c t.val t.isLt =
      { o4 := out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7,
        o5 := out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7,
        o6 := out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7,
        o7 := out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7,
        o8 := out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7,
        o9 := out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7,
        o10 := out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7,
        o11 := out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7,
        s0 := sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7,
        s1 := sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7,
        s2 := sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7,
        s3 := sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7,
        s4 := sout0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7,
        s5 := sout0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7,
        s6 := sout0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7,
        s7 := sout0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7 } := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point every accumulator at anything; afterwards each
    accumulator at what the point before left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).s0) ∗ owns (c : Thread nD τ) scM0_1 fullShare ((outsAt0 m c n hn).s1) ∗ owns (c : Thread nD τ) scM0_2 fullShare ((outsAt0 m c n hn).s2) ∗ owns (c : Thread nD τ) scM0_3 fullShare ((outsAt0 m c n hn).s3) ∗ owns (c : Thread nD τ) scM0_4 fullShare ((outsAt0 m c n hn).s4) ∗ owns (c : Thread nD τ) scM0_5 fullShare ((outsAt0 m c n hn).s5) ∗ owns (c : Thread nD τ) scM0_6 fullShare ((outsAt0 m c n hn).s6) ∗ owns (c : Thread nD τ) scM0_7 fullShare ((outsAt0 m c n hn).s7)) ∗ (∃ r, prngReg c r))

theorem PhiS_zero (c : Dev nD) (n : ℕ) (h : n ≤ cfg0.N) (hz : n = 0) : PhiS m c n h = Pipeline.ΦA spec0 c := by
  subst hz; rfl

/-- After point n: the accumulators at that point's contents. -/
theorem PhiS_succ (c : Dev nD) (n : ℕ) (hn : n < cfg0.N) :
    PhiS m c (n + 1) hn = iprop(iprop(owns (c : Thread nD τ) scM0_0 fullShare ((outsAt0 m c n hn).s0) ∗ owns (c : Thread nD τ) scM0_1 fullShare ((outsAt0 m c n hn).s1) ∗ owns (c : Thread nD τ) scM0_2 fullShare ((outsAt0 m c n hn).s2) ∗ owns (c : Thread nD τ) scM0_3 fullShare ((outsAt0 m c n hn).s3) ∗ owns (c : Thread nD τ) scM0_4 fullShare ((outsAt0 m c n hn).s4) ∗ owns (c : Thread nD τ) scM0_5 fullShare ((outsAt0 m c n hn).s5) ∗ owns (c : Thread nD τ) scM0_6 fullShare ((outsAt0 m c n hn).s6) ∗ owns (c : Thread nD τ) scM0_7 fullShare ((outsAt0 m c n hn).s7)) ∗ (∃ r, prngReg c r)) := rfl

/-- Before a point that is not the first: the accumulators at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).s0) ∗ owns (c : Thread nD τ) scM0_1 fullShare ((outsAt0 m c (n - 1) (by omega)).s1) ∗ owns (c : Thread nD τ) scM0_2 fullShare ((outsAt0 m c (n - 1) (by omega)).s2) ∗ owns (c : Thread nD τ) scM0_3 fullShare ((outsAt0 m c (n - 1) (by omega)).s3) ∗ owns (c : Thread nD τ) scM0_4 fullShare ((outsAt0 m c (n - 1) (by omega)).s4) ∗ owns (c : Thread nD τ) scM0_5 fullShare ((outsAt0 m c (n - 1) (by omega)).s5) ∗ owns (c : Thread nD τ) scM0_6 fullShare ((outsAt0 m c (n - 1) (by omega)).s6) ∗ owns (c : Thread nD τ) scM0_7 fullShare ((outsAt0 m c (n - 1) (by omega)).s7)) ∗ (∃ r, prngReg c r)) := by
  cases n with
  | zero => exact absurd rfl hz
  | succ n => rfl

/-! ## The pipeline's proof data -/

/-- The proof data of the one pipeline on core c: the arrays as the region finds them; after the body at point t each
    input's buffer at its block and each output's at outsAt0's component; the invariant PhiS; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).o4
    | ⟨5, _⟩ => (outsAt0 m c t.val t.isLt).o5
    | ⟨6, _⟩ => (outsAt0 m c t.val t.isLt).o6
    | ⟨7, _⟩ => (outsAt0 m c t.val t.isLt).o7
    | ⟨8, _⟩ => (outsAt0 m c t.val t.isLt).o8
    | ⟨9, _⟩ => (outsAt0 m c t.val t.isLt).o9
    | ⟨10, _⟩ => (outsAt0 m c t.val t.isLt).o10
    | ⟨11, _⟩ => (outsAt0 m c t.val t.isLt).o11
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).o4 := by dsimp only [dats]
theorem after0_5 (c : Dev nD) (t : Fin cfg0.N) : (dats m 0 c).after 5 t = (outsAt0 m c t.val t.isLt).o5 := by dsimp only [dats]
theorem after0_6 (c : Dev nD) (t : Fin cfg0.N) : (dats m 0 c).after 6 t = (outsAt0 m c t.val t.isLt).o6 := by dsimp only [dats]
theorem after0_7 (c : Dev nD) (t : Fin cfg0.N) : (dats m 0 c).after 7 t = (outsAt0 m c t.val t.isLt).o7 := by dsimp only [dats]
theorem after0_8 (c : Dev nD) (t : Fin cfg0.N) : (dats m 0 c).after 8 t = (outsAt0 m c t.val t.isLt).o8 := by dsimp only [dats]
theorem after0_9 (c : Dev nD) (t : Fin cfg0.N) : (dats m 0 c).after 9 t = (outsAt0 m c t.val t.isLt).o9 := by dsimp only [dats]
theorem after0_10 (c : Dev nD) (t : Fin cfg0.N) : (dats m 0 c).after 10 t = (outsAt0 m c t.val t.isLt).o10 := by dsimp only [dats]
theorem after0_11 (c : Dev nD) (t : Fin cfg0.N) : (dats m 0 c).after 11 t = (outsAt0 m c t.val t.isLt).o11 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

end Cert.KernelIdeal.Fr

end
-- ==== Proof.KI.BodyA.lean ====
/-
  The body obligation at a grid point with k = 0: the accumulators are cleared and added to; no output block is stored.
-/
import proofs.«409862_j41274635715290_3_alg».proof.Proof.KI.Frame0

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- At a point with k = 0: the inputs' buffers hold their blocks; the run of that case applies: the invariant hands it the
    accumulators at what the point before left (at anything at the first point) and takes them back at this point's
    contents; every output block is handed back untouched; the core owes nothing throughout. -/
theorem sound_body_A (c : Dev nD) (t : Fin cfg0.N) (h0 : t.val % 128 = 0) (h1 : ¬t.val % 128 = 127) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [Dat.leavesExact_idle (dats m 0 c) 4 t (idleAt0_4_A t ((hcond0_0 t).mpr h0) (fun h => h1 ((hcond0_1 t).mp h))) (noFlush0_4_A t ((hcond0_0 t).mpr h0) (fun h => h1 ((hcond0_1 t).mp h)))]
  rw [Dat.leavesExact_idle (dats m 0 c) 5 t (idleAt0_5_A t ((hcond0_0 t).mpr h0) (fun h => h1 ((hcond0_1 t).mp h))) (noFlush0_5_A t ((hcond0_0 t).mpr h0) (fun h => h1 ((hcond0_1 t).mp h)))]
  rw [Dat.leavesExact_idle (dats m 0 c) 6 t (idleAt0_6_A t ((hcond0_0 t).mpr h0) (fun h => h1 ((hcond0_1 t).mp h))) (noFlush0_6_A t ((hcond0_0 t).mpr h0) (fun h => h1 ((hcond0_1 t).mp h)))]
  rw [Dat.leavesExact_idle (dats m 0 c) 7 t (idleAt0_7_A t ((hcond0_0 t).mpr h0) (fun h => h1 ((hcond0_1 t).mp h))) (noFlush0_7_A t ((hcond0_0 t).mpr h0) (fun h => h1 ((hcond0_1 t).mp h)))]
  rw [Dat.leavesExact_idle (dats m 0 c) 8 t (idleAt0_8_A t ((hcond0_0 t).mpr h0) (fun h => h1 ((hcond0_1 t).mp h))) (noFlush0_8_A t ((hcond0_0 t).mpr h0) (fun h => h1 ((hcond0_1 t).mp h)))]
  rw [Dat.leavesExact_idle (dats m 0 c) 9 t (idleAt0_9_A t ((hcond0_0 t).mpr h0) (fun h => h1 ((hcond0_1 t).mp h))) (noFlush0_9_A t ((hcond0_0 t).mpr h0) (fun h => h1 ((hcond0_1 t).mp h)))]
  rw [Dat.leavesExact_idle (dats m 0 c) 10 t (idleAt0_10_A t ((hcond0_0 t).mpr h0) (fun h => h1 ((hcond0_1 t).mp h))) (noFlush0_10_A t ((hcond0_0 t).mpr h0) (fun h => h1 ((hcond0_1 t).mp h)))]
  rw [Dat.leavesExact_idle (dats m 0 c) 11 t (idleAt0_11_A t ((hcond0_0 t).mpr h0) (fun h => h1 ((hcond0_1 t).mp h))) (noFlush0_11_A t ((hcond0_0 t).mpr h0) (fun h => h1 ((hcond0_1 t).mp h)))]
  by_cases hz : t.val = 0
  · rw [PhiS_castSucc m c t, PhiS_zero m c _ _ hz, PhiA0_eq]
    rw [outsAt0_A m c t h0 h1]; dsimp only
    iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t)).2.2.2.2.2.2.2.2 ((dats m 0 c).before 4 t d4) ((dats m 0 c).before 5 t d5) ((dats m 0 c).before 6 t d6) ((dats m 0 c).before 7 t d7) ((dats m 0 c).before 8 t d8) ((dats m 0 c).before 9 t d9) ((dats m 0 c).before 10 t d10) ((dats m 0 c).before 11 t d11) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iintro ⟨H0, H1, H2, H3, H4, H5, H6, H7, H8, H9, H10, H11, ⟨%es0, HS0⟩, ⟨%es1, HS1⟩, ⟨%es2, HS2⟩, ⟨%es3, HS3⟩, ⟨%es4, HS4⟩, ⟨%es5, HS5⟩, ⟨%es6, HS6⟩, ⟨%es7, HS7⟩⟩
    isplitl [HS0 HS1 HS2 HS3 HS4 HS5 HS6 HS7 Hg]
    · isplitr [Hg]
      · isplitl [HS0]
        · unfold owns; iexists _; isplitr
          swap; · iexact HS0
          ipureintro; unfold sout0_A_0
          exact View.read_writes_of_cover _ _ _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t))
        isplitl [HS1]
        · unfold owns; iexists _; isplitr
          swap; · iexact HS1
          ipureintro; unfold sout0_A_1
          exact View.read_writes_of_cover _ _ _ _ _ (scover0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t))
        isplitl [HS2]
        · unfold owns; iexists _; isplitr
          swap; · iexact HS2
          ipureintro; unfold sout0_A_2
          exact View.read_writes_of_cover _ _ _ _ _ (scover0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t))
        isplitl [HS3]
        · unfold owns; iexists _; isplitr
          swap; · iexact HS3
          ipureintro; unfold sout0_A_3
          exact View.read_writes_of_cover _ _ _ _ _ (scover0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t))
        isplitl [HS4]
        · unfold owns; iexists _; isplitr
          swap; · iexact HS4
          ipureintro; unfold sout0_A_4
          exact View.read_writes_of_cover _ _ _ _ _ (scover0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t))
        isplitl [HS5]
        · unfold owns; iexists _; isplitr
          swap; · iexact HS5
          ipureintro; unfold sout0_A_5
          exact View.read_writes_of_cover _ _ _ _ _ (scover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t))
        isplitl [HS6]
        · unfold owns; iexists _; isplitr
          swap; · iexact HS6
          ipureintro; unfold sout0_A_6
          exact View.read_writes_of_cover _ _ _ _ _ (scover0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t))
        unfold owns; iexists _; isplitr
        swap; · iexact HS7
        ipureintro; unfold sout0_A_7
        exact View.read_writes_of_cover _ _ _ _ _ (scover0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t))
      iexact Hg
    isplitl [Ho]; · iexact Ho
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    iexists _; iexact H11
  · rw [PhiS_castSucc m c t, PhiS_pos m c _ _ hz]
    rw [outsAt0_A m c t h0 h1]; dsimp only
    iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t)).2.2.2.2.2.2.2.2 ((dats m 0 c).before 4 t d4) ((dats m 0 c).before 5 t d5) ((dats m 0 c).before 6 t d6) ((dats m 0 c).before 7 t d7) ((dats m 0 c).before 8 t d8) ((dats m 0 c).before 9 t d9) ((dats m 0 c).before 10 t d10) ((dats m 0 c).before 11 t d11) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    iintro ⟨H0, H1, H2, H3, H4, H5, H6, H7, H8, H9, H10, H11, ⟨%es0, HS0⟩, ⟨%es1, HS1⟩, ⟨%es2, HS2⟩, ⟨%es3, HS3⟩, ⟨%es4, HS4⟩, ⟨%es5, HS5⟩, ⟨%es6, HS6⟩, ⟨%es7, HS7⟩⟩
    isplitl [HS0 HS1 HS2 HS3 HS4 HS5 HS6 HS7 Hg]
    · isplitr [Hg]
      · isplitl [HS0]
        · unfold owns; iexists _; isplitr
          swap; · iexact HS0
          ipureintro; unfold sout0_A_0
          exact View.read_writes_of_cover _ _ _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t))
        isplitl [HS1]
        · unfold owns; iexists _; isplitr
          swap; · iexact HS1
          ipureintro; unfold sout0_A_1
          exact View.read_writes_of_cover _ _ _ _ _ (scover0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t))
        isplitl [HS2]
        · unfold owns; iexists _; isplitr
          swap; · iexact HS2
          ipureintro; unfold sout0_A_2
          exact View.read_writes_of_cover _ _ _ _ _ (scover0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t))
        isplitl [HS3]
        · unfold owns; iexists _; isplitr
          swap; · iexact HS3
          ipureintro; unfold sout0_A_3
          exact View.read_writes_of_cover _ _ _ _ _ (scover0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t))
        isplitl [HS4]
        · unfold owns; iexists _; isplitr
          swap; · iexact HS4
          ipureintro; unfold sout0_A_4
          exact View.read_writes_of_cover _ _ _ _ _ (scover0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t))
        isplitl [HS5]
        · unfold owns; iexists _; isplitr
          swap; · iexact HS5
          ipureintro; unfold sout0_A_5
          exact View.read_writes_of_cover _ _ _ _ _ (scover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t))
        isplitl [HS6]
        · unfold owns; iexists _; isplitr
          swap; · iexact HS6
          ipureintro; unfold sout0_A_6
          exact View.read_writes_of_cover _ _ _ _ _ (scover0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t))
        unfold owns; iexists _; isplitr
        swap; · iexact HS7
        ipureintro; unfold sout0_A_7
        exact View.read_writes_of_cover _ _ _ _ _ (scover0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t))
      iexact Hg
    isplitl [Ho]; · iexact Ho
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    iexists _; iexact H11

end Cert.KernelIdeal.Fr

end
-- ==== Proof.KI.BodyB.lean ====
/-
  The body obligation at a grid point with 0 < k < 127: the accumulators are added to; no output block is stored.
  First the bookkeeping on variables: the run of that case, given the four input blocks, the eight output buffers at
  anything and the eight accumulators at given contents, hands back the inputs and the outputs untouched and each
  accumulator at its stores read back. Then the point's own memrefs, blocks and contents are put in: the invariant hands
  the body the accumulators at what the point before left and takes them back at this point's contents; every output
  block is handed back untouched; the core owes nothing throughout.
-/
import proofs.«409862_j41274635715290_3_alg».proof.Proof.KI.Frame0

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The bookkeeping of a point with 0 < k < 127, on variables. -/
theorem plumb_B (c : Dev nD) (i : grid0.Coords) (a2 : Memref sig .tc .vmem S640x256 .f32) (h2 : a2.IsWhole) (a3 : Memref sig .tc .vmem S1280x256 .f32) (h3 : a3.IsWhole) (a4 : Memref sig .tc .vmem S256x128 .f32) (h4 : a4.IsWhole) (a5 : Memref sig .tc .vmem S256x128 .f32) (h5 : a5.IsWhole) (a6 : Memref sig .tc .vmem S1x5x128x128 .f32) (h6 : a6.IsWhole) (a7 : Memref sig .tc .vmem S1x5x128x128 .f32) (h7 : a7.IsWhole) (a8 : Memref sig .tc .vmem S1x5x128 .f32) (h8 : a8.IsWhole) (a9 : Memref sig .tc .vmem S1x5x128 .f32) (h9 : a9.IsWhole) (a10 : Memref sig .tc .vmem S640x1280 .f32) (h10 : a10.IsWhole) (a11 : Memref sig .tc .vmem S640x128 .f32) (h11 : a11.IsWhole) (a12 : Memref sig .tc .vmem S640x128 .f32) (h12 : a12.IsWhole) (a13 : Memref sig .tc .vmem S640x128 .f32) (h13 : a13.IsWhole) (a14 : Memref sig .tc .vmem S5x128x128 .f32) (h14 : a14.IsWhole) (a15 : Memref sig .tc .vmem S5x128x128 .f32) (h15 : a15.IsWhole) (a16 : Memref sig .tc .vmem S5x128 .f32) (h16 : a16.IsWhole) (a17 : Memref sig .tc .vmem S5x128 .f32) (h17 : a17.IsWhole) (a18 : Memref sig .tc .vmem S640x1280 .f32) (h18 : a18.IsWhole) (a19 : Memref sig .tc .vmem S640x128 .f32) (h19 : a19.IsWhole) (a20 : Memref sig .tc .vmem S640x128 .f32) (h20 : a20.IsWhole) (a21 : Memref sig .tc .vmem S640x128 .f32) (h21 : a21.IsWhole) (hc0 : ¬cond0_0 i) (hc1 : ¬cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32)
    {D0 D1 D2 D3 D4 D5 D6 D7 D8 D9 D10 D11 : Type}
    (bi0 : D0 → Vec F S640x256 .f32) (hb0 : ∀ d, bi0 d = x0) (bi1 : D1 → Vec F S1280x256 .f32) (hb1 : ∀ d, bi1 d = x1) (bi2 : D2 → Vec F S256x128 .f32) (hb2 : ∀ d, bi2 d = x2) (bi3 : D3 → Vec F S256x128 .f32) (hb3 : ∀ d, bi3 d = x3)
    (b4 : D4 → Vec F S1x5x128x128 .f32) (b5 : D5 → Vec F S1x5x128x128 .f32) (b6 : D6 → Vec F S1x5x128 .f32) (b7 : D7 → Vec F S1x5x128 .f32) (b8 : D8 → Vec F S640x1280 .f32) (b9 : D9 → Vec F S640x128 .f32) (b10 : D10 → Vec F S640x128 .f32) (b11 : D11 → Vec F S640x128 .f32)
    (ΦPre ΦPost G Ho Ho' L0 L1 L2 L3 L4 L5 L6 L7 L8 L9 L10 L11 : sProp 𝕄) (y0 : Vec F S5x128x128 .f32) (y1 : Vec F S5x128x128 .f32) (y2 : Vec F S5x128 .f32) (y3 : Vec F S5x128 .f32) (y4 : Vec F S640x1280 .f32) (y5 : Vec F S640x128 .f32) (y6 : Vec F S640x128 .f32) (y7 : Vec F S640x128 .f32)
    (hΦPre : ΦPre = iprop(iprop(owns (c : Thread nD τ) a14 fullShare xs0 ∗ owns (c : Thread nD τ) a15 fullShare xs1 ∗ owns (c : Thread nD τ) a16 fullShare xs2 ∗ owns (c : Thread nD τ) a17 fullShare xs3 ∗ owns (c : Thread nD τ) a18 fullShare xs4 ∗ owns (c : Thread nD τ) a19 fullShare xs5 ∗ owns (c : Thread nD τ) a20 fullShare xs6 ∗ owns (c : Thread nD τ) a21 fullShare xs7) ∗ G))
    (hΦPost : ΦPost = iprop(iprop(owns (c : Thread nD τ) a14 fullShare y0 ∗ owns (c : Thread nD τ) a15 fullShare y1 ∗ owns (c : Thread nD τ) a16 fullShare y2 ∗ owns (c : Thread nD τ) a17 fullShare y3 ∗ owns (c : Thread nD τ) a18 fullShare y4 ∗ owns (c : Thread nD τ) a19 fullShare y5 ∗ owns (c : Thread nD τ) a20 fullShare y6 ∗ owns (c : Thread nD τ) a21 fullShare y7) ∗ G))
    (hHo : Ho' = Ho)
    (hL0 : L0 = owns (c : Thread nD τ) a2 fullShare x0) (hL1 : L1 = owns (c : Thread nD τ) a3 fullShare x1) (hL2 : L2 = owns (c : Thread nD τ) a4 fullShare x2) (hL3 : L3 = owns (c : Thread nD τ) a5 fullShare x3)
    (hL4 : L4 = iprop(∃ d : D4, owns (c : Thread nD τ) a6 fullShare (b4 d))) (hL5 : L5 = iprop(∃ d : D5, owns (c : Thread nD τ) a7 fullShare (b5 d))) (hL6 : L6 = iprop(∃ d : D6, owns (c : Thread nD τ) a8 fullShare (b6 d))) (hL7 : L7 = iprop(∃ d : D7, owns (c : Thread nD τ) a9 fullShare (b7 d))) (hL8 : L8 = iprop(∃ d : D8, owns (c : Thread nD τ) a10 fullShare (b8 d))) (hL9 : L9 = iprop(∃ d : D9, owns (c : Thread nD τ) a11 fullShare (b9 d))) (hL10 : L10 = iprop(∃ d : D10, owns (c : Thread nD τ) a12 fullShare (b10 d))) (hL11 : L11 = iprop(∃ d : D11, owns (c : Thread nD τ) a13 fullShare (b11 d)))
    (hy0 : ∀ f, a14.view.read (Elt F) (a14.view.writes (Elt F) f (kernelRun0_B c i a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 x0 x1 x2 x3 xs0 xs1 xs2 xs3 xs4 xs5 xs6 xs7).1) = y0)
    (hy1 : ∀ f, a15.view.read (Elt F) (a15.view.writes (Elt F) f (kernelRun0_B c i a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 x0 x1 x2 x3 xs0 xs1 xs2 xs3 xs4 xs5 xs6 xs7).2.1) = y1)
    (hy2 : ∀ f, a16.view.read (Elt F) (a16.view.writes (Elt F) f (kernelRun0_B c i a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 x0 x1 x2 x3 xs0 xs1 xs2 xs3 xs4 xs5 xs6 xs7).2.2.1) = y2)
    (hy3 : ∀ f, a17.view.read (Elt F) (a17.view.writes (Elt F) f (kernelRun0_B c i a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 x0 x1 x2 x3 xs0 xs1 xs2 xs3 xs4 xs5 xs6 xs7).2.2.2.1) = y3)
    (hy4 : ∀ f, a18.view.read (Elt F) (a18.view.writes (Elt F) f (kernelRun0_B c i a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 x0 x1 x2 x3 xs0 xs1 xs2 xs3 xs4 xs5 xs6 xs7).2.2.2.2.1) = y4)
    (hy5 : ∀ f, a19.view.read (Elt F) (a19.view.writes (Elt F) f (kernelRun0_B c i a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 x0 x1 x2 x3 xs0 xs1 xs2 xs3 xs4 xs5 xs6 xs7).2.2.2.2.2.1) = y5)
    (hy6 : ∀ f, a20.view.read (Elt F) (a20.view.writes (Elt F) f (kernelRun0_B c i a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 x0 x1 x2 x3 xs0 xs1 xs2 xs3 xs4 xs5 xs6 xs7).2.2.2.2.2.2.1) = y6)
    (hy7 : ∀ f, a21.view.read (Elt F) (a21.view.writes (Elt F) f (kernelRun0_B c i a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 x0 x1 x2 x3 xs0 xs1 xs2 xs3 xs4 xs5 xs6 xs7).2.2.2.2.2.2.2.1) = y7) :
    iprop(ΦPre ∗ Ho
      ∗ (∃ d : D0, owns (c : Thread nD τ) a2 fullShare (bi0 d)) ∗ (∃ d : D1, owns (c : Thread nD τ) a3 fullShare (bi1 d)) ∗ (∃ d : D2, owns (c : Thread nD τ) a4 fullShare (bi2 d)) ∗ (∃ d : D3, owns (c : Thread nD τ) a5 fullShare (bi3 d))
      ∗ (∃ d : D4, owns (c : Thread nD τ) a6 fullShare (b4 d)) ∗ (∃ d : D5, owns (c : Thread nD τ) a7 fullShare (b5 d)) ∗ (∃ d : D6, owns (c : Thread nD τ) a8 fullShare (b6 d)) ∗ (∃ d : D7, owns (c : Thread nD τ) a9 fullShare (b7 d)) ∗ (∃ d : D8, owns (c : Thread nD τ) a10 fullShare (b8 d)) ∗ (∃ d : D9, owns (c : Thread nD τ) a11 fullShare (b9 d)) ∗ (∃ d : D10, owns (c : Thread nD τ) a12 fullShare (b10 d)) ∗ (∃ d : D11, owns (c : Thread nD τ) a13 fullShare (b11 d)))
    ⊢ wp frame (wpE (defs₀ (F := F)) Variants.none c none) Set.univ (cc0__fused_kernel i a2 h2 a3 h3 a4 h4 a5 h5 a6 h6 a7 h7 a8 h8 a9 h9 a10 h10 a11 h11 a12 h12 a13 h13 a14 h14 a15 h15 a16 h16 a17 h17 a18 h18 a19 h19 a20 h20 a21 h21)
        (fun _ => iprop(ΦPost ∗ Ho' ∗ L0 ∗ L1 ∗ L2 ∗ L3 ∗ L4 ∗ L5 ∗ L6 ∗ L7 ∗ L8 ∗ L9 ∗ L10 ∗ L11)) := by
  subst hΦPre hΦPost hHo hL0 hL1 hL2 hL3 hL4 hL5 hL6 hL7 hL8 hL9 hL10 hL11
  simp only [hb0, hb1, hb2, hb3]
  iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_B c i a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1 x0 x1 x2 x3 xs0 xs1 xs2 xs3 xs4 xs5 xs6 xs7).2.2.2.2.2.2.2.2 (b4 d4) (b5 d5) (b6 d6) (b7 d7) (b8 d8) (b9 d9) (b10 d10) (b11 d11) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, H7, H8, H9, H10, H11, ⟨%es0, HS0⟩, ⟨%es1, HS1⟩, ⟨%es2, HS2⟩, ⟨%es3, HS3⟩, ⟨%es4, HS4⟩, ⟨%es5, HS5⟩, ⟨%es6, HS6⟩, ⟨%es7, HS7⟩⟩
  isplitl [HS0 HS1 HS2 HS3 HS4 HS5 HS6 HS7 Hg]
  · isplitr [Hg]
    · isplitl [HS0]
      · unfold owns; iexists _; isplitr
        swap; · iexact HS0
        ipureintro; exact hy0 _
      isplitl [HS1]
      · unfold owns; iexists _; isplitr
        swap; · iexact HS1
        ipureintro; exact hy1 _
      isplitl [HS2]
      · unfold owns; iexists _; isplitr
        swap; · iexact HS2
        ipureintro; exact hy2 _
      isplitl [HS3]
      · unfold owns; iexists _; isplitr
        swap; · iexact HS3
        ipureintro; exact hy3 _
      isplitl [HS4]
      · unfold owns; iexists _; isplitr
        swap; · iexact HS4
        ipureintro; exact hy4 _
      isplitl [HS5]
      · unfold owns; iexists _; isplitr
        swap; · iexact HS5
        ipureintro; exact hy5 _
      isplitl [HS6]
      · unfold owns; iexists _; isplitr
        swap; · iexact HS6
        ipureintro; exact hy6 _
      unfold owns; iexists _; isplitr
      swap; · iexact HS7
      ipureintro; exact hy7 _
    iexact Hg
  isplitl [Ho]; · iexact Ho
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  iexists _; iexact H11

variable (m : (ℓ : Loc nD τ sig) → Buf (Elt F) ℓ) (ρ : Dev nD → PrngReg)

set_option maxHeartbeats 4000000 in
/-- At a point with 0 < k < 127: the inputs' buffers hold their blocks; the run of that case applies: the invariant hands it
    the accumulators at what the point before left and takes them back at this point's contents; every output block is
    handed back untouched; the core owes nothing throughout. -/
theorem sound_body_B (c : Dev nD) (t : Fin cfg0.N) (h0 : ¬t.val % 128 = 0) (h1 : ¬t.val % 128 = 127) :
    bodyPre m c t ⊢ wp frame (wpE (defs₀ (F := F)) Variants.none c none) Set.univ (bodyAt0 t) (fun _ => bodyPost m c t) := by
  have hz : t.val ≠ 0 := fun h => h0 (by rw [h])
  have hc0 : ¬cond0_0 (grid0.coords t) := fun h => h0 ((hcond0_0 t).mp h)
  have hc1 : ¬cond0_1 (grid0.coords t) := fun h => h1 ((hcond0_1 t).mp h)
  have e := outsAt0_B m c t h0 h1
  have e0 : (outsAt0 m c t.val t.isLt).s0 = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) hc0 hc1 (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7 := by rw [e]
  have e1 : (outsAt0 m c t.val t.isLt).s1 = sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) hc0 hc1 (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7 := by rw [e]
  have e2 : (outsAt0 m c t.val t.isLt).s2 = sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) hc0 hc1 (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7 := by rw [e]
  have e3 : (outsAt0 m c t.val t.isLt).s3 = sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) hc0 hc1 (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7 := by rw [e]
  have e4 : (outsAt0 m c t.val t.isLt).s4 = sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) hc0 hc1 (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7 := by rw [e]
  have e5 : (outsAt0 m c t.val t.isLt).s5 = sout0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) hc0 hc1 (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7 := by rw [e]
  have e6 : (outsAt0 m c t.val t.isLt).s6 = sout0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) hc0 hc1 (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7 := by rw [e]
  have e7 : (outsAt0 m c t.val t.isLt).s7 = sout0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) hc0 hc1 (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7 := by rw [e]
  clear e
  have hy0 : ∀ f, scM0_0.view.read (Elt F) (scM0_0.view.writes (Elt F) f (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) hc0 hc1 (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7).1) = (outsAt0 m c t.val t.isLt).s0 :=
    fun f => (View.read_writes_of_cover _ _ VS0_0 VS0_0.junk _ (scover0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) hc0 hc1 (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7)).trans e0.symm
  have hy1 : ∀ f, scM0_1.view.read (Elt F) (scM0_1.view.writes (Elt F) f (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) hc0 hc1 (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7).2.1) = (outsAt0 m c t.val t.isLt).s1 :=
    fun f => (View.read_writes_of_cover _ _ VS0_1 VS0_1.junk _ (scover0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) hc0 hc1 (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7)).trans e1.symm
  have hy2 : ∀ f, scM0_2.view.read (Elt F) (scM0_2.view.writes (Elt F) f (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) hc0 hc1 (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7).2.2.1) = (outsAt0 m c t.val t.isLt).s2 :=
    fun f => (View.read_writes_of_cover _ _ VS0_2 VS0_2.junk _ (scover0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) hc0 hc1 (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7)).trans e2.symm
  have hy3 : ∀ f, scM0_3.view.read (Elt F) (scM0_3.view.writes (Elt F) f (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) hc0 hc1 (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7).2.2.2.1) = (outsAt0 m c t.val t.isLt).s3 :=
    fun f => (View.read_writes_of_cover _ _ VS0_3 VS0_3.junk _ (scover0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) hc0 hc1 (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7)).trans e3.symm
  have hy4 : ∀ f, scM0_4.view.read (Elt F) (scM0_4.view.writes (Elt F) f (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) hc0 hc1 (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7).2.2.2.2.1) = (outsAt0 m c t.val t.isLt).s4 :=
    fun f => (View.read_writes_of_cover _ _ VS0_4 VS0_4.junk _ (scover0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) hc0 hc1 (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7)).trans e4.symm
  have hy5 : ∀ f, scM0_5.view.read (Elt F) (scM0_5.view.writes (Elt F) f (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) hc0 hc1 (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7).2.2.2.2.2.1) = (outsAt0 m c t.val t.isLt).s5 :=
    fun f => (View.read_writes_of_cover _ _ VS0_5 VS0_5.junk _ (scover0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) hc0 hc1 (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7)).trans e5.symm
  have hy6 : ∀ f, scM0_6.view.read (Elt F) (scM0_6.view.writes (Elt F) f (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) hc0 hc1 (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7).2.2.2.2.2.2.1) = (outsAt0 m c t.val t.isLt).s6 :=
    fun f => (View.read_writes_of_cover _ _ VS0_6 VS0_6.junk _ (scover0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) hc0 hc1 (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7)).trans e6.symm
  have hy7 : ∀ f, scM0_7.view.read (Elt F) (scM0_7.view.writes (Elt F) f (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) hc0 hc1 (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7).2.2.2.2.2.2.2.1) = (outsAt0 m c t.val t.isLt).s7 :=
    fun f => (View.read_writes_of_cover _ _ VS0_7 VS0_7.junk _ (scover0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) hc0 hc1 (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7)).trans e7.symm
  unfold bodyPre bodyPost bodyAt0
  exact plumb_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) hc0 hc1 (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7
    ((dats m 0 c).before 0 t) (before0_0 m c t) ((dats m 0 c).before 1 t) (before0_1 m c t) ((dats m 0 c).before 2 t) (before0_2 m c t) ((dats m 0 c).before 3 t) (before0_3 m c t)
    ((dats m 0 c).before 4 t) ((dats m 0 c).before 5 t) ((dats m 0 c).before 6 t) ((dats m 0 c).before 7 t) ((dats m 0 c).before 8 t) ((dats m 0 c).before 9 t) ((dats m 0 c).before 10 t) ((dats m 0 c).before 11 t)
    ((dats m 0 c).Φ t.castSucc) ((dats m 0 c).Φ t.succ) (iprop(∃ r, prngReg c r)) ((dats m 0 c).owesAt () t.castSucc) ((dats m 0 c).owesAt () t.succ)
    ((dats m 0 c).leavesExact 0 t) ((dats m 0 c).leavesExact 1 t) ((dats m 0 c).leavesExact 2 t) ((dats m 0 c).leavesExact 3 t) ((dats m 0 c).leavesExact 4 t) ((dats m 0 c).leavesExact 5 t) ((dats m 0 c).leavesExact 6 t) ((dats m 0 c).leavesExact 7 t) ((dats m 0 c).leavesExact 8 t) ((dats m 0 c).leavesExact 9 t) ((dats m 0 c).leavesExact 10 t) ((dats m 0 c).leavesExact 11 t)
    (outsAt0 m c t.val t.isLt).s0 (outsAt0 m c t.val t.isLt).s1 (outsAt0 m c t.val t.isLt).s2 (outsAt0 m c t.val t.isLt).s3 (outsAt0 m c t.val t.isLt).s4 (outsAt0 m c t.val t.isLt).s5 (outsAt0 m c t.val t.isLt).s6 (outsAt0 m c t.val t.isLt).s7
    ((PhiS_castSucc m c t).trans (PhiS_pos m c _ _ hz))
    ((show (dats m 0 c).Φ t.succ = PhiS m c (t.val + 1) t.isLt from rfl).trans (PhiS_succ m c t.val t.isLt))
    rfl
    (by unfold Dat.leavesExact; rw [liveAt0_0 t, after0_0])
    (by unfold Dat.leavesExact; rw [liveAt0_1 t, after0_1])
    (by unfold Dat.leavesExact; rw [liveAt0_2 t, after0_2])
    (by unfold Dat.leavesExact; rw [liveAt0_3 t, after0_3])
    (Dat.leavesExact_idle (dats m 0 c) 4 t (idleAt0_4_B t hc0 hc1) (noFlush0_4_B t hc0 hc1))
    (Dat.leavesExact_idle (dats m 0 c) 5 t (idleAt0_5_B t hc0 hc1) (noFlush0_5_B t hc0 hc1))
    (Dat.leavesExact_idle (dats m 0 c) 6 t (idleAt0_6_B t hc0 hc1) (noFlush0_6_B t hc0 hc1))
    (Dat.leavesExact_idle (dats m 0 c) 7 t (idleAt0_7_B t hc0 hc1) (noFlush0_7_B t hc0 hc1))
    (Dat.leavesExact_idle (dats m 0 c) 8 t (idleAt0_8_B t hc0 hc1) (noFlush0_8_B t hc0 hc1))
    (Dat.leavesExact_idle (dats m 0 c) 9 t (idleAt0_9_B t hc0 hc1) (noFlush0_9_B t hc0 hc1))
    (Dat.leavesExact_idle (dats m 0 c) 10 t (idleAt0_10_B t hc0 hc1) (noFlush0_10_B t hc0 hc1))
    (Dat.leavesExact_idle (dats m 0 c) 11 t (idleAt0_11_B t hc0 hc1) (noFlush0_11_B t hc0 hc1))
    hy0 hy1 hy2 hy3 hy4 hy5 hy6 hy7

end Cert.KernelIdeal.Fr

end
-- ==== Proof.KI.BodyC.lean ====
/-
  The body obligation at a grid point with k = 127: the accumulators are added to and copied into the output blocks.
-/
import proofs.«409862_j41274635715290_3_alg».proof.Proof.KI.Frame0

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 64000000 in
/-- At a point with k = 127: the inputs' buffers hold their blocks; the run of that case applies: the invariant hands it the
    accumulators at what the point before left and takes them back at this point's contents; every output block, handed
    over at anything, comes back at the copy of its accumulator; the core owes nothing throughout. -/
theorem sound_body_C (c : Dev nD) (t : Fin cfg0.N) (h0 : ¬t.val % 128 = 0) (h1 : t.val % 128 = 127) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4_C t (fun h => h0 ((hcond0_0 t).mp h)) ((hcond0_1 t).mpr h1)], after0_4]
  rw [show (dats m 0 c).leavesExact 5 t = owns (c : Thread nD τ) (ms0_5 t) fullShare ((dats m 0 c).after 5 t) from by
    unfold Dat.leavesExact; rw [liveAt0_5_C t (fun h => h0 ((hcond0_0 t).mp h)) ((hcond0_1 t).mpr h1)], after0_5]
  rw [show (dats m 0 c).leavesExact 6 t = owns (c : Thread nD τ) (ms0_6 t) fullShare ((dats m 0 c).after 6 t) from by
    unfold Dat.leavesExact; rw [liveAt0_6_C t (fun h => h0 ((hcond0_0 t).mp h)) ((hcond0_1 t).mpr h1)], after0_6]
  rw [show (dats m 0 c).leavesExact 7 t = owns (c : Thread nD τ) (ms0_7 t) fullShare ((dats m 0 c).after 7 t) from by
    unfold Dat.leavesExact; rw [liveAt0_7_C t (fun h => h0 ((hcond0_0 t).mp h)) ((hcond0_1 t).mpr h1)], after0_7]
  rw [show (dats m 0 c).leavesExact 8 t = owns (c : Thread nD τ) (ms0_8 t) fullShare ((dats m 0 c).after 8 t) from by
    unfold Dat.leavesExact; rw [liveAt0_8_C t (fun h => h0 ((hcond0_0 t).mp h)) ((hcond0_1 t).mpr h1)], after0_8]
  rw [show (dats m 0 c).leavesExact 9 t = owns (c : Thread nD τ) (ms0_9 t) fullShare ((dats m 0 c).after 9 t) from by
    unfold Dat.leavesExact; rw [liveAt0_9_C t (fun h => h0 ((hcond0_0 t).mp h)) ((hcond0_1 t).mpr h1)], after0_9]
  rw [show (dats m 0 c).leavesExact 10 t = owns (c : Thread nD τ) (ms0_10 t) fullShare ((dats m 0 c).after 10 t) from by
    unfold Dat.leavesExact; rw [liveAt0_10_C t (fun h => h0 ((hcond0_0 t).mp h)) ((hcond0_1 t).mpr h1)], after0_10]
  rw [show (dats m 0 c).leavesExact 11 t = owns (c : Thread nD τ) (ms0_11 t) fullShare ((dats m 0 c).after 11 t) from by
    unfold Dat.leavesExact; rw [liveAt0_11_C t (fun h => h0 ((hcond0_0 t).mp h)) ((hcond0_1 t).mpr h1)], after0_11]
  by_cases hz : t.val = 0
  · exfalso; omega
  · rw [PhiS_castSucc m c t, PhiS_pos m c _ _ hz]
    rw [outsAt0_C m c t h0 h1]; dsimp only
    iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7).2.2.2.2.2.2.2.2.2.2.2.2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iintro ⟨H0, H1, H2, H3, ⟨%e4, H4⟩, ⟨%e5, H5⟩, ⟨%e6, H6⟩, ⟨%e7, H7⟩, ⟨%e8, H8⟩, ⟨%e9, H9⟩, ⟨%e10, H10⟩, ⟨%e11, H11⟩, ⟨%es0, HS0⟩, ⟨%es1, HS1⟩, ⟨%es2, HS2⟩, ⟨%es3, HS3⟩, ⟨%es4, HS4⟩, ⟨%es5, HS5⟩, ⟨%es6, HS6⟩, ⟨%es7, HS7⟩⟩
    isplitl [HS0 HS1 HS2 HS3 HS4 HS5 HS6 HS7 Hg]
    · isplitr [Hg]
      · isplitl [HS0]
        · unfold owns; iexists _; isplitr
          swap; · iexact HS0
          ipureintro; unfold sout0_C_0; exact View.read_writes_of_cover _ _ _ _ _ (scover0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7)
        isplitl [HS1]
        · unfold owns; iexists _; isplitr
          swap; · iexact HS1
          ipureintro; unfold sout0_C_1; exact View.read_writes_of_cover _ _ _ _ _ (scover0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7)
        isplitl [HS2]
        · unfold owns; iexists _; isplitr
          swap; · iexact HS2
          ipureintro; unfold sout0_C_2; exact View.read_writes_of_cover _ _ _ _ _ (scover0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7)
        isplitl [HS3]
        · unfold owns; iexists _; isplitr
          swap; · iexact HS3
          ipureintro; unfold sout0_C_3; exact View.read_writes_of_cover _ _ _ _ _ (scover0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7)
        isplitl [HS4]
        · unfold owns; iexists _; isplitr
          swap; · iexact HS4
          ipureintro; unfold sout0_C_4; exact View.read_writes_of_cover _ _ _ _ _ (scover0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7)
        isplitl [HS5]
        · unfold owns; iexists _; isplitr
          swap; · iexact HS5
          ipureintro; unfold sout0_C_5; exact View.read_writes_of_cover _ _ _ _ _ (scover0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7)
        isplitl [HS6]
        · unfold owns; iexists _; isplitr
          swap; · iexact HS6
          ipureintro; unfold sout0_C_6; exact View.read_writes_of_cover _ _ _ _ _ (scover0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7)
        unfold owns; iexists _; isplitr
        swap; · iexact HS7
        ipureintro; unfold sout0_C_7; exact View.read_writes_of_cover _ _ _ _ _ (scover0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7)
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; unfold out0_C_4; exact View.read_writes_of_cover _ _ _ _ _ (cover0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7)
    isplitl [H5]
    · unfold owns; iexists _; isplitr
      swap; · iexact H5
      ipureintro; unfold out0_C_5; exact View.read_writes_of_cover _ _ _ _ _ (cover0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7)
    isplitl [H6]
    · unfold owns; iexists _; isplitr
      swap; · iexact H6
      ipureintro; unfold out0_C_6; exact View.read_writes_of_cover _ _ _ _ _ (cover0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7)
    isplitl [H7]
    · unfold owns; iexists _; isplitr
      swap; · iexact H7
      ipureintro; unfold out0_C_7; exact View.read_writes_of_cover _ _ _ _ _ (cover0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7)
    isplitl [H8]
    · unfold owns; iexists _; isplitr
      swap; · iexact H8
      ipureintro; unfold out0_C_8; exact View.read_writes_of_cover _ _ _ _ _ (cover0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7)
    isplitl [H9]
    · unfold owns; iexists _; isplitr
      swap; · iexact H9
      ipureintro; unfold out0_C_9; exact View.read_writes_of_cover _ _ _ _ _ (cover0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7)
    isplitl [H10]
    · unfold owns; iexists _; isplitr
      swap; · iexact H10
      ipureintro; unfold out0_C_10; exact View.read_writes_of_cover _ _ _ _ _ (cover0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7)
    unfold owns; iexists _; isplitr
    swap; · iexact H11
    ipureintro; unfold out0_C_11; exact View.read_writes_of_cover _ _ _ _ _ (cover0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7)

end Cert.KernelIdeal.Fr

end
-- ==== Proof.KI.Frame.lean ====
/-
  The frame of the kernel program: the body obligation at every point (by the three cases), the run of the whole
  program and its frame claim.
-/
import proofs.«409862_j41274635715290_3_alg».proof.Proof.KI.BodyA
import proofs.«409862_j41274635715290_3_alg».proof.Proof.KI.BodyB
import proofs.«409862_j41274635715290_3_alg».proof.Proof.KI.BodyC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point: the closed forms of the two conditions say which of the three cases the point is in (k = 0 and
    k = 127 never hold together). -/
theorem sound_body (c : Dev nD) (t : Fin cfg0.N) :
    bodyPre m c t ⊢ wp frame (wpE (defs₀ (F := F)) Variants.none c none) Set.univ (bodyAt0 t) (fun _ => bodyPost m c t) := by
  have hN : t.val < 256 := lt_of_lt_of_eq t.isLt (show cfg0.N = 256 from N_0)
  by_cases h0 : t.val % 128 = 0
  · by_cases h1 : t.val % 128 = 127
    · exfalso; omega
    · exact sound_body_A m c t h0 h1
  · by_cases h1 : t.val % 128 = 127
    · exact sound_body_C m c t h0 h1
    · exact sound_body_B m c t h0 h1

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the accumulators' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6, HS7⟩, Hg⟩
  isplitr [Hg]
  · isplitl [HS0]
    · iexists _; iexact HS0
    isplitl [HS1]
    · iexists _; iexact HS1
    isplitl [HS2]
    · iexists _; iexact HS2
    isplitl [HS3]
    · iexists _; iexact HS3
    isplitl [HS4]
    · iexists _; iexact HS4
    isplitl [HS5]
    · iexists _; iexact HS5
    isplitl [HS6]
    · iexists _; iexact HS6
    iexists _; iexact HS7
  iexact Hg

/-- The same after the last point. -/
theorem hout (c : Dev nD) : (dats m 0 c).Φ (Fin.last cfg0.N) ⊢ Pipeline.ΦA spec0 c :=
  Phi_out m c _ (by rw [Fin.val_last]; have : cfg0.N = 256 := N_0; omega)

/-! ## The run and the frame -/

set_option backward.isDefEq.respectTransparency.types false in
/-- At the compiled mesh, for any values, from any memory with zero counters: every weakly fair execution of the program on
    the TensorCores terminates, and every final state has every array of the pipeline at what the library computes from
    the proof data and every other unscoped buffer as the host operations after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- THE FRAME: the program runs and its fifteen argument arrays end unchanged, at any float type. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.KernelIdeal.Fr

end
-- ==== Proof.K.Frame0.lean ====
/-
  What the eight accumulators and the eight output blocks of the kernel hold after each of the 256 grid points, read off
  the three case runs, and the proof data of the one pipeline built from it, with what the body is called with and
  returns at a point.
-/
import proofs.«409862_j41274635715290_3_alg».proof.Proof.K.Runs
import proofs.«409862_j41274635715290_3_alg».proof.Proof.K.RunC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the accumulators and the output blocks -/

/-- At a point with k = 0 the stores into accumulator 0 tile it, so they cover it. -/
theorem scover0_A_0 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : cond0_0 i) (hc1 : ¬cond0_1 i)
    (x0 : Vec F S640x256 .f32) (x1 : Vec F S1280x256 .f32) (x2 : Vec F S256x128 .f32) (x3 : Vec F S256x128 .f32) (y : S5x128x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3).1 S5x128x128.size (by sl_kernel_rfl) y

/-- What such a point leaves in accumulator 0: its stores read back. -/
def sout0_A_0 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : cond0_0 i) (hc1 : ¬cond0_1 i)
    (x0 : Vec F S640x256 .f32) (x1 : Vec F S1280x256 .f32) (x2 : Vec F S256x128 .f32) (x3 : Vec F S256x128 .f32) : Vec F S5x128x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3).1)

/-- At a point with k = 0 the stores into accumulator 1 tile it, so they cover it. -/
theorem scover0_A_1 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : cond0_0 i) (hc1 : ¬cond0_1 i)
    (x0 : Vec F S640x256 .f32) (x1 : Vec F S1280x256 .f32) (x2 : Vec F S256x128 .f32) (x3 : Vec F S256x128 .f32) (y : S5x128x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3).2.1 S5x128x128.size (by sl_kernel_rfl) y

/-- What such a point leaves in accumulator 1: its stores read back. -/
def sout0_A_1 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : cond0_0 i) (hc1 : ¬cond0_1 i)
    (x0 : Vec F S640x256 .f32) (x1 : Vec F S1280x256 .f32) (x2 : Vec F S256x128 .f32) (x3 : Vec F S256x128 .f32) : Vec F S5x128x128 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3).2.1)

/-- At a point with k = 0 the stores into accumulator 2 tile it, so they cover it. -/
theorem scover0_A_2 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : cond0_0 i) (hc1 : ¬cond0_1 i)
    (x0 : Vec F S640x256 .f32) (x1 : Vec F S1280x256 .f32) (x2 : Vec F S256x128 .f32) (x3 : Vec F S256x128 .f32) (y : S5x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3).2.2.1 S5x128.size (by sl_kernel_rfl) y

/-- What such a point leaves in accumulator 2: its stores read back. -/
def sout0_A_2 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : cond0_0 i) (hc1 : ¬cond0_1 i)
    (x0 : Vec F S640x256 .f32) (x1 : Vec F S1280x256 .f32) (x2 : Vec F S256x128 .f32) (x3 : Vec F S256x128 .f32) : Vec F S5x128 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3).2.2.1)

/-- At a point with k = 0 the stores into accumulator 3 tile it, so they cover it. -/
theorem scover0_A_3 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : cond0_0 i) (hc1 : ¬cond0_1 i)
    (x0 : Vec F S640x256 .f32) (x1 : Vec F S1280x256 .f32) (x2 : Vec F S256x128 .f32) (x3 : Vec F S256x128 .f32) (y : S5x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3).2.2.2.1 S5x128.size (by sl_kernel_rfl) y

/-- What such a point leaves in accumulator 3: its stores read back. -/
def sout0_A_3 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : cond0_0 i) (hc1 : ¬cond0_1 i)
    (x0 : Vec F S640x256 .f32) (x1 : Vec F S1280x256 .f32) (x2 : Vec F S256x128 .f32) (x3 : Vec F S256x128 .f32) : Vec F S5x128 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3).2.2.2.1)

/-- At a point with k = 0 the stores into accumulator 4 tile it, so they cover it. -/
theorem scover0_A_4 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : cond0_0 i) (hc1 : ¬cond0_1 i)
    (x0 : Vec F S640x256 .f32) (x1 : Vec F S1280x256 .f32) (x2 : Vec F S256x128 .f32) (x3 : Vec F S256x128 .f32) (y : S640x1280.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3).2.2.2.2.1 S640x1280.size (by sl_kernel_rfl) y

/-- What such a point leaves in accumulator 4: its stores read back. -/
def sout0_A_4 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : cond0_0 i) (hc1 : ¬cond0_1 i)
    (x0 : Vec F S640x256 .f32) (x1 : Vec F S1280x256 .f32) (x2 : Vec F S256x128 .f32) (x3 : Vec F S256x128 .f32) : Vec F S640x1280 .f32 :=
  VS0_4.read (Elt F) (VS0_4.writes (Elt F) VS0_4.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3).2.2.2.2.1)

/-- At a point with k = 0 the stores into accumulator 5 tile it, so they cover it. -/
theorem scover0_A_5 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : cond0_0 i) (hc1 : ¬cond0_1 i)
    (x0 : Vec F S640x256 .f32) (x1 : Vec F S1280x256 .f32) (x2 : Vec F S256x128 .f32) (x3 : Vec F S256x128 .f32) (y : S640x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3).2.2.2.2.2.1 S640x128.size (by sl_kernel_rfl) y

/-- What such a point leaves in accumulator 5: its stores read back. -/
def sout0_A_5 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : cond0_0 i) (hc1 : ¬cond0_1 i)
    (x0 : Vec F S640x256 .f32) (x1 : Vec F S1280x256 .f32) (x2 : Vec F S256x128 .f32) (x3 : Vec F S256x128 .f32) : Vec F S640x128 .f32 :=
  VS0_5.read (Elt F) (VS0_5.writes (Elt F) VS0_5.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3).2.2.2.2.2.1)

/-- At a point with k = 0 the stores into accumulator 6 tile it, so they cover it. -/
theorem scover0_A_6 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : cond0_0 i) (hc1 : ¬cond0_1 i)
    (x0 : Vec F S640x256 .f32) (x1 : Vec F S1280x256 .f32) (x2 : Vec F S256x128 .f32) (x3 : Vec F S256x128 .f32) (y : S640x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3).2.2.2.2.2.2.1 S640x128.size (by sl_kernel_rfl) y

/-- What such a point leaves in accumulator 6: its stores read back. -/
def sout0_A_6 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : cond0_0 i) (hc1 : ¬cond0_1 i)
    (x0 : Vec F S640x256 .f32) (x1 : Vec F S1280x256 .f32) (x2 : Vec F S256x128 .f32) (x3 : Vec F S256x128 .f32) : Vec F S640x128 .f32 :=
  VS0_6.read (Elt F) (VS0_6.writes (Elt F) VS0_6.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3).2.2.2.2.2.2.1)

/-- At a point with k = 0 the stores into accumulator 7 tile it, so they cover it. -/
theorem scover0_A_7 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : cond0_0 i) (hc1 : ¬cond0_1 i)
    (x0 : Vec F S640x256 .f32) (x1 : Vec F S1280x256 .f32) (x2 : Vec F S256x128 .f32) (x3 : Vec F S256x128 .f32) (y : S640x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3).2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3).2.2.2.2.2.2.2.1 S640x128.size (by sl_kernel_rfl) y

/-- What such a point leaves in accumulator 7: its stores read back. -/
def sout0_A_7 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : cond0_0 i) (hc1 : ¬cond0_1 i)
    (x0 : Vec F S640x256 .f32) (x1 : Vec F S1280x256 .f32) (x2 : Vec F S256x128 .f32) (x3 : Vec F S256x128 .f32) : Vec F S640x128 .f32 :=
  VS0_7.read (Elt F) (VS0_7.writes (Elt F) VS0_7.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3).2.2.2.2.2.2.2.1)

/-- At a point with 0 < k < 127 the stores into accumulator 0 tile it, so they cover it. -/
theorem scover0_B_0 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : ¬cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) (y : S5x128x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).1 S5x128x128.size (by sl_kernel_rfl) y

/-- What such a point leaves in accumulator 0: its stores read back. -/
def sout0_B_0 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : ¬cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) : Vec F S5x128x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).1)

/-- At a point with 0 < k < 127 the stores into accumulator 1 tile it, so they cover it. -/
theorem scover0_B_1 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : ¬cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) (y : S5x128x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.1 S5x128x128.size (by sl_kernel_rfl) y

/-- What such a point leaves in accumulator 1: its stores read back. -/
def sout0_B_1 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : ¬cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) : Vec F S5x128x128 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.1)

/-- At a point with 0 < k < 127 the stores into accumulator 2 tile it, so they cover it. -/
theorem scover0_B_2 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : ¬cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) (y : S5x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.1 S5x128.size (by sl_kernel_rfl) y

/-- What such a point leaves in accumulator 2: its stores read back. -/
def sout0_B_2 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : ¬cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) : Vec F S5x128 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.1)

/-- At a point with 0 < k < 127 the stores into accumulator 3 tile it, so they cover it. -/
theorem scover0_B_3 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : ¬cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) (y : S5x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.1 S5x128.size (by sl_kernel_rfl) y

/-- What such a point leaves in accumulator 3: its stores read back. -/
def sout0_B_3 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : ¬cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) : Vec F S5x128 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.1)

/-- At a point with 0 < k < 127 the stores into accumulator 4 tile it, so they cover it. -/
theorem scover0_B_4 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : ¬cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) (y : S640x1280.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.1 S640x1280.size (by sl_kernel_rfl) y

/-- What such a point leaves in accumulator 4: its stores read back. -/
def sout0_B_4 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : ¬cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) : Vec F S640x1280 .f32 :=
  VS0_4.read (Elt F) (VS0_4.writes (Elt F) VS0_4.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.1)

/-- At a point with 0 < k < 127 the stores into accumulator 5 tile it, so they cover it. -/
theorem scover0_B_5 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : ¬cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) (y : S640x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.1 S640x128.size (by sl_kernel_rfl) y

/-- What such a point leaves in accumulator 5: its stores read back. -/
def sout0_B_5 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : ¬cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) : Vec F S640x128 .f32 :=
  VS0_5.read (Elt F) (VS0_5.writes (Elt F) VS0_5.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.1)

/-- At a point with 0 < k < 127 the stores into accumulator 6 tile it, so they cover it. -/
theorem scover0_B_6 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : ¬cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) (y : S640x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.1 S640x128.size (by sl_kernel_rfl) y

/-- What such a point leaves in accumulator 6: its stores read back. -/
def sout0_B_6 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : ¬cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) : Vec F S640x128 .f32 :=
  VS0_6.read (Elt F) (VS0_6.writes (Elt F) VS0_6.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.1)

/-- At a point with 0 < k < 127 the stores into accumulator 7 tile it, so they cover it. -/
theorem scover0_B_7 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : ¬cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) (y : S640x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.2.1 S640x128.size (by sl_kernel_rfl) y

/-- What such a point leaves in accumulator 7: its stores read back. -/
def sout0_B_7 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : ¬cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) : Vec F S640x128 .f32 :=
  VS0_7.read (Elt F) (VS0_7.writes (Elt F) VS0_7.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.2.1)

/-- At a point with k = 127 the stores into output block 4 tile it, so they cover it. -/
theorem cover0_C_4 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) (y : S1x5x128x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).1 S1x5x128x128.size (by sl_kernel_rfl) y

/-- What such a point leaves in output block 4: its stores read back. -/
def out0_C_4 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) : Vec F S1x5x128x128 .f32 :=
  VO0_4.read (Elt F) (VO0_4.writes (Elt F) VO0_4.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).1)

/-- At a point with k = 127 the stores into output block 5 tile it, so they cover it. -/
theorem cover0_C_5 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) (y : S1x5x128x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.1 S1x5x128x128.size (by sl_kernel_rfl) y

/-- What such a point leaves in output block 5: its stores read back. -/
def out0_C_5 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) : Vec F S1x5x128x128 .f32 :=
  VO0_5.read (Elt F) (VO0_5.writes (Elt F) VO0_5.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.1)

/-- At a point with k = 127 the stores into output block 6 tile it, so they cover it. -/
theorem cover0_C_6 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) (y : S1x5x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.1 S1x5x128.size (by sl_kernel_rfl) y

/-- What such a point leaves in output block 6: its stores read back. -/
def out0_C_6 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) : Vec F S1x5x128 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.1)

/-- At a point with k = 127 the stores into output block 7 tile it, so they cover it. -/
theorem cover0_C_7 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) (y : S1x5x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.1 S1x5x128.size (by sl_kernel_rfl) y

/-- What such a point leaves in output block 7: its stores read back. -/
def out0_C_7 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) : Vec F S1x5x128 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.1)

/-- At a point with k = 127 the stores into output block 8 tile it, so they cover it. -/
theorem cover0_C_8 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) (y : S640x1280.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.1 S640x1280.size (by sl_kernel_rfl) y

/-- What such a point leaves in output block 8: its stores read back. -/
def out0_C_8 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) : Vec F S640x1280 .f32 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.1)

/-- At a point with k = 127 the stores into output block 9 tile it, so they cover it. -/
theorem cover0_C_9 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) (y : S640x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.1 S640x128.size (by sl_kernel_rfl) y

/-- What such a point leaves in output block 9: its stores read back. -/
def out0_C_9 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) : Vec F S640x128 .f32 :=
  VO0_9.read (Elt F) (VO0_9.writes (Elt F) VO0_9.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.1)

/-- At a point with k = 127 the stores into output block 10 tile it, so they cover it. -/
theorem cover0_C_10 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) (y : S640x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.1 S640x128.size (by sl_kernel_rfl) y

/-- What such a point leaves in output block 10: its stores read back. -/
def out0_C_10 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) : Vec F S640x128 .f32 :=
  VO0_10.read (Elt F) (VO0_10.writes (Elt F) VO0_10.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.1)

/-- At a point with k = 127 the stores into output block 11 tile it, so they cover it. -/
theorem cover0_C_11 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) (y : S640x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.2.1 S640x128.size (by sl_kernel_rfl) y

/-- What such a point leaves in output block 11: its stores read back. -/
def out0_C_11 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) : Vec F S640x128 .f32 :=
  VO0_11.read (Elt F) (VO0_11.writes (Elt F) VO0_11.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.2.1)

/-- At a point with k = 127 the stores into accumulator 0 tile it, so they cover it. -/
theorem scover0_C_0 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) (y : S5x128x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.2.2.1 S5x128x128.size (by sl_kernel_rfl) y

/-- What such a point leaves in accumulator 0: its stores read back. -/
def sout0_C_0 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) : Vec F S5x128x128 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.2.2.1)

/-- At a point with k = 127 the stores into accumulator 1 tile it, so they cover it. -/
theorem scover0_C_1 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) (y : S5x128x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.2.2.2.1 S5x128x128.size (by sl_kernel_rfl) y

/-- What such a point leaves in accumulator 1: its stores read back. -/
def sout0_C_1 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) : Vec F S5x128x128 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.2.2.2.1)

/-- At a point with k = 127 the stores into accumulator 2 tile it, so they cover it. -/
theorem scover0_C_2 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) (y : S5x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.2.2.2.2.1 S5x128.size (by sl_kernel_rfl) y

/-- What such a point leaves in accumulator 2: its stores read back. -/
def sout0_C_2 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) : Vec F S5x128 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.2.2.2.2.1)

/-- At a point with k = 127 the stores into accumulator 3 tile it, so they cover it. -/
theorem scover0_C_3 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) (y : S5x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.2.2.2.2.2.1 S5x128.size (by sl_kernel_rfl) y

/-- What such a point leaves in accumulator 3: its stores read back. -/
def sout0_C_3 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) : Vec F S5x128 .f32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.2.2.2.2.2.1)

/-- At a point with k = 127 the stores into accumulator 4 tile it, so they cover it. -/
theorem scover0_C_4 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) (y : S640x1280.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.2.2.2.2.2.2.1 S640x1280.size (by sl_kernel_rfl) y

/-- What such a point leaves in accumulator 4: its stores read back. -/
def sout0_C_4 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) : Vec F S640x1280 .f32 :=
  VS0_4.read (Elt F) (VS0_4.writes (Elt F) VS0_4.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.2.2.2.2.2.2.1)

/-- At a point with k = 127 the stores into accumulator 5 tile it, so they cover it. -/
theorem scover0_C_5 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) (y : S640x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.2.2.2.2.2.2.2.1 S640x128.size (by sl_kernel_rfl) y

/-- What such a point leaves in accumulator 5: its stores read back. -/
def sout0_C_5 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) : Vec F S640x128 .f32 :=
  VS0_5.read (Elt F) (VS0_5.writes (Elt F) VS0_5.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.2.2.2.2.2.2.2.1)

/-- At a point with k = 127 the stores into accumulator 6 tile it, so they cover it. -/
theorem scover0_C_6 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) (y : S640x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.2.2.2.2.2.2.2.2.1 S640x128.size (by sl_kernel_rfl) y

/-- What such a point leaves in accumulator 6: its stores read back. -/
def sout0_C_6 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) : Vec F S640x128 .f32 :=
  VS0_6.read (Elt F) (VS0_6.writes (Elt F) VS0_6.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.2.2.2.2.2.2.2.2.1)

/-- At a point with k = 127 the stores into accumulator 7 tile it, so they cover it. -/
theorem scover0_C_7 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) (y : S640x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.2.2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.2.2.2.2.2.2.2.2.2.1 S640x128.size (by sl_kernel_rfl) y

/-- What such a point leaves in accumulator 7: its stores read back. -/
def sout0_C_7 (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) : Vec F S640x128 .f32 :=
  VS0_7.read (Elt F) (VS0_7.writes (Elt F) VS0_7.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7).2.2.2.2.2.2.2.2.2.2.2.2.2.2.2.1)

/-! ## What the outputs and the accumulators hold after each point -/

/-- The eight output blocks' staging contents and the eight accumulators' contents after a point. -/
structure Outs (F : FTy → Type) where
  o4 : Vec F S1x5x128x128 .f32
  o5 : Vec F S1x5x128x128 .f32
  o6 : Vec F S1x5x128 .f32
  o7 : Vec F S1x5x128 .f32
  o8 : Vec F S640x1280 .f32
  o9 : Vec F S640x128 .f32
  o10 : Vec F S640x128 .f32
  o11 : Vec F S640x128 .f32
  s0 : Vec F S5x128x128 .f32
  s1 : Vec F S5x128x128 .f32
  s2 : Vec F S5x128 .f32
  s3 : Vec F S5x128 .f32
  s4 : Vec F S640x1280 .f32
  s5 : Vec F S640x128 .f32
  s6 : Vec F S640x128 .f32
  s7 : Vec F S640x128 .f32

/-- Output block 4 at a point that stores nothing into it: the pipeline neither writes it back there nor reads it
    afterwards, so no contents need be named; a placeholder. -/
def idle0_4 : Vec F S1x5x128x128 .f32 := VO0_4.read (Elt F) VO0_4.junk

/-- Output block 5 at a point that stores nothing into it: the pipeline neither writes it back there nor reads it
    afterwards, so no contents need be named; a placeholder. -/
def idle0_5 : Vec F S1x5x128x128 .f32 := VO0_5.read (Elt F) VO0_5.junk

/-- Output block 6 at a point that stores nothing into it: the pipeline neither writes it back there nor reads it
    afterwards, so no contents need be named; a placeholder. -/
def idle0_6 : Vec F S1x5x128 .f32 := VO0_6.read (Elt F) VO0_6.junk

/-- Output block 7 at a point that stores nothing into it: the pipeline neither writes it back there nor reads it
    afterwards, so no contents need be named; a placeholder. -/
def idle0_7 : Vec F S1x5x128 .f32 := VO0_7.read (Elt F) VO0_7.junk

/-- Output block 8 at a point that stores nothing into it: the pipeline neither writes it back there nor reads it
    afterwards, so no contents need be named; a placeholder. -/
def idle0_8 : Vec F S640x1280 .f32 := VO0_8.read (Elt F) VO0_8.junk

/-- Output block 9 at a point that stores nothing into it: the pipeline neither writes it back there nor reads it
    afterwards, so no contents need be named; a placeholder. -/
def idle0_9 : Vec F S640x128 .f32 := VO0_9.read (Elt F) VO0_9.junk

/-- Output block 10 at a point that stores nothing into it: the pipeline neither writes it back there nor reads it
    afterwards, so no contents need be named; a placeholder. -/
def idle0_10 : Vec F S640x128 .f32 := VO0_10.read (Elt F) VO0_10.junk

/-- Output block 11 at a point that stores nothing into it: the pipeline neither writes it back there nor reads it
    afterwards, so no contents need be named; a placeholder. -/
def idle0_11 : Vec F S640x128 .f32 := VO0_11.read (Elt F) VO0_11.junk

/-- One point of the accumulation: at a point with k = 0 the accumulators are cleared and then added to, from the input
    blocks alone; at the other points they are added to over what the point before left (prev); at a point with
    k = 127 each output block receives its accumulator. The two conditions never hold together. -/
def stepAt0 (c : Dev nD) (t : Fin cfg0.N) (prev : Outs F) : Outs F :=
  if h0 : t.val % 128 = 0 then
    if h1 : t.val % 128 = 127 then False.elim (by omega)
    else
      { o4 := idle0_4,
        o5 := idle0_5,
        o6 := idle0_6,
        o7 := idle0_7,
        o8 := idle0_8,
        o9 := idle0_9,
        o10 := idle0_10,
        o11 := idle0_11,
        s0 := sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t),
        s1 := sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t),
        s2 := sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t),
        s3 := sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t),
        s4 := sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t),
        s5 := sout0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t),
        s6 := sout0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t),
        s7 := sout0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t) }
  else
    if h1 : t.val % 128 = 127 then
      { o4 := out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) prev.s0 prev.s1 prev.s2 prev.s3 prev.s4 prev.s5 prev.s6 prev.s7,
        o5 := out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) prev.s0 prev.s1 prev.s2 prev.s3 prev.s4 prev.s5 prev.s6 prev.s7,
        o6 := out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) prev.s0 prev.s1 prev.s2 prev.s3 prev.s4 prev.s5 prev.s6 prev.s7,
        o7 := out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) prev.s0 prev.s1 prev.s2 prev.s3 prev.s4 prev.s5 prev.s6 prev.s7,
        o8 := out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) prev.s0 prev.s1 prev.s2 prev.s3 prev.s4 prev.s5 prev.s6 prev.s7,
        o9 := out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) prev.s0 prev.s1 prev.s2 prev.s3 prev.s4 prev.s5 prev.s6 prev.s7,
        o10 := out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) prev.s0 prev.s1 prev.s2 prev.s3 prev.s4 prev.s5 prev.s6 prev.s7,
        o11 := out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) prev.s0 prev.s1 prev.s2 prev.s3 prev.s4 prev.s5 prev.s6 prev.s7,
        s0 := sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) prev.s0 prev.s1 prev.s2 prev.s3 prev.s4 prev.s5 prev.s6 prev.s7,
        s1 := sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) prev.s0 prev.s1 prev.s2 prev.s3 prev.s4 prev.s5 prev.s6 prev.s7,
        s2 := sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) prev.s0 prev.s1 prev.s2 prev.s3 prev.s4 prev.s5 prev.s6 prev.s7,
        s3 := sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) prev.s0 prev.s1 prev.s2 prev.s3 prev.s4 prev.s5 prev.s6 prev.s7,
        s4 := sout0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) prev.s0 prev.s1 prev.s2 prev.s3 prev.s4 prev.s5 prev.s6 prev.s7,
        s5 := sout0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) prev.s0 prev.s1 prev.s2 prev.s3 prev.s4 prev.s5 prev.s6 prev.s7,
        s6 := sout0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) prev.s0 prev.s1 prev.s2 prev.s3 prev.s4 prev.s5 prev.s6 prev.s7,
        s7 := sout0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) prev.s0 prev.s1 prev.s2 prev.s3 prev.s4 prev.s5 prev.s6 prev.s7 }
    else
      { o4 := idle0_4,
        o5 := idle0_5,
        o6 := idle0_6,
        o7 := idle0_7,
        o8 := idle0_8,
        o9 := idle0_9,
        o10 := idle0_10,
        o11 := idle0_11,
        s0 := sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) prev.s0 prev.s1 prev.s2 prev.s3 prev.s4 prev.s5 prev.s6 prev.s7,
        s1 := sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) prev.s0 prev.s1 prev.s2 prev.s3 prev.s4 prev.s5 prev.s6 prev.s7,
        s2 := sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) prev.s0 prev.s1 prev.s2 prev.s3 prev.s4 prev.s5 prev.s6 prev.s7,
        s3 := sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) prev.s0 prev.s1 prev.s2 prev.s3 prev.s4 prev.s5 prev.s6 prev.s7,
        s4 := sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) prev.s0 prev.s1 prev.s2 prev.s3 prev.s4 prev.s5 prev.s6 prev.s7,
        s5 := sout0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) prev.s0 prev.s1 prev.s2 prev.s3 prev.s4 prev.s5 prev.s6 prev.s7,
        s6 := sout0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) prev.s0 prev.s1 prev.s2 prev.s3 prev.s4 prev.s5 prev.s6 prev.s7,
        s7 := sout0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) prev.s0 prev.s1 prev.s2 prev.s3 prev.s4 prev.s5 prev.s6 prev.s7 }

/-- Placeholder contents before the first point (the first point has k = 0 and does not read them). -/
def idleOuts : Outs F :=
  { o4 := idle0_4, o5 := idle0_5, o6 := idle0_6, o7 := idle0_7, o8 := idle0_8, o9 := idle0_9, o10 := idle0_10, o11 := idle0_11,
    s0 := VS0_0.read (Elt F) VS0_0.junk, s1 := VS0_1.read (Elt F) VS0_1.junk, s2 := VS0_2.read (Elt F) VS0_2.junk, s3 := VS0_3.read (Elt F) VS0_3.junk, s4 := VS0_4.read (Elt F) VS0_4.junk, s5 := VS0_5.read (Elt F) VS0_5.junk, s6 := VS0_6.read (Elt F) VS0_6.junk, s7 := VS0_7.read (Elt F) VS0_7.junk }

/-- THE ACCUMULATION: the outputs' staging contents and the accumulators after the body at position n, point by point. -/
def outsAt0 (c : Dev nD) : (n : ℕ) → n < cfg0.N → Outs F
  | 0, hn => stepAt0 m c ⟨0, hn⟩ idleOuts
  | n + 1, hn => stepAt0 m c ⟨n + 1, hn⟩ (outsAt0 c n (Nat.lt_of_succ_lt hn))

/-- outsAt0 at a point with k = 0. -/
theorem outsAt0_A (c : Dev nD) (t : Fin cfg0.N) (h0 : t.val % 128 = 0) (h1 : ¬t.val % 128 = 127) :
    outsAt0 m c t.val t.isLt =
      { o4 := idle0_4,
        o5 := idle0_5,
        o6 := idle0_6,
        o7 := idle0_7,
        o8 := idle0_8,
        o9 := idle0_9,
        o10 := idle0_10,
        o11 := idle0_11,
        s0 := sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t),
        s1 := sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t),
        s2 := sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t),
        s3 := sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t),
        s4 := sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t),
        s5 := sout0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t),
        s6 := sout0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t),
        s7 := sout0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t) } := by
  obtain ⟨n, hn⟩ := t
  cases n with
  | zero => show stepAt0 m c ⟨0, hn⟩ idleOuts = _; unfold stepAt0; rw [dif_pos h0, dif_neg h1]
  | succ n => exact (dif_pos h0).trans ((dif_neg h1).trans rfl)

/-- outsAt0 at a point with 0 < k < 127: over what the point before left. -/
theorem outsAt0_B (c : Dev nD) (t : Fin cfg0.N) (h0 : ¬t.val % 128 = 0) (h1 : ¬t.val % 128 = 127) :
    outsAt0 m c t.val t.isLt =
      { o4 := idle0_4,
        o5 := idle0_5,
        o6 := idle0_6,
        o7 := idle0_7,
        o8 := idle0_8,
        o9 := idle0_9,
        o10 := idle0_10,
        o11 := idle0_11,
        s0 := sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7,
        s1 := sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7,
        s2 := sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7,
        s3 := sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7,
        s4 := sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7,
        s5 := sout0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7,
        s6 := sout0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7,
        s7 := sout0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7 } := by
  obtain ⟨n, hn⟩ := t
  cases n with
  | zero => exact (by exfalso; (try dsimp only at h0); exact absurd (Nat.zero_mod _) h0)
  | succ n => exact (dif_neg h0).trans ((dif_neg h1).trans rfl)

/-- outsAt0 at a point with k = 127: over what the point before left. -/
theorem outsAt0_C (c : Dev nD) (t : Fin cfg0.N) (h0 : ¬t.val % 128 = 0) (h1 : t.val % 128 = 127) :
    outsAt0 m c t.val t.isLt =
      { o4 := out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7,
        o5 := out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7,
        o6 := out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7,
        o7 := out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7,
        o8 := out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7,
        o9 := out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7,
        o10 := out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7,
        o11 := out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7,
        s0 := sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7,
        s1 := sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7,
        s2 := sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7,
        s3 := sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7,
        s4 := sout0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7,
        s5 := sout0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7,
        s6 := sout0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7,
        s7 := sout0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7 } := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point every accumulator at anything; afterwards each
    accumulator at what the point before left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).s0) ∗ owns (c : Thread nD τ) scM0_1 fullShare ((outsAt0 m c n hn).s1) ∗ owns (c : Thread nD τ) scM0_2 fullShare ((outsAt0 m c n hn).s2) ∗ owns (c : Thread nD τ) scM0_3 fullShare ((outsAt0 m c n hn).s3) ∗ owns (c : Thread nD τ) scM0_4 fullShare ((outsAt0 m c n hn).s4) ∗ owns (c : Thread nD τ) scM0_5 fullShare ((outsAt0 m c n hn).s5) ∗ owns (c : Thread nD τ) scM0_6 fullShare ((outsAt0 m c n hn).s6) ∗ owns (c : Thread nD τ) scM0_7 fullShare ((outsAt0 m c n hn).s7)) ∗ (∃ r, prngReg c r))

theorem PhiS_zero (c : Dev nD) (n : ℕ) (h : n ≤ cfg0.N) (hz : n = 0) : PhiS m c n h = Pipeline.ΦA spec0 c := by
  subst hz; rfl

/-- After point n: the accumulators at that point's contents. -/
theorem PhiS_succ (c : Dev nD) (n : ℕ) (hn : n < cfg0.N) :
    PhiS m c (n + 1) hn = iprop(iprop(owns (c : Thread nD τ) scM0_0 fullShare ((outsAt0 m c n hn).s0) ∗ owns (c : Thread nD τ) scM0_1 fullShare ((outsAt0 m c n hn).s1) ∗ owns (c : Thread nD τ) scM0_2 fullShare ((outsAt0 m c n hn).s2) ∗ owns (c : Thread nD τ) scM0_3 fullShare ((outsAt0 m c n hn).s3) ∗ owns (c : Thread nD τ) scM0_4 fullShare ((outsAt0 m c n hn).s4) ∗ owns (c : Thread nD τ) scM0_5 fullShare ((outsAt0 m c n hn).s5) ∗ owns (c : Thread nD τ) scM0_6 fullShare ((outsAt0 m c n hn).s6) ∗ owns (c : Thread nD τ) scM0_7 fullShare ((outsAt0 m c n hn).s7)) ∗ (∃ r, prngReg c r)) := rfl

/-- Before a point that is not the first: the accumulators at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).s0) ∗ owns (c : Thread nD τ) scM0_1 fullShare ((outsAt0 m c (n - 1) (by omega)).s1) ∗ owns (c : Thread nD τ) scM0_2 fullShare ((outsAt0 m c (n - 1) (by omega)).s2) ∗ owns (c : Thread nD τ) scM0_3 fullShare ((outsAt0 m c (n - 1) (by omega)).s3) ∗ owns (c : Thread nD τ) scM0_4 fullShare ((outsAt0 m c (n - 1) (by omega)).s4) ∗ owns (c : Thread nD τ) scM0_5 fullShare ((outsAt0 m c (n - 1) (by omega)).s5) ∗ owns (c : Thread nD τ) scM0_6 fullShare ((outsAt0 m c (n - 1) (by omega)).s6) ∗ owns (c : Thread nD τ) scM0_7 fullShare ((outsAt0 m c (n - 1) (by omega)).s7)) ∗ (∃ r, prngReg c r)) := by
  cases n with
  | zero => exact absurd rfl hz
  | succ n => rfl

/-! ## The pipeline's proof data -/

/-- The proof data of the one pipeline on core c: the arrays as the region finds them; after the body at point t each
    input's buffer at its block and each output's at outsAt0's component; the invariant PhiS; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).o4
    | ⟨5, _⟩ => (outsAt0 m c t.val t.isLt).o5
    | ⟨6, _⟩ => (outsAt0 m c t.val t.isLt).o6
    | ⟨7, _⟩ => (outsAt0 m c t.val t.isLt).o7
    | ⟨8, _⟩ => (outsAt0 m c t.val t.isLt).o8
    | ⟨9, _⟩ => (outsAt0 m c t.val t.isLt).o9
    | ⟨10, _⟩ => (outsAt0 m c t.val t.isLt).o10
    | ⟨11, _⟩ => (outsAt0 m c t.val t.isLt).o11
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).o4 := by dsimp only [dats]
theorem after0_5 (c : Dev nD) (t : Fin cfg0.N) : (dats m 0 c).after 5 t = (outsAt0 m c t.val t.isLt).o5 := by dsimp only [dats]
theorem after0_6 (c : Dev nD) (t : Fin cfg0.N) : (dats m 0 c).after 6 t = (outsAt0 m c t.val t.isLt).o6 := by dsimp only [dats]
theorem after0_7 (c : Dev nD) (t : Fin cfg0.N) : (dats m 0 c).after 7 t = (outsAt0 m c t.val t.isLt).o7 := by dsimp only [dats]
theorem after0_8 (c : Dev nD) (t : Fin cfg0.N) : (dats m 0 c).after 8 t = (outsAt0 m c t.val t.isLt).o8 := by dsimp only [dats]
theorem after0_9 (c : Dev nD) (t : Fin cfg0.N) : (dats m 0 c).after 9 t = (outsAt0 m c t.val t.isLt).o9 := by dsimp only [dats]
theorem after0_10 (c : Dev nD) (t : Fin cfg0.N) : (dats m 0 c).after 10 t = (outsAt0 m c t.val t.isLt).o10 := by dsimp only [dats]
theorem after0_11 (c : Dev nD) (t : Fin cfg0.N) : (dats m 0 c).after 11 t = (outsAt0 m c t.val t.isLt).o11 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

end Cert.Kernel.Fr

end
-- ==== Proof.K.BodyC.lean ====
/-
  The body obligation at a grid point with k = 127: the accumulators are added to and copied into the output blocks.
-/
import proofs.«409862_j41274635715290_3_alg».proof.Proof.K.Frame0

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 64000000 in
/-- At a point with k = 127: the inputs' buffers hold their blocks; the run of that case applies: the invariant hands it the
    accumulators at what the point before left and takes them back at this point's contents; every output block, handed
    over at anything, comes back at the copy of its accumulator; the core owes nothing throughout. -/
theorem sound_body_C (c : Dev nD) (t : Fin cfg0.N) (h0 : ¬t.val % 128 = 0) (h1 : t.val % 128 = 127) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4_C t (fun h => h0 ((hcond0_0 t).mp h)) ((hcond0_1 t).mpr h1)], after0_4]
  rw [show (dats m 0 c).leavesExact 5 t = owns (c : Thread nD τ) (ms0_5 t) fullShare ((dats m 0 c).after 5 t) from by
    unfold Dat.leavesExact; rw [liveAt0_5_C t (fun h => h0 ((hcond0_0 t).mp h)) ((hcond0_1 t).mpr h1)], after0_5]
  rw [show (dats m 0 c).leavesExact 6 t = owns (c : Thread nD τ) (ms0_6 t) fullShare ((dats m 0 c).after 6 t) from by
    unfold Dat.leavesExact; rw [liveAt0_6_C t (fun h => h0 ((hcond0_0 t).mp h)) ((hcond0_1 t).mpr h1)], after0_6]
  rw [show (dats m 0 c).leavesExact 7 t = owns (c : Thread nD τ) (ms0_7 t) fullShare ((dats m 0 c).after 7 t) from by
    unfold Dat.leavesExact; rw [liveAt0_7_C t (fun h => h0 ((hcond0_0 t).mp h)) ((hcond0_1 t).mpr h1)], after0_7]
  rw [show (dats m 0 c).leavesExact 8 t = owns (c : Thread nD τ) (ms0_8 t) fullShare ((dats m 0 c).after 8 t) from by
    unfold Dat.leavesExact; rw [liveAt0_8_C t (fun h => h0 ((hcond0_0 t).mp h)) ((hcond0_1 t).mpr h1)], after0_8]
  rw [show (dats m 0 c).leavesExact 9 t = owns (c : Thread nD τ) (ms0_9 t) fullShare ((dats m 0 c).after 9 t) from by
    unfold Dat.leavesExact; rw [liveAt0_9_C t (fun h => h0 ((hcond0_0 t).mp h)) ((hcond0_1 t).mpr h1)], after0_9]
  rw [show (dats m 0 c).leavesExact 10 t = owns (c : Thread nD τ) (ms0_10 t) fullShare ((dats m 0 c).after 10 t) from by
    unfold Dat.leavesExact; rw [liveAt0_10_C t (fun h => h0 ((hcond0_0 t).mp h)) ((hcond0_1 t).mpr h1)], after0_10]
  rw [show (dats m 0 c).leavesExact 11 t = owns (c : Thread nD τ) (ms0_11 t) fullShare ((dats m 0 c).after 11 t) from by
    unfold Dat.leavesExact; rw [liveAt0_11_C t (fun h => h0 ((hcond0_0 t).mp h)) ((hcond0_1 t).mpr h1)], after0_11]
  by_cases hz : t.val = 0
  · exfalso; omega
  · rw [PhiS_castSucc m c t, PhiS_pos m c _ _ hz]
    rw [outsAt0_C m c t h0 h1]; dsimp only
    iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7).2.2.2.2.2.2.2.2.2.2.2.2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iintro ⟨H0, H1, H2, H3, ⟨%e4, H4⟩, ⟨%e5, H5⟩, ⟨%e6, H6⟩, ⟨%e7, H7⟩, ⟨%e8, H8⟩, ⟨%e9, H9⟩, ⟨%e10, H10⟩, ⟨%e11, H11⟩, ⟨%es0, HS0⟩, ⟨%es1, HS1⟩, ⟨%es2, HS2⟩, ⟨%es3, HS3⟩, ⟨%es4, HS4⟩, ⟨%es5, HS5⟩, ⟨%es6, HS6⟩, ⟨%es7, HS7⟩⟩
    isplitl [HS0 HS1 HS2 HS3 HS4 HS5 HS6 HS7 Hg]
    · isplitr [Hg]
      · isplitl [HS0]
        · unfold owns; iexists _; isplitr
          swap; · iexact HS0
          ipureintro; unfold sout0_C_0; exact View.read_writes_of_cover _ _ _ _ _ (scover0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7)
        isplitl [HS1]
        · unfold owns; iexists _; isplitr
          swap; · iexact HS1
          ipureintro; unfold sout0_C_1; exact View.read_writes_of_cover _ _ _ _ _ (scover0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7)
        isplitl [HS2]
        · unfold owns; iexists _; isplitr
          swap; · iexact HS2
          ipureintro; unfold sout0_C_2; exact View.read_writes_of_cover _ _ _ _ _ (scover0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7)
        isplitl [HS3]
        · unfold owns; iexists _; isplitr
          swap; · iexact HS3
          ipureintro; unfold sout0_C_3; exact View.read_writes_of_cover _ _ _ _ _ (scover0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7)
        isplitl [HS4]
        · unfold owns; iexists _; isplitr
          swap; · iexact HS4
          ipureintro; unfold sout0_C_4; exact View.read_writes_of_cover _ _ _ _ _ (scover0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7)
        isplitl [HS5]
        · unfold owns; iexists _; isplitr
          swap; · iexact HS5
          ipureintro; unfold sout0_C_5; exact View.read_writes_of_cover _ _ _ _ _ (scover0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7)
        isplitl [HS6]
        · unfold owns; iexists _; isplitr
          swap; · iexact HS6
          ipureintro; unfold sout0_C_6; exact View.read_writes_of_cover _ _ _ _ _ (scover0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7)
        unfold owns; iexists _; isplitr
        swap; · iexact HS7
        ipureintro; unfold sout0_C_7; exact View.read_writes_of_cover _ _ _ _ _ (scover0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7)
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; unfold out0_C_4; exact View.read_writes_of_cover _ _ _ _ _ (cover0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7)
    isplitl [H5]
    · unfold owns; iexists _; isplitr
      swap; · iexact H5
      ipureintro; unfold out0_C_5; exact View.read_writes_of_cover _ _ _ _ _ (cover0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7)
    isplitl [H6]
    · unfold owns; iexists _; isplitr
      swap; · iexact H6
      ipureintro; unfold out0_C_6; exact View.read_writes_of_cover _ _ _ _ _ (cover0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7)
    isplitl [H7]
    · unfold owns; iexists _; isplitr
      swap; · iexact H7
      ipureintro; unfold out0_C_7; exact View.read_writes_of_cover _ _ _ _ _ (cover0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7)
    isplitl [H8]
    · unfold owns; iexists _; isplitr
      swap; · iexact H8
      ipureintro; unfold out0_C_8; exact View.read_writes_of_cover _ _ _ _ _ (cover0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7)
    isplitl [H9]
    · unfold owns; iexists _; isplitr
      swap; · iexact H9
      ipureintro; unfold out0_C_9; exact View.read_writes_of_cover _ _ _ _ _ (cover0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7)
    isplitl [H10]
    · unfold owns; iexists _; isplitr
      swap; · iexact H10
      ipureintro; unfold out0_C_10; exact View.read_writes_of_cover _ _ _ _ _ (cover0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7)
    unfold owns; iexists _; isplitr
    swap; · iexact H11
    ipureintro; unfold out0_C_11; exact View.read_writes_of_cover _ _ _ _ _ (cover0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7)

end Cert.Kernel.Fr

end
-- ==== Proof.K.Frame.lean ====
/-
  The frame of the kernel program: the body obligation at every point (by the three cases), the run of the whole
  program and its frame claim.
-/
import proofs.«409862_j41274635715290_3_alg».proof.Proof.K.BodyA
import proofs.«409862_j41274635715290_3_alg».proof.Proof.K.BodyB
import proofs.«409862_j41274635715290_3_alg».proof.Proof.K.BodyC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point: the closed forms of the two conditions say which of the three cases the point is in (k = 0 and
    k = 127 never hold together). -/
theorem sound_body (c : Dev nD) (t : Fin cfg0.N) :
    bodyPre m c t ⊢ wp frame (wpE (defs₀ (F := F)) Variants.none c none) Set.univ (bodyAt0 t) (fun _ => bodyPost m c t) := by
  have hN : t.val < 256 := lt_of_lt_of_eq t.isLt (show cfg0.N = 256 from N_0)
  by_cases h0 : t.val % 128 = 0
  · by_cases h1 : t.val % 128 = 127
    · exfalso; omega
    · exact sound_body_A m c t h0 h1
  · by_cases h1 : t.val % 128 = 127
    · exact sound_body_C m c t h0 h1
    · exact sound_body_B m c t h0 h1

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the accumulators' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6, HS7⟩, Hg⟩
  isplitr [Hg]
  · isplitl [HS0]
    · iexists _; iexact HS0
    isplitl [HS1]
    · iexists _; iexact HS1
    isplitl [HS2]
    · iexists _; iexact HS2
    isplitl [HS3]
    · iexists _; iexact HS3
    isplitl [HS4]
    · iexists _; iexact HS4
    isplitl [HS5]
    · iexists _; iexact HS5
    isplitl [HS6]
    · iexists _; iexact HS6
    iexists _; iexact HS7
  iexact Hg

/-- The same after the last point. -/
theorem hout (c : Dev nD) : (dats m 0 c).Φ (Fin.last cfg0.N) ⊢ Pipeline.ΦA spec0 c :=
  Phi_out m c _ (by rw [Fin.val_last]; have : cfg0.N = 256 := N_0; omega)

/-! ## The run and the frame -/

set_option backward.isDefEq.respectTransparency.types false in
/-- At the compiled mesh, for any values, from any memory with zero counters: every weakly fair execution of the program on
    the TensorCores terminates, and every final state has every array of the pipeline at what the library computes from
    the proof data and every other unscoped buffer as the host operations after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- THE FRAME: the program runs and its fifteen argument arrays end unchanged, at any float type. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.Kernel.Fr

end
-- ==== Proof.Spec.Region.lean ====
/-
  What the one pallas_call leaves in its eight result arrays, as whole-array functions of the four arrays it reads,
  over the extended reals. The call streams the 32768 feature columns in 128 tiles of 256 and keeps, per half p of the
  1280 rows, eight running sums over the tiles; a narrowing to bf16 before each product is the identity here. With
  X the source rows, Y the target rows (both 1280 × 32768), D and C the two first-layer weight matrices
  (32768 × 128), and the 1280 rows cut into ten regions of 128 (row (5p + r)·128 + a is row a of region 5p + r):
    gram X  [p, r, a, b] = Σ_f X[(5p+r)·128+a, f] · X[(5p+r)·128+b, f]     (the region's Gram matrix)
    sq X    [p, r, a]    = Σ_f X[(5p+r)·128+a, f]²                         (a row's squared length)
    cross X Y [i, j]     = Σ_f X[i, f] · Y[j, f]
    prod X W  [i, j]     = Σ_f X[i, f] · W[f, j]
  Each is a plain finite sum of products in the extended reals: nothing here needs the entries to be finite.
-/
import Idealize.ShloMosaic.PureOps.Ideal
import Idealize.ShloMosaic.Lib.ValueIdx

noncomputable section

open scoped BigOperators

namespace Cert.Region

open Idealize.ShloMosaic Idealize.ShloMosaic.ValueIdx

/-- An r × c array of extended reals. -/
abbrev Mat (r c : Nat) : Type := (⟨2, ![r, c]⟩ : Shape).Idx → EReal

/-- Row a of region 5p + r among the 1280 rows. -/
def row (p : Fin 2) (r : Fin 5) (a : Fin 128) : Fin 1280 :=
  ⟨(5 * p.val + r.val) * 128 + a.val, by have := p.isLt; have := r.isLt; have := a.isLt; omega⟩

/-- Entry (a, b) of region 5p + r's Gram matrix. -/
def gramAt (X : Mat 1280 32768) (p : Fin 2) (r : Fin 5) (a b : Fin 128) : EReal :=
  ∑ f : Fin 32768, X (ix2 (row p r a) f) * X (ix2 (row p r b) f)

/-- The ten regions' Gram matrices, as the call lays them out: 2 × 5 × 128 × 128. -/
def gram (X : Mat 1280 32768) : (⟨4, ![2, 5, 128, 128]⟩ : Shape).Idx → EReal :=
  fun j => gramAt X (j 0) (j 1) (j 2) (j 3)

/-- The squared length of row a of region 5p + r. -/
def sqAt (X : Mat 1280 32768) (p : Fin 2) (r : Fin 5) (a : Fin 128) : EReal :=
  ∑ f : Fin 32768, X (ix2 (row p r a) f) * X (ix2 (row p r a) f)

/-- The rows' squared lengths, as the call lays them out: 2 × 5 × 128. -/
def sq (X : Mat 1280 32768) : (⟨3, ![2, 5, 128]⟩ : Shape).Idx → EReal :=
  fun j => sqAt X (j 0) (j 1) (j 2)

/-- X · Yᵀ at (i, j). -/
def crossAt (X Y : Mat 1280 32768) (i j : Fin 1280) : EReal :=
  ∑ f : Fin 32768, X (ix2 i f) * Y (ix2 j f)

/-- X · Yᵀ, 1280 × 1280. -/
def cross (X Y : Mat 1280 32768) : Mat 1280 1280 := fun j => crossAt X Y (j 0) (j 1)

/-- X · W at (i, j). -/
def prodAt (X : Mat 1280 32768) (W : Mat 32768 128) (i : Fin 1280) (j : Fin 128) : EReal :=
  ∑ f : Fin 32768, X (ix2 i f) * W (ix2 f j)

/-- X · W, 1280 × 128. -/
def prod (X : Mat 1280 32768) (W : Mat 32768 128) : Mat 1280 128 := fun j => prodAt X W (j 0) (j 1)

/-- Every entry is a real number. -/
def IsReal {S : Shape} (A : S.Idx → EReal) : Prop := ∀ i, ∃ x : ℝ, A i = (x : EReal)

end Cert.Region

end
-- ==== Proof.Spec.Sums.lean ====
/-
  Finite sums regrouped. The 32768 feature columns are streamed in 128 tiles of 256: column 256·k + f is column f of
  tile k, and a sum over all columns is the sum over the tiles of the sums inside a tile. Likewise a sum over the first
  n + 1 tiles is the sum over the first n plus tile n's. Stated in any commutative additive monoid (the extended reals
  are one), so nothing about finiteness is asked.
-/
import Idealize.ShloMosaic.PureOps.Ideal
import Mathlib.Logic.Equiv.Fin.Basic
import Mathlib.Algebra.BigOperators.Fin

open scoped BigOperators

namespace Cert.Sums

/-- Column f of tile k. -/
def col (k : Fin 128) (f : Fin 256) : Fin 32768 :=
  ⟨256 * k.val + f.val, by have := k.isLt; have := f.isLt; omega⟩

theorem col_val (k : Fin 128) (f : Fin 256) : (col k f).val = 256 * k.val + f.val := rfl

/-- A sum over the 32768 columns, tile by tile. -/
theorem sum_tiles {M : Type*} [AddCommMonoid M] (g : Fin 32768 → M) :
    ∑ f : Fin 32768, g f = ∑ k : Fin 128, ∑ f' : Fin 256, g (col k f') := by
  have h := (Equiv.sum_comp (finProdFinEquiv (m := 128) (n := 256)) g)
  rw [Fintype.sum_prod_type] at h
  rw [← h]
  refine Finset.sum_congr rfl fun k _ => Finset.sum_congr rfl fun f _ => ?_
  congr 1
  apply Fin.ext
  simp [finProdFinEquiv, col, Nat.add_comm]

/-- The tiles before tile n (n ≤ 128), as a finite set. -/
def upto (n : ℕ) : Finset (Fin 128) := Finset.univ.filter fun k => k.val < n

theorem upto_zero : upto 0 = ∅ := by
  ext k; simp [upto]

theorem upto_succ (n : ℕ) (hn : n < 128) : upto (n + 1) = insert ⟨n, hn⟩ (upto n) := by
  ext k
  simp only [upto, Finset.mem_filter, Finset.mem_univ, true_and, Finset.mem_insert]
  constructor
  · intro h
    rcases Nat.lt_succ_iff_lt_or_eq.mp h with h | h
    · exact Or.inr h
    · exact Or.inl (Fin.ext h)
  · rintro (h | h)
    · rw [h]; exact Nat.lt_succ_self n
    · exact Nat.lt_succ_of_lt h

theorem not_mem_upto (n : ℕ) (hn : n < 128) : (⟨n, hn⟩ : Fin 128) ∉ upto n := by
  simp [upto]

/-- One more tile: the partial sum over the first n + 1 tiles. -/
theorem sum_upto_succ {M : Type*} [AddCommMonoid M] (g : Fin 128 → M) (n : ℕ) (hn : n < 128) :
    ∑ k ∈ upto (n + 1), g k = (∑ k ∈ upto n, g k) + g ⟨n, hn⟩ := by
  rw [upto_succ n hn, Finset.sum_insert (not_mem_upto n hn), add_comm]

/-- All the tiles. -/
theorem upto_all : upto 128 = Finset.univ := by
  ext k; simp [upto, k.isLt]

end Cert.Sums
-- ==== Proof.KI.Accum.lean ====
/-
  The eight running sums of the one call, over the extended reals. Each accumulator update reads, at an index, as the
  old entry plus the sum over the tile's 256 columns of a product of two block entries: a narrowing to bf16 is the
  identity, the row-major regrouping of 640 rows into 5 regions of 128 sends (r, a) to row 128r + a, and a matrix
  product into the zero accumulator is the plain sum over the contracted axis.
-/
import proofs.«409862_j41274635715290_3_alg».proof.Proof.Gen.KernelIdeal.Skeleton
import proofs.«409862_j41274635715290_3_alg».proof.Proof.Spec.Region
import proofs.«409862_j41274635715290_3_alg».proof.Proof.Spec.Sums
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Val

open Idealize.ShloMosaic Idealize.ShloMosaic.ValueIdx
open Cert.KernelIdeal Cert.KernelIdeal.Gen

/-! ## The three matrix products at an index -/

/-- Row 128r + a of a 640-row block: row a of its region r. -/
def rrow (r : Fin 5) (a : Fin 128) : Fin 640 :=
  ⟨128 * r.val + a.val, by have := r.isLt; have := a.isLt; omega⟩

theorem lhsG_0 (i : S5x128x128.Idx) (q : dot_S5x128x256_S5x128x256_S5x128x128_2_2_1_1_0_0.contr.Idx) :
    (dot_S5x128x256_S5x128x256_S5x128x128_2_2_1_1_0_0.lhsIdx i q 0).val = (i 0).val := by
  unfold DotDims.lhsIdx
  rw [dif_pos (show (0 : Fin S5x128x256.rank) ∈ dot_S5x128x256_S5x128x256_S5x128x128_2_2_1_1_0_0.lhsBatch by decide)]
  rfl
theorem lhsG_1 (i : S5x128x128.Idx) (q : dot_S5x128x256_S5x128x256_S5x128x128_2_2_1_1_0_0.contr.Idx) :
    (dot_S5x128x256_S5x128x256_S5x128x128_2_2_1_1_0_0.lhsIdx i q 1).val = (i 1).val := by
  unfold DotDims.lhsIdx
  rw [dif_neg (show ¬(1 : Fin S5x128x256.rank) ∈ dot_S5x128x256_S5x128x256_S5x128x128_2_2_1_1_0_0.lhsBatch by decide), dif_pos (show (1 : Fin S5x128x256.rank) ∈ dot_S5x128x256_S5x128x256_S5x128x128_2_2_1_1_0_0.lhsNonContracting by decide)]
  rfl
theorem lhsG_2 (i : S5x128x128.Idx) (q : dot_S5x128x256_S5x128x256_S5x128x128_2_2_1_1_0_0.contr.Idx) :
    (dot_S5x128x256_S5x128x256_S5x128x128_2_2_1_1_0_0.lhsIdx i q 2).val = (q ⟨0, by decide⟩).val :=
  dot_S5x128x256_S5x128x256_S5x128x128_2_2_1_1_0_0.lhsIdx_val_of_single rfl i q
theorem rhsG_0 (i : S5x128x128.Idx) (q : dot_S5x128x256_S5x128x256_S5x128x128_2_2_1_1_0_0.contr.Idx) :
    (dot_S5x128x256_S5x128x256_S5x128x128_2_2_1_1_0_0.rhsIdx i q 0).val = (i 0).val := by
  unfold DotDims.rhsIdx
  rw [dif_pos (show (0 : Fin S5x128x256.rank) ∈ dot_S5x128x256_S5x128x256_S5x128x128_2_2_1_1_0_0.rhsBatch by decide)]
  rfl
theorem rhsG_1 (i : S5x128x128.Idx) (q : dot_S5x128x256_S5x128x256_S5x128x128_2_2_1_1_0_0.contr.Idx) :
    (dot_S5x128x256_S5x128x256_S5x128x128_2_2_1_1_0_0.rhsIdx i q 1).val = (i 2).val := by
  unfold DotDims.rhsIdx
  rw [dif_neg (show ¬(1 : Fin S5x128x256.rank) ∈ dot_S5x128x256_S5x128x256_S5x128x128_2_2_1_1_0_0.rhsBatch by decide), dif_pos (show (1 : Fin S5x128x256.rank) ∈ dot_S5x128x256_S5x128x256_S5x128x128_2_2_1_1_0_0.rhsNonContracting by decide)]
  rfl
theorem rhsG_2 (i : S5x128x128.Idx) (q : dot_S5x128x256_S5x128x256_S5x128x128_2_2_1_1_0_0.contr.Idx) :
    (dot_S5x128x256_S5x128x256_S5x128x128_2_2_1_1_0_0.rhsIdx i q 2).val = (q ⟨0, by decide⟩).val :=
  dot_S5x128x256_S5x128x256_S5x128x128_2_2_1_1_0_0.rhsIdx_val_of_single rfl i q

/-- The batched product u · uᵀ of a 5 × 128 × 256 vector with itself, region by region, at (r, a, b). -/
theorem gram_mm (u : FVec Ideal S5x128x256 .bf16) (r : Fin 5) (a b : Fin 128) :
    matmul dot_S5x128x256_S5x128x256_S5x128x128_2_2_1_1_0_0 none u u (constant S5x128x128 .f32 0x00000000#32) (ix3 r a b)
      = ∑ f : Fin 256, u (ix3 r a f) * u (ix3 r b f) := by
  simp only [matmul]
  rw [Ideal.matmul_constant_zero_apply, ← Equiv.sum_comp (contrEquiv1 dot_S5x128x256_S5x128x256_S5x128x128_2_2_1_1_0_0 256 rfl rfl).symm]
  refine Finset.sum_congr rfl fun k _ => ?_
  have hk := contrEquiv1_symm_val dot_S5x128x256_S5x128x256_S5x128x128_2_2_1_1_0_0 256 rfl rfl k
  have el : dot_S5x128x256_S5x128x256_S5x128x128_2_2_1_1_0_0.lhsIdx (ix3 r a b) ((contrEquiv1 dot_S5x128x256_S5x128x256_S5x128x128_2_2_1_1_0_0 256 rfl rfl).symm k) = ix3 r a k := funext fun c => Fin.ext (by
    match c with
    | ⟨0, _⟩ => exact lhsG_0 _ _
    | ⟨1, _⟩ => exact lhsG_1 _ _
    | ⟨2, _⟩ => exact (lhsG_2 _ _).trans hk)
  have er : dot_S5x128x256_S5x128x256_S5x128x128_2_2_1_1_0_0.rhsIdx (ix3 r a b) ((contrEquiv1 dot_S5x128x256_S5x128x256_S5x128x128_2_2_1_1_0_0 256 rfl rfl).symm k) = ix3 r b k := funext fun c => Fin.ext (by
    match c with
    | ⟨0, _⟩ => exact rhsG_0 _ _
    | ⟨1, _⟩ => exact rhsG_1 _ _
    | ⟨2, _⟩ => exact (rhsG_2 _ _).trans hk)
  rw [el, er]

theorem lhsC_0 (i : S640x1280.Idx) (q : dot_S640x256_S256x1280_S640x1280_1_0_0_1_n_n.contr.Idx) :
    (dot_S640x256_S256x1280_S640x1280_1_0_0_1_n_n.lhsIdx i q 0).val = (i 0).val := by
  unfold DotDims.lhsIdx
  rw [dif_neg (show ¬(0 : Fin S640x256.rank) ∈ dot_S640x256_S256x1280_S640x1280_1_0_0_1_n_n.lhsBatch by decide), dif_pos (show (0 : Fin S640x256.rank) ∈ dot_S640x256_S256x1280_S640x1280_1_0_0_1_n_n.lhsNonContracting by decide)]
  rfl
theorem lhsC_1 (i : S640x1280.Idx) (q : dot_S640x256_S256x1280_S640x1280_1_0_0_1_n_n.contr.Idx) :
    (dot_S640x256_S256x1280_S640x1280_1_0_0_1_n_n.lhsIdx i q 1).val = (q ⟨0, by decide⟩).val :=
  dot_S640x256_S256x1280_S640x1280_1_0_0_1_n_n.lhsIdx_val_of_single rfl i q
theorem rhsC_0 (i : S640x1280.Idx) (q : dot_S640x256_S256x1280_S640x1280_1_0_0_1_n_n.contr.Idx) :
    (dot_S640x256_S256x1280_S640x1280_1_0_0_1_n_n.rhsIdx i q 0).val = (q ⟨0, by decide⟩).val :=
  dot_S640x256_S256x1280_S640x1280_1_0_0_1_n_n.rhsIdx_val_of_single rfl i q
theorem rhsC_1 (i : S640x1280.Idx) (q : dot_S640x256_S256x1280_S640x1280_1_0_0_1_n_n.contr.Idx) :
    (dot_S640x256_S256x1280_S640x1280_1_0_0_1_n_n.rhsIdx i q 1).val = (i 1).val := by
  unfold DotDims.rhsIdx
  rw [dif_neg (show ¬(1 : Fin S256x1280.rank) ∈ dot_S640x256_S256x1280_S640x1280_1_0_0_1_n_n.rhsBatch by decide), dif_pos (show (1 : Fin S256x1280.rank) ∈ dot_S640x256_S256x1280_S640x1280_1_0_0_1_n_n.rhsNonContracting by decide)]
  rfl

/-- A 640 × 256 by 256 × 1280 product into the zero accumulator, at (i, j). -/
theorem c_mm (u : FVec Ideal S640x256 .bf16) (w : FVec Ideal S256x1280 .bf16) (i : Fin 640) (j : Fin 1280) :
    matmul dot_S640x256_S256x1280_S640x1280_1_0_0_1_n_n none u w (constant S640x1280 .f32 0x00000000#32) (ix2 i j)
      = ∑ f : Fin 256, u (ix2 i f) * w (ix2 f j) := by
  simp only [matmul]
  rw [Ideal.matmul_constant_zero_apply, ← Equiv.sum_comp (contrEquiv1 dot_S640x256_S256x1280_S640x1280_1_0_0_1_n_n 256 rfl rfl).symm]
  refine Finset.sum_congr rfl fun k _ => ?_
  have hk := contrEquiv1_symm_val dot_S640x256_S256x1280_S640x1280_1_0_0_1_n_n 256 rfl rfl k
  have el : dot_S640x256_S256x1280_S640x1280_1_0_0_1_n_n.lhsIdx (ix2 i j) ((contrEquiv1 dot_S640x256_S256x1280_S640x1280_1_0_0_1_n_n 256 rfl rfl).symm k) = ix2 i k := funext fun c => Fin.ext (by
    match c with
    | ⟨0, _⟩ => exact lhsC_0 _ _
    | ⟨1, _⟩ => exact (lhsC_1 _ _).trans hk)
  have er : dot_S640x256_S256x1280_S640x1280_1_0_0_1_n_n.rhsIdx (ix2 i j) ((contrEquiv1 dot_S640x256_S256x1280_S640x1280_1_0_0_1_n_n 256 rfl rfl).symm k) = ix2 k j := funext fun c => Fin.ext (by
    match c with
    | ⟨0, _⟩ => exact (rhsC_0 _ _).trans hk
    | ⟨1, _⟩ => exact rhsC_1 _ _)
  rw [el, er]

theorem lhsP_0 (i : S640x128.Idx) (q : dot_S640x256_S256x128_S640x128_1_0_0_1_n_n.contr.Idx) :
    (dot_S640x256_S256x128_S640x128_1_0_0_1_n_n.lhsIdx i q 0).val = (i 0).val := by
  unfold DotDims.lhsIdx
  rw [dif_neg (show ¬(0 : Fin S640x256.rank) ∈ dot_S640x256_S256x128_S640x128_1_0_0_1_n_n.lhsBatch by decide), dif_pos (show (0 : Fin S640x256.rank) ∈ dot_S640x256_S256x128_S640x128_1_0_0_1_n_n.lhsNonContracting by decide)]
  rfl
theorem lhsP_1 (i : S640x128.Idx) (q : dot_S640x256_S256x128_S640x128_1_0_0_1_n_n.contr.Idx) :
    (dot_S640x256_S256x128_S640x128_1_0_0_1_n_n.lhsIdx i q 1).val = (q ⟨0, by decide⟩).val :=
  dot_S640x256_S256x128_S640x128_1_0_0_1_n_n.lhsIdx_val_of_single rfl i q
theorem rhsP_0 (i : S640x128.Idx) (q : dot_S640x256_S256x128_S640x128_1_0_0_1_n_n.contr.Idx) :
    (dot_S640x256_S256x128_S640x128_1_0_0_1_n_n.rhsIdx i q 0).val = (q ⟨0, by decide⟩).val :=
  dot_S640x256_S256x128_S640x128_1_0_0_1_n_n.rhsIdx_val_of_single rfl i q
theorem rhsP_1 (i : S640x128.Idx) (q : dot_S640x256_S256x128_S640x128_1_0_0_1_n_n.contr.Idx) :
    (dot_S640x256_S256x128_S640x128_1_0_0_1_n_n.rhsIdx i q 1).val = (i 1).val := by
  unfold DotDims.rhsIdx
  rw [dif_neg (show ¬(1 : Fin S256x128.rank) ∈ dot_S640x256_S256x128_S640x128_1_0_0_1_n_n.rhsBatch by decide), dif_pos (show (1 : Fin S256x128.rank) ∈ dot_S640x256_S256x128_S640x128_1_0_0_1_n_n.rhsNonContracting by decide)]
  rfl

/-- A 640 × 256 by 256 × 128 product into the zero accumulator, at (i, j). -/
theorem p_mm (u : FVec Ideal S640x256 .bf16) (w : FVec Ideal S256x128 .bf16) (i : Fin 640) (j : Fin 128) :
    matmul dot_S640x256_S256x128_S640x128_1_0_0_1_n_n none u w (constant S640x128 .f32 0x00000000#32) (ix2 i j)
      = ∑ f : Fin 256, u (ix2 i f) * w (ix2 f j) := by
  simp only [matmul]
  rw [Ideal.matmul_constant_zero_apply, ← Equiv.sum_comp (contrEquiv1 dot_S640x256_S256x128_S640x128_1_0_0_1_n_n 256 rfl rfl).symm]
  refine Finset.sum_congr rfl fun k _ => ?_
  have hk := contrEquiv1_symm_val dot_S640x256_S256x128_S640x128_1_0_0_1_n_n 256 rfl rfl k
  have el : dot_S640x256_S256x128_S640x128_1_0_0_1_n_n.lhsIdx (ix2 i j) ((contrEquiv1 dot_S640x256_S256x128_S640x128_1_0_0_1_n_n 256 rfl rfl).symm k) = ix2 i k := funext fun c => Fin.ext (by
    match c with
    | ⟨0, _⟩ => exact lhsP_0 _ _
    | ⟨1, _⟩ => exact (lhsP_1 _ _).trans hk)
  have er : dot_S640x256_S256x128_S640x128_1_0_0_1_n_n.rhsIdx (ix2 i j) ((contrEquiv1 dot_S640x256_S256x128_S640x128_1_0_0_1_n_n 256 rfl rfl).symm k) = ix2 k j := funext fun c => Fin.ext (by
    match c with
    | ⟨0, _⟩ => exact (rhsP_0 _ _).trans hk
    | ⟨1, _⟩ => exact rhsP_1 _ _)
  rw [el, er]

/-! ## The layout operations at an index -/

/-- The row-major regrouping of 640 × 256 into 5 × 128 × 256 reads (r, a, f) at (128r + a, f). -/
theorem regroup_apply {α : Type} (x : S640x256.Idx → α) (r : Fin 5) (a : Fin 128) (f : Fin 256) :
    shapeCast S5x128x256 x shapeCasts_S640x256_S5x128x256 (ix3 r a f) = x (ix2 (rrow r a) f) := by
  refine shapeCast_apply x shapeCasts_S640x256_S5x128x256 (ix3 r a f) (ix2 (rrow r a) f) ?_
  rw [Shape.rowMajor_val_two, Shape.rowMajor_val_three]
  show (128 * r.val + a.val) * 256 + f.val = (r.val * 128 + a.val) * 256 + f.val
  omega

/-- The transpose of a 1280 × 256 vector reads (f, j) at (j, f). -/
theorem transp_apply {α : Type} (y : S1280x256.Idx → α) (f : Fin 256) (j : Fin 1280) :
    transpose S256x1280 [1, 0] y transposes_S1280x256_p1_0_S256x1280 (ix2 f j) = y (ix2 j f) :=
  transpose_apply [1, 0] y transposes_S1280x256_p1_0_S256x1280 (ix2 f j) (ix2 j f) (fun b => match b with
    | ⟨0, _⟩ => rfl
    | ⟨1, _⟩ => rfl)

/-! ## The eight accumulator updates at an index -/

/-- Gram update of the source rows: acc[r,a,b] + Σ_f x[128r+a, f] · x[128r+b, f]. -/
theorem pay21_at (x : Vec Ideal S640x256 .f32) (acc : Vec Ideal S5x128x128 .f32) (r : Fin 5) (a b : Fin 128) :
    k0_pay21 (F := Ideal) x acc (ix3 r a b)
      = acc (ix3 r a b) + ∑ f : Fin 256, x (ix2 (rrow r a) f) * x (ix2 (rrow r b) f) := by
  unfold k0_pay21 k0_pay16
  simp only [shapeCast_self]
  refine (addf_apply _ _ _).trans ?_
  refine congrArg (acc (ix3 r a b) + ·) ?_
  refine (gram_mm _ r a b).trans ?_
  refine Finset.sum_congr rfl fun f _ => ?_
  rw [regroup_apply, regroup_apply]
  rfl

/-- Gram update of the target rows of this half: the same with the second 640-row block. -/
theorem pay22_at (x : Vec Ideal S640x256 .f32) (acc : Vec Ideal S5x128x128 .f32) (r : Fin 5) (a b : Fin 128) :
    k0_pay22 (F := Ideal) x acc (ix3 r a b)
      = acc (ix3 r a b) + ∑ f : Fin 256, x (ix2 (rrow r a) f) * x (ix2 (rrow r b) f) := by
  unfold k0_pay22 k0_pay17
  simp only [shapeCast_self]
  refine (addf_apply _ _ _).trans ?_
  refine congrArg (acc (ix3 r a b) + ·) ?_
  refine (gram_mm _ r a b).trans ?_
  refine Finset.sum_congr rfl fun f _ => ?_
  rw [regroup_apply, regroup_apply]
  rfl

/-- The index a lane sum reads: (r, a) with column f put back. -/
theorem lift_lane (r : Fin 5) (a : Fin 128) (f : Fin 256) :
    reduces_S5x128x256_S5x128.lift (ix2 r a) f = ix3 r a f := by
  funext c
  match c with
  | ⟨0, _⟩ => rfl
  | ⟨1, _⟩ => rfl
  | ⟨2, _⟩ => rfl

/-- The sum over the 256 lanes of a 5 × 128 × 256 vector, at (r, a). -/
theorem lane_sum (v : FVec Ideal S5x128x256 .f32) (hφ : FKind.Formats .f32) (hacc : (0x00000000#32 : BitVec 32) = FKind.add.neutral .f32 hφ)
    (r : Fin 5) (a : Fin 128) :
    multiReduction (F := Ideal) .add [2] S5x128 v 0x00000000#32 reduces_S5x128x256_S5x128 hφ hacc (ix2 r a)
      = ∑ f : Fin 256, v (ix3 r a f) := by
  refine (Ideal.multiReduction_add_single v 0x00000000#32 reduces_S5x128x256_S5x128 hφ hacc (ix2 r a)).trans ?_
  refine Finset.sum_congr rfl fun f _ => ?_
  exact congrArg v (lift_lane r a f)

/-- Squared-length update of the source rows: acc[r,a] + Σ_f x[128r+a, f]². -/
theorem pay23_at (x : Vec Ideal S640x256 .f32) (acc : Vec Ideal S5x128 .f32) (r : Fin 5) (a : Fin 128) :
    k0_pay23 (F := Ideal) x acc (ix2 r a)
      = acc (ix2 r a) + ∑ f : Fin 256, x (ix2 (rrow r a) f) * x (ix2 (rrow r a) f) := by
  unfold k0_pay23
  simp only [shapeCast_self]
  refine (addf_apply _ _ _).trans ?_
  refine congrArg (acc (ix2 r a) + ·) ?_
  refine (lane_sum _ _ _ r a).trans ?_
  refine Finset.sum_congr rfl fun f _ => ?_
  refine (mulf_apply _ _ _).trans ?_
  rw [regroup_apply]

/-- Squared-length update of the target rows of this half. -/
theorem pay24_at (x : Vec Ideal S640x256 .f32) (acc : Vec Ideal S5x128 .f32) (r : Fin 5) (a : Fin 128) :
    k0_pay24 (F := Ideal) x acc (ix2 r a)
      = acc (ix2 r a) + ∑ f : Fin 256, x (ix2 (rrow r a) f) * x (ix2 (rrow r a) f) := by
  unfold k0_pay24
  simp only [shapeCast_self]
  refine (addf_apply _ _ _).trans ?_
  refine congrArg (acc (ix2 r a) + ·) ?_
  refine (lane_sum _ _ _ r a).trans ?_
  refine Finset.sum_congr rfl fun f _ => ?_
  refine (mulf_apply _ _ _).trans ?_
  rw [regroup_apply]

/-- Cross update: acc[i,j] + Σ_f x[i, f] · y[j, f], x the source block, y all 1280 target rows. -/
theorem pay25_at (x : Vec Ideal S640x256 .f32) (y : Vec Ideal S1280x256 .f32) (acc : Vec Ideal S640x1280 .f32)
    (i : Fin 640) (j : Fin 1280) :
    k0_pay25 (F := Ideal) (k0_pay16 x) (k0_pay18 y) acc (ix2 i j)
      = acc (ix2 i j) + ∑ f : Fin 256, x (ix2 i f) * y (ix2 j f) := by
  unfold k0_pay25 k0_pay16 k0_pay18
  simp only [shapeCast_self]
  refine (addf_apply _ _ _).trans ?_
  refine congrArg (acc (ix2 i j) + ·) ?_
  refine (c_mm _ _ i j).trans ?_
  refine Finset.sum_congr rfl fun f _ => ?_
  rw [transp_apply]
  rfl

/-- Product update of the source rows with the first weight block: acc[i,j] + Σ_f x[i, f] · w[f, j]. -/
theorem pay26_at (x : Vec Ideal S640x256 .f32) (w : Vec Ideal S256x128 .f32) (acc : Vec Ideal S640x128 .f32)
    (i : Fin 640) (j : Fin 128) :
    k0_pay26 (F := Ideal) (k0_pay16 x) (k0_pay19 w) acc (ix2 i j)
      = acc (ix2 i j) + ∑ f : Fin 256, x (ix2 i f) * w (ix2 f j) := by
  unfold k0_pay26 k0_pay16 k0_pay19
  simp only [shapeCast_self]
  refine (addf_apply _ _ _).trans ?_
  refine congrArg (acc (ix2 i j) + ·) ?_
  exact p_mm _ _ i j

/-- Product update of the target rows of this half with the first weight block. -/
theorem pay27_at (x : Vec Ideal S640x256 .f32) (w : Vec Ideal S256x128 .f32) (acc : Vec Ideal S640x128 .f32)
    (i : Fin 640) (j : Fin 128) :
    k0_pay1 (F := Ideal) (k0_pay27 (k0_pay17 x) (k0_pay19 w) acc) (ix2 i j)
      = acc (ix2 i j) + ∑ f : Fin 256, x (ix2 i f) * w (ix2 f j) := by
  unfold k0_pay1 k0_pay27 k0_pay17 k0_pay19
  simp only [shapeCast_self]
  refine (addf_apply _ _ _).trans ?_
  refine congrArg (acc (ix2 i j) + ·) ?_
  exact p_mm _ _ i j

/-- Product update of the target rows of this half with the second weight block. -/
theorem pay2_at (x : Vec Ideal S640x256 .f32) (w : Vec Ideal S256x128 .f32) (acc : Vec Ideal S640x128 .f32)
    (i : Fin 640) (j : Fin 128) :
    k0_pay2 (F := Ideal) (k0_pay17 x) (k0_pay20 w) acc (ix2 i j)
      = acc (ix2 i j) + ∑ f : Fin 256, x (ix2 i f) * w (ix2 f j) := by
  unfold k0_pay2 k0_pay17 k0_pay20
  simp only [shapeCast_self]
  refine (addf_apply _ _ _).trans ?_
  refine congrArg (acc (ix2 i j) + ·) ?_
  exact p_mm _ _ i j

/-! ## The cleared accumulators and the copies to the outputs -/

theorem zero3_at (i : S5x128x128.Idx) : k0_pay3 (F := Ideal) i = 0 := Ideal.ofBits_zero_f32
theorem zero4_at (i : S5x128x128.Idx) : k0_pay4 (F := Ideal) i = 0 := Ideal.ofBits_zero_f32
theorem zero5_at (i : S5x128.Idx) : k0_pay5 (F := Ideal) i = 0 := Ideal.ofBits_zero_f32
theorem zero6_at (i : S5x128.Idx) : k0_pay6 (F := Ideal) i = 0 := Ideal.ofBits_zero_f32
theorem zero7_at (i : S640x1280.Idx) : k0_pay7 (F := Ideal) i = 0 := Ideal.ofBits_zero_f32
theorem zero8_at (i : S640x128.Idx) : k0_pay8 (F := Ideal) i = 0 := Ideal.ofBits_zero_f32
theorem zero9_at (i : S640x128.Idx) : k0_pay9 (F := Ideal) i = 0 := Ideal.ofBits_zero_f32
theorem zero15_at (i : S640x128.Idx) : k0_pay15 (F := Ideal) (k0_pay10 (F := Ideal)) i = 0 := Ideal.ofBits_zero_f32

/-- A 5 × 128 × 128 accumulator copied into a 1 × 5 × 128 × 128 output block keeps its entries. -/
theorem pay11_at {F : FTy → Type} [FloatOps F] (v : Vec F S5x128x128 .f32) (r : Fin 5) (a b : Fin 128) :
    k0_pay11 v (ix4 (0 : Fin 1) r a b) = v (ix3 r a b) := by
  unfold k0_pay11
  refine shapeCast_apply v shapeCasts_S5x128x128_S1x5x128x128 (ix4 (0 : Fin 1) r a b) (ix3 r a b) ?_
  rw [Shape.rowMajor_val_three, Shape.rowMajor_val_four]
  show (r.val * 128 + a.val) * 128 + b.val = ((0 * 5 + r.val) * 128 + a.val) * 128 + b.val
  omega
theorem pay12_at {F : FTy → Type} [FloatOps F] (v : Vec F S5x128x128 .f32) (r : Fin 5) (a b : Fin 128) :
    k0_pay12 v (ix4 (0 : Fin 1) r a b) = v (ix3 r a b) := by
  unfold k0_pay12
  refine shapeCast_apply v shapeCasts_S5x128x128_S1x5x128x128 (ix4 (0 : Fin 1) r a b) (ix3 r a b) ?_
  rw [Shape.rowMajor_val_three, Shape.rowMajor_val_four]
  show (r.val * 128 + a.val) * 128 + b.val = ((0 * 5 + r.val) * 128 + a.val) * 128 + b.val
  omega
/-- A 5 × 128 accumulator copied into a 1 × 5 × 128 output block keeps its entries. -/
theorem pay13_at {F : FTy → Type} [FloatOps F] (v : Vec F S5x128 .f32) (r : Fin 5) (a : Fin 128) :
    k0_pay13 v (ix3 (0 : Fin 1) r a) = v (ix2 r a) := by
  unfold k0_pay13
  refine shapeCast_apply v shapeCasts_S5x128_S1x5x128 (ix3 (0 : Fin 1) r a) (ix2 r a) ?_
  rw [Shape.rowMajor_val_two, Shape.rowMajor_val_three]
  show r.val * 128 + a.val = (0 * 5 + r.val) * 128 + a.val
  omega
theorem pay14_at {F : FTy → Type} [FloatOps F] (v : Vec F S5x128 .f32) (r : Fin 5) (a : Fin 128) :
    k0_pay14 v (ix3 (0 : Fin 1) r a) = v (ix2 r a) := by
  unfold k0_pay14
  refine shapeCast_apply v shapeCasts_S5x128_S1x5x128 (ix3 (0 : Fin 1) r a) (ix2 r a) ?_
  rw [Shape.rowMajor_val_two, Shape.rowMajor_val_three]
  show r.val * 128 + a.val = (0 * 5 + r.val) * 128 + a.val
  omega

/-! ## The second input's rows of this half -/

/-- The row offset the body computes for the second input: 640 times the point's first coordinate. -/
theorem off1_eq (i : grid0.Coords) : k0_off1 i = ![640 * (i 0).val, 0] := by
  have h2 : (i 0).val < 2 := (i 0).isLt
  funext a
  match a with
  | ⟨0, _⟩ =>
    show (Scalar.indexCast (Scalar.muli (BitVec.ofNat 32 (i 0).val) 640#32)).toNat = 640 * (i 0).val
    rcases (show (i 0).val = 0 ∨ (i 0).val = 1 by omega) with h | h <;> rw [h] <;> rfl
  | ⟨1, _⟩ => rfl

/-- Rows 640p … 640p + 639 of a 1280 × 256 block, read at (a, f): the block at (640p + a, f). -/
theorem rows_at {α : Type} (i : grid0.Coords) (y : S1280x256.Idx → α) (a : Fin 640) (f : Fin 256)
    (q : Fin 1280) (hq : q.val = 640 * (i 0).val + a.val) :
    y ((Rect.unit (s := S1280x256) (k0_off1 i) S640x256.size (k0_off1_inb i)).idx (ix2 a f)) = y (ix2 q f) := by
  refine congrArg y (funext fun c => Fin.ext ?_)
  match c with
  | ⟨0, _⟩ =>
    show k0_off1 i 0 + 1 * a.val = q.val
    rw [off1_eq, hq]; show 640 * (i 0).val + 1 * a.val = _; omega
  | ⟨1, _⟩ =>
    show k0_off1 i 1 + 1 * f.val = f.val
    rw [off1_eq]; show 0 + 1 * f.val = _; omega

/-! ## One tile per point -/

/-- A quantity that at the first point of a half is that half's first tile term, and at every later point of the
    half is what it was one point earlier plus that point's tile term, is after point 128p + k the sum of half p's
    tile terms 0 … k. -/
theorem fold_tiles (s : (n : ℕ) → n < 256 → EReal) (G : Fin 2 → Fin 128 → EReal)
    (hA : ∀ (n : ℕ) (hn : n < 256) (p : Fin 2), n = 128 * p.val → s n hn = 0 + G p ⟨0, by decide⟩)
    (hB : ∀ (n : ℕ) (hn : n < 256) (p : Fin 2) (k : Fin 128), n = 128 * p.val + k.val → k.val ≠ 0 →
      s n hn = s (n - 1) (by omega) + G p k)
    (n : ℕ) (hn : n < 256) (p : Fin 2) (k : Fin 128) (e : n = 128 * p.val + k.val) :
    s n hn = ∑ k' ∈ Cert.Sums.upto (k.val + 1), G p k' := by
  obtain ⟨k, hk⟩ := k
  induction k generalizing n with
  | zero =>
    rw [hA n hn p (by simpa using e), Cert.Sums.sum_upto_succ (G p) 0 (by decide), Cert.Sums.upto_zero, Finset.sum_empty]
  | succ k ih =>
    have hk' : k < 128 := by omega
    have e' : n - 1 = 128 * p.val + k := by simp only at e; omega
    rw [hB n hn p ⟨k + 1, hk⟩ e (by simp), ih (n - 1) (by omega) hk' e', Cert.Sums.sum_upto_succ (G p) (k + 1) hk]

/-- After the last point of a half, all its tiles: the whole sum over the 32768 columns. -/
theorem all_tiles (g : Fin 32768 → EReal) :
    ∑ k' ∈ Cert.Sums.upto (127 + 1), ∑ f : Fin 256, g (Cert.Sums.col k' f) = ∑ f : Fin 32768, g f := by
  rw [show (127 + 1 : ℕ) = 128 from rfl, Cert.Sums.upto_all, Cert.Sums.sum_tiles]

end Cert.KernelIdeal.Val

end
-- ==== Proof.KI.Pieces.lean ====
/-
  What each control case of the kernel body leaves in each of the eight accumulators, and what the last case copies
  into each of the eight output blocks, as a term over the body's arithmetic: the accumulator's one covering store
  (after the clearing store, at a point with k = 0) holds the update of what the accumulator held — the cleared
  contents at k = 0, what the point before left otherwise — by the four input blocks; at k = 127 each output block holds
  the updated accumulator (the first four through the reshaping of their payload). The second input's 640 rows that
  the point's first coordinate selects are read through a sub-rectangle of its block; every other load reads a whole
  buffer through the rectangle at zero offsets.
-/
import proofs.«409862_j41274635715290_3_alg».proof.Proof.KI.Frame0
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a rank-2, rank-3 and rank-4 rectangle, as the constant function. -/
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The 640 rows of the second input's block (1280 rows) that the point's first coordinate selects: rows
    640·p … 640·p + 639, all 256 columns. -/
abbrev rows8 (i : grid0.Coords) (x1 : Vec F S1280x256 .f32) : Vec F S640x256 .f32 :=
  View.ld x1 (Rect.unit (s := S1280x256) (k0_off1 i) S640x256.size (k0_off1_inb i))

/-! ## Case A: k = 0 — each accumulator is cleared, read back, and updated -/

/-- At k = 0 accumulator 0 ends holding the cleared contents updated by the Gram block of the first input's rows: the later of its two stores covers it, and its payload read the clearing store back. -/
theorem sout0_A_0_eq (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : cond0_0 i) (hc1 : ¬cond0_1 i)
    (x0 : Vec F S640x256 .f32) (x1 : Vec F S1280x256 .f32) (x2 : Vec F S256x128 .f32) (x3 : Vec F S256x128 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 = k0_pay21 x0 (k0_pay3 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3)]
  unfold kernelRun0_A
  dsimp only
  sl_unfold_run_names
  rw [View.canon_cons_unit_zero (S := S5x128x128) hz3, View.readCov_unit_zero (S := S5x128x128) _ hz3]
  simp only [View.readAt_eq_ld, harg2.read_unread, harg3.read_unread, harg4.read_unread, harg5.read_unread, harg14.read_unread, View.ld_unit_zero (S := S640x256) hz2, View.ld_unit_zero (S := S1280x256) hz2, View.ld_unit_zero (S := S256x128) hz2, View.ld_unit_zero (S := S5x128x128) hz3]

/-- At k = 0 accumulator 1 ends holding the cleared contents updated by the Gram block of the selected rows of the second input: the later of its two stores covers it, and its payload read the clearing store back. -/
theorem sout0_A_1_eq (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : cond0_0 i) (hc1 : ¬cond0_1 i)
    (x0 : Vec F S640x256 .f32) (x1 : Vec F S1280x256 .f32) (x2 : Vec F S256x128 .f32) (x3 : Vec F S256x128 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 = k0_pay22 (rows8 i x1) (k0_pay4 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3)]
  unfold kernelRun0_A
  dsimp only
  sl_unfold_run_names
  rw [View.canon_cons_unit_zero (S := S5x128x128) hz3, View.readCov_unit_zero (S := S5x128x128) _ hz3]
  simp only [View.readAt_eq_ld, harg2.read_unread, harg3.read_unread, harg4.read_unread, harg5.read_unread, harg15.read_unread, View.ld_unit_zero (S := S640x256) hz2, View.ld_unit_zero (S := S1280x256) hz2, View.ld_unit_zero (S := S256x128) hz2, View.ld_unit_zero (S := S5x128x128) hz3]

/-- At k = 0 accumulator 2 ends holding the cleared contents updated by the row sums of squares of the first input's block: the later of its two stores covers it, and its payload read the clearing store back. -/
theorem sout0_A_2_eq (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : cond0_0 i) (hc1 : ¬cond0_1 i)
    (x0 : Vec F S640x256 .f32) (x1 : Vec F S1280x256 .f32) (x2 : Vec F S256x128 .f32) (x3 : Vec F S256x128 .f32) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 = k0_pay23 x0 (k0_pay5 (F := F)) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3)]
  unfold kernelRun0_A
  dsimp only
  sl_unfold_run_names
  rw [View.canon_cons_unit_zero (S := S5x128) hz2, View.readCov_unit_zero (S := S5x128) _ hz2]
  simp only [View.readAt_eq_ld, harg2.read_unread, harg3.read_unread, harg4.read_unread, harg5.read_unread, harg16.read_unread, View.ld_unit_zero (S := S640x256) hz2, View.ld_unit_zero (S := S1280x256) hz2, View.ld_unit_zero (S := S256x128) hz2, View.ld_unit_zero (S := S5x128) hz2]

/-- At k = 0 accumulator 3 ends holding the cleared contents updated by the row sums of squares of the selected rows of the second input: the later of its two stores covers it, and its payload read the clearing store back. -/
theorem sout0_A_3_eq (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : cond0_0 i) (hc1 : ¬cond0_1 i)
    (x0 : Vec F S640x256 .f32) (x1 : Vec F S1280x256 .f32) (x2 : Vec F S256x128 .f32) (x3 : Vec F S256x128 .f32) :
    sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 = k0_pay24 (rows8 i x1) (k0_pay6 (F := F)) := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3)]
  unfold kernelRun0_A
  dsimp only
  sl_unfold_run_names
  rw [View.canon_cons_unit_zero (S := S5x128) hz2, View.readCov_unit_zero (S := S5x128) _ hz2]
  simp only [View.readAt_eq_ld, harg2.read_unread, harg3.read_unread, harg4.read_unread, harg5.read_unread, harg17.read_unread, View.ld_unit_zero (S := S640x256) hz2, View.ld_unit_zero (S := S1280x256) hz2, View.ld_unit_zero (S := S256x128) hz2, View.ld_unit_zero (S := S5x128) hz2]

/-- At k = 0 accumulator 4 ends holding the cleared contents updated by the product of the first input's block with the second's, transposed: the later of its two stores covers it, and its payload read the clearing store back. -/
theorem sout0_A_4_eq (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : cond0_0 i) (hc1 : ¬cond0_1 i)
    (x0 : Vec F S640x256 .f32) (x1 : Vec F S1280x256 .f32) (x2 : Vec F S256x128 .f32) (x3 : Vec F S256x128 .f32) :
    sout0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 = k0_pay25 (k0_pay16 x0) (k0_pay18 x1) (k0_pay7 (F := F)) := by
  unfold sout0_A_4
  rw [View.read_writes_eq_canon _ _ _ (scover0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3)]
  unfold kernelRun0_A
  dsimp only
  sl_unfold_run_names
  rw [View.canon_cons_unit_zero (S := S640x1280) hz2, View.readCov_unit_zero (S := S640x1280) _ hz2]
  simp only [View.readAt_eq_ld, harg2.read_unread, harg3.read_unread, harg4.read_unread, harg5.read_unread, harg18.read_unread, View.ld_unit_zero (S := S640x256) hz2, View.ld_unit_zero (S := S1280x256) hz2, View.ld_unit_zero (S := S256x128) hz2, View.ld_unit_zero (S := S640x1280) hz2]

/-- At k = 0 accumulator 5 ends holding the cleared contents updated by the product of the first input's block with the third: the later of its two stores covers it, and its payload read the clearing store back. -/
theorem sout0_A_5_eq (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : cond0_0 i) (hc1 : ¬cond0_1 i)
    (x0 : Vec F S640x256 .f32) (x1 : Vec F S1280x256 .f32) (x2 : Vec F S256x128 .f32) (x3 : Vec F S256x128 .f32) :
    sout0_A_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 = k0_pay26 (k0_pay16 x0) (k0_pay19 x2) (k0_pay8 (F := F)) := by
  unfold sout0_A_5
  rw [View.read_writes_eq_canon _ _ _ (scover0_A_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3)]
  unfold kernelRun0_A
  dsimp only
  sl_unfold_run_names
  rw [View.canon_cons_unit_zero (S := S640x128) hz2, View.readCov_unit_zero (S := S640x128) _ hz2]
  simp only [View.readAt_eq_ld, harg2.read_unread, harg3.read_unread, harg4.read_unread, harg5.read_unread, harg19.read_unread, View.ld_unit_zero (S := S640x256) hz2, View.ld_unit_zero (S := S1280x256) hz2, View.ld_unit_zero (S := S256x128) hz2, View.ld_unit_zero (S := S640x128) hz2]

/-- At k = 0 accumulator 6 ends holding the cleared contents updated by the product of the selected rows of the second input with the third: the later of its two stores covers it, and its payload read the clearing store back. -/
theorem sout0_A_6_eq (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : cond0_0 i) (hc1 : ¬cond0_1 i)
    (x0 : Vec F S640x256 .f32) (x1 : Vec F S1280x256 .f32) (x2 : Vec F S256x128 .f32) (x3 : Vec F S256x128 .f32) :
    sout0_A_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 = k0_pay1 (k0_pay27 (k0_pay17 (rows8 i x1)) (k0_pay19 x2) (k0_pay9 (F := F))) := by
  unfold sout0_A_6
  rw [View.read_writes_eq_canon _ _ _ (scover0_A_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3)]
  unfold kernelRun0_A
  dsimp only
  sl_unfold_run_names
  rw [View.canon_cons_unit_zero (S := S640x128) hz2, View.readCov_unit_zero (S := S640x128) _ hz2]
  simp only [View.readAt_eq_ld, harg2.read_unread, harg3.read_unread, harg4.read_unread, harg5.read_unread, harg20.read_unread, View.ld_unit_zero (S := S640x256) hz2, View.ld_unit_zero (S := S1280x256) hz2, View.ld_unit_zero (S := S256x128) hz2, View.ld_unit_zero (S := S640x128) hz2]

/-- At k = 0 accumulator 7 ends holding the cleared contents updated by the product of the selected rows of the second input with the fourth: the later of its two stores covers it, and its payload read the clearing store back. -/
theorem sout0_A_7_eq (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : cond0_0 i) (hc1 : ¬cond0_1 i)
    (x0 : Vec F S640x256 .f32) (x1 : Vec F S1280x256 .f32) (x2 : Vec F S256x128 .f32) (x3 : Vec F S256x128 .f32) :
    sout0_A_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 = k0_pay2 (k0_pay17 (rows8 i x1)) (k0_pay20 x3) (k0_pay15 (k0_pay10 (F := F))) := by
  unfold sout0_A_7
  rw [View.read_writes_eq_canon _ _ _ (scover0_A_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3)]
  unfold kernelRun0_A
  dsimp only
  sl_unfold_run_names
  rw [View.canon_cons_unit_zero (S := S640x128) hz2, View.readCov_unit_zero (S := S640x128) _ hz2]
  simp only [View.readAt_eq_ld, harg2.read_unread, harg3.read_unread, harg4.read_unread, harg5.read_unread, harg21.read_unread, View.ld_unit_zero (S := S640x256) hz2, View.ld_unit_zero (S := S1280x256) hz2, View.ld_unit_zero (S := S256x128) hz2, View.ld_unit_zero (S := S640x128) hz2]

/-! ## Case B: 0 < k < 127 — each accumulator is updated from what the point before left -/

/-- At 0 < k < 127 accumulator 0 ends holding what it held updated by the Gram block of the first input's rows: its one store covers it. -/
theorem sout0_B_0_eq (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : ¬cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7 = k0_pay21 x0 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7)]
  unfold kernelRun0_B
  dsimp only
  sl_unfold_run_names
  rw [View.canon_unit_zero (S := S5x128x128) hz3]
  simp only [View.readAt_eq_ld, harg2.read_unread, harg3.read_unread, harg4.read_unread, harg5.read_unread, harg14.read_unread, View.ld_unit_zero (S := S640x256) hz2, View.ld_unit_zero (S := S1280x256) hz2, View.ld_unit_zero (S := S256x128) hz2, View.ld_unit_zero (S := S5x128x128) hz3]

/-- At 0 < k < 127 accumulator 1 ends holding what it held updated by the Gram block of the selected rows of the second input: its one store covers it. -/
theorem sout0_B_1_eq (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : ¬cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7 = k0_pay22 (rows8 i x1) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7)]
  unfold kernelRun0_B
  dsimp only
  sl_unfold_run_names
  rw [View.canon_unit_zero (S := S5x128x128) hz3]
  simp only [View.readAt_eq_ld, harg2.read_unread, harg3.read_unread, harg4.read_unread, harg5.read_unread, harg15.read_unread, View.ld_unit_zero (S := S640x256) hz2, View.ld_unit_zero (S := S1280x256) hz2, View.ld_unit_zero (S := S256x128) hz2, View.ld_unit_zero (S := S5x128x128) hz3]

/-- At 0 < k < 127 accumulator 2 ends holding what it held updated by the row sums of squares of the first input's block: its one store covers it. -/
theorem sout0_B_2_eq (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : ¬cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) :
    sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7 = k0_pay23 x0 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7)]
  unfold kernelRun0_B
  dsimp only
  sl_unfold_run_names
  rw [View.canon_unit_zero (S := S5x128) hz2]
  simp only [View.readAt_eq_ld, harg2.read_unread, harg3.read_unread, harg4.read_unread, harg5.read_unread, harg16.read_unread, View.ld_unit_zero (S := S640x256) hz2, View.ld_unit_zero (S := S1280x256) hz2, View.ld_unit_zero (S := S256x128) hz2, View.ld_unit_zero (S := S5x128) hz2]

/-- At 0 < k < 127 accumulator 3 ends holding what it held updated by the row sums of squares of the selected rows of the second input: its one store covers it. -/
theorem sout0_B_3_eq (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : ¬cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) :
    sout0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7 = k0_pay24 (rows8 i x1) xs3 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7)]
  unfold kernelRun0_B
  dsimp only
  sl_unfold_run_names
  rw [View.canon_unit_zero (S := S5x128) hz2]
  simp only [View.readAt_eq_ld, harg2.read_unread, harg3.read_unread, harg4.read_unread, harg5.read_unread, harg17.read_unread, View.ld_unit_zero (S := S640x256) hz2, View.ld_unit_zero (S := S1280x256) hz2, View.ld_unit_zero (S := S256x128) hz2, View.ld_unit_zero (S := S5x128) hz2]

/-- At 0 < k < 127 accumulator 4 ends holding what it held updated by the product of the first input's block with the second's, transposed: its one store covers it. -/
theorem sout0_B_4_eq (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : ¬cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) :
    sout0_B_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7 = k0_pay25 (k0_pay16 x0) (k0_pay18 x1) xs4 := by
  unfold sout0_B_4
  rw [View.read_writes_eq_canon _ _ _ (scover0_B_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7)]
  unfold kernelRun0_B
  dsimp only
  sl_unfold_run_names
  rw [View.canon_unit_zero (S := S640x1280) hz2]
  simp only [View.readAt_eq_ld, harg2.read_unread, harg3.read_unread, harg4.read_unread, harg5.read_unread, harg18.read_unread, View.ld_unit_zero (S := S640x256) hz2, View.ld_unit_zero (S := S1280x256) hz2, View.ld_unit_zero (S := S256x128) hz2, View.ld_unit_zero (S := S640x1280) hz2]

/-- At 0 < k < 127 accumulator 5 ends holding what it held updated by the product of the first input's block with the third: its one store covers it. -/
theorem sout0_B_5_eq (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : ¬cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) :
    sout0_B_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7 = k0_pay26 (k0_pay16 x0) (k0_pay19 x2) xs5 := by
  unfold sout0_B_5
  rw [View.read_writes_eq_canon _ _ _ (scover0_B_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7)]
  unfold kernelRun0_B
  dsimp only
  sl_unfold_run_names
  rw [View.canon_unit_zero (S := S640x128) hz2]
  simp only [View.readAt_eq_ld, harg2.read_unread, harg3.read_unread, harg4.read_unread, harg5.read_unread, harg19.read_unread, View.ld_unit_zero (S := S640x256) hz2, View.ld_unit_zero (S := S1280x256) hz2, View.ld_unit_zero (S := S256x128) hz2, View.ld_unit_zero (S := S640x128) hz2]

/-- At 0 < k < 127 accumulator 6 ends holding what it held updated by the product of the selected rows of the second input with the third: its one store covers it. -/
theorem sout0_B_6_eq (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : ¬cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) :
    sout0_B_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7 = k0_pay1 (k0_pay27 (k0_pay17 (rows8 i x1)) (k0_pay19 x2) xs6) := by
  unfold sout0_B_6
  rw [View.read_writes_eq_canon _ _ _ (scover0_B_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7)]
  unfold kernelRun0_B
  dsimp only
  sl_unfold_run_names
  rw [View.canon_unit_zero (S := S640x128) hz2]
  simp only [View.readAt_eq_ld, harg2.read_unread, harg3.read_unread, harg4.read_unread, harg5.read_unread, harg20.read_unread, View.ld_unit_zero (S := S640x256) hz2, View.ld_unit_zero (S := S1280x256) hz2, View.ld_unit_zero (S := S256x128) hz2, View.ld_unit_zero (S := S640x128) hz2]

/-- At 0 < k < 127 accumulator 7 ends holding what it held updated by the product of the selected rows of the second input with the fourth: its one store covers it. -/
theorem sout0_B_7_eq (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : ¬cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) :
    sout0_B_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7 = k0_pay2 (k0_pay17 (rows8 i x1)) (k0_pay20 x3) xs7 := by
  unfold sout0_B_7
  rw [View.read_writes_eq_canon _ _ _ (scover0_B_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7)]
  unfold kernelRun0_B
  dsimp only
  sl_unfold_run_names
  rw [View.canon_unit_zero (S := S640x128) hz2]
  simp only [View.readAt_eq_ld, harg2.read_unread, harg3.read_unread, harg4.read_unread, harg5.read_unread, harg21.read_unread, View.ld_unit_zero (S := S640x256) hz2, View.ld_unit_zero (S := S1280x256) hz2, View.ld_unit_zero (S := S256x128) hz2, View.ld_unit_zero (S := S640x128) hz2]

/-! ## Case C: k = 127 — as for 0 < k < 127, and then each accumulator is copied to its output block -/

/-- At k = 127 accumulator 0 ends holding what it held updated by the Gram block of the first input's rows: its one store covers it. -/
theorem sout0_C_0_eq (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7 = k0_pay21 x0 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7)]
  unfold kernelRun0_C
  dsimp only
  sl_unfold_run_names
  rw [View.canon_unit_zero (S := S5x128x128) hz3]
  simp only [View.readAt_eq_ld, harg2.read_unread, harg3.read_unread, harg4.read_unread, harg5.read_unread, harg14.read_unread, View.ld_unit_zero (S := S640x256) hz2, View.ld_unit_zero (S := S1280x256) hz2, View.ld_unit_zero (S := S256x128) hz2, View.ld_unit_zero (S := S5x128x128) hz3]

/-- At k = 127 accumulator 1 ends holding what it held updated by the Gram block of the selected rows of the second input: its one store covers it. -/
theorem sout0_C_1_eq (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7 = k0_pay22 (rows8 i x1) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7)]
  unfold kernelRun0_C
  dsimp only
  sl_unfold_run_names
  rw [View.canon_unit_zero (S := S5x128x128) hz3]
  simp only [View.readAt_eq_ld, harg2.read_unread, harg3.read_unread, harg4.read_unread, harg5.read_unread, harg15.read_unread, View.ld_unit_zero (S := S640x256) hz2, View.ld_unit_zero (S := S1280x256) hz2, View.ld_unit_zero (S := S256x128) hz2, View.ld_unit_zero (S := S5x128x128) hz3]

/-- At k = 127 accumulator 2 ends holding what it held updated by the row sums of squares of the first input's block: its one store covers it. -/
theorem sout0_C_2_eq (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) :
    sout0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7 = k0_pay23 x0 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7)]
  unfold kernelRun0_C
  dsimp only
  sl_unfold_run_names
  rw [View.canon_unit_zero (S := S5x128) hz2]
  simp only [View.readAt_eq_ld, harg2.read_unread, harg3.read_unread, harg4.read_unread, harg5.read_unread, harg16.read_unread, View.ld_unit_zero (S := S640x256) hz2, View.ld_unit_zero (S := S1280x256) hz2, View.ld_unit_zero (S := S256x128) hz2, View.ld_unit_zero (S := S5x128) hz2]

/-- At k = 127 accumulator 3 ends holding what it held updated by the row sums of squares of the selected rows of the second input: its one store covers it. -/
theorem sout0_C_3_eq (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) :
    sout0_C_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7 = k0_pay24 (rows8 i x1) xs3 := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7)]
  unfold kernelRun0_C
  dsimp only
  sl_unfold_run_names
  rw [View.canon_unit_zero (S := S5x128) hz2]
  simp only [View.readAt_eq_ld, harg2.read_unread, harg3.read_unread, harg4.read_unread, harg5.read_unread, harg17.read_unread, View.ld_unit_zero (S := S640x256) hz2, View.ld_unit_zero (S := S1280x256) hz2, View.ld_unit_zero (S := S256x128) hz2, View.ld_unit_zero (S := S5x128) hz2]

/-- At k = 127 accumulator 4 ends holding what it held updated by the product of the first input's block with the second's, transposed: its one store covers it. -/
theorem sout0_C_4_eq (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) :
    sout0_C_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7 = k0_pay25 (k0_pay16 x0) (k0_pay18 x1) xs4 := by
  unfold sout0_C_4
  rw [View.read_writes_eq_canon _ _ _ (scover0_C_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7)]
  unfold kernelRun0_C
  dsimp only
  sl_unfold_run_names
  rw [View.canon_unit_zero (S := S640x1280) hz2]
  simp only [View.readAt_eq_ld, harg2.read_unread, harg3.read_unread, harg4.read_unread, harg5.read_unread, harg18.read_unread, View.ld_unit_zero (S := S640x256) hz2, View.ld_unit_zero (S := S1280x256) hz2, View.ld_unit_zero (S := S256x128) hz2, View.ld_unit_zero (S := S640x1280) hz2]

/-- At k = 127 accumulator 5 ends holding what it held updated by the product of the first input's block with the third: its one store covers it. -/
theorem sout0_C_5_eq (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) :
    sout0_C_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7 = k0_pay26 (k0_pay16 x0) (k0_pay19 x2) xs5 := by
  unfold sout0_C_5
  rw [View.read_writes_eq_canon _ _ _ (scover0_C_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7)]
  unfold kernelRun0_C
  dsimp only
  sl_unfold_run_names
  rw [View.canon_unit_zero (S := S640x128) hz2]
  simp only [View.readAt_eq_ld, harg2.read_unread, harg3.read_unread, harg4.read_unread, harg5.read_unread, harg19.read_unread, View.ld_unit_zero (S := S640x256) hz2, View.ld_unit_zero (S := S1280x256) hz2, View.ld_unit_zero (S := S256x128) hz2, View.ld_unit_zero (S := S640x128) hz2]

/-- At k = 127 accumulator 6 ends holding what it held updated by the product of the selected rows of the second input with the third: its one store covers it. -/
theorem sout0_C_6_eq (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) :
    sout0_C_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7 = k0_pay1 (k0_pay27 (k0_pay17 (rows8 i x1)) (k0_pay19 x2) xs6) := by
  unfold sout0_C_6
  rw [View.read_writes_eq_canon _ _ _ (scover0_C_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7)]
  unfold kernelRun0_C
  dsimp only
  sl_unfold_run_names
  rw [View.canon_unit_zero (S := S640x128) hz2]
  simp only [View.readAt_eq_ld, harg2.read_unread, harg3.read_unread, harg4.read_unread, harg5.read_unread, harg20.read_unread, View.ld_unit_zero (S := S640x256) hz2, View.ld_unit_zero (S := S1280x256) hz2, View.ld_unit_zero (S := S256x128) hz2, View.ld_unit_zero (S := S640x128) hz2]

/-- At k = 127 accumulator 7 ends holding what it held updated by the product of the selected rows of the second input with the fourth: its one store covers it. -/
theorem sout0_C_7_eq (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) :
    sout0_C_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7 = k0_pay2 (k0_pay17 (rows8 i x1)) (k0_pay20 x3) xs7 := by
  unfold sout0_C_7
  rw [View.read_writes_eq_canon _ _ _ (scover0_C_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7)]
  unfold kernelRun0_C
  dsimp only
  sl_unfold_run_names
  rw [View.canon_unit_zero (S := S640x128) hz2]
  simp only [View.readAt_eq_ld, harg2.read_unread, harg3.read_unread, harg4.read_unread, harg5.read_unread, harg21.read_unread, View.ld_unit_zero (S := S640x256) hz2, View.ld_unit_zero (S := S1280x256) hz2, View.ld_unit_zero (S := S256x128) hz2, View.ld_unit_zero (S := S640x128) hz2]

/-! ## Case C: what the copy at k = 127 puts into each output block -/

/-- At k = 127 output block 4 ends holding the reshaped updated accumulator 0: its one store covers it, and its payload is computed from the load that read the accumulator's update back. -/
theorem out0_C_4_eq (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) :
    out0_C_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7 = k0_pay11 (k0_pay21 x0 xs0) := by
  unfold out0_C_4
  rw [View.read_writes_eq_canon _ _ _ (cover0_C_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7)]
  unfold kernelRun0_C
  dsimp only
  sl_unfold_run_names
  rw [View.canon_unit_zero (S := S1x5x128x128) hz4]
  simp only [View.readCov_unit_zero (S := S5x128x128) _ hz3, View.readAt_eq_ld, harg2.read_unread, harg3.read_unread, harg4.read_unread, harg5.read_unread, harg14.read_unread, View.ld_unit_zero (S := S640x256) hz2, View.ld_unit_zero (S := S1280x256) hz2, View.ld_unit_zero (S := S256x128) hz2, View.ld_unit_zero (S := S5x128x128) hz3]

/-- At k = 127 output block 5 ends holding the reshaped updated accumulator 1: its one store covers it, and its payload is computed from the load that read the accumulator's update back. -/
theorem out0_C_5_eq (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) :
    out0_C_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7 = k0_pay12 (k0_pay22 (rows8 i x1) xs1) := by
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7)]
  unfold kernelRun0_C
  dsimp only
  sl_unfold_run_names
  rw [View.canon_unit_zero (S := S1x5x128x128) hz4]
  simp only [View.readCov_unit_zero (S := S5x128x128) _ hz3, View.readAt_eq_ld, harg2.read_unread, harg3.read_unread, harg4.read_unread, harg5.read_unread, harg15.read_unread, View.ld_unit_zero (S := S640x256) hz2, View.ld_unit_zero (S := S1280x256) hz2, View.ld_unit_zero (S := S256x128) hz2, View.ld_unit_zero (S := S5x128x128) hz3]

/-- At k = 127 output block 6 ends holding the reshaped updated accumulator 2: its one store covers it, and its payload is computed from the load that read the accumulator's update back. -/
theorem out0_C_6_eq (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) :
    out0_C_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7 = k0_pay13 (k0_pay23 x0 xs2) := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7)]
  unfold kernelRun0_C
  dsimp only
  sl_unfold_run_names
  rw [View.canon_unit_zero (S := S1x5x128) hz3]
  simp only [View.readCov_unit_zero (S := S5x128) _ hz2, View.readAt_eq_ld, harg2.read_unread, harg3.read_unread, harg4.read_unread, harg5.read_unread, harg16.read_unread, View.ld_unit_zero (S := S640x256) hz2, View.ld_unit_zero (S := S1280x256) hz2, View.ld_unit_zero (S := S256x128) hz2, View.ld_unit_zero (S := S5x128) hz2]

/-- At k = 127 output block 7 ends holding the reshaped updated accumulator 3: its one store covers it, and its payload is computed from the load that read the accumulator's update back. -/
theorem out0_C_7_eq (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) :
    out0_C_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7 = k0_pay14 (k0_pay24 (rows8 i x1) xs3) := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7)]
  unfold kernelRun0_C
  dsimp only
  sl_unfold_run_names
  rw [View.canon_unit_zero (S := S1x5x128) hz3]
  simp only [View.readCov_unit_zero (S := S5x128) _ hz2, View.readAt_eq_ld, harg2.read_unread, harg3.read_unread, harg4.read_unread, harg5.read_unread, harg17.read_unread, View.ld_unit_zero (S := S640x256) hz2, View.ld_unit_zero (S := S1280x256) hz2, View.ld_unit_zero (S := S256x128) hz2, View.ld_unit_zero (S := S5x128) hz2]

/-- At k = 127 output block 8 ends holding the updated accumulator 4: its one store covers it, and its payload is the load that read the accumulator's update back. -/
theorem out0_C_8_eq (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) :
    out0_C_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7 = k0_pay25 (k0_pay16 x0) (k0_pay18 x1) xs4 := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7)]
  unfold kernelRun0_C
  dsimp only
  sl_unfold_run_names
  rw [View.canon_unit_zero (S := S640x1280) hz2]
  simp only [View.readCov_unit_zero (S := S640x1280) _ hz2, View.readAt_eq_ld, harg2.read_unread, harg3.read_unread, harg4.read_unread, harg5.read_unread, harg18.read_unread, View.ld_unit_zero (S := S640x256) hz2, View.ld_unit_zero (S := S1280x256) hz2, View.ld_unit_zero (S := S256x128) hz2, View.ld_unit_zero (S := S640x1280) hz2]

/-- At k = 127 output block 9 ends holding the updated accumulator 5: its one store covers it, and its payload is the load that read the accumulator's update back. -/
theorem out0_C_9_eq (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) :
    out0_C_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7 = k0_pay26 (k0_pay16 x0) (k0_pay19 x2) xs5 := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7)]
  unfold kernelRun0_C
  dsimp only
  sl_unfold_run_names
  rw [View.canon_unit_zero (S := S640x128) hz2]
  simp only [View.readCov_unit_zero (S := S640x128) _ hz2, View.readAt_eq_ld, harg2.read_unread, harg3.read_unread, harg4.read_unread, harg5.read_unread, harg19.read_unread, View.ld_unit_zero (S := S640x256) hz2, View.ld_unit_zero (S := S1280x256) hz2, View.ld_unit_zero (S := S256x128) hz2, View.ld_unit_zero (S := S640x128) hz2]

/-- At k = 127 output block 10 ends holding the updated accumulator 6: its one store covers it, and its payload is the load that read the accumulator's update back. -/
theorem out0_C_10_eq (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) :
    out0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7 = k0_pay1 (k0_pay27 (k0_pay17 (rows8 i x1)) (k0_pay19 x2) xs6) := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7)]
  unfold kernelRun0_C
  dsimp only
  sl_unfold_run_names
  rw [View.canon_unit_zero (S := S640x128) hz2]
  simp only [View.readCov_unit_zero (S := S640x128) _ hz2, View.readAt_eq_ld, harg2.read_unread, harg3.read_unread, harg4.read_unread, harg5.read_unread, harg20.read_unread, View.ld_unit_zero (S := S640x256) hz2, View.ld_unit_zero (S := S1280x256) hz2, View.ld_unit_zero (S := S256x128) hz2, View.ld_unit_zero (S := S640x128) hz2]

/-- At k = 127 output block 11 ends holding the updated accumulator 7: its one store covers it, and its payload is the load that read the accumulator's update back. -/
theorem out0_C_11_eq (c : Dev nD) (i : grid0.Coords) (arg2 : Memref sig .tc .vmem S640x256 .f32) (harg2 : arg2.IsWhole) (arg3 : Memref sig .tc .vmem S1280x256 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x5x128x128 .f32) (harg6 : arg6.IsWhole) (arg7 : Memref sig .tc .vmem S1x5x128x128 .f32) (harg7 : arg7.IsWhole) (arg8 : Memref sig .tc .vmem S1x5x128 .f32) (harg8 : arg8.IsWhole) (arg9 : Memref sig .tc .vmem S1x5x128 .f32) (harg9 : arg9.IsWhole) (arg10 : Memref sig .tc .vmem S640x1280 .f32) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S5x128x128 .f32) (harg14 : arg14.IsWhole) (arg15 : Memref sig .tc .vmem S5x128x128 .f32) (harg15 : arg15.IsWhole) (arg16 : Memref sig .tc .vmem S5x128 .f32) (harg16 : arg16.IsWhole) (arg17 : Memref sig .tc .vmem S5x128 .f32) (harg17 : arg17.IsWhole) (arg18 : Memref sig .tc .vmem S640x1280 .f32) (harg18 : arg18.IsWhole) (arg19 : Memref sig .tc .vmem S640x128 .f32) (harg19 : arg19.IsWhole) (arg20 : Memref sig .tc .vmem S640x128 .f32) (harg20 : arg20.IsWhole) (arg21 : Memref sig .tc .vmem S640x128 .f32) (harg21 : arg21.IsWhole) (hc0 : ¬cond0_0 i) (hc1 : cond0_1 i)
    (x0 : Vec F S640x256 .f32) (x1 : Vec F S1280x256 .f32) (x2 : Vec F S256x128 .f32) (x3 : Vec F S256x128 .f32) (xs0 : Vec F S5x128x128 .f32) (xs1 : Vec F S5x128x128 .f32) (xs2 : Vec F S5x128 .f32) (xs3 : Vec F S5x128 .f32) (xs4 : Vec F S640x1280 .f32) (xs5 : Vec F S640x128 .f32) (xs6 : Vec F S640x128 .f32) (xs7 : Vec F S640x128 .f32) :
    out0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7 = k0_pay2 (k0_pay17 (rows8 i x1)) (k0_pay20 x3) xs7 := by
  unfold out0_C_11
  rw [View.read_writes_eq_canon _ _ _ (cover0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 xs0 xs1 xs2 xs3 xs4 xs5 xs6 xs7)]
  unfold kernelRun0_C
  dsimp only
  sl_unfold_run_names
  rw [View.canon_unit_zero (S := S640x128) hz2]
  simp only [View.readCov_unit_zero (S := S640x128) _ hz2, View.readAt_eq_ld, harg2.read_unread, harg3.read_unread, harg4.read_unread, harg5.read_unread, harg21.read_unread, View.ld_unit_zero (S := S640x256) hz2, View.ld_unit_zero (S := S1280x256) hz2, View.ld_unit_zero (S := S256x128) hz2, View.ld_unit_zero (S := S640x128) hz2]

end Cert.KernelIdeal.Fr

end
-- ==== Proof.KI.Blocks.lean ====
/-
  The twelve windows' blocks as parts of their arrays. Point t of the 2 × 128 grid is (p, k) = (t / 128, t % 128).
  A block's coordinate in its array is always (block index) × (block size) + (the coordinate inside the block), so:
  block t of the source is rows 640p … 640p + 639 and columns 256k … 256k + 255; of the target all 1280 rows and columns
  256k … 256k + 255; of either weight matrix rows 256k … 256k + 255 and all 128 columns. An output's block depends on p
  alone: slab p of the two Gram arrays and of the two square-norm arrays, rows 640p … 640p + 639 of the four matrices;
  it is written back at k = 127, and the two points 127 and 255 between them cover each output array.
-/
import proofs.«409862_j41274635715290_3_alg».proof.Proof.KI.Conds
import Idealize.ShloMosaic.Lib.ValueIdx

set_option maxRecDepth 16384

noncomputable section

namespace Cert.KernelIdeal.Val

open Idealize.ShloMosaic Idealize.ShloMosaic.TcCoe Idealize.SL.Sem
open Idealize.ShloMosaic.ValueIdx
open Cert.KernelIdeal Cert.KernelIdeal.Gen

variable {F : FTy → Type} [FloatOps F]

/-- The grid has 256 points. -/
theorem lt256 (t : Fin cfg0.N) : t.val < 256 := lt_of_lt_of_eq t.isLt N_0

/-! ## The index maps, decided once over the grid -/

/-- The source's block index at point t is (p, k). -/
theorem index0 : ∀ t : Fin cfg0.N, win0_0.index t (0 : Fin 2) = t.val / 128 ∧ win0_0.index t (1 : Fin 2) = t.val % 128 :=
  (by decide +kernel : ∀ t : Fin grid0.N, _)
/-- The target's block index at point t is (0, k). -/
theorem index1 : ∀ t : Fin cfg0.N, win0_1.index t (0 : Fin 2) = 0 ∧ win0_1.index t (1 : Fin 2) = t.val % 128 :=
  (by decide +kernel : ∀ t : Fin grid0.N, _)
/-- The first weight matrix's block index at point t is (k, 0). -/
theorem index2 : ∀ t : Fin cfg0.N, win0_2.index t (0 : Fin 2) = t.val % 128 ∧ win0_2.index t (1 : Fin 2) = 0 :=
  (by decide +kernel : ∀ t : Fin grid0.N, _)
/-- The second weight matrix's block index at point t is (k, 0). -/
theorem index3 : ∀ t : Fin cfg0.N, win0_3.index t (0 : Fin 2) = t.val % 128 ∧ win0_3.index t (1 : Fin 2) = 0 :=
  (by decide +kernel : ∀ t : Fin grid0.N, _)
/-- Output 4's block index at point t is (p, 0, 0, 0). -/
theorem index4 : ∀ t : Fin cfg0.N, win0_4.index t (0 : Fin 4) = t.val / 128 ∧ win0_4.index t (1 : Fin 4) = 0 ∧ win0_4.index t (2 : Fin 4) = 0 ∧ win0_4.index t (3 : Fin 4) = 0 :=
  (by decide +kernel : ∀ t : Fin grid0.N, _)
/-- Output 5's block index at point t is (p, 0, 0, 0). -/
theorem index5 : ∀ t : Fin cfg0.N, win0_5.index t (0 : Fin 4) = t.val / 128 ∧ win0_5.index t (1 : Fin 4) = 0 ∧ win0_5.index t (2 : Fin 4) = 0 ∧ win0_5.index t (3 : Fin 4) = 0 :=
  (by decide +kernel : ∀ t : Fin grid0.N, _)
/-- Output 6's block index at point t is (p, 0, 0). -/
theorem index6 : ∀ t : Fin cfg0.N, win0_6.index t (0 : Fin 3) = t.val / 128 ∧ win0_6.index t (1 : Fin 3) = 0 ∧ win0_6.index t (2 : Fin 3) = 0 :=
  (by decide +kernel : ∀ t : Fin grid0.N, _)
/-- Output 7's block index at point t is (p, 0, 0). -/
theorem index7 : ∀ t : Fin cfg0.N, win0_7.index t (0 : Fin 3) = t.val / 128 ∧ win0_7.index t (1 : Fin 3) = 0 ∧ win0_7.index t (2 : Fin 3) = 0 :=
  (by decide +kernel : ∀ t : Fin grid0.N, _)
/-- Output 8's block index at point t is (p, 0). -/
theorem index8 : ∀ t : Fin cfg0.N, win0_8.index t (0 : Fin 2) = t.val / 128 ∧ win0_8.index t (1 : Fin 2) = 0 :=
  (by decide +kernel : ∀ t : Fin grid0.N, _)
/-- Output 9's block index at point t is (p, 0). -/
theorem index9 : ∀ t : Fin cfg0.N, win0_9.index t (0 : Fin 2) = t.val / 128 ∧ win0_9.index t (1 : Fin 2) = 0 :=
  (by decide +kernel : ∀ t : Fin grid0.N, _)
/-- Output 10's block index at point t is (p, 0). -/
theorem index10 : ∀ t : Fin cfg0.N, win0_10.index t (0 : Fin 2) = t.val / 128 ∧ win0_10.index t (1 : Fin 2) = 0 :=
  (by decide +kernel : ∀ t : Fin grid0.N, _)
/-- Output 11's block index at point t is (p, 0). -/
theorem index11 : ∀ t : Fin cfg0.N, win0_11.index t (0 : Fin 2) = t.val / 128 ∧ win0_11.index t (1 : Fin 2) = 0 :=
  (by decide +kernel : ∀ t : Fin grid0.N, _)

/-! ## The input blocks, read -/

/-- The source's block at point t, read at (y0, y1), is the source at row 640p + y0 and column 256k + y1. -/
theorem blk0_read (A : S1280x32768.Idx → Elt F .f32) (t : Fin cfg0.N) (y : S640x256.Idx) (i : S1280x32768.Idx)
    (h0 : (i 0).val = 640 * (t.val / 128) + (y 0).val) (h1 : (i 1).val = 256 * (t.val % 128) + (y 1).val) :
    ((cfg0.win 0).blk t).view.read (Elt F) A y = A i := by
  obtain ⟨e0, e1⟩ := index0 t
  rw [View.read_apply]
  show A _ = A i
  congr 1
  funext a; apply Fin.ext
  match a with
  | ⟨0, _⟩ => show win0_0.index t (0 : Fin 2) * 640 + 1 * (y 0).val = (i 0).val; omega
  | ⟨1, _⟩ => show win0_0.index t (1 : Fin 2) * 256 + 1 * (y 1).val = (i 1).val; omega

/-- The same at coordinates. -/
theorem blk0_read_ix (A : S1280x32768.Idx → Elt F .f32) (t : Fin cfg0.N) (y0 : Fin 640) (y1 : Fin 256) :
    ((cfg0.win 0).blk t).view.read (Elt F) A (ix2 y0 y1)
      = A (ix2 ⟨640 * (t.val / 128) + y0.val, by have := lt256 t; omega⟩ ⟨256 * (t.val % 128) + y1.val, by have := lt256 t; omega⟩) :=
  blk0_read A t (ix2 y0 y1) _ rfl rfl

/-- The target's block at point t, read at (y0, y1), is the target at row y0 and column 256k + y1. -/
theorem blk1_read (A : S1280x32768.Idx → Elt F .f32) (t : Fin cfg0.N) (y : S1280x256.Idx) (i : S1280x32768.Idx)
    (h0 : (i 0).val = (y 0).val) (h1 : (i 1).val = 256 * (t.val % 128) + (y 1).val) :
    ((cfg0.win 1).blk t).view.read (Elt F) A y = A i := by
  obtain ⟨e0, e1⟩ := index1 t
  rw [View.read_apply]
  show A _ = A i
  congr 1
  funext a; apply Fin.ext
  match a with
  | ⟨0, _⟩ => show win0_1.index t (0 : Fin 2) * 1280 + 1 * (y 0).val = (i 0).val; omega
  | ⟨1, _⟩ => show win0_1.index t (1 : Fin 2) * 256 + 1 * (y 1).val = (i 1).val; omega

/-- The same at coordinates. -/
theorem blk1_read_ix (A : S1280x32768.Idx → Elt F .f32) (t : Fin cfg0.N) (y0 : Fin 1280) (y1 : Fin 256) :
    ((cfg0.win 1).blk t).view.read (Elt F) A (ix2 y0 y1)
      = A (ix2 ⟨y0.val, by have := lt256 t; omega⟩ ⟨256 * (t.val % 128) + y1.val, by have := lt256 t; omega⟩) :=
  blk1_read A t (ix2 y0 y1) _ rfl rfl

/-- The first weight matrix's block at point t, read at (y0, y1), is the matrix at row 256k + y0 and column y1. -/
theorem blk2_read (A : S32768x128.Idx → Elt F .f32) (t : Fin cfg0.N) (y : S256x128.Idx) (i : S32768x128.Idx)
    (h0 : (i 0).val = 256 * (t.val % 128) + (y 0).val) (h1 : (i 1).val = (y 1).val) :
    ((cfg0.win 2).blk t).view.read (Elt F) A y = A i := by
  obtain ⟨e0, e1⟩ := index2 t
  rw [View.read_apply]
  show A _ = A i
  congr 1
  funext a; apply Fin.ext
  match a with
  | ⟨0, _⟩ => show win0_2.index t (0 : Fin 2) * 256 + 1 * (y 0).val = (i 0).val; omega
  | ⟨1, _⟩ => show win0_2.index t (1 : Fin 2) * 128 + 1 * (y 1).val = (i 1).val; omega

/-- The same at coordinates. -/
theorem blk2_read_ix (A : S32768x128.Idx → Elt F .f32) (t : Fin cfg0.N) (y0 : Fin 256) (y1 : Fin 128) :
    ((cfg0.win 2).blk t).view.read (Elt F) A (ix2 y0 y1)
      = A (ix2 ⟨256 * (t.val % 128) + y0.val, by have := lt256 t; omega⟩ ⟨y1.val, by have := lt256 t; omega⟩) :=
  blk2_read A t (ix2 y0 y1) _ rfl rfl

/-- The second weight matrix's block at point t, read at (y0, y1), is the matrix at row 256k + y0 and column y1. -/
theorem blk3_read (A : S32768x128.Idx → Elt F .f32) (t : Fin cfg0.N) (y : S256x128.Idx) (i : S32768x128.Idx)
    (h0 : (i 0).val = 256 * (t.val % 128) + (y 0).val) (h1 : (i 1).val = (y 1).val) :
    ((cfg0.win 3).blk t).view.read (Elt F) A y = A i := by
  obtain ⟨e0, e1⟩ := index3 t
  rw [View.read_apply]
  show A _ = A i
  congr 1
  funext a; apply Fin.ext
  match a with
  | ⟨0, _⟩ => show win0_3.index t (0 : Fin 2) * 256 + 1 * (y 0).val = (i 0).val; omega
  | ⟨1, _⟩ => show win0_3.index t (1 : Fin 2) * 128 + 1 * (y 1).val = (i 1).val; omega

/-- The same at coordinates. -/
theorem blk3_read_ix (A : S32768x128.Idx → Elt F .f32) (t : Fin cfg0.N) (y0 : Fin 256) (y1 : Fin 128) :
    ((cfg0.win 3).blk t).view.read (Elt F) A (ix2 y0 y1)
      = A (ix2 ⟨256 * (t.val % 128) + y0.val, by have := lt256 t; omega⟩ ⟨y1.val, by have := lt256 t; omega⟩) :=
  blk3_read A t (ix2 y0 y1) _ rfl rfl

/-! ## The output blocks: which indices each holds, read, and the cover -/

/-! ### Output 4 -/

/-- An index of the array is in point t's block iff each coordinate is in the block's range on its axis. -/
theorem mem_blk4 (t : Fin cfg0.N) (i : S2x5x128x128.Idx) :
    i ∈ ((cfg0.win 4).blk t).view.set ↔ ∀ a : Fin 4, win0_4.index t a * S1x5x128x128.size a ≤ (i a).val ∧ (i a).val < win0_4.index t a * S1x5x128x128.size a + S1x5x128x128.size a := by
  show i ∈ ((View.whole main_v0_0).slice (win0_4.rect t)).set ↔ _
  rw [View.set_slice_whole, Rect.mem_set_unit]
  exact Iff.rfl

/-- Point t's block is slab p = t / 128. -/
theorem mem_blk4_iff (t : Fin cfg0.N) (i : S2x5x128x128.Idx) :
    i ∈ ((cfg0.win 4).blk t).view.set ↔ (i 0).val = t.val / 128 := by
  rw [mem_blk4]
  obtain ⟨e0, e1, e2, e3⟩ := index4 t
  constructor
  · intro h
    have b0 : win0_4.index t (0 : Fin 4) * 1 ≤ (i 0).val ∧ (i 0).val < win0_4.index t (0 : Fin 4) * 1 + 1 := h 0
    omega
  · intro h a
    have hi0 : (i 0).val < 2 := (i 0).isLt
    have hi1 : (i 1).val < 5 := (i 1).isLt
    have hi2 : (i 2).val < 128 := (i 2).isLt
    have hi3 : (i 3).val < 128 := (i 3).isLt
    match a with
    | ⟨0, _⟩ => show win0_4.index t (0 : Fin 4) * 1 ≤ (i 0).val ∧ (i 0).val < win0_4.index t (0 : Fin 4) * 1 + 1; omega
    | ⟨1, _⟩ => show win0_4.index t (1 : Fin 4) * 5 ≤ (i 1).val ∧ (i 1).val < win0_4.index t (1 : Fin 4) * 5 + 5; omega
    | ⟨2, _⟩ => show win0_4.index t (2 : Fin 4) * 128 ≤ (i 2).val ∧ (i 2).val < win0_4.index t (2 : Fin 4) * 128 + 128; omega
    | ⟨3, _⟩ => show win0_4.index t (3 : Fin 4) * 128 ≤ (i 3).val ∧ (i 3).val < win0_4.index t (3 : Fin 4) * 128 + 128; omega

/-- The block at point t, read at y, is the array at the index with leading coordinate p and the other coordinates y's. -/
theorem blk4_read (A : S2x5x128x128.Idx → Elt F .f32) (t : Fin cfg0.N) (y : S1x5x128x128.Idx) (i : S2x5x128x128.Idx)
    (h0 : (i 0).val = t.val / 128) (h1 : (i 1).val = (y 1).val) (h2 : (i 2).val = (y 2).val) (h3 : (i 3).val = (y 3).val) :
    ((cfg0.win 4).blk t).view.read (Elt F) A y = A i := by
  obtain ⟨e0, e1, e2, e3⟩ := index4 t
  have hy0 : (y 0).val < 1 := (y 0).isLt
  rw [View.read_apply]
  show A _ = A i
  congr 1
  funext a; apply Fin.ext
  match a with
  | ⟨0, _⟩ => show win0_4.index t (0 : Fin 4) * 1 + 1 * (y 0).val = (i 0).val; omega
  | ⟨1, _⟩ => show win0_4.index t (1 : Fin 4) * 5 + 1 * (y 1).val = (i 1).val; omega
  | ⟨2, _⟩ => show win0_4.index t (2 : Fin 4) * 128 + 1 * (y 2).val = (i 2).val; omega
  | ⟨3, _⟩ => show win0_4.index t (3 : Fin 4) * 128 + 1 * (y 3).val = (i 3).val; omega

/-- The same at coordinates. -/
theorem blk4_read_ix (A : S2x5x128x128.Idx → Elt F .f32) (t : Fin cfg0.N) (y0 : Fin 1) (y1 : Fin 5) (y2 : Fin 128) (y3 : Fin 128) :
    ((cfg0.win 4).blk t).view.read (Elt F) A (ix4 y0 y1 y2 y3)
      = A (ix4 ⟨t.val / 128, by have := lt256 t; omega⟩ y1 y2 y3) :=
  blk4_read A t (ix4 y0 y1 y2 y3) _ rfl rfl rfl rfl

/-- Every index of the array is in the block of a point that writes back: the point 128p + 127 of its slab p. -/
theorem cover4 : ∀ i : S2x5x128x128.Idx, ∃ t : Fin cfg0.N, (cfg0.win 4).flush t = true ∧ i ∈ ((cfg0.win 4).blk t).view.set := by
  intro i
  have hi0 : (i 0).val < 2 := (i 0).isLt
  refine ⟨⟨128 * (i 0).val + 127, lt_of_lt_of_eq (by omega) N_0.symm⟩, (flush0_4 _).mpr (by show (128 * (i 0).val + 127) % 128 = 127; omega), ?_⟩
  rw [mem_blk4_iff]
  show (i 0).val = (128 * (i 0).val + 127) / 128
  omega

/-! ### Output 5 -/

/-- An index of the array is in point t's block iff each coordinate is in the block's range on its axis. -/
theorem mem_blk5 (t : Fin cfg0.N) (i : S2x5x128x128.Idx) :
    i ∈ ((cfg0.win 5).blk t).view.set ↔ ∀ a : Fin 4, win0_5.index t a * S1x5x128x128.size a ≤ (i a).val ∧ (i a).val < win0_5.index t a * S1x5x128x128.size a + S1x5x128x128.size a := by
  show i ∈ ((View.whole main_v0_1).slice (win0_5.rect t)).set ↔ _
  rw [View.set_slice_whole, Rect.mem_set_unit]
  exact Iff.rfl

/-- Point t's block is slab p = t / 128. -/
theorem mem_blk5_iff (t : Fin cfg0.N) (i : S2x5x128x128.Idx) :
    i ∈ ((cfg0.win 5).blk t).view.set ↔ (i 0).val = t.val / 128 := by
  rw [mem_blk5]
  obtain ⟨e0, e1, e2, e3⟩ := index5 t
  constructor
  · intro h
    have b0 : win0_5.index t (0 : Fin 4) * 1 ≤ (i 0).val ∧ (i 0).val < win0_5.index t (0 : Fin 4) * 1 + 1 := h 0
    omega
  · intro h a
    have hi0 : (i 0).val < 2 := (i 0).isLt
    have hi1 : (i 1).val < 5 := (i 1).isLt
    have hi2 : (i 2).val < 128 := (i 2).isLt
    have hi3 : (i 3).val < 128 := (i 3).isLt
    match a with
    | ⟨0, _⟩ => show win0_5.index t (0 : Fin 4) * 1 ≤ (i 0).val ∧ (i 0).val < win0_5.index t (0 : Fin 4) * 1 + 1; omega
    | ⟨1, _⟩ => show win0_5.index t (1 : Fin 4) * 5 ≤ (i 1).val ∧ (i 1).val < win0_5.index t (1 : Fin 4) * 5 + 5; omega
    | ⟨2, _⟩ => show win0_5.index t (2 : Fin 4) * 128 ≤ (i 2).val ∧ (i 2).val < win0_5.index t (2 : Fin 4) * 128 + 128; omega
    | ⟨3, _⟩ => show win0_5.index t (3 : Fin 4) * 128 ≤ (i 3).val ∧ (i 3).val < win0_5.index t (3 : Fin 4) * 128 + 128; omega

/-- The block at point t, read at y, is the array at the index with leading coordinate p and the other coordinates y's. -/
theorem blk5_read (A : S2x5x128x128.Idx → Elt F .f32) (t : Fin cfg0.N) (y : S1x5x128x128.Idx) (i : S2x5x128x128.Idx)
    (h0 : (i 0).val = t.val / 128) (h1 : (i 1).val = (y 1).val) (h2 : (i 2).val = (y 2).val) (h3 : (i 3).val = (y 3).val) :
    ((cfg0.win 5).blk t).view.read (Elt F) A y = A i := by
  obtain ⟨e0, e1, e2, e3⟩ := index5 t
  have hy0 : (y 0).val < 1 := (y 0).isLt
  rw [View.read_apply]
  show A _ = A i
  congr 1
  funext a; apply Fin.ext
  match a with
  | ⟨0, _⟩ => show win0_5.index t (0 : Fin 4) * 1 + 1 * (y 0).val = (i 0).val; omega
  | ⟨1, _⟩ => show win0_5.index t (1 : Fin 4) * 5 + 1 * (y 1).val = (i 1).val; omega
  | ⟨2, _⟩ => show win0_5.index t (2 : Fin 4) * 128 + 1 * (y 2).val = (i 2).val; omega
  | ⟨3, _⟩ => show win0_5.index t (3 : Fin 4) * 128 + 1 * (y 3).val = (i 3).val; omega

/-- The same at coordinates. -/
theorem blk5_read_ix (A : S2x5x128x128.Idx → Elt F .f32) (t : Fin cfg0.N) (y0 : Fin 1) (y1 : Fin 5) (y2 : Fin 128) (y3 : Fin 128) :
    ((cfg0.win 5).blk t).view.read (Elt F) A (ix4 y0 y1 y2 y3)
      = A (ix4 ⟨t.val / 128, by have := lt256 t; omega⟩ y1 y2 y3) :=
  blk5_read A t (ix4 y0 y1 y2 y3) _ rfl rfl rfl rfl

/-- Every index of the array is in the block of a point that writes back: the point 128p + 127 of its slab p. -/
theorem cover5 : ∀ i : S2x5x128x128.Idx, ∃ t : Fin cfg0.N, (cfg0.win 5).flush t = true ∧ i ∈ ((cfg0.win 5).blk t).view.set := by
  intro i
  have hi0 : (i 0).val < 2 := (i 0).isLt
  refine ⟨⟨128 * (i 0).val + 127, lt_of_lt_of_eq (by omega) N_0.symm⟩, (flush0_5 _).mpr (by show (128 * (i 0).val + 127) % 128 = 127; omega), ?_⟩
  rw [mem_blk5_iff]
  show (i 0).val = (128 * (i 0).val + 127) / 128
  omega

/-! ### Output 6 -/

/-- An index of the array is in point t's block iff each coordinate is in the block's range on its axis. -/
theorem mem_blk6 (t : Fin cfg0.N) (i : S2x5x128.Idx) :
    i ∈ ((cfg0.win 6).blk t).view.set ↔ ∀ a : Fin 3, win0_6.index t a * S1x5x128.size a ≤ (i a).val ∧ (i a).val < win0_6.index t a * S1x5x128.size a + S1x5x128.size a := by
  show i ∈ ((View.whole main_v0_2).slice (win0_6.rect t)).set ↔ _
  rw [View.set_slice_whole, Rect.mem_set_unit]
  exact Iff.rfl

/-- Point t's block is slab p = t / 128. -/
theorem mem_blk6_iff (t : Fin cfg0.N) (i : S2x5x128.Idx) :
    i ∈ ((cfg0.win 6).blk t).view.set ↔ (i 0).val = t.val / 128 := by
  rw [mem_blk6]
  obtain ⟨e0, e1, e2⟩ := index6 t
  constructor
  · intro h
    have b0 : win0_6.index t (0 : Fin 3) * 1 ≤ (i 0).val ∧ (i 0).val < win0_6.index t (0 : Fin 3) * 1 + 1 := h 0
    omega
  · intro h a
    have hi0 : (i 0).val < 2 := (i 0).isLt
    have hi1 : (i 1).val < 5 := (i 1).isLt
    have hi2 : (i 2).val < 128 := (i 2).isLt
    match a with
    | ⟨0, _⟩ => show win0_6.index t (0 : Fin 3) * 1 ≤ (i 0).val ∧ (i 0).val < win0_6.index t (0 : Fin 3) * 1 + 1; omega
    | ⟨1, _⟩ => show win0_6.index t (1 : Fin 3) * 5 ≤ (i 1).val ∧ (i 1).val < win0_6.index t (1 : Fin 3) * 5 + 5; omega
    | ⟨2, _⟩ => show win0_6.index t (2 : Fin 3) * 128 ≤ (i 2).val ∧ (i 2).val < win0_6.index t (2 : Fin 3) * 128 + 128; omega

/-- The block at point t, read at y, is the array at the index with leading coordinate p and the other coordinates y's. -/
theorem blk6_read (A : S2x5x128.Idx → Elt F .f32) (t : Fin cfg0.N) (y : S1x5x128.Idx) (i : S2x5x128.Idx)
    (h0 : (i 0).val = t.val / 128) (h1 : (i 1).val = (y 1).val) (h2 : (i 2).val = (y 2).val) :
    ((cfg0.win 6).blk t).view.read (Elt F) A y = A i := by
  obtain ⟨e0, e1, e2⟩ := index6 t
  have hy0 : (y 0).val < 1 := (y 0).isLt
  rw [View.read_apply]
  show A _ = A i
  congr 1
  funext a; apply Fin.ext
  match a with
  | ⟨0, _⟩ => show win0_6.index t (0 : Fin 3) * 1 + 1 * (y 0).val = (i 0).val; omega
  | ⟨1, _⟩ => show win0_6.index t (1 : Fin 3) * 5 + 1 * (y 1).val = (i 1).val; omega
  | ⟨2, _⟩ => show win0_6.index t (2 : Fin 3) * 128 + 1 * (y 2).val = (i 2).val; omega

/-- The same at coordinates. -/
theorem blk6_read_ix (A : S2x5x128.Idx → Elt F .f32) (t : Fin cfg0.N) (y0 : Fin 1) (y1 : Fin 5) (y2 : Fin 128) :
    ((cfg0.win 6).blk t).view.read (Elt F) A (ix3 y0 y1 y2)
      = A (ix3 ⟨t.val / 128, by have := lt256 t; omega⟩ y1 y2) :=
  blk6_read A t (ix3 y0 y1 y2) _ rfl rfl rfl

/-- Every index of the array is in the block of a point that writes back: the point 128p + 127 of its slab p. -/
theorem cover6 : ∀ i : S2x5x128.Idx, ∃ t : Fin cfg0.N, (cfg0.win 6).flush t = true ∧ i ∈ ((cfg0.win 6).blk t).view.set := by
  intro i
  have hi0 : (i 0).val < 2 := (i 0).isLt
  refine ⟨⟨128 * (i 0).val + 127, lt_of_lt_of_eq (by omega) N_0.symm⟩, (flush0_6 _).mpr (by show (128 * (i 0).val + 127) % 128 = 127; omega), ?_⟩
  rw [mem_blk6_iff]
  show (i 0).val = (128 * (i 0).val + 127) / 128
  omega

/-! ### Output 7 -/

/-- An index of the array is in point t's block iff each coordinate is in the block's range on its axis. -/
theorem mem_blk7 (t : Fin cfg0.N) (i : S2x5x128.Idx) :
    i ∈ ((cfg0.win 7).blk t).view.set ↔ ∀ a : Fin 3, win0_7.index t a * S1x5x128.size a ≤ (i a).val ∧ (i a).val < win0_7.index t a * S1x5x128.size a + S1x5x128.size a := by
  show i ∈ ((View.whole main_v0_3).slice (win0_7.rect t)).set ↔ _
  rw [View.set_slice_whole, Rect.mem_set_unit]
  exact Iff.rfl

/-- Point t's block is slab p = t / 128. -/
theorem mem_blk7_iff (t : Fin cfg0.N) (i : S2x5x128.Idx) :
    i ∈ ((cfg0.win 7).blk t).view.set ↔ (i 0).val = t.val / 128 := by
  rw [mem_blk7]
  obtain ⟨e0, e1, e2⟩ := index7 t
  constructor
  · intro h
    have b0 : win0_7.index t (0 : Fin 3) * 1 ≤ (i 0).val ∧ (i 0).val < win0_7.index t (0 : Fin 3) * 1 + 1 := h 0
    omega
  · intro h a
    have hi0 : (i 0).val < 2 := (i 0).isLt
    have hi1 : (i 1).val < 5 := (i 1).isLt
    have hi2 : (i 2).val < 128 := (i 2).isLt
    match a with
    | ⟨0, _⟩ => show win0_7.index t (0 : Fin 3) * 1 ≤ (i 0).val ∧ (i 0).val < win0_7.index t (0 : Fin 3) * 1 + 1; omega
    | ⟨1, _⟩ => show win0_7.index t (1 : Fin 3) * 5 ≤ (i 1).val ∧ (i 1).val < win0_7.index t (1 : Fin 3) * 5 + 5; omega
    | ⟨2, _⟩ => show win0_7.index t (2 : Fin 3) * 128 ≤ (i 2).val ∧ (i 2).val < win0_7.index t (2 : Fin 3) * 128 + 128; omega

/-- The block at point t, read at y, is the array at the index with leading coordinate p and the other coordinates y's. -/
theorem blk7_read (A : S2x5x128.Idx → Elt F .f32) (t : Fin cfg0.N) (y : S1x5x128.Idx) (i : S2x5x128.Idx)
    (h0 : (i 0).val = t.val / 128) (h1 : (i 1).val = (y 1).val) (h2 : (i 2).val = (y 2).val) :
    ((cfg0.win 7).blk t).view.read (Elt F) A y = A i := by
  obtain ⟨e0, e1, e2⟩ := index7 t
  have hy0 : (y 0).val < 1 := (y 0).isLt
  rw [View.read_apply]
  show A _ = A i
  congr 1
  funext a; apply Fin.ext
  match a with
  | ⟨0, _⟩ => show win0_7.index t (0 : Fin 3) * 1 + 1 * (y 0).val = (i 0).val; omega
  | ⟨1, _⟩ => show win0_7.index t (1 : Fin 3) * 5 + 1 * (y 1).val = (i 1).val; omega
  | ⟨2, _⟩ => show win0_7.index t (2 : Fin 3) * 128 + 1 * (y 2).val = (i 2).val; omega

/-- The same at coordinates. -/
theorem blk7_read_ix (A : S2x5x128.Idx → Elt F .f32) (t : Fin cfg0.N) (y0 : Fin 1) (y1 : Fin 5) (y2 : Fin 128) :
    ((cfg0.win 7).blk t).view.read (Elt F) A (ix3 y0 y1 y2)
      = A (ix3 ⟨t.val / 128, by have := lt256 t; omega⟩ y1 y2) :=
  blk7_read A t (ix3 y0 y1 y2) _ rfl rfl rfl

/-- Every index of the array is in the block of a point that writes back: the point 128p + 127 of its slab p. -/
theorem cover7 : ∀ i : S2x5x128.Idx, ∃ t : Fin cfg0.N, (cfg0.win 7).flush t = true ∧ i ∈ ((cfg0.win 7).blk t).view.set := by
  intro i
  have hi0 : (i 0).val < 2 := (i 0).isLt
  refine ⟨⟨128 * (i 0).val + 127, lt_of_lt_of_eq (by omega) N_0.symm⟩, (flush0_7 _).mpr (by show (128 * (i 0).val + 127) % 128 = 127; omega), ?_⟩
  rw [mem_blk7_iff]
  show (i 0).val = (128 * (i 0).val + 127) / 128
  omega

/-! ### Output 8 -/

/-- An index of the array is in point t's block iff each coordinate is in the block's range on its axis. -/
theorem mem_blk8 (t : Fin cfg0.N) (i : S1280x1280.Idx) :
    i ∈ ((cfg0.win 8).blk t).view.set ↔ ∀ a : Fin 2, win0_8.index t a * S640x1280.size a ≤ (i a).val ∧ (i a).val < win0_8.index t a * S640x1280.size a + S640x1280.size a := by
  show i ∈ ((View.whole main_v0_4).slice (win0_8.rect t)).set ↔ _
  rw [View.set_slice_whole, Rect.mem_set_unit]
  exact Iff.rfl

/-- Point t's block is rows 640p … 640p + 639, p = t / 128. -/
theorem mem_blk8_iff (t : Fin cfg0.N) (i : S1280x1280.Idx) :
    i ∈ ((cfg0.win 8).blk t).view.set ↔ 640 * (t.val / 128) ≤ (i 0).val ∧ (i 0).val < 640 * (t.val / 128) + 640 := by
  rw [mem_blk8]
  obtain ⟨e0, e1⟩ := index8 t
  constructor
  · intro h
    have b0 : win0_8.index t (0 : Fin 2) * 640 ≤ (i 0).val ∧ (i 0).val < win0_8.index t (0 : Fin 2) * 640 + 640 := h 0
    omega
  · intro h a
    have hi0 : (i 0).val < 1280 := (i 0).isLt
    have hi1 : (i 1).val < 1280 := (i 1).isLt
    match a with
    | ⟨0, _⟩ => show win0_8.index t (0 : Fin 2) * 640 ≤ (i 0).val ∧ (i 0).val < win0_8.index t (0 : Fin 2) * 640 + 640; omega
    | ⟨1, _⟩ => show win0_8.index t (1 : Fin 2) * 1280 ≤ (i 1).val ∧ (i 1).val < win0_8.index t (1 : Fin 2) * 1280 + 1280; omega

/-- The block at point t, read at y, is the array at the index with row 640p + y0 and the other coordinates y's. -/
theorem blk8_read (A : S1280x1280.Idx → Elt F .f32) (t : Fin cfg0.N) (y : S640x1280.Idx) (i : S1280x1280.Idx)
    (h0 : (i 0).val = 640 * (t.val / 128) + (y 0).val) (h1 : (i 1).val = (y 1).val) :
    ((cfg0.win 8).blk t).view.read (Elt F) A y = A i := by
  obtain ⟨e0, e1⟩ := index8 t
  have hy0 : (y 0).val < 640 := (y 0).isLt
  rw [View.read_apply]
  show A _ = A i
  congr 1
  funext a; apply Fin.ext
  match a with
  | ⟨0, _⟩ => show win0_8.index t (0 : Fin 2) * 640 + 1 * (y 0).val = (i 0).val; omega
  | ⟨1, _⟩ => show win0_8.index t (1 : Fin 2) * 1280 + 1 * (y 1).val = (i 1).val; omega

/-- The same at coordinates. -/
theorem blk8_read_ix (A : S1280x1280.Idx → Elt F .f32) (t : Fin cfg0.N) (y0 : Fin 640) (y1 : Fin 1280) :
    ((cfg0.win 8).blk t).view.read (Elt F) A (ix2 y0 y1)
      = A (ix2 ⟨640 * (t.val / 128) + y0.val, by have := lt256 t; omega⟩ y1) :=
  blk8_read A t (ix2 y0 y1) _ rfl rfl

/-- Every index of the array is in the block of a point that writes back: the point 128p + 127 of its row block p. -/
theorem cover8 : ∀ i : S1280x1280.Idx, ∃ t : Fin cfg0.N, (cfg0.win 8).flush t = true ∧ i ∈ ((cfg0.win 8).blk t).view.set := by
  intro i
  have hi0 : (i 0).val < 1280 := (i 0).isLt
  refine ⟨⟨128 * ((i 0).val / 640) + 127, lt_of_lt_of_eq (by omega) N_0.symm⟩, (flush0_8 _).mpr (by show (128 * ((i 0).val / 640) + 127) % 128 = 127; omega), ?_⟩
  rw [mem_blk8_iff]
  show 640 * ((128 * ((i 0).val / 640) + 127) / 128) ≤ (i 0).val ∧ (i 0).val < 640 * ((128 * ((i 0).val / 640) + 127) / 128) + 640
  omega

/-! ### Output 9 -/

/-- An index of the array is in point t's block iff each coordinate is in the block's range on its axis. -/
theorem mem_blk9 (t : Fin cfg0.N) (i : S1280x128.Idx) :
    i ∈ ((cfg0.win 9).blk t).view.set ↔ ∀ a : Fin 2, win0_9.index t a * S640x128.size a ≤ (i a).val ∧ (i a).val < win0_9.index t a * S640x128.size a + S640x128.size a := by
  show i ∈ ((View.whole main_v0_5).slice (win0_9.rect t)).set ↔ _
  rw [View.set_slice_whole, Rect.mem_set_unit]
  exact Iff.rfl

/-- Point t's block is rows 640p … 640p + 639, p = t / 128. -/
theorem mem_blk9_iff (t : Fin cfg0.N) (i : S1280x128.Idx) :
    i ∈ ((cfg0.win 9).blk t).view.set ↔ 640 * (t.val / 128) ≤ (i 0).val ∧ (i 0).val < 640 * (t.val / 128) + 640 := by
  rw [mem_blk9]
  obtain ⟨e0, e1⟩ := index9 t
  constructor
  · intro h
    have b0 : win0_9.index t (0 : Fin 2) * 640 ≤ (i 0).val ∧ (i 0).val < win0_9.index t (0 : Fin 2) * 640 + 640 := h 0
    omega
  · intro h a
    have hi0 : (i 0).val < 1280 := (i 0).isLt
    have hi1 : (i 1).val < 128 := (i 1).isLt
    match a with
    | ⟨0, _⟩ => show win0_9.index t (0 : Fin 2) * 640 ≤ (i 0).val ∧ (i 0).val < win0_9.index t (0 : Fin 2) * 640 + 640; omega
    | ⟨1, _⟩ => show win0_9.index t (1 : Fin 2) * 128 ≤ (i 1).val ∧ (i 1).val < win0_9.index t (1 : Fin 2) * 128 + 128; omega

/-- The block at point t, read at y, is the array at the index with row 640p + y0 and the other coordinates y's. -/
theorem blk9_read (A : S1280x128.Idx → Elt F .f32) (t : Fin cfg0.N) (y : S640x128.Idx) (i : S1280x128.Idx)
    (h0 : (i 0).val = 640 * (t.val / 128) + (y 0).val) (h1 : (i 1).val = (y 1).val) :
    ((cfg0.win 9).blk t).view.read (Elt F) A y = A i := by
  obtain ⟨e0, e1⟩ := index9 t
  have hy0 : (y 0).val < 640 := (y 0).isLt
  rw [View.read_apply]
  show A _ = A i
  congr 1
  funext a; apply Fin.ext
  match a with
  | ⟨0, _⟩ => show win0_9.index t (0 : Fin 2) * 640 + 1 * (y 0).val = (i 0).val; omega
  | ⟨1, _⟩ => show win0_9.index t (1 : Fin 2) * 128 + 1 * (y 1).val = (i 1).val; omega

/-- The same at coordinates. -/
theorem blk9_read_ix (A : S1280x128.Idx → Elt F .f32) (t : Fin cfg0.N) (y0 : Fin 640) (y1 : Fin 128) :
    ((cfg0.win 9).blk t).view.read (Elt F) A (ix2 y0 y1)
      = A (ix2 ⟨640 * (t.val / 128) + y0.val, by have := lt256 t; omega⟩ y1) :=
  blk9_read A t (ix2 y0 y1) _ rfl rfl

/-- Every index of the array is in the block of a point that writes back: the point 128p + 127 of its row block p. -/
theorem cover9 : ∀ i : S1280x128.Idx, ∃ t : Fin cfg0.N, (cfg0.win 9).flush t = true ∧ i ∈ ((cfg0.win 9).blk t).view.set := by
  intro i
  have hi0 : (i 0).val < 1280 := (i 0).isLt
  refine ⟨⟨128 * ((i 0).val / 640) + 127, lt_of_lt_of_eq (by omega) N_0.symm⟩, (flush0_9 _).mpr (by show (128 * ((i 0).val / 640) + 127) % 128 = 127; omega), ?_⟩
  rw [mem_blk9_iff]
  show 640 * ((128 * ((i 0).val / 640) + 127) / 128) ≤ (i 0).val ∧ (i 0).val < 640 * ((128 * ((i 0).val / 640) + 127) / 128) + 640
  omega

/-! ### Output 10 -/

/-- An index of the array is in point t's block iff each coordinate is in the block's range on its axis. -/
theorem mem_blk10 (t : Fin cfg0.N) (i : S1280x128.Idx) :
    i ∈ ((cfg0.win 10).blk t).view.set ↔ ∀ a : Fin 2, win0_10.index t a * S640x128.size a ≤ (i a).val ∧ (i a).val < win0_10.index t a * S640x128.size a + S640x128.size a := by
  show i ∈ ((View.whole main_v0_6).slice (win0_10.rect t)).set ↔ _
  rw [View.set_slice_whole, Rect.mem_set_unit]
  exact Iff.rfl

/-- Point t's block is rows 640p … 640p + 639, p = t / 128. -/
theorem mem_blk10_iff (t : Fin cfg0.N) (i : S1280x128.Idx) :
    i ∈ ((cfg0.win 10).blk t).view.set ↔ 640 * (t.val / 128) ≤ (i 0).val ∧ (i 0).val < 640 * (t.val / 128) + 640 := by
  rw [mem_blk10]
  obtain ⟨e0, e1⟩ := index10 t
  constructor
  · intro h
    have b0 : win0_10.index t (0 : Fin 2) * 640 ≤ (i 0).val ∧ (i 0).val < win0_10.index t (0 : Fin 2) * 640 + 640 := h 0
    omega
  · intro h a
    have hi0 : (i 0).val < 1280 := (i 0).isLt
    have hi1 : (i 1).val < 128 := (i 1).isLt
    match a with
    | ⟨0, _⟩ => show win0_10.index t (0 : Fin 2) * 640 ≤ (i 0).val ∧ (i 0).val < win0_10.index t (0 : Fin 2) * 640 + 640; omega
    | ⟨1, _⟩ => show win0_10.index t (1 : Fin 2) * 128 ≤ (i 1).val ∧ (i 1).val < win0_10.index t (1 : Fin 2) * 128 + 128; omega

/-- The block at point t, read at y, is the array at the index with row 640p + y0 and the other coordinates y's. -/
theorem blk10_read (A : S1280x128.Idx → Elt F .f32) (t : Fin cfg0.N) (y : S640x128.Idx) (i : S1280x128.Idx)
    (h0 : (i 0).val = 640 * (t.val / 128) + (y 0).val) (h1 : (i 1).val = (y 1).val) :
    ((cfg0.win 10).blk t).view.read (Elt F) A y = A i := by
  obtain ⟨e0, e1⟩ := index10 t
  have hy0 : (y 0).val < 640 := (y 0).isLt
  rw [View.read_apply]
  show A _ = A i
  congr 1
  funext a; apply Fin.ext
  match a with
  | ⟨0, _⟩ => show win0_10.index t (0 : Fin 2) * 640 + 1 * (y 0).val = (i 0).val; omega
  | ⟨1, _⟩ => show win0_10.index t (1 : Fin 2) * 128 + 1 * (y 1).val = (i 1).val; omega

/-- The same at coordinates. -/
theorem blk10_read_ix (A : S1280x128.Idx → Elt F .f32) (t : Fin cfg0.N) (y0 : Fin 640) (y1 : Fin 128) :
    ((cfg0.win 10).blk t).view.read (Elt F) A (ix2 y0 y1)
      = A (ix2 ⟨640 * (t.val / 128) + y0.val, by have := lt256 t; omega⟩ y1) :=
  blk10_read A t (ix2 y0 y1) _ rfl rfl

/-- Every index of the array is in the block of a point that writes back: the point 128p + 127 of its row block p. -/
theorem cover10 : ∀ i : S1280x128.Idx, ∃ t : Fin cfg0.N, (cfg0.win 10).flush t = true ∧ i ∈ ((cfg0.win 10).blk t).view.set := by
  intro i
  have hi0 : (i 0).val < 1280 := (i 0).isLt
  refine ⟨⟨128 * ((i 0).val / 640) + 127, lt_of_lt_of_eq (by omega) N_0.symm⟩, (flush0_10 _).mpr (by show (128 * ((i 0).val / 640) + 127) % 128 = 127; omega), ?_⟩
  rw [mem_blk10_iff]
  show 640 * ((128 * ((i 0).val / 640) + 127) / 128) ≤ (i 0).val ∧ (i 0).val < 640 * ((128 * ((i 0).val / 640) + 127) / 128) + 640
  omega

/-! ### Output 11 -/

/-- An index of the array is in point t's block iff each coordinate is in the block's range on its axis. -/
theorem mem_blk11 (t : Fin cfg0.N) (i : S1280x128.Idx) :
    i ∈ ((cfg0.win 11).blk t).view.set ↔ ∀ a : Fin 2, win0_11.index t a * S640x128.size a ≤ (i a).val ∧ (i a).val < win0_11.index t a * S640x128.size a + S640x128.size a := by
  show i ∈ ((View.whole main_v0_7).slice (win0_11.rect t)).set ↔ _
  rw [View.set_slice_whole, Rect.mem_set_unit]
  exact Iff.rfl

/-- Point t's block is rows 640p … 640p + 639, p = t / 128. -/
theorem mem_blk11_iff (t : Fin cfg0.N) (i : S1280x128.Idx) :
    i ∈ ((cfg0.win 11).blk t).view.set ↔ 640 * (t.val / 128) ≤ (i 0).val ∧ (i 0).val < 640 * (t.val / 128) + 640 := by
  rw [mem_blk11]
  obtain ⟨e0, e1⟩ := index11 t
  constructor
  · intro h
    have b0 : win0_11.index t (0 : Fin 2) * 640 ≤ (i 0).val ∧ (i 0).val < win0_11.index t (0 : Fin 2) * 640 + 640 := h 0
    omega
  · intro h a
    have hi0 : (i 0).val < 1280 := (i 0).isLt
    have hi1 : (i 1).val < 128 := (i 1).isLt
    match a with
    | ⟨0, _⟩ => show win0_11.index t (0 : Fin 2) * 640 ≤ (i 0).val ∧ (i 0).val < win0_11.index t (0 : Fin 2) * 640 + 640; omega
    | ⟨1, _⟩ => show win0_11.index t (1 : Fin 2) * 128 ≤ (i 1).val ∧ (i 1).val < win0_11.index t (1 : Fin 2) * 128 + 128; omega

/-- The block at point t, read at y, is the array at the index with row 640p + y0 and the other coordinates y's. -/
theorem blk11_read (A : S1280x128.Idx → Elt F .f32) (t : Fin cfg0.N) (y : S640x128.Idx) (i : S1280x128.Idx)
    (h0 : (i 0).val = 640 * (t.val / 128) + (y 0).val) (h1 : (i 1).val = (y 1).val) :
    ((cfg0.win 11).blk t).view.read (Elt F) A y = A i := by
  obtain ⟨e0, e1⟩ := index11 t
  have hy0 : (y 0).val < 640 := (y 0).isLt
  rw [View.read_apply]
  show A _ = A i
  congr 1
  funext a; apply Fin.ext
  match a with
  | ⟨0, _⟩ => show win0_11.index t (0 : Fin 2) * 640 + 1 * (y 0).val = (i 0).val; omega
  | ⟨1, _⟩ => show win0_11.index t (1 : Fin 2) * 128 + 1 * (y 1).val = (i 1).val; omega

/-- The same at coordinates. -/
theorem blk11_read_ix (A : S1280x128.Idx → Elt F .f32) (t : Fin cfg0.N) (y0 : Fin 640) (y1 : Fin 128) :
    ((cfg0.win 11).blk t).view.read (Elt F) A (ix2 y0 y1)
      = A (ix2 ⟨640 * (t.val / 128) + y0.val, by have := lt256 t; omega⟩ y1) :=
  blk11_read A t (ix2 y0 y1) _ rfl rfl

/-- Every index of the array is in the block of a point that writes back: the point 128p + 127 of its row block p. -/
theorem cover11 : ∀ i : S1280x128.Idx, ∃ t : Fin cfg0.N, (cfg0.win 11).flush t = true ∧ i ∈ ((cfg0.win 11).blk t).view.set := by
  intro i
  have hi0 : (i 0).val < 1280 := (i 0).isLt
  refine ⟨⟨128 * ((i 0).val / 640) + 127, lt_of_lt_of_eq (by omega) N_0.symm⟩, (flush0_11 _).mpr (by show (128 * ((i 0).val / 640) + 127) % 128 = 127; omega), ?_⟩
  rw [mem_blk11_iff]
  show 640 * ((128 * ((i 0).val / 640) + 127) / 128) ≤ (i 0).val ∧ (i 0).val < 640 * ((128 * ((i 0).val / 640) + 127) / 128) + 640
  omega

end Cert.KernelIdeal.Val

end
-- ==== Proof.KI.Inv.lean ====
/-
  The eight accumulators after each point of the 2 × 128 grid, as closed sums over the four arrays. Point t = 128p + k
  streams tile k (columns 256k … 256k + 255) of half p (rows 640p … 640p + 639). At k = 0 an accumulator is cleared and
  then receives tile 0's term; at every later point of the half it receives what the point before left plus tile k's
  term. So after point 128p + k it holds the sum of half p's tile terms 0 … k, and after the half's last point the
  full sum over the 32768 columns, which is what the output block written back there holds.
-/
import proofs.«409862_j41274635715290_3_alg».proof.Proof.KI.Accum
import proofs.«409862_j41274635715290_3_alg».proof.Proof.KI.Pieces
import proofs.«409862_j41274635715290_3_alg».proof.Proof.KI.Blocks

set_option maxRecDepth 16384

noncomputable section

open scoped BigOperators

namespace Cert.KernelIdeal.Val

open Idealize.ShloMosaic Idealize.ShloMosaic.TcCoe Idealize.SL.Sem
open Idealize.ShloMosaic.ValueIdx
open Cert.KernelIdeal Cert.KernelIdeal.Gen

/-- A block of entries, each of which at the first point of a half is that half's first tile term and at every later
    point is what it was one point earlier plus that point's tile term, holds at the half's last point the full sums
    over the 32768 columns. -/
theorem acc_last {ι : Type} (s : (n : ℕ) → n < 256 → ι → EReal) (g : Fin 2 → ι → Fin 32768 → EReal)
    (hA : ∀ (n : ℕ) (hn : n < 256) (p : Fin 2), n = 128 * p.val → ∀ i,
      s n hn i = 0 + ∑ f : Fin 256, g p i (Cert.Sums.col ⟨0, by decide⟩ f))
    (hB : ∀ (n : ℕ) (hn : n < 256) (p : Fin 2) (k : Fin 128), n = 128 * p.val + k.val → k.val ≠ 0 → ∀ i,
      s n hn i = s (n - 1) (by omega) i + ∑ f : Fin 256, g p i (Cert.Sums.col k f))
    (n : ℕ) (hn : n < 256) (p : Fin 2) (e : n = 128 * p.val + 127) (i : ι) :
    s n hn i = ∑ f : Fin 32768, g p i f :=
  (fold_tiles (fun n hn => s n hn i) (fun p k => ∑ f : Fin 256, g p i (Cert.Sums.col k f))
    (fun n hn p e => hA n hn p e i) (fun n hn p k e hk => hB n hn p k e hk i) n hn p ⟨127, by decide⟩ e).trans
    (all_tiles (g p i))

/-! ## The arrays, the blocks, the point before -/

variable (m : (ℓ : Loc nD τ sig) → Buf (Elt Ideal) ℓ)

/-- The source rows X, the target rows Y and the two weight matrices D and C, as the region finds them. -/
abbrev Xs (c : Dev nD) : Cert.Region.Mat 1280 32768 := Fr.V m c main_arg0
abbrev Ys (c : Dev nD) : Cert.Region.Mat 1280 32768 := Fr.V m c main_arg1
abbrev Ds (c : Dev nD) : Cert.Region.Mat 32768 128 := Fr.V m c main_arg3
abbrev Cs (c : Dev nD) : Cert.Region.Mat 32768 128 := Fr.V m c main_arg9

/-- Their blocks at point t. -/
abbrev xb (c : Dev nD) (t : Fin cfg0.N) : Vec Ideal S640x256 .f32 := Fr.iblk m c 0 t
abbrev yb (c : Dev nD) (t : Fin cfg0.N) : Vec Ideal S1280x256 .f32 := Fr.iblk m c 1 t
abbrev db (c : Dev nD) (t : Fin cfg0.N) : Vec Ideal S256x128 .f32 := Fr.iblk m c 2 t
abbrev cb (c : Dev nD) (t : Fin cfg0.N) : Vec Ideal S256x128 .f32 := Fr.iblk m c 3 t

/-- The target's 640 rows of this half, as the body reads them out of the target's block. -/
abbrev yh (c : Dev nD) (t : Fin cfg0.N) : Vec Ideal S640x256 .f32 := Fr.rows8 (grid0.coords t) (yb m c t)

/-- What the accumulators and output blocks hold after point t, and after the point before it. -/
abbrev now (c : Dev nD) (t : Fin cfg0.N) : Fr.Outs Ideal := Fr.outsAt0 m c t.val t.isLt
abbrev prev (c : Dev nD) (t : Fin cfg0.N) : Fr.Outs Ideal :=
  Fr.outsAt0 m c (t.val - 1) (Nat.lt_of_le_of_lt (Nat.sub_le _ _) t.isLt)

/-- The point's first coordinate is its half p = t / 128. -/
theorem coords0 : ∀ t : Fin cfg0.N, ((grid0.coords t) 0).val = t.val / 128 :=
  (by decide +kernel : ∀ t : Fin grid0.N, _)

/-- A lemma about the body's pieces, applied at point t's staging buffers and the eight accumulators' buffers. -/
local macro "atPoint% " f:term:max t:term:max : term =>
  `($f (grid0.coords $t) (Fr.ms0_0 $t) (Fr.hs0_0 $t) (Fr.ms0_1 $t) (Fr.hs0_1 $t) (Fr.ms0_2 $t) (Fr.hs0_2 $t) (Fr.ms0_3 $t) (Fr.hs0_3 $t)
    (Fr.ms0_4 $t) (Fr.hs0_4 $t) (Fr.ms0_5 $t) (Fr.hs0_5 $t) (Fr.ms0_6 $t) (Fr.hs0_6 $t) (Fr.ms0_7 $t) (Fr.hs0_7 $t)
    (Fr.ms0_8 $t) (Fr.hs0_8 $t) (Fr.ms0_9 $t) (Fr.hs0_9 $t) (Fr.ms0_10 $t) (Fr.hs0_10 $t) (Fr.ms0_11 $t) (Fr.hs0_11 $t)
    Fr.scM0_0 (Memref.isWhole_whole _) Fr.scM0_1 (Memref.isWhole_whole _) Fr.scM0_2 (Memref.isWhole_whole _) Fr.scM0_3 (Memref.isWhole_whole _)
    Fr.scM0_4 (Memref.isWhole_whole _) Fr.scM0_5 (Memref.isWhole_whole _) Fr.scM0_6 (Memref.isWhole_whole _) Fr.scM0_7 (Memref.isWhole_whole _))

/-! ## The blocks read where their arrays say -/

/-- Row i of half p among the 1280 rows. -/
def hrow (p : Fin 2) (i : Fin 640) : Fin 1280 := ⟨640 * p.val + i.val, by have := p.isLt; have := i.isLt; omega⟩

/-- Row a of region 5p + r is row 128r + a of half p. -/
theorem row_val (p : Fin 2) (r : Fin 5) (a : Fin 128) : (Cert.Region.row p r a).val = 640 * p.val + (rrow r a).val := by
  show (5 * p.val + r.val) * 128 + a.val = 640 * p.val + (128 * r.val + a.val)
  omega

theorem xb_at (c : Dev nD) (t : Fin cfg0.N) (p : Fin 2) (k : Fin 128) (e : t.val = 128 * p.val + k.val)
    (a : Fin 640) (f : Fin 256) (i : Fin 1280) (hi : i.val = 640 * p.val + a.val) :
    xb m c t (ix2 a f) = Xs m c (ix2 i (Cert.Sums.col k f)) :=
  blk0_read (F := Ideal) (Xs m c) t (ix2 a f) (ix2 i (Cert.Sums.col k f))
    (by show i.val = 640 * (t.val / 128) + a.val; have := k.isLt; omega)
    (by show 256 * k.val + f.val = 256 * (t.val % 128) + f.val; have := k.isLt; omega)

theorem yb_at (c : Dev nD) (t : Fin cfg0.N) (p : Fin 2) (k : Fin 128) (e : t.val = 128 * p.val + k.val)
    (j : Fin 1280) (f : Fin 256) :
    yb m c t (ix2 j f) = Ys m c (ix2 j (Cert.Sums.col k f)) :=
  blk1_read (F := Ideal) (Ys m c) t (ix2 j f) (ix2 j (Cert.Sums.col k f)) rfl
    (by show 256 * k.val + f.val = 256 * (t.val % 128) + f.val; have := k.isLt; omega)

theorem yh_at (c : Dev nD) (t : Fin cfg0.N) (p : Fin 2) (k : Fin 128) (e : t.val = 128 * p.val + k.val)
    (a : Fin 640) (f : Fin 256) (i : Fin 1280) (hi : i.val = 640 * p.val + a.val) :
    yh m c t (ix2 a f) = Ys m c (ix2 i (Cert.Sums.col k f)) := by
  refine Eq.trans ?_ (yb_at m c t p k e i f)
  exact rows_at (grid0.coords t) (yb m c t) a f i (by rw [coords0 t, hi]; have := k.isLt; omega)

theorem db_at (c : Dev nD) (t : Fin cfg0.N) (p : Fin 2) (k : Fin 128) (e : t.val = 128 * p.val + k.val)
    (f : Fin 256) (j : Fin 128) :
    db m c t (ix2 f j) = Ds m c (ix2 (Cert.Sums.col k f) j) :=
  blk2_read (F := Ideal) (Ds m c) t (ix2 f j) (ix2 (Cert.Sums.col k f) j)
    (by show 256 * k.val + f.val = 256 * (t.val % 128) + f.val; have := k.isLt; omega) rfl

theorem cb_at (c : Dev nD) (t : Fin cfg0.N) (p : Fin 2) (k : Fin 128) (e : t.val = 128 * p.val + k.val)
    (f : Fin 256) (j : Fin 128) :
    cb m c t (ix2 f j) = Cs m c (ix2 (Cert.Sums.col k f) j) :=
  blk3_read (F := Ideal) (Cs m c) t (ix2 f j) (ix2 (Cert.Sums.col k f) j)
    (by show 256 * k.val + f.val = 256 * (t.val % 128) + f.val; have := k.isLt; omega) rfl

/-! ## Accumulator 0: the source rows' Gram blocks -/

theorem s0_A (c : Dev nD) (t : Fin cfg0.N) (h0 : t.val % 128 = 0) (h1 : ¬t.val % 128 = 127) :
    (now m c t).s0 = k0_pay21 (xb m c t) (k0_pay3 (F := Ideal)) := by
  show (Fr.outsAt0 m c t.val t.isLt).s0 = _
  rw [Fr.outsAt0_A m c t h0 h1]
  dsimp only
  exact (atPoint% (Fr.sout0_A_0_eq (F := Ideal) c) t) ((Fr.hcond0_0 t).mpr h0) (fun h => h1 ((Fr.hcond0_1 t).mp h))
    (Fr.iblk m c 0 t) (Fr.iblk m c 1 t) (Fr.iblk m c 2 t) (Fr.iblk m c 3 t)

theorem s0_B (c : Dev nD) (t : Fin cfg0.N) (h0 : ¬t.val % 128 = 0) (h1 : ¬t.val % 128 = 127) :
    (now m c t).s0 = k0_pay21 (xb m c t) (prev m c t).s0 := by
  show (Fr.outsAt0 m c t.val t.isLt).s0 = _
  rw [Fr.outsAt0_B m c t h0 h1]
  dsimp only
  exact (atPoint% (Fr.sout0_B_0_eq (F := Ideal) c) t) (fun h => h0 ((Fr.hcond0_0 t).mp h)) (fun h => h1 ((Fr.hcond0_1 t).mp h))
    (Fr.iblk m c 0 t) (Fr.iblk m c 1 t) (Fr.iblk m c 2 t) (Fr.iblk m c 3 t)
    (prev m c t).s0 (prev m c t).s1 (prev m c t).s2 (prev m c t).s3 (prev m c t).s4 (prev m c t).s5 (prev m c t).s6 (prev m c t).s7

theorem s0_C (c : Dev nD) (t : Fin cfg0.N) (h0 : ¬t.val % 128 = 0) (h1 : t.val % 128 = 127) :
    (now m c t).s0 = k0_pay21 (xb m c t) (prev m c t).s0 := by
  show (Fr.outsAt0 m c t.val t.isLt).s0 = _
  rw [Fr.outsAt0_C m c t h0 h1]
  dsimp only
  exact (atPoint% (Fr.sout0_C_0_eq (F := Ideal) c) t) (fun h => h0 ((Fr.hcond0_0 t).mp h)) ((Fr.hcond0_1 t).mpr h1)
    (Fr.iblk m c 0 t) (Fr.iblk m c 1 t) (Fr.iblk m c 2 t) (Fr.iblk m c 3 t)
    (prev m c t).s0 (prev m c t).s1 (prev m c t).s2 (prev m c t).s3 (prev m c t).s4 (prev m c t).s5 (prev m c t).s6 (prev m c t).s7

/-- At every point but a half's first the accumulator is the update of what the point before left. -/
theorem s0_step (c : Dev nD) (t : Fin cfg0.N) (h0 : ¬t.val % 128 = 0) :
    (now m c t).s0 = k0_pay21 (xb m c t) (prev m c t).s0 := by
  by_cases h1 : t.val % 128 = 127
  · exact s0_C m c t h0 h1
  · exact s0_B m c t h0 h1

/-- At a half's last point output block 4 receives the updated accumulator through the reshaping. -/
theorem o4_C (c : Dev nD) (t : Fin cfg0.N) (h0 : ¬t.val % 128 = 0) (h1 : t.val % 128 = 127) :
    (now m c t).o4 = k0_pay11 (k0_pay21 (xb m c t) (prev m c t).s0) := by
  show (Fr.outsAt0 m c t.val t.isLt).o4 = _
  rw [Fr.outsAt0_C m c t h0 h1]
  dsimp only
  exact (atPoint% (Fr.out0_C_4_eq (F := Ideal) c) t) (fun h => h0 ((Fr.hcond0_0 t).mp h)) ((Fr.hcond0_1 t).mpr h1)
    (Fr.iblk m c 0 t) (Fr.iblk m c 1 t) (Fr.iblk m c 2 t) (Fr.iblk m c 3 t)
    (prev m c t).s0 (prev m c t).s1 (prev m c t).s2 (prev m c t).s3 (prev m c t).s4 (prev m c t).s5 (prev m c t).s6 (prev m c t).s7

/-- The update at point t = 128p + k, entry by entry, over the arrays: one more tile of columns. -/
theorem s0_tile (c : Dev nD) (t : Fin cfg0.N) (p : Fin 2) (k : Fin 128) (e : t.val = 128 * p.val + k.val)
    (acc : Vec Ideal S5x128x128 .f32) (r : Fin 5) (a b : Fin 128) :
    k0_pay21 (xb m c t) acc (ix3 r a b)
      = acc (ix3 r a b) + ∑ f : Fin 256, Xs m c (ix2 (Cert.Region.row p r a) (Cert.Sums.col k f)) * Xs m c (ix2 (Cert.Region.row p r b) (Cert.Sums.col k f)) := by
  refine (pay21_at (xb m c t) acc r a b).trans ?_
  refine congrArg (acc (ix3 r a b) + ·) (Finset.sum_congr rfl fun f _ => ?_)
  rw [xb_at m c t p k e (rrow r a) f (Cert.Region.row p r a) (row_val p r a), xb_at m c t p k e (rrow r b) f (Cert.Region.row p r b) (row_val p r b)]

/-- After the last point of half p the accumulator holds the full sums over the 32768 columns. -/
theorem s0_last (c : Dev nD) (t : Fin cfg0.N) (p : Fin 2) (e : t.val = 128 * p.val + 127) (r : Fin 5) (a b : Fin 128) :
    (now m c t).s0 (ix3 r a b) = Cert.Region.gramAt (Xs m c) p r a b :=
  acc_last (ι := Fin 5 × Fin 128 × Fin 128)
    (fun n hn i => (Fr.outsAt0 m c n (lt_of_lt_of_eq hn N_0.symm)).s0 (ix3 i.1 i.2.1 i.2.2))
    (fun p i f => Xs m c (ix2 (Cert.Region.row p i.1 i.2.1) f) * Xs m c (ix2 (Cert.Region.row p i.1 i.2.2) f))
    (fun n hn p e i => by
      refine (congrFun (s0_A m c ⟨n, lt_of_lt_of_eq hn N_0.symm⟩ (by show n % 128 = 0; omega) (by show ¬n % 128 = 127; omega)) (ix3 i.1 i.2.1 i.2.2)).trans ?_
      refine (s0_tile m c ⟨n, lt_of_lt_of_eq hn N_0.symm⟩ p ⟨0, by decide⟩ (by show n = 128 * p.val + 0; omega) (k0_pay3 (F := Ideal)) i.1 i.2.1 i.2.2).trans ?_
      rw [zero3_at])
    (fun n hn p k e hk i => by
      refine (congrFun (s0_step m c ⟨n, lt_of_lt_of_eq hn N_0.symm⟩ (by show ¬n % 128 = 0; have := k.isLt; omega)) (ix3 i.1 i.2.1 i.2.2)).trans ?_
      exact s0_tile m c ⟨n, lt_of_lt_of_eq hn N_0.symm⟩ p k e (prev m c ⟨n, lt_of_lt_of_eq hn N_0.symm⟩).s0 i.1 i.2.1 i.2.2)
    t.val (lt256 t) p e (r, a, b)

/-- So the block written back at that point holds them. -/
theorem o4_last (c : Dev nD) (t : Fin cfg0.N) (p : Fin 2) (e : t.val = 128 * p.val + 127) (r : Fin 5) (a b : Fin 128) :
    (now m c t).o4 (ix4 (0 : Fin 1) r a b) = Cert.Region.gramAt (Xs m c) p r a b := by
  have h0 : ¬t.val % 128 = 0 := by omega
  have h1 : t.val % 128 = 127 := by omega
  rw [o4_C m c t h0 h1, ← s0_C m c t h0 h1]
  exact (pay11_at (now m c t).s0 r a b).trans (s0_last m c t p e r a b)

/-! ## Accumulator 1: the target rows' Gram blocks -/

theorem s1_A (c : Dev nD) (t : Fin cfg0.N) (h0 : t.val % 128 = 0) (h1 : ¬t.val % 128 = 127) :
    (now m c t).s1 = k0_pay22 (yh m c t) (k0_pay4 (F := Ideal)) := by
  show (Fr.outsAt0 m c t.val t.isLt).s1 = _
  rw [Fr.outsAt0_A m c t h0 h1]
  dsimp only
  exact (atPoint% (Fr.sout0_A_1_eq (F := Ideal) c) t) ((Fr.hcond0_0 t).mpr h0) (fun h => h1 ((Fr.hcond0_1 t).mp h))
    (Fr.iblk m c 0 t) (Fr.iblk m c 1 t) (Fr.iblk m c 2 t) (Fr.iblk m c 3 t)

theorem s1_B (c : Dev nD) (t : Fin cfg0.N) (h0 : ¬t.val % 128 = 0) (h1 : ¬t.val % 128 = 127) :
    (now m c t).s1 = k0_pay22 (yh m c t) (prev m c t).s1 := by
  show (Fr.outsAt0 m c t.val t.isLt).s1 = _
  rw [Fr.outsAt0_B m c t h0 h1]
  dsimp only
  exact (atPoint% (Fr.sout0_B_1_eq (F := Ideal) c) t) (fun h => h0 ((Fr.hcond0_0 t).mp h)) (fun h => h1 ((Fr.hcond0_1 t).mp h))
    (Fr.iblk m c 0 t) (Fr.iblk m c 1 t) (Fr.iblk m c 2 t) (Fr.iblk m c 3 t)
    (prev m c t).s0 (prev m c t).s1 (prev m c t).s2 (prev m c t).s3 (prev m c t).s4 (prev m c t).s5 (prev m c t).s6 (prev m c t).s7

theorem s1_C (c : Dev nD) (t : Fin cfg0.N) (h0 : ¬t.val % 128 = 0) (h1 : t.val % 128 = 127) :
    (now m c t).s1 = k0_pay22 (yh m c t) (prev m c t).s1 := by
  show (Fr.outsAt0 m c t.val t.isLt).s1 = _
  rw [Fr.outsAt0_C m c t h0 h1]
  dsimp only
  exact (atPoint% (Fr.sout0_C_1_eq (F := Ideal) c) t) (fun h => h0 ((Fr.hcond0_0 t).mp h)) ((Fr.hcond0_1 t).mpr h1)
    (Fr.iblk m c 0 t) (Fr.iblk m c 1 t) (Fr.iblk m c 2 t) (Fr.iblk m c 3 t)
    (prev m c t).s0 (prev m c t).s1 (prev m c t).s2 (prev m c t).s3 (prev m c t).s4 (prev m c t).s5 (prev m c t).s6 (prev m c t).s7

/-- At every point but a half's first the accumulator is the update of what the point before left. -/
theorem s1_step (c : Dev nD) (t : Fin cfg0.N) (h0 : ¬t.val % 128 = 0) :
    (now m c t).s1 = k0_pay22 (yh m c t) (prev m c t).s1 := by
  by_cases h1 : t.val % 128 = 127
  · exact s1_C m c t h0 h1
  · exact s1_B m c t h0 h1

/-- At a half's last point output block 5 receives the updated accumulator through the reshaping. -/
theorem o5_C (c : Dev nD) (t : Fin cfg0.N) (h0 : ¬t.val % 128 = 0) (h1 : t.val % 128 = 127) :
    (now m c t).o5 = k0_pay12 (k0_pay22 (yh m c t) (prev m c t).s1) := by
  show (Fr.outsAt0 m c t.val t.isLt).o5 = _
  rw [Fr.outsAt0_C m c t h0 h1]
  dsimp only
  exact (atPoint% (Fr.out0_C_5_eq (F := Ideal) c) t) (fun h => h0 ((Fr.hcond0_0 t).mp h)) ((Fr.hcond0_1 t).mpr h1)
    (Fr.iblk m c 0 t) (Fr.iblk m c 1 t) (Fr.iblk m c 2 t) (Fr.iblk m c 3 t)
    (prev m c t).s0 (prev m c t).s1 (prev m c t).s2 (prev m c t).s3 (prev m c t).s4 (prev m c t).s5 (prev m c t).s6 (prev m c t).s7

/-- The update at point t = 128p + k, entry by entry, over the arrays: one more tile of columns. -/
theorem s1_tile (c : Dev nD) (t : Fin cfg0.N) (p : Fin 2) (k : Fin 128) (e : t.val = 128 * p.val + k.val)
    (acc : Vec Ideal S5x128x128 .f32) (r : Fin 5) (a b : Fin 128) :
    k0_pay22 (yh m c t) acc (ix3 r a b)
      = acc (ix3 r a b) + ∑ f : Fin 256, Ys m c (ix2 (Cert.Region.row p r a) (Cert.Sums.col k f)) * Ys m c (ix2 (Cert.Region.row p r b) (Cert.Sums.col k f)) := by
  refine (pay22_at (yh m c t) acc r a b).trans ?_
  refine congrArg (acc (ix3 r a b) + ·) (Finset.sum_congr rfl fun f _ => ?_)
  rw [yh_at m c t p k e (rrow r a) f (Cert.Region.row p r a) (row_val p r a), yh_at m c t p k e (rrow r b) f (Cert.Region.row p r b) (row_val p r b)]

/-- After the last point of half p the accumulator holds the full sums over the 32768 columns. -/
theorem s1_last (c : Dev nD) (t : Fin cfg0.N) (p : Fin 2) (e : t.val = 128 * p.val + 127) (r : Fin 5) (a b : Fin 128) :
    (now m c t).s1 (ix3 r a b) = Cert.Region.gramAt (Ys m c) p r a b :=
  acc_last (ι := Fin 5 × Fin 128 × Fin 128)
    (fun n hn i => (Fr.outsAt0 m c n (lt_of_lt_of_eq hn N_0.symm)).s1 (ix3 i.1 i.2.1 i.2.2))
    (fun p i f => Ys m c (ix2 (Cert.Region.row p i.1 i.2.1) f) * Ys m c (ix2 (Cert.Region.row p i.1 i.2.2) f))
    (fun n hn p e i => by
      refine (congrFun (s1_A m c ⟨n, lt_of_lt_of_eq hn N_0.symm⟩ (by show n % 128 = 0; omega) (by show ¬n % 128 = 127; omega)) (ix3 i.1 i.2.1 i.2.2)).trans ?_
      refine (s1_tile m c ⟨n, lt_of_lt_of_eq hn N_0.symm⟩ p ⟨0, by decide⟩ (by show n = 128 * p.val + 0; omega) (k0_pay4 (F := Ideal)) i.1 i.2.1 i.2.2).trans ?_
      rw [zero4_at])
    (fun n hn p k e hk i => by
      refine (congrFun (s1_step m c ⟨n, lt_of_lt_of_eq hn N_0.symm⟩ (by show ¬n % 128 = 0; have := k.isLt; omega)) (ix3 i.1 i.2.1 i.2.2)).trans ?_
      exact s1_tile m c ⟨n, lt_of_lt_of_eq hn N_0.symm⟩ p k e (prev m c ⟨n, lt_of_lt_of_eq hn N_0.symm⟩).s1 i.1 i.2.1 i.2.2)
    t.val (lt256 t) p e (r, a, b)

/-- So the block written back at that point holds them. -/
theorem o5_last (c : Dev nD) (t : Fin cfg0.N) (p : Fin 2) (e : t.val = 128 * p.val + 127) (r : Fin 5) (a b : Fin 128) :
    (now m c t).o5 (ix4 (0 : Fin 1) r a b) = Cert.Region.gramAt (Ys m c) p r a b := by
  have h0 : ¬t.val % 128 = 0 := by omega
  have h1 : t.val % 128 = 127 := by omega
  rw [o5_C m c t h0 h1, ← s1_C m c t h0 h1]
  exact (pay12_at (now m c t).s1 r a b).trans (s1_last m c t p e r a b)

/-! ## Accumulator 2: the source rows' squared lengths -/

theorem s2_A (c : Dev nD) (t : Fin cfg0.N) (h0 : t.val % 128 = 0) (h1 : ¬t.val % 128 = 127) :
    (now m c t).s2 = k0_pay23 (xb m c t) (k0_pay5 (F := Ideal)) := by
  show (Fr.outsAt0 m c t.val t.isLt).s2 = _
  rw [Fr.outsAt0_A m c t h0 h1]
  dsimp only
  exact (atPoint% (Fr.sout0_A_2_eq (F := Ideal) c) t) ((Fr.hcond0_0 t).mpr h0) (fun h => h1 ((Fr.hcond0_1 t).mp h))
    (Fr.iblk m c 0 t) (Fr.iblk m c 1 t) (Fr.iblk m c 2 t) (Fr.iblk m c 3 t)

theorem s2_B (c : Dev nD) (t : Fin cfg0.N) (h0 : ¬t.val % 128 = 0) (h1 : ¬t.val % 128 = 127) :
    (now m c t).s2 = k0_pay23 (xb m c t) (prev m c t).s2 := by
  show (Fr.outsAt0 m c t.val t.isLt).s2 = _
  rw [Fr.outsAt0_B m c t h0 h1]
  dsimp only
  exact (atPoint% (Fr.sout0_B_2_eq (F := Ideal) c) t) (fun h => h0 ((Fr.hcond0_0 t).mp h)) (fun h => h1 ((Fr.hcond0_1 t).mp h))
    (Fr.iblk m c 0 t) (Fr.iblk m c 1 t) (Fr.iblk m c 2 t) (Fr.iblk m c 3 t)
    (prev m c t).s0 (prev m c t).s1 (prev m c t).s2 (prev m c t).s3 (prev m c t).s4 (prev m c t).s5 (prev m c t).s6 (prev m c t).s7

theorem s2_C (c : Dev nD) (t : Fin cfg0.N) (h0 : ¬t.val % 128 = 0) (h1 : t.val % 128 = 127) :
    (now m c t).s2 = k0_pay23 (xb m c t) (prev m c t).s2 := by
  show (Fr.outsAt0 m c t.val t.isLt).s2 = _
  rw [Fr.outsAt0_C m c t h0 h1]
  dsimp only
  exact (atPoint% (Fr.sout0_C_2_eq (F := Ideal) c) t) (fun h => h0 ((Fr.hcond0_0 t).mp h)) ((Fr.hcond0_1 t).mpr h1)
    (Fr.iblk m c 0 t) (Fr.iblk m c 1 t) (Fr.iblk m c 2 t) (Fr.iblk m c 3 t)
    (prev m c t).s0 (prev m c t).s1 (prev m c t).s2 (prev m c t).s3 (prev m c t).s4 (prev m c t).s5 (prev m c t).s6 (prev m c t).s7

/-- At every point but a half's first the accumulator is the update of what the point before left. -/
theorem s2_step (c : Dev nD) (t : Fin cfg0.N) (h0 : ¬t.val % 128 = 0) :
    (now m c t).s2 = k0_pay23 (xb m c t) (prev m c t).s2 := by
  by_cases h1 : t.val % 128 = 127
  · exact s2_C m c t h0 h1
  · exact s2_B m c t h0 h1

/-- At a half's last point output block 6 receives the updated accumulator through the reshaping. -/
theorem o6_C (c : Dev nD) (t : Fin cfg0.N) (h0 : ¬t.val % 128 = 0) (h1 : t.val % 128 = 127) :
    (now m c t).o6 = k0_pay13 (k0_pay23 (xb m c t) (prev m c t).s2) := by
  show (Fr.outsAt0 m c t.val t.isLt).o6 = _
  rw [Fr.outsAt0_C m c t h0 h1]
  dsimp only
  exact (atPoint% (Fr.out0_C_6_eq (F := Ideal) c) t) (fun h => h0 ((Fr.hcond0_0 t).mp h)) ((Fr.hcond0_1 t).mpr h1)
    (Fr.iblk m c 0 t) (Fr.iblk m c 1 t) (Fr.iblk m c 2 t) (Fr.iblk m c 3 t)
    (prev m c t).s0 (prev m c t).s1 (prev m c t).s2 (prev m c t).s3 (prev m c t).s4 (prev m c t).s5 (prev m c t).s6 (prev m c t).s7

/-- The update at point t = 128p + k, entry by entry, over the arrays: one more tile of columns. -/
theorem s2_tile (c : Dev nD) (t : Fin cfg0.N) (p : Fin 2) (k : Fin 128) (e : t.val = 128 * p.val + k.val)
    (acc : Vec Ideal S5x128 .f32) (r : Fin 5) (a : Fin 128) :
    k0_pay23 (xb m c t) acc (ix2 r a)
      = acc (ix2 r a) + ∑ f : Fin 256, Xs m c (ix2 (Cert.Region.row p r a) (Cert.Sums.col k f)) * Xs m c (ix2 (Cert.Region.row p r a) (Cert.Sums.col k f)) := by
  refine (pay23_at (xb m c t) acc r a).trans ?_
  refine congrArg (acc (ix2 r a) + ·) (Finset.sum_congr rfl fun f _ => ?_)
  rw [xb_at m c t p k e (rrow r a) f (Cert.Region.row p r a) (row_val p r a)]

/-- After the last point of half p the accumulator holds the full sums over the 32768 columns. -/
theorem s2_last (c : Dev nD) (t : Fin cfg0.N) (p : Fin 2) (e : t.val = 128 * p.val + 127) (r : Fin 5) (a : Fin 128) :
    (now m c t).s2 (ix2 r a) = Cert.Region.sqAt (Xs m c) p r a :=
  acc_last (ι := Fin 5 × Fin 128)
    (fun n hn i => (Fr.outsAt0 m c n (lt_of_lt_of_eq hn N_0.symm)).s2 (ix2 i.1 i.2))
    (fun p i f => Xs m c (ix2 (Cert.Region.row p i.1 i.2) f) * Xs m c (ix2 (Cert.Region.row p i.1 i.2) f))
    (fun n hn p e i => by
      refine (congrFun (s2_A m c ⟨n, lt_of_lt_of_eq hn N_0.symm⟩ (by show n % 128 = 0; omega) (by show ¬n % 128 = 127; omega)) (ix2 i.1 i.2)).trans ?_
      refine (s2_tile m c ⟨n, lt_of_lt_of_eq hn N_0.symm⟩ p ⟨0, by decide⟩ (by show n = 128 * p.val + 0; omega) (k0_pay5 (F := Ideal)) i.1 i.2).trans ?_
      rw [zero5_at])
    (fun n hn p k e hk i => by
      refine (congrFun (s2_step m c ⟨n, lt_of_lt_of_eq hn N_0.symm⟩ (by show ¬n % 128 = 0; have := k.isLt; omega)) (ix2 i.1 i.2)).trans ?_
      exact s2_tile m c ⟨n, lt_of_lt_of_eq hn N_0.symm⟩ p k e (prev m c ⟨n, lt_of_lt_of_eq hn N_0.symm⟩).s2 i.1 i.2)
    t.val (lt256 t) p e (r, a)

/-- So the block written back at that point holds them. -/
theorem o6_last (c : Dev nD) (t : Fin cfg0.N) (p : Fin 2) (e : t.val = 128 * p.val + 127) (r : Fin 5) (a : Fin 128) :
    (now m c t).o6 (ix3 (0 : Fin 1) r a) = Cert.Region.sqAt (Xs m c) p r a := by
  have h0 : ¬t.val % 128 = 0 := by omega
  have h1 : t.val % 128 = 127 := by omega
  rw [o6_C m c t h0 h1, ← s2_C m c t h0 h1]
  exact (pay13_at (now m c t).s2 r a).trans (s2_last m c t p e r a)

/-! ## Accumulator 3: the target rows' squared lengths -/

theorem s3_A (c : Dev nD) (t : Fin cfg0.N) (h0 : t.val % 128 = 0) (h1 : ¬t.val % 128 = 127) :
    (now m c t).s3 = k0_pay24 (yh m c t) (k0_pay6 (F := Ideal)) := by
  show (Fr.outsAt0 m c t.val t.isLt).s3 = _
  rw [Fr.outsAt0_A m c t h0 h1]
  dsimp only
  exact (atPoint% (Fr.sout0_A_3_eq (F := Ideal) c) t) ((Fr.hcond0_0 t).mpr h0) (fun h => h1 ((Fr.hcond0_1 t).mp h))
    (Fr.iblk m c 0 t) (Fr.iblk m c 1 t) (Fr.iblk m c 2 t) (Fr.iblk m c 3 t)

theorem s3_B (c : Dev nD) (t : Fin cfg0.N) (h0 : ¬t.val % 128 = 0) (h1 : ¬t.val % 128 = 127) :
    (now m c t).s3 = k0_pay24 (yh m c t) (prev m c t).s3 := by
  show (Fr.outsAt0 m c t.val t.isLt).s3 = _
  rw [Fr.outsAt0_B m c t h0 h1]
  dsimp only
  exact (atPoint% (Fr.sout0_B_3_eq (F := Ideal) c) t) (fun h => h0 ((Fr.hcond0_0 t).mp h)) (fun h => h1 ((Fr.hcond0_1 t).mp h))
    (Fr.iblk m c 0 t) (Fr.iblk m c 1 t) (Fr.iblk m c 2 t) (Fr.iblk m c 3 t)
    (prev m c t).s0 (prev m c t).s1 (prev m c t).s2 (prev m c t).s3 (prev m c t).s4 (prev m c t).s5 (prev m c t).s6 (prev m c t).s7

theorem s3_C (c : Dev nD) (t : Fin cfg0.N) (h0 : ¬t.val % 128 = 0) (h1 : t.val % 128 = 127) :
    (now m c t).s3 = k0_pay24 (yh m c t) (prev m c t).s3 := by
  show (Fr.outsAt0 m c t.val t.isLt).s3 = _
  rw [Fr.outsAt0_C m c t h0 h1]
  dsimp only
  exact (atPoint% (Fr.sout0_C_3_eq (F := Ideal) c) t) (fun h => h0 ((Fr.hcond0_0 t).mp h)) ((Fr.hcond0_1 t).mpr h1)
    (Fr.iblk m c 0 t) (Fr.iblk m c 1 t) (Fr.iblk m c 2 t) (Fr.iblk m c 3 t)
    (prev m c t).s0 (prev m c t).s1 (prev m c t).s2 (prev m c t).s3 (prev m c t).s4 (prev m c t).s5 (prev m c t).s6 (prev m c t).s7

/-- At every point but a half's first the accumulator is the update of what the point before left. -/
theorem s3_step (c : Dev nD) (t : Fin cfg0.N) (h0 : ¬t.val % 128 = 0) :
    (now m c t).s3 = k0_pay24 (yh m c t) (prev m c t).s3 := by
  by_cases h1 : t.val % 128 = 127
  · exact s3_C m c t h0 h1
  · exact s3_B m c t h0 h1

/-- At a half's last point output block 7 receives the updated accumulator through the reshaping. -/
theorem o7_C (c : Dev nD) (t : Fin cfg0.N) (h0 : ¬t.val % 128 = 0) (h1 : t.val % 128 = 127) :
    (now m c t).o7 = k0_pay14 (k0_pay24 (yh m c t) (prev m c t).s3) := by
  show (Fr.outsAt0 m c t.val t.isLt).o7 = _
  rw [Fr.outsAt0_C m c t h0 h1]
  dsimp only
  exact (atPoint% (Fr.out0_C_7_eq (F := Ideal) c) t) (fun h => h0 ((Fr.hcond0_0 t).mp h)) ((Fr.hcond0_1 t).mpr h1)
    (Fr.iblk m c 0 t) (Fr.iblk m c 1 t) (Fr.iblk m c 2 t) (Fr.iblk m c 3 t)
    (prev m c t).s0 (prev m c t).s1 (prev m c t).s2 (prev m c t).s3 (prev m c t).s4 (prev m c t).s5 (prev m c t).s6 (prev m c t).s7

/-- The update at point t = 128p + k, entry by entry, over the arrays: one more tile of columns. -/
theorem s3_tile (c : Dev nD) (t : Fin cfg0.N) (p : Fin 2) (k : Fin 128) (e : t.val = 128 * p.val + k.val)
    (acc : Vec Ideal S5x128 .f32) (r : Fin 5) (a : Fin 128) :
    k0_pay24 (yh m c t) acc (ix2 r a)
      = acc (ix2 r a) + ∑ f : Fin 256, Ys m c (ix2 (Cert.Region.row p r a) (Cert.Sums.col k f)) * Ys m c (ix2 (Cert.Region.row p r a) (Cert.Sums.col k f)) := by
  refine (pay24_at (yh m c t) acc r a).trans ?_
  refine congrArg (acc (ix2 r a) + ·) (Finset.sum_congr rfl fun f _ => ?_)
  rw [yh_at m c t p k e (rrow r a) f (Cert.Region.row p r a) (row_val p r a)]

/-- After the last point of half p the accumulator holds the full sums over the 32768 columns. -/
theorem s3_last (c : Dev nD) (t : Fin cfg0.N) (p : Fin 2) (e : t.val = 128 * p.val + 127) (r : Fin 5) (a : Fin 128) :
    (now m c t).s3 (ix2 r a) = Cert.Region.sqAt (Ys m c) p r a :=
  acc_last (ι := Fin 5 × Fin 128)
    (fun n hn i => (Fr.outsAt0 m c n (lt_of_lt_of_eq hn N_0.symm)).s3 (ix2 i.1 i.2))
    (fun p i f => Ys m c (ix2 (Cert.Region.row p i.1 i.2) f) * Ys m c (ix2 (Cert.Region.row p i.1 i.2) f))
    (fun n hn p e i => by
      refine (congrFun (s3_A m c ⟨n, lt_of_lt_of_eq hn N_0.symm⟩ (by show n % 128 = 0; omega) (by show ¬n % 128 = 127; omega)) (ix2 i.1 i.2)).trans ?_
      refine (s3_tile m c ⟨n, lt_of_lt_of_eq hn N_0.symm⟩ p ⟨0, by decide⟩ (by show n = 128 * p.val + 0; omega) (k0_pay6 (F := Ideal)) i.1 i.2).trans ?_
      rw [zero6_at])
    (fun n hn p k e hk i => by
      refine (congrFun (s3_step m c ⟨n, lt_of_lt_of_eq hn N_0.symm⟩ (by show ¬n % 128 = 0; have := k.isLt; omega)) (ix2 i.1 i.2)).trans ?_
      exact s3_tile m c ⟨n, lt_of_lt_of_eq hn N_0.symm⟩ p k e (prev m c ⟨n, lt_of_lt_of_eq hn N_0.symm⟩).s3 i.1 i.2)
    t.val (lt256 t) p e (r, a)

/-- So the block written back at that point holds them. -/
theorem o7_last (c : Dev nD) (t : Fin cfg0.N) (p : Fin 2) (e : t.val = 128 * p.val + 127) (r : Fin 5) (a : Fin 128) :
    (now m c t).o7 (ix3 (0 : Fin 1) r a) = Cert.Region.sqAt (Ys m c) p r a := by
  have h0 : ¬t.val % 128 = 0 := by omega
  have h1 : t.val % 128 = 127 := by omega
  rw [o7_C m c t h0 h1, ← s3_C m c t h0 h1]
  exact (pay14_at (now m c t).s3 r a).trans (s3_last m c t p e r a)

/-! ## Accumulator 4: source rows against all target rows -/

theorem s4_A (c : Dev nD) (t : Fin cfg0.N) (h0 : t.val % 128 = 0) (h1 : ¬t.val % 128 = 127) :
    (now m c t).s4 = k0_pay25 (k0_pay16 (xb m c t)) (k0_pay18 (yb m c t)) (k0_pay7 (F := Ideal)) := by
  show (Fr.outsAt0 m c t.val t.isLt).s4 = _
  rw [Fr.outsAt0_A m c t h0 h1]
  dsimp only
  exact (atPoint% (Fr.sout0_A_4_eq (F := Ideal) c) t) ((Fr.hcond0_0 t).mpr h0) (fun h => h1 ((Fr.hcond0_1 t).mp h))
    (Fr.iblk m c 0 t) (Fr.iblk m c 1 t) (Fr.iblk m c 2 t) (Fr.iblk m c 3 t)

theorem s4_B (c : Dev nD) (t : Fin cfg0.N) (h0 : ¬t.val % 128 = 0) (h1 : ¬t.val % 128 = 127) :
    (now m c t).s4 = k0_pay25 (k0_pay16 (xb m c t)) (k0_pay18 (yb m c t)) (prev m c t).s4 := by
  show (Fr.outsAt0 m c t.val t.isLt).s4 = _
  rw [Fr.outsAt0_B m c t h0 h1]
  dsimp only
  exact (atPoint% (Fr.sout0_B_4_eq (F := Ideal) c) t) (fun h => h0 ((Fr.hcond0_0 t).mp h)) (fun h => h1 ((Fr.hcond0_1 t).mp h))
    (Fr.iblk m c 0 t) (Fr.iblk m c 1 t) (Fr.iblk m c 2 t) (Fr.iblk m c 3 t)
    (prev m c t).s0 (prev m c t).s1 (prev m c t).s2 (prev m c t).s3 (prev m c t).s4 (prev m c t).s5 (prev m c t).s6 (prev m c t).s7

theorem s4_C (c : Dev nD) (t : Fin cfg0.N) (h0 : ¬t.val % 128 = 0) (h1 : t.val % 128 = 127) :
    (now m c t).s4 = k0_pay25 (k0_pay16 (xb m c t)) (k0_pay18 (yb m c t)) (prev m c t).s4 := by
  show (Fr.outsAt0 m c t.val t.isLt).s4 = _
  rw [Fr.outsAt0_C m c t h0 h1]
  dsimp only
  exact (atPoint% (Fr.sout0_C_4_eq (F := Ideal) c) t) (fun h => h0 ((Fr.hcond0_0 t).mp h)) ((Fr.hcond0_1 t).mpr h1)
    (Fr.iblk m c 0 t) (Fr.iblk m c 1 t) (Fr.iblk m c 2 t) (Fr.iblk m c 3 t)
    (prev m c t).s0 (prev m c t).s1 (prev m c t).s2 (prev m c t).s3 (prev m c t).s4 (prev m c t).s5 (prev m c t).s6 (prev m c t).s7

/-- At every point but a half's first the accumulator is the update of what the point before left. -/
theorem s4_step (c : Dev nD) (t : Fin cfg0.N) (h0 : ¬t.val % 128 = 0) :
    (now m c t).s4 = k0_pay25 (k0_pay16 (xb m c t)) (k0_pay18 (yb m c t)) (prev m c t).s4 := by
  by_cases h1 : t.val % 128 = 127
  · exact s4_C m c t h0 h1
  · exact s4_B m c t h0 h1

/-- At a half's last point output block 8 receives the updated accumulator. -/
theorem o8_C (c : Dev nD) (t : Fin cfg0.N) (h0 : ¬t.val % 128 = 0) (h1 : t.val % 128 = 127) :
    (now m c t).o8 = (k0_pay25 (k0_pay16 (xb m c t)) (k0_pay18 (yb m c t)) (prev m c t).s4) := by
  show (Fr.outsAt0 m c t.val t.isLt).o8 = _
  rw [Fr.outsAt0_C m c t h0 h1]
  dsimp only
  exact (atPoint% (Fr.out0_C_8_eq (F := Ideal) c) t) (fun h => h0 ((Fr.hcond0_0 t).mp h)) ((Fr.hcond0_1 t).mpr h1)
    (Fr.iblk m c 0 t) (Fr.iblk m c 1 t) (Fr.iblk m c 2 t) (Fr.iblk m c 3 t)
    (prev m c t).s0 (prev m c t).s1 (prev m c t).s2 (prev m c t).s3 (prev m c t).s4 (prev m c t).s5 (prev m c t).s6 (prev m c t).s7

/-- The update at point t = 128p + k, entry by entry, over the arrays: one more tile of columns. -/
theorem s4_tile (c : Dev nD) (t : Fin cfg0.N) (p : Fin 2) (k : Fin 128) (e : t.val = 128 * p.val + k.val)
    (acc : Vec Ideal S640x1280 .f32) (i : Fin 640) (j : Fin 1280) :
    k0_pay25 (k0_pay16 (xb m c t)) (k0_pay18 (yb m c t)) acc (ix2 i j)
      = acc (ix2 i j) + ∑ f : Fin 256, Xs m c (ix2 (hrow p i) (Cert.Sums.col k f)) * Ys m c (ix2 j (Cert.Sums.col k f)) := by
  refine (pay25_at (xb m c t) (yb m c t) acc i j).trans ?_
  refine congrArg (acc (ix2 i j) + ·) (Finset.sum_congr rfl fun f _ => ?_)
  rw [xb_at m c t p k e i f (hrow p i) rfl, yb_at m c t p k e j f]

/-- After the last point of half p the accumulator holds the full sums over the 32768 columns. -/
theorem s4_last (c : Dev nD) (t : Fin cfg0.N) (p : Fin 2) (e : t.val = 128 * p.val + 127) (i : Fin 640) (j : Fin 1280) :
    (now m c t).s4 (ix2 i j) = Cert.Region.crossAt (Xs m c) (Ys m c) (hrow p i) j :=
  acc_last (ι := Fin 640 × Fin 1280)
    (fun n hn i => (Fr.outsAt0 m c n (lt_of_lt_of_eq hn N_0.symm)).s4 (ix2 i.1 i.2))
    (fun p i f => Xs m c (ix2 (hrow p i.1) f) * Ys m c (ix2 i.2 f))
    (fun n hn p e i => by
      refine (congrFun (s4_A m c ⟨n, lt_of_lt_of_eq hn N_0.symm⟩ (by show n % 128 = 0; omega) (by show ¬n % 128 = 127; omega)) (ix2 i.1 i.2)).trans ?_
      refine (s4_tile m c ⟨n, lt_of_lt_of_eq hn N_0.symm⟩ p ⟨0, by decide⟩ (by show n = 128 * p.val + 0; omega) (k0_pay7 (F := Ideal)) i.1 i.2).trans ?_
      rw [zero7_at])
    (fun n hn p k e hk i => by
      refine (congrFun (s4_step m c ⟨n, lt_of_lt_of_eq hn N_0.symm⟩ (by show ¬n % 128 = 0; have := k.isLt; omega)) (ix2 i.1 i.2)).trans ?_
      exact s4_tile m c ⟨n, lt_of_lt_of_eq hn N_0.symm⟩ p k e (prev m c ⟨n, lt_of_lt_of_eq hn N_0.symm⟩).s4 i.1 i.2)
    t.val (lt256 t) p e (i, j)

/-- So the block written back at that point holds them. -/
theorem o8_last (c : Dev nD) (t : Fin cfg0.N) (p : Fin 2) (e : t.val = 128 * p.val + 127) (i : Fin 640) (j : Fin 1280) :
    (now m c t).o8 (ix2 i j) = Cert.Region.crossAt (Xs m c) (Ys m c) (hrow p i) j := by
  have h0 : ¬t.val % 128 = 0 := by omega
  have h1 : t.val % 128 = 127 := by omega
  rw [o8_C m c t h0 h1, ← s4_C m c t h0 h1]
  exact s4_last m c t p e i j

/-! ## Accumulator 5: source rows times the first weight matrix -/

theorem s5_A (c : Dev nD) (t : Fin cfg0.N) (h0 : t.val % 128 = 0) (h1 : ¬t.val % 128 = 127) :
    (now m c t).s5 = k0_pay26 (k0_pay16 (xb m c t)) (k0_pay19 (db m c t)) (k0_pay8 (F := Ideal)) := by
  show (Fr.outsAt0 m c t.val t.isLt).s5 = _
  rw [Fr.outsAt0_A m c t h0 h1]
  dsimp only
  exact (atPoint% (Fr.sout0_A_5_eq (F := Ideal) c) t) ((Fr.hcond0_0 t).mpr h0) (fun h => h1 ((Fr.hcond0_1 t).mp h))
    (Fr.iblk m c 0 t) (Fr.iblk m c 1 t) (Fr.iblk m c 2 t) (Fr.iblk m c 3 t)

theorem s5_B (c : Dev nD) (t : Fin cfg0.N) (h0 : ¬t.val % 128 = 0) (h1 : ¬t.val % 128 = 127) :
    (now m c t).s5 = k0_pay26 (k0_pay16 (xb m c t)) (k0_pay19 (db m c t)) (prev m c t).s5 := by
  show (Fr.outsAt0 m c t.val t.isLt).s5 = _
  rw [Fr.outsAt0_B m c t h0 h1]
  dsimp only
  exact (atPoint% (Fr.sout0_B_5_eq (F := Ideal) c) t) (fun h => h0 ((Fr.hcond0_0 t).mp h)) (fun h => h1 ((Fr.hcond0_1 t).mp h))
    (Fr.iblk m c 0 t) (Fr.iblk m c 1 t) (Fr.iblk m c 2 t) (Fr.iblk m c 3 t)
    (prev m c t).s0 (prev m c t).s1 (prev m c t).s2 (prev m c t).s3 (prev m c t).s4 (prev m c t).s5 (prev m c t).s6 (prev m c t).s7

theorem s5_C (c : Dev nD) (t : Fin cfg0.N) (h0 : ¬t.val % 128 = 0) (h1 : t.val % 128 = 127) :
    (now m c t).s5 = k0_pay26 (k0_pay16 (xb m c t)) (k0_pay19 (db m c t)) (prev m c t).s5 := by
  show (Fr.outsAt0 m c t.val t.isLt).s5 = _
  rw [Fr.outsAt0_C m c t h0 h1]
  dsimp only
  exact (atPoint% (Fr.sout0_C_5_eq (F := Ideal) c) t) (fun h => h0 ((Fr.hcond0_0 t).mp h)) ((Fr.hcond0_1 t).mpr h1)
    (Fr.iblk m c 0 t) (Fr.iblk m c 1 t) (Fr.iblk m c 2 t) (Fr.iblk m c 3 t)
    (prev m c t).s0 (prev m c t).s1 (prev m c t).s2 (prev m c t).s3 (prev m c t).s4 (prev m c t).s5 (prev m c t).s6 (prev m c t).s7

/-- At every point but a half's first the accumulator is the update of what the point before left. -/
theorem s5_step (c : Dev nD) (t : Fin cfg0.N) (h0 : ¬t.val % 128 = 0) :
    (now m c t).s5 = k0_pay26 (k0_pay16 (xb m c t)) (k0_pay19 (db m c t)) (prev m c t).s5 := by
  by_cases h1 : t.val % 128 = 127
  · exact s5_C m c t h0 h1
  · exact s5_B m c t h0 h1

/-- At a half's last point output block 9 receives the updated accumulator. -/
theorem o9_C (c : Dev nD) (t : Fin cfg0.N) (h0 : ¬t.val % 128 = 0) (h1 : t.val % 128 = 127) :
    (now m c t).o9 = (k0_pay26 (k0_pay16 (xb m c t)) (k0_pay19 (db m c t)) (prev m c t).s5) := by
  show (Fr.outsAt0 m c t.val t.isLt).o9 = _
  rw [Fr.outsAt0_C m c t h0 h1]
  dsimp only
  exact (atPoint% (Fr.out0_C_9_eq (F := Ideal) c) t) (fun h => h0 ((Fr.hcond0_0 t).mp h)) ((Fr.hcond0_1 t).mpr h1)
    (Fr.iblk m c 0 t) (Fr.iblk m c 1 t) (Fr.iblk m c 2 t) (Fr.iblk m c 3 t)
    (prev m c t).s0 (prev m c t).s1 (prev m c t).s2 (prev m c t).s3 (prev m c t).s4 (prev m c t).s5 (prev m c t).s6 (prev m c t).s7

/-- The update at point t = 128p + k, entry by entry, over the arrays: one more tile of columns. -/
theorem s5_tile (c : Dev nD) (t : Fin cfg0.N) (p : Fin 2) (k : Fin 128) (e : t.val = 128 * p.val + k.val)
    (acc : Vec Ideal S640x128 .f32) (i : Fin 640) (j : Fin 128) :
    k0_pay26 (k0_pay16 (xb m c t)) (k0_pay19 (db m c t)) acc (ix2 i j)
      = acc (ix2 i j) + ∑ f : Fin 256, Xs m c (ix2 (hrow p i) (Cert.Sums.col k f)) * Ds m c (ix2 (Cert.Sums.col k f) j) := by
  refine (pay26_at (xb m c t) (db m c t) acc i j).trans ?_
  refine congrArg (acc (ix2 i j) + ·) (Finset.sum_congr rfl fun f _ => ?_)
  rw [xb_at m c t p k e i f (hrow p i) rfl, db_at m c t p k e f j]

/-- After the last point of half p the accumulator holds the full sums over the 32768 columns. -/
theorem s5_last (c : Dev nD) (t : Fin cfg0.N) (p : Fin 2) (e : t.val = 128 * p.val + 127) (i : Fin 640) (j : Fin 128) :
    (now m c t).s5 (ix2 i j) = Cert.Region.prodAt (Xs m c) (Ds m c) (hrow p i) j :=
  acc_last (ι := Fin 640 × Fin 128)
    (fun n hn i => (Fr.outsAt0 m c n (lt_of_lt_of_eq hn N_0.symm)).s5 (ix2 i.1 i.2))
    (fun p i f => Xs m c (ix2 (hrow p i.1) f) * Ds m c (ix2 f i.2))
    (fun n hn p e i => by
      refine (congrFun (s5_A m c ⟨n, lt_of_lt_of_eq hn N_0.symm⟩ (by show n % 128 = 0; omega) (by show ¬n % 128 = 127; omega)) (ix2 i.1 i.2)).trans ?_
      refine (s5_tile m c ⟨n, lt_of_lt_of_eq hn N_0.symm⟩ p ⟨0, by decide⟩ (by show n = 128 * p.val + 0; omega) (k0_pay8 (F := Ideal)) i.1 i.2).trans ?_
      rw [zero8_at])
    (fun n hn p k e hk i => by
      refine (congrFun (s5_step m c ⟨n, lt_of_lt_of_eq hn N_0.symm⟩ (by show ¬n % 128 = 0; have := k.isLt; omega)) (ix2 i.1 i.2)).trans ?_
      exact s5_tile m c ⟨n, lt_of_lt_of_eq hn N_0.symm⟩ p k e (prev m c ⟨n, lt_of_lt_of_eq hn N_0.symm⟩).s5 i.1 i.2)
    t.val (lt256 t) p e (i, j)

/-- So the block written back at that point holds them. -/
theorem o9_last (c : Dev nD) (t : Fin cfg0.N) (p : Fin 2) (e : t.val = 128 * p.val + 127) (i : Fin 640) (j : Fin 128) :
    (now m c t).o9 (ix2 i j) = Cert.Region.prodAt (Xs m c) (Ds m c) (hrow p i) j := by
  have h0 : ¬t.val % 128 = 0 := by omega
  have h1 : t.val % 128 = 127 := by omega
  rw [o9_C m c t h0 h1, ← s5_C m c t h0 h1]
  exact s5_last m c t p e i j

/-! ## Accumulator 6: target rows times the first weight matrix -/

theorem s6_A (c : Dev nD) (t : Fin cfg0.N) (h0 : t.val % 128 = 0) (h1 : ¬t.val % 128 = 127) :
    (now m c t).s6 = k0_pay1 (k0_pay27 (k0_pay17 (yh m c t)) (k0_pay19 (db m c t)) (k0_pay9 (F := Ideal))) := by
  show (Fr.outsAt0 m c t.val t.isLt).s6 = _
  rw [Fr.outsAt0_A m c t h0 h1]
  dsimp only
  exact (atPoint% (Fr.sout0_A_6_eq (F := Ideal) c) t) ((Fr.hcond0_0 t).mpr h0) (fun h => h1 ((Fr.hcond0_1 t).mp h))
    (Fr.iblk m c 0 t) (Fr.iblk m c 1 t) (Fr.iblk m c 2 t) (Fr.iblk m c 3 t)

theorem s6_B (c : Dev nD) (t : Fin cfg0.N) (h0 : ¬t.val % 128 = 0) (h1 : ¬t.val % 128 = 127) :
    (now m c t).s6 = k0_pay1 (k0_pay27 (k0_pay17 (yh m c t)) (k0_pay19 (db m c t)) (prev m c t).s6) := by
  show (Fr.outsAt0 m c t.val t.isLt).s6 = _
  rw [Fr.outsAt0_B m c t h0 h1]
  dsimp only
  exact (atPoint% (Fr.sout0_B_6_eq (F := Ideal) c) t) (fun h => h0 ((Fr.hcond0_0 t).mp h)) (fun h => h1 ((Fr.hcond0_1 t).mp h))
    (Fr.iblk m c 0 t) (Fr.iblk m c 1 t) (Fr.iblk m c 2 t) (Fr.iblk m c 3 t)
    (prev m c t).s0 (prev m c t).s1 (prev m c t).s2 (prev m c t).s3 (prev m c t).s4 (prev m c t).s5 (prev m c t).s6 (prev m c t).s7

theorem s6_C (c : Dev nD) (t : Fin cfg0.N) (h0 : ¬t.val % 128 = 0) (h1 : t.val % 128 = 127) :
    (now m c t).s6 = k0_pay1 (k0_pay27 (k0_pay17 (yh m c t)) (k0_pay19 (db m c t)) (prev m c t).s6) := by
  show (Fr.outsAt0 m c t.val t.isLt).s6 = _
  rw [Fr.outsAt0_C m c t h0 h1]
  dsimp only
  exact (atPoint% (Fr.sout0_C_6_eq (F := Ideal) c) t) (fun h => h0 ((Fr.hcond0_0 t).mp h)) ((Fr.hcond0_1 t).mpr h1)
    (Fr.iblk m c 0 t) (Fr.iblk m c 1 t) (Fr.iblk m c 2 t) (Fr.iblk m c 3 t)
    (prev m c t).s0 (prev m c t).s1 (prev m c t).s2 (prev m c t).s3 (prev m c t).s4 (prev m c t).s5 (prev m c t).s6 (prev m c t).s7

/-- At every point but a half's first the accumulator is the update of what the point before left. -/
theorem s6_step (c : Dev nD) (t : Fin cfg0.N) (h0 : ¬t.val % 128 = 0) :
    (now m c t).s6 = k0_pay1 (k0_pay27 (k0_pay17 (yh m c t)) (k0_pay19 (db m c t)) (prev m c t).s6) := by
  by_cases h1 : t.val % 128 = 127
  · exact s6_C m c t h0 h1
  · exact s6_B m c t h0 h1

/-- At a half's last point output block 10 receives the updated accumulator. -/
theorem o10_C (c : Dev nD) (t : Fin cfg0.N) (h0 : ¬t.val % 128 = 0) (h1 : t.val % 128 = 127) :
    (now m c t).o10 = (k0_pay1 (k0_pay27 (k0_pay17 (yh m c t)) (k0_pay19 (db m c t)) (prev m c t).s6)) := by
  show (Fr.outsAt0 m c t.val t.isLt).o10 = _
  rw [Fr.outsAt0_C m c t h0 h1]
  dsimp only
  exact (atPoint% (Fr.out0_C_10_eq (F := Ideal) c) t) (fun h => h0 ((Fr.hcond0_0 t).mp h)) ((Fr.hcond0_1 t).mpr h1)
    (Fr.iblk m c 0 t) (Fr.iblk m c 1 t) (Fr.iblk m c 2 t) (Fr.iblk m c 3 t)
    (prev m c t).s0 (prev m c t).s1 (prev m c t).s2 (prev m c t).s3 (prev m c t).s4 (prev m c t).s5 (prev m c t).s6 (prev m c t).s7

/-- The update at point t = 128p + k, entry by entry, over the arrays: one more tile of columns. -/
theorem s6_tile (c : Dev nD) (t : Fin cfg0.N) (p : Fin 2) (k : Fin 128) (e : t.val = 128 * p.val + k.val)
    (acc : Vec Ideal S640x128 .f32) (i : Fin 640) (j : Fin 128) :
    k0_pay1 (k0_pay27 (k0_pay17 (yh m c t)) (k0_pay19 (db m c t)) acc) (ix2 i j)
      = acc (ix2 i j) + ∑ f : Fin 256, Ys m c (ix2 (hrow p i) (Cert.Sums.col k f)) * Ds m c (ix2 (Cert.Sums.col k f) j) := by
  refine (pay27_at (yh m c t) (db m c t) acc i j).trans ?_
  refine congrArg (acc (ix2 i j) + ·) (Finset.sum_congr rfl fun f _ => ?_)
  rw [yh_at m c t p k e i f (hrow p i) rfl, db_at m c t p k e f j]

/-- After the last point of half p the accumulator holds the full sums over the 32768 columns. -/
theorem s6_last (c : Dev nD) (t : Fin cfg0.N) (p : Fin 2) (e : t.val = 128 * p.val + 127) (i : Fin 640) (j : Fin 128) :
    (now m c t).s6 (ix2 i j) = Cert.Region.prodAt (Ys m c) (Ds m c) (hrow p i) j :=
  acc_last (ι := Fin 640 × Fin 128)
    (fun n hn i => (Fr.outsAt0 m c n (lt_of_lt_of_eq hn N_0.symm)).s6 (ix2 i.1 i.2))
    (fun p i f => Ys m c (ix2 (hrow p i.1) f) * Ds m c (ix2 f i.2))
    (fun n hn p e i => by
      refine (congrFun (s6_A m c ⟨n, lt_of_lt_of_eq hn N_0.symm⟩ (by show n % 128 = 0; omega) (by show ¬n % 128 = 127; omega)) (ix2 i.1 i.2)).trans ?_
      refine (s6_tile m c ⟨n, lt_of_lt_of_eq hn N_0.symm⟩ p ⟨0, by decide⟩ (by show n = 128 * p.val + 0; omega) (k0_pay9 (F := Ideal)) i.1 i.2).trans ?_
      rw [zero9_at])
    (fun n hn p k e hk i => by
      refine (congrFun (s6_step m c ⟨n, lt_of_lt_of_eq hn N_0.symm⟩ (by show ¬n % 128 = 0; have := k.isLt; omega)) (ix2 i.1 i.2)).trans ?_
      exact s6_tile m c ⟨n, lt_of_lt_of_eq hn N_0.symm⟩ p k e (prev m c ⟨n, lt_of_lt_of_eq hn N_0.symm⟩).s6 i.1 i.2)
    t.val (lt256 t) p e (i, j)

/-- So the block written back at that point holds them. -/
theorem o10_last (c : Dev nD) (t : Fin cfg0.N) (p : Fin 2) (e : t.val = 128 * p.val + 127) (i : Fin 640) (j : Fin 128) :
    (now m c t).o10 (ix2 i j) = Cert.Region.prodAt (Ys m c) (Ds m c) (hrow p i) j := by
  have h0 : ¬t.val % 128 = 0 := by omega
  have h1 : t.val % 128 = 127 := by omega
  rw [o10_C m c t h0 h1, ← s6_C m c t h0 h1]
  exact s6_last m c t p e i j

/-! ## Accumulator 7: target rows times the second weight matrix -/

theorem s7_A (c : Dev nD) (t : Fin cfg0.N) (h0 : t.val % 128 = 0) (h1 : ¬t.val % 128 = 127) :
    (now m c t).s7 = k0_pay2 (k0_pay17 (yh m c t)) (k0_pay20 (cb m c t)) (k0_pay15 (F := Ideal) (k0_pay10 (F := Ideal))) := by
  show (Fr.outsAt0 m c t.val t.isLt).s7 = _
  rw [Fr.outsAt0_A m c t h0 h1]
  dsimp only
  exact (atPoint% (Fr.sout0_A_7_eq (F := Ideal) c) t) ((Fr.hcond0_0 t).mpr h0) (fun h => h1 ((Fr.hcond0_1 t).mp h))
    (Fr.iblk m c 0 t) (Fr.iblk m c 1 t) (Fr.iblk m c 2 t) (Fr.iblk m c 3 t)

theorem s7_B (c : Dev nD) (t : Fin cfg0.N) (h0 : ¬t.val % 128 = 0) (h1 : ¬t.val % 128 = 127) :
    (now m c t).s7 = k0_pay2 (k0_pay17 (yh m c t)) (k0_pay20 (cb m c t)) (prev m c t).s7 := by
  show (Fr.outsAt0 m c t.val t.isLt).s7 = _
  rw [Fr.outsAt0_B m c t h0 h1]
  dsimp only
  exact (atPoint% (Fr.sout0_B_7_eq (F := Ideal) c) t) (fun h => h0 ((Fr.hcond0_0 t).mp h)) (fun h => h1 ((Fr.hcond0_1 t).mp h))
    (Fr.iblk m c 0 t) (Fr.iblk m c 1 t) (Fr.iblk m c 2 t) (Fr.iblk m c 3 t)
    (prev m c t).s0 (prev m c t).s1 (prev m c t).s2 (prev m c t).s3 (prev m c t).s4 (prev m c t).s5 (prev m c t).s6 (prev m c t).s7

theorem s7_C (c : Dev nD) (t : Fin cfg0.N) (h0 : ¬t.val % 128 = 0) (h1 : t.val % 128 = 127) :
    (now m c t).s7 = k0_pay2 (k0_pay17 (yh m c t)) (k0_pay20 (cb m c t)) (prev m c t).s7 := by
  show (Fr.outsAt0 m c t.val t.isLt).s7 = _
  rw [Fr.outsAt0_C m c t h0 h1]
  dsimp only
  exact (atPoint% (Fr.sout0_C_7_eq (F := Ideal) c) t) (fun h => h0 ((Fr.hcond0_0 t).mp h)) ((Fr.hcond0_1 t).mpr h1)
    (Fr.iblk m c 0 t) (Fr.iblk m c 1 t) (Fr.iblk m c 2 t) (Fr.iblk m c 3 t)
    (prev m c t).s0 (prev m c t).s1 (prev m c t).s2 (prev m c t).s3 (prev m c t).s4 (prev m c t).s5 (prev m c t).s6 (prev m c t).s7

/-- At every point but a half's first the accumulator is the update of what the point before left. -/
theorem s7_step (c : Dev nD) (t : Fin cfg0.N) (h0 : ¬t.val % 128 = 0) :
    (now m c t).s7 = k0_pay2 (k0_pay17 (yh m c t)) (k0_pay20 (cb m c t)) (prev m c t).s7 := by
  by_cases h1 : t.val % 128 = 127
  · exact s7_C m c t h0 h1
  · exact s7_B m c t h0 h1

/-- At a half's last point output block 11 receives the updated accumulator. -/
theorem o11_C (c : Dev nD) (t : Fin cfg0.N) (h0 : ¬t.val % 128 = 0) (h1 : t.val % 128 = 127) :
    (now m c t).o11 = (k0_pay2 (k0_pay17 (yh m c t)) (k0_pay20 (cb m c t)) (prev m c t).s7) := by
  show (Fr.outsAt0 m c t.val t.isLt).o11 = _
  rw [Fr.outsAt0_C m c t h0 h1]
  dsimp only
  exact (atPoint% (Fr.out0_C_11_eq (F := Ideal) c) t) (fun h => h0 ((Fr.hcond0_0 t).mp h)) ((Fr.hcond0_1 t).mpr h1)
    (Fr.iblk m c 0 t) (Fr.iblk m c 1 t) (Fr.iblk m c 2 t) (Fr.iblk m c 3 t)
    (prev m c t).s0 (prev m c t).s1 (prev m c t).s2 (prev m c t).s3 (prev m c t).s4 (prev m c t).s5 (prev m c t).s6 (prev m c t).s7

/-- The update at point t = 128p + k, entry by entry, over the arrays: one more tile of columns. -/
theorem s7_tile (c : Dev nD) (t : Fin cfg0.N) (p : Fin 2) (k : Fin 128) (e : t.val = 128 * p.val + k.val)
    (acc : Vec Ideal S640x128 .f32) (i : Fin 640) (j : Fin 128) :
    k0_pay2 (k0_pay17 (yh m c t)) (k0_pay20 (cb m c t)) acc (ix2 i j)
      = acc (ix2 i j) + ∑ f : Fin 256, Ys m c (ix2 (hrow p i) (Cert.Sums.col k f)) * Cs m c (ix2 (Cert.Sums.col k f) j) := by
  refine (pay2_at (yh m c t) (cb m c t) acc i j).trans ?_
  refine congrArg (acc (ix2 i j) + ·) (Finset.sum_congr rfl fun f _ => ?_)
  rw [yh_at m c t p k e i f (hrow p i) rfl, cb_at m c t p k e f j]

/-- After the last point of half p the accumulator holds the full sums over the 32768 columns. -/
theorem s7_last (c : Dev nD) (t : Fin cfg0.N) (p : Fin 2) (e : t.val = 128 * p.val + 127) (i : Fin 640) (j : Fin 128) :
    (now m c t).s7 (ix2 i j) = Cert.Region.prodAt (Ys m c) (Cs m c) (hrow p i) j :=
  acc_last (ι := Fin 640 × Fin 128)
    (fun n hn i => (Fr.outsAt0 m c n (lt_of_lt_of_eq hn N_0.symm)).s7 (ix2 i.1 i.2))
    (fun p i f => Ys m c (ix2 (hrow p i.1) f) * Cs m c (ix2 f i.2))
    (fun n hn p e i => by
      refine (congrFun (s7_A m c ⟨n, lt_of_lt_of_eq hn N_0.symm⟩ (by show n % 128 = 0; omega) (by show ¬n % 128 = 127; omega)) (ix2 i.1 i.2)).trans ?_
      refine (s7_tile m c ⟨n, lt_of_lt_of_eq hn N_0.symm⟩ p ⟨0, by decide⟩ (by show n = 128 * p.val + 0; omega) (k0_pay15 (F := Ideal) (k0_pay10 (F := Ideal))) i.1 i.2).trans ?_
      rw [zero15_at])
    (fun n hn p k e hk i => by
      refine (congrFun (s7_step m c ⟨n, lt_of_lt_of_eq hn N_0.symm⟩ (by show ¬n % 128 = 0; have := k.isLt; omega)) (ix2 i.1 i.2)).trans ?_
      exact s7_tile m c ⟨n, lt_of_lt_of_eq hn N_0.symm⟩ p k e (prev m c ⟨n, lt_of_lt_of_eq hn N_0.symm⟩).s7 i.1 i.2)
    t.val (lt256 t) p e (i, j)

/-- So the block written back at that point holds them. -/
theorem o11_last (c : Dev nD) (t : Fin cfg0.N) (p : Fin 2) (e : t.val = 128 * p.val + 127) (i : Fin 640) (j : Fin 128) :
    (now m c t).o11 (ix2 i j) = Cert.Region.prodAt (Ys m c) (Cs m c) (hrow p i) j := by
  have h0 : ¬t.val % 128 = 0 := by omega
  have h1 : t.val % 128 = 127 := by omega
  rw [o11_C m c t h0 h1, ← s7_C m c t h0 h1]
  exact s7_last m c t p e i j

end Cert.KernelIdeal.Val

end
-- ==== Proof.KI.Final.lean ====
/-
  The eight result arrays of the one call. Each output's block is written back at the last point of a half and holds
  that half's full sums; the two halves' blocks cover the array. So the arrays end holding, with X the source rows,
  Y the target rows and D, C the two weight matrices: the ten regions' Gram matrices of X and of Y, the rows' squared
  lengths of X and of Y, X · Yᵀ, X · D, Y · D and Y · C.
-/
import proofs.«409862_j41274635715290_3_alg».proof.Proof.KI.Inv
import Idealize.ShloMosaic.Lib.Pipeline.Value

set_option maxRecDepth 16384

noncomputable section

open scoped BigOperators

namespace Cert.KernelIdeal.Val

open Idealize.ShloMosaic Idealize.ShloMosaic.TcCoe Idealize.SL.Sem
open Idealize.ShloMosaic.ValueIdx
open Idealize.ShloMosaic.Pipeline (Dat)
open Cert.KernelIdeal Cert.KernelIdeal.Gen

variable (m : (ℓ : Loc nD τ sig) → Buf (Elt Ideal) ℓ)

/-! ## Output 4: the source rows' Gram array -/

/-- The block output 4 holds after the last point of a half is that half's block of the array of full sums. -/
theorem o4_blk (c : Dev nD) (t : Fin cfg0.N) (h127 : t.val % 128 = 127) :
    (now m c t).o4 = ((cfg0.win 4).blk t).view.read (Elt Ideal) (Cert.Region.gram (Xs m c)) := by
  have ht := lt256 t
  funext y
  obtain ⟨y0, r, a, b, rfl⟩ : ∃ (y0 : Fin 1) (r : Fin 5) (a b : Fin 128), y = ix4 y0 r a b := ⟨y 0, y 1, y 2, y 3, eq_ix4 y⟩
  obtain rfl : y0 = 0 := Subsingleton.elim _ _
  refine Eq.trans ?_ (blk4_read_ix (F := Ideal) (Cert.Region.gram (Xs m c)) t 0 r a b).symm
  exact o4_last m c t ⟨t.val / 128, by omega⟩ (by show t.val = 128 * (t.val / 128) + 127; omega) r a b

/-- What a point writes back into output 4 is its block of that array. -/
theorem flushed4_eq (c : Dev nD) (t : Fin cfg0.N) (hf : (cfg0.win 4).flush t = true) :
    (Fr.dats m 0 c).flushed 4 t = ((cfg0.win 4).blk t).view.read (Elt Ideal) (Cert.Region.gram (Xs m c)) := by
  show (cfg0.win 4).cut (grid0.coords t) ((Fr.dats m 0 c).after 4 t) = _
  rw [Fr.after0_4]
  exact o4_blk m c t ((flush0_4 t).mp hf)

/-- The two halves' blocks cover the array: it ends holding the full sums. -/
theorem final4 (c : Dev nD) : (Fr.dats m 0 c).arrAt 4 cfg0.N = Cert.Region.gram (Fr.V m c main_arg0) :=
  (Fr.dats m 0 c).arrAt_eq_of_cover 4 (Cert.Region.gram (Xs m c)) (flushed4_eq m c) cover4

/-! ## Output 5: the target rows' Gram array -/

/-- The block output 5 holds after the last point of a half is that half's block of the array of full sums. -/
theorem o5_blk (c : Dev nD) (t : Fin cfg0.N) (h127 : t.val % 128 = 127) :
    (now m c t).o5 = ((cfg0.win 5).blk t).view.read (Elt Ideal) (Cert.Region.gram (Ys m c)) := by
  have ht := lt256 t
  funext y
  obtain ⟨y0, r, a, b, rfl⟩ : ∃ (y0 : Fin 1) (r : Fin 5) (a b : Fin 128), y = ix4 y0 r a b := ⟨y 0, y 1, y 2, y 3, eq_ix4 y⟩
  obtain rfl : y0 = 0 := Subsingleton.elim _ _
  refine Eq.trans ?_ (blk5_read_ix (F := Ideal) (Cert.Region.gram (Ys m c)) t 0 r a b).symm
  exact o5_last m c t ⟨t.val / 128, by omega⟩ (by show t.val = 128 * (t.val / 128) + 127; omega) r a b

/-- What a point writes back into output 5 is its block of that array. -/
theorem flushed5_eq (c : Dev nD) (t : Fin cfg0.N) (hf : (cfg0.win 5).flush t = true) :
    (Fr.dats m 0 c).flushed 5 t = ((cfg0.win 5).blk t).view.read (Elt Ideal) (Cert.Region.gram (Ys m c)) := by
  show (cfg0.win 5).cut (grid0.coords t) ((Fr.dats m 0 c).after 5 t) = _
  rw [Fr.after0_5]
  exact o5_blk m c t ((flush0_5 t).mp hf)

/-- The two halves' blocks cover the array: it ends holding the full sums. -/
theorem final5 (c : Dev nD) : (Fr.dats m 0 c).arrAt 5 cfg0.N = Cert.Region.gram (Fr.V m c main_arg1) :=
  (Fr.dats m 0 c).arrAt_eq_of_cover 5 (Cert.Region.gram (Ys m c)) (flushed5_eq m c) cover5

/-! ## Output 6: the source rows' squared lengths -/

/-- The block output 6 holds after the last point of a half is that half's block of the array of full sums. -/
theorem o6_blk (c : Dev nD) (t : Fin cfg0.N) (h127 : t.val % 128 = 127) :
    (now m c t).o6 = ((cfg0.win 6).blk t).view.read (Elt Ideal) (Cert.Region.sq (Xs m c)) := by
  have ht := lt256 t
  funext y
  obtain ⟨y0, r, a, rfl⟩ : ∃ (y0 : Fin 1) (r : Fin 5) (a : Fin 128), y = ix3 y0 r a := ⟨y 0, y 1, y 2, eq_ix3 y⟩
  obtain rfl : y0 = 0 := Subsingleton.elim _ _
  refine Eq.trans ?_ (blk6_read_ix (F := Ideal) (Cert.Region.sq (Xs m c)) t 0 r a).symm
  exact o6_last m c t ⟨t.val / 128, by omega⟩ (by show t.val = 128 * (t.val / 128) + 127; omega) r a

/-- What a point writes back into output 6 is its block of that array. -/
theorem flushed6_eq (c : Dev nD) (t : Fin cfg0.N) (hf : (cfg0.win 6).flush t = true) :
    (Fr.dats m 0 c).flushed 6 t = ((cfg0.win 6).blk t).view.read (Elt Ideal) (Cert.Region.sq (Xs m c)) := by
  show (cfg0.win 6).cut (grid0.coords t) ((Fr.dats m 0 c).after 6 t) = _
  rw [Fr.after0_6]
  exact o6_blk m c t ((flush0_6 t).mp hf)

/-- The two halves' blocks cover the array: it ends holding the full sums. -/
theorem final6 (c : Dev nD) : (Fr.dats m 0 c).arrAt 6 cfg0.N = Cert.Region.sq (Fr.V m c main_arg0) :=
  (Fr.dats m 0 c).arrAt_eq_of_cover 6 (Cert.Region.sq (Xs m c)) (flushed6_eq m c) cover6

/-! ## Output 7: the target rows' squared lengths -/

/-- The block output 7 holds after the last point of a half is that half's block of the array of full sums. -/
theorem o7_blk (c : Dev nD) (t : Fin cfg0.N) (h127 : t.val % 128 = 127) :
    (now m c t).o7 = ((cfg0.win 7).blk t).view.read (Elt Ideal) (Cert.Region.sq (Ys m c)) := by
  have ht := lt256 t
  funext y
  obtain ⟨y0, r, a, rfl⟩ : ∃ (y0 : Fin 1) (r : Fin 5) (a : Fin 128), y = ix3 y0 r a := ⟨y 0, y 1, y 2, eq_ix3 y⟩
  obtain rfl : y0 = 0 := Subsingleton.elim _ _
  refine Eq.trans ?_ (blk7_read_ix (F := Ideal) (Cert.Region.sq (Ys m c)) t 0 r a).symm
  exact o7_last m c t ⟨t.val / 128, by omega⟩ (by show t.val = 128 * (t.val / 128) + 127; omega) r a

/-- What a point writes back into output 7 is its block of that array. -/
theorem flushed7_eq (c : Dev nD) (t : Fin cfg0.N) (hf : (cfg0.win 7).flush t = true) :
    (Fr.dats m 0 c).flushed 7 t = ((cfg0.win 7).blk t).view.read (Elt Ideal) (Cert.Region.sq (Ys m c)) := by
  show (cfg0.win 7).cut (grid0.coords t) ((Fr.dats m 0 c).after 7 t) = _
  rw [Fr.after0_7]
  exact o7_blk m c t ((flush0_7 t).mp hf)

/-- The two halves' blocks cover the array: it ends holding the full sums. -/
theorem final7 (c : Dev nD) : (Fr.dats m 0 c).arrAt 7 cfg0.N = Cert.Region.sq (Fr.V m c main_arg1) :=
  (Fr.dats m 0 c).arrAt_eq_of_cover 7 (Cert.Region.sq (Ys m c)) (flushed7_eq m c) cover7

/-! ## Output 8: the source rows against the target rows -/

/-- The block output 8 holds after the last point of a half is that half's block of the array of full sums. -/
theorem o8_blk (c : Dev nD) (t : Fin cfg0.N) (h127 : t.val % 128 = 127) :
    (now m c t).o8 = ((cfg0.win 8).blk t).view.read (Elt Ideal) (Cert.Region.cross (Xs m c) (Ys m c)) := by
  have ht := lt256 t
  funext y
  obtain ⟨i, j, rfl⟩ : ∃ (i : Fin 640) (j : Fin 1280), y = ix2 i j := ⟨y 0, y 1, eq_ix2 y⟩
  refine Eq.trans ?_ (blk8_read_ix (F := Ideal) (Cert.Region.cross (Xs m c) (Ys m c)) t i j).symm
  exact o8_last m c t ⟨t.val / 128, by omega⟩ (by show t.val = 128 * (t.val / 128) + 127; omega) i j

/-- What a point writes back into output 8 is its block of that array. -/
theorem flushed8_eq (c : Dev nD) (t : Fin cfg0.N) (hf : (cfg0.win 8).flush t = true) :
    (Fr.dats m 0 c).flushed 8 t = ((cfg0.win 8).blk t).view.read (Elt Ideal) (Cert.Region.cross (Xs m c) (Ys m c)) := by
  show (cfg0.win 8).cut (grid0.coords t) ((Fr.dats m 0 c).after 8 t) = _
  rw [Fr.after0_8]
  exact o8_blk m c t ((flush0_8 t).mp hf)

/-- The two halves' blocks cover the array: it ends holding the full sums. -/
theorem final8 (c : Dev nD) : (Fr.dats m 0 c).arrAt 8 cfg0.N = Cert.Region.cross (Fr.V m c main_arg0) (Fr.V m c main_arg1) :=
  (Fr.dats m 0 c).arrAt_eq_of_cover 8 (Cert.Region.cross (Xs m c) (Ys m c)) (flushed8_eq m c) cover8

/-! ## Output 9: the source rows times the first weight matrix -/

/-- The block output 9 holds after the last point of a half is that half's block of the array of full sums. -/
theorem o9_blk (c : Dev nD) (t : Fin cfg0.N) (h127 : t.val % 128 = 127) :
    (now m c t).o9 = ((cfg0.win 9).blk t).view.read (Elt Ideal) (Cert.Region.prod (Xs m c) (Ds m c)) := by
  have ht := lt256 t
  funext y
  obtain ⟨i, j, rfl⟩ : ∃ (i : Fin 640) (j : Fin 128), y = ix2 i j := ⟨y 0, y 1, eq_ix2 y⟩
  refine Eq.trans ?_ (blk9_read_ix (F := Ideal) (Cert.Region.prod (Xs m c) (Ds m c)) t i j).symm
  exact o9_last m c t ⟨t.val / 128, by omega⟩ (by show t.val = 128 * (t.val / 128) + 127; omega) i j

/-- What a point writes back into output 9 is its block of that array. -/
theorem flushed9_eq (c : Dev nD) (t : Fin cfg0.N) (hf : (cfg0.win 9).flush t = true) :
    (Fr.dats m 0 c).flushed 9 t = ((cfg0.win 9).blk t).view.read (Elt Ideal) (Cert.Region.prod (Xs m c) (Ds m c)) := by
  show (cfg0.win 9).cut (grid0.coords t) ((Fr.dats m 0 c).after 9 t) = _
  rw [Fr.after0_9]
  exact o9_blk m c t ((flush0_9 t).mp hf)

/-- The two halves' blocks cover the array: it ends holding the full sums. -/
theorem final9 (c : Dev nD) : (Fr.dats m 0 c).arrAt 9 cfg0.N = Cert.Region.prod (Fr.V m c main_arg0) (Fr.V m c main_arg3) :=
  (Fr.dats m 0 c).arrAt_eq_of_cover 9 (Cert.Region.prod (Xs m c) (Ds m c)) (flushed9_eq m c) cover9

/-! ## Output 10: the target rows times the first weight matrix -/

/-- The block output 10 holds after the last point of a half is that half's block of the array of full sums. -/
theorem o10_blk (c : Dev nD) (t : Fin cfg0.N) (h127 : t.val % 128 = 127) :
    (now m c t).o10 = ((cfg0.win 10).blk t).view.read (Elt Ideal) (Cert.Region.prod (Ys m c) (Ds m c)) := by
  have ht := lt256 t
  funext y
  obtain ⟨i, j, rfl⟩ : ∃ (i : Fin 640) (j : Fin 128), y = ix2 i j := ⟨y 0, y 1, eq_ix2 y⟩
  refine Eq.trans ?_ (blk10_read_ix (F := Ideal) (Cert.Region.prod (Ys m c) (Ds m c)) t i j).symm
  exact o10_last m c t ⟨t.val / 128, by omega⟩ (by show t.val = 128 * (t.val / 128) + 127; omega) i j

/-- What a point writes back into output 10 is its block of that array. -/
theorem flushed10_eq (c : Dev nD) (t : Fin cfg0.N) (hf : (cfg0.win 10).flush t = true) :
    (Fr.dats m 0 c).flushed 10 t = ((cfg0.win 10).blk t).view.read (Elt Ideal) (Cert.Region.prod (Ys m c) (Ds m c)) := by
  show (cfg0.win 10).cut (grid0.coords t) ((Fr.dats m 0 c).after 10 t) = _
  rw [Fr.after0_10]
  exact o10_blk m c t ((flush0_10 t).mp hf)

/-- The two halves' blocks cover the array: it ends holding the full sums. -/
theorem final10 (c : Dev nD) : (Fr.dats m 0 c).arrAt 10 cfg0.N = Cert.Region.prod (Fr.V m c main_arg1) (Fr.V m c main_arg3) :=
  (Fr.dats m 0 c).arrAt_eq_of_cover 10 (Cert.Region.prod (Ys m c) (Ds m c)) (flushed10_eq m c) cover10

/-! ## Output 11: the target rows times the second weight matrix -/

/-- The block output 11 holds after the last point of a half is that half's block of the array of full sums. -/
theorem o11_blk (c : Dev nD) (t : Fin cfg0.N) (h127 : t.val % 128 = 127) :
    (now m c t).o11 = ((cfg0.win 11).blk t).view.read (Elt Ideal) (Cert.Region.prod (Ys m c) (Cs m c)) := by
  have ht := lt256 t
  funext y
  obtain ⟨i, j, rfl⟩ : ∃ (i : Fin 640) (j : Fin 128), y = ix2 i j := ⟨y 0, y 1, eq_ix2 y⟩
  refine Eq.trans ?_ (blk11_read_ix (F := Ideal) (Cert.Region.prod (Ys m c) (Cs m c)) t i j).symm
  exact o11_last m c t ⟨t.val / 128, by omega⟩ (by show t.val = 128 * (t.val / 128) + 127; omega) i j

/-- What a point writes back into output 11 is its block of that array. -/
theorem flushed11_eq (c : Dev nD) (t : Fin cfg0.N) (hf : (cfg0.win 11).flush t = true) :
    (Fr.dats m 0 c).flushed 11 t = ((cfg0.win 11).blk t).view.read (Elt Ideal) (Cert.Region.prod (Ys m c) (Cs m c)) := by
  show (cfg0.win 11).cut (grid0.coords t) ((Fr.dats m 0 c).after 11 t) = _
  rw [Fr.after0_11]
  exact o11_blk m c t ((flush0_11 t).mp hf)

/-- The two halves' blocks cover the array: it ends holding the full sums. -/
theorem final11 (c : Dev nD) : (Fr.dats m 0 c).arrAt 11 cfg0.N = Cert.Region.prod (Fr.V m c main_arg1) (Fr.V m c main_arg9) :=
  (Fr.dats m 0 c).arrAt_eq_of_cover 11 (Cert.Region.prod (Ys m c) (Cs m c)) (flushed11_eq m c) cover11

end Cert.KernelIdeal.Val

end
-- ==== Proof.Pre.lean ====
/-
  What the precondition says of the two big float arguments. The printed predicate is a conjunction of fourteen
  tests "every entry x of the array has |x| < +∞", one per float argument. In the extended reals |x| = max x (−x),
  which is +∞ at both infinities and at no real; so each test says that every entry of its array is a real number.
-/
import proofs.«409862_j41274635715290_3_alg».proof.Defs
import proofs.«409862_j41274635715290_3_alg».proof.Proof.Gen.Pre_finite_inputs
import proofs.«409862_j41274635715290_3_alg».proof.Proof.Spec.Region
import Idealize.ShloMosaic.Lib.ReduceAll

noncomputable section

namespace Cert.PreFacts

open Idealize.ShloMosaic Idealize.SL.Sem

/-- The shape of rank zero has exactly one index. -/
instance : Subsingleton Cert.Pre_finite_inputs.S_.Idx := ⟨fun a b => funext fun d => d.elim0⟩

/-- The pattern 0x7F800000 denotes +∞. -/
theorem inf_eq_top : Ideal.ofBits .f32 0x7F800000#32 = (⊤ : EReal) := by
  simp [Ideal.ofBits, Ideal.ieee]

/-- An extended real whose absolute value max x (−x) is below +∞ is a real number: at −∞ and at +∞ that maximum is +∞. -/
theorem real_of_abs_lt (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [inf_eq_top] at h
  induction x using EReal.rec with
  | bot =>
    change Ideal.cmp .olt (max (⊥ : EReal) (-⊥)) ⊤ = 1#1 at h
    simp [Ideal.cmp] at h
  | coe r => exact ⟨r, rfl⟩
  | top =>
    change Ideal.cmp .olt (max (⊤ : EReal) (-⊤)) ⊤ = 1#1 at h
    simp [Ideal.cmp] at h

/-- One test of the predicate, read back: if "all entries of A have |x| < +∞" came out true, every entry of A is a real. -/
theorem real_of_all {S : Shape} {axes : List (Fin S.rank)} (A : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (e : Host.reduce IntOp.andi
        (cmpf .olt (Host.absf A) (broadcastInDim S ![] hb (constant Cert.Pre_finite_inputs.S_ .f32 0x7F800000#32)))
        (constantI Cert.Pre_finite_inputs.S_ 1 1#1) hr hu ValueIdx.ix0 = 1#1) :
    Cert.Region.IsReal A := by
  intro i
  have hi := Host.reduce_andi_all _ _ hr hu _ e i
  exact real_of_abs_lt (A i) hi

variable (m : (ℓ : Loc Cert.KernelIdeal.nD Cert.KernelIdeal.τ Cert.KernelIdeal.sig) → Buf (Elt Ideal) ℓ)

open Cert.Pre_finite_inputs in
/-- The predicate is the conjunction of the fourteen tests, so under it all fourteen float arguments have only real entries. -/
theorem reals (h : Cert.Pre_KernelIdeal m) (c : Dev Cert.KernelIdeal.nD) :
    Cert.Region.IsReal (m ((c.tc : Thread Cert.KernelIdeal.nD Cert.KernelIdeal.τ).loc Cert.KernelIdeal.main_arg0)) ∧
    Cert.Region.IsReal (m ((c.tc : Thread Cert.KernelIdeal.nD Cert.KernelIdeal.τ).loc Cert.KernelIdeal.main_arg1)) ∧
    Cert.Region.IsReal (m ((c.tc : Thread Cert.KernelIdeal.nD Cert.KernelIdeal.τ).loc Cert.KernelIdeal.main_arg3)) ∧
    Cert.Region.IsReal (m ((c.tc : Thread Cert.KernelIdeal.nD Cert.KernelIdeal.τ).loc Cert.KernelIdeal.main_arg4)) ∧
    Cert.Region.IsReal (m ((c.tc : Thread Cert.KernelIdeal.nD Cert.KernelIdeal.τ).loc Cert.KernelIdeal.main_arg5)) ∧
    Cert.Region.IsReal (m ((c.tc : Thread Cert.KernelIdeal.nD Cert.KernelIdeal.τ).loc Cert.KernelIdeal.main_arg6)) ∧
    Cert.Region.IsReal (m ((c.tc : Thread Cert.KernelIdeal.nD Cert.KernelIdeal.τ).loc Cert.KernelIdeal.main_arg7)) ∧
    Cert.Region.IsReal (m ((c.tc : Thread Cert.KernelIdeal.nD Cert.KernelIdeal.τ).loc Cert.KernelIdeal.main_arg8)) ∧
    Cert.Region.IsReal (m ((c.tc : Thread Cert.KernelIdeal.nD Cert.KernelIdeal.τ).loc Cert.KernelIdeal.main_arg9)) ∧
    Cert.Region.IsReal (m ((c.tc : Thread Cert.KernelIdeal.nD Cert.KernelIdeal.τ).loc Cert.KernelIdeal.main_arg10)) ∧
    Cert.Region.IsReal (m ((c.tc : Thread Cert.KernelIdeal.nD Cert.KernelIdeal.τ).loc Cert.KernelIdeal.main_arg11)) ∧
    Cert.Region.IsReal (m ((c.tc : Thread Cert.KernelIdeal.nD Cert.KernelIdeal.τ).loc Cert.KernelIdeal.main_arg12)) ∧
    Cert.Region.IsReal (m ((c.tc : Thread Cert.KernelIdeal.nD Cert.KernelIdeal.τ).loc Cert.KernelIdeal.main_arg13)) ∧
    Cert.Region.IsReal (m ((c.tc : Thread Cert.KernelIdeal.nD Cert.KernelIdeal.τ).loc Cert.KernelIdeal.main_arg14)) := by
  have e := congrFun (h c) ValueIdx.ix0
  dsimp only [Cert.Pre_finite_inputs.fn, fn_part1, fn_part2, fn_part3, fn_part4] at e
  simp only [andi, IntOp.andi_eq_one] at e
  obtain ⟨⟨⟨⟨⟨⟨⟨⟨⟨⟨⟨⟨⟨e0, e1⟩, e3⟩, e4⟩, e5⟩, e6⟩, e7⟩, e8⟩, e9⟩, e10⟩, e11⟩, e12⟩, e13⟩, e14⟩ := e
  exact ⟨real_of_all _ _ _ _ e0, real_of_all _ _ _ _ e1, real_of_all _ _ _ _ e3, real_of_all _ _ _ _ e4, real_of_all _ _ _ _ e5, real_of_all _ _ _ _ e6, real_of_all _ _ _ _ e7, real_of_all _ _ _ _ e8, real_of_all _ _ _ _ e9, real_of_all _ _ _ _ e10, real_of_all _ _ _ _ e11, real_of_all _ _ _ _ e12, real_of_all _ _ _ _ e13, real_of_all _ _ _ _ e14⟩

/-- Every entry of argument 0, the 1280 × 32768 array of source rows, is a real number. -/
theorem real_arg0 (h : Cert.Pre_KernelIdeal m) (c : Dev Cert.KernelIdeal.nD) :
    Cert.Region.IsReal (m ((c.tc : Thread Cert.KernelIdeal.nD Cert.KernelIdeal.τ).loc Cert.KernelIdeal.main_arg0)) := (reals m h c).1

/-- Every entry of argument 1, the 1280 × 32768 array of target rows, is a real number. -/
theorem real_arg1 (h : Cert.Pre_KernelIdeal m) (c : Dev Cert.KernelIdeal.nD) :
    Cert.Region.IsReal (m ((c.tc : Thread Cert.KernelIdeal.nD Cert.KernelIdeal.τ).loc Cert.KernelIdeal.main_arg1)) := (reals m h c).2.1

/-- Every entry of argument 3, the first of the two 32768 × 128 first-layer weight matrices, is a real number. -/
theorem real_arg3 (h : Cert.Pre_KernelIdeal m) (c : Dev Cert.KernelIdeal.nD) :
    Cert.Region.IsReal (m ((c.tc : Thread Cert.KernelIdeal.nD Cert.KernelIdeal.τ).loc Cert.KernelIdeal.main_arg3)) := (reals m h c).2.2.1

/-- Every entry of float argument 4 is a real number. -/
theorem real_arg4 (h : Cert.Pre_KernelIdeal m) (c : Dev Cert.KernelIdeal.nD) :
    Cert.Region.IsReal (m ((c.tc : Thread Cert.KernelIdeal.nD Cert.KernelIdeal.τ).loc Cert.KernelIdeal.main_arg4)) := (reals m h c).2.2.2.1

/-- Every entry of float argument 5 is a real number. -/
theorem real_arg5 (h : Cert.Pre_KernelIdeal m) (c : Dev Cert.KernelIdeal.nD) :
    Cert.Region.IsReal (m ((c.tc : Thread Cert.KernelIdeal.nD Cert.KernelIdeal.τ).loc Cert.KernelIdeal.main_arg5)) := (reals m h c).2.2.2.2.1

/-- Every entry of float argument 6 is a real number. -/
theorem real_arg6 (h : Cert.Pre_KernelIdeal m) (c : Dev Cert.KernelIdeal.nD) :
    Cert.Region.IsReal (m ((c.tc : Thread Cert.KernelIdeal.nD Cert.KernelIdeal.τ).loc Cert.KernelIdeal.main_arg6)) := (reals m h c).2.2.2.2.2.1

/-- Every entry of float argument 7 is a real number. -/
theorem real_arg7 (h : Cert.Pre_KernelIdeal m) (c : Dev Cert.KernelIdeal.nD) :
    Cert.Region.IsReal (m ((c.tc : Thread Cert.KernelIdeal.nD Cert.KernelIdeal.τ).loc Cert.KernelIdeal.main_arg7)) := (reals m h c).2.2.2.2.2.2.1

/-- Every entry of float argument 8 is a real number. -/
theorem real_arg8 (h : Cert.Pre_KernelIdeal m) (c : Dev Cert.KernelIdeal.nD) :
    Cert.Region.IsReal (m ((c.tc : Thread Cert.KernelIdeal.nD Cert.KernelIdeal.τ).loc Cert.KernelIdeal.main_arg8)) := (reals m h c).2.2.2.2.2.2.2.1

/-- Every entry of argument 9, the second of the two 32768 × 128 first-layer weight matrices, is a real number. -/
theorem real_arg9 (h : Cert.Pre_KernelIdeal m) (c : Dev Cert.KernelIdeal.nD) :
    Cert.Region.IsReal (m ((c.tc : Thread Cert.KernelIdeal.nD Cert.KernelIdeal.τ).loc Cert.KernelIdeal.main_arg9)) := (reals m h c).2.2.2.2.2.2.2.2.1

/-- Every entry of float argument 10 is a real number. -/
theorem real_arg10 (h : Cert.Pre_KernelIdeal m) (c : Dev Cert.KernelIdeal.nD) :
    Cert.Region.IsReal (m ((c.tc : Thread Cert.KernelIdeal.nD Cert.KernelIdeal.τ).loc Cert.KernelIdeal.main_arg10)) := (reals m h c).2.2.2.2.2.2.2.2.2.1

/-- Every entry of float argument 11 is a real number. -/
theorem real_arg11 (h : Cert.Pre_KernelIdeal m) (c : Dev Cert.KernelIdeal.nD) :
    Cert.Region.IsReal (m ((c.tc : Thread Cert.KernelIdeal.nD Cert.KernelIdeal.τ).loc Cert.KernelIdeal.main_arg11)) := (reals m h c).2.2.2.2.2.2.2.2.2.2.1

/-- Every entry of float argument 12 is a real number. -/
theorem real_arg12 (h : Cert.Pre_KernelIdeal m) (c : Dev Cert.KernelIdeal.nD) :
    Cert.Region.IsReal (m ((c.tc : Thread Cert.KernelIdeal.nD Cert.KernelIdeal.τ).loc Cert.KernelIdeal.main_arg12)) := (reals m h c).2.2.2.2.2.2.2.2.2.2.2.1

/-- Every entry of float argument 13 is a real number. -/
theorem real_arg13 (h : Cert.Pre_KernelIdeal m) (c : Dev Cert.KernelIdeal.nD) :
    Cert.Region.IsReal (m ((c.tc : Thread Cert.KernelIdeal.nD Cert.KernelIdeal.τ).loc Cert.KernelIdeal.main_arg13)) := (reals m h c).2.2.2.2.2.2.2.2.2.2.2.2.1

/-- Every entry of float argument 14 is a real number. -/
theorem real_arg14 (h : Cert.Pre_KernelIdeal m) (c : Dev Cert.KernelIdeal.nD) :
    Cert.Region.IsReal (m ((c.tc : Thread Cert.KernelIdeal.nD Cert.KernelIdeal.τ).loc Cert.KernelIdeal.main_arg14)) := (reals m h c).2.2.2.2.2.2.2.2.2.2.2.2.2

end Cert.PreFacts

end
-- ==== Proof.Spec.MmdAlg.lean ====
/-
  The algebra of the kernel-distance stage over the extended reals, for arrays whose entries are reals.
  A finite sum of products of reals is a real, so the squared lengths, the Gram entries and the cross products
  of real arrays are reals. For a real s, (s + s) − 2·s = 0: the squared distance of a row from itself, which one
  program writes as the constant 0 and the other computes. And for real arrays 2·Σ_f x_f·y_f = Σ_f (2·x_f)·y_f:
  the factor 2 applied after the sum or to each entry of the first array before it. (In the extended reals neither
  holds without the entries being reals: ∞ − ∞ is not 0 and products do not distribute over all sums.)
-/
import proofs.«409862_j41274635715290_3_alg».proof.Proof.Spec.Region
import proofs.«409862_j41274635715290_3_alg».proof.Proof.Spec.Sums
import Idealize.ShloMosaic.PureOps.Ideal
import Idealize.ShloMosaic.PureOps.Ideal.Laws

noncomputable section

open scoped BigOperators

namespace Cert.MmdAlg

open Idealize.ShloMosaic Idealize.ShloMosaic.ValueIdx Cert.Region

/-! ### Real sums inside the extended reals -/

/-- The embedding of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of products of embedded reals is the embedded sum of the products. -/
theorem sum_coe_mul {ι : Type*} (s : Finset ι) (x y : ι → ℝ) :
    ∑ i ∈ s, ((x i : EReal) * (y i : EReal)) = ((∑ i ∈ s, x i * y i : ℝ) : EReal) := by
  rw [coe_sum]
  exact Finset.sum_congr rfl fun i _ => (EReal.coe_mul _ _).symm

/-- A finite sum of products of reals is a real. -/
theorem real_sum_mul {n : ℕ} (u v : Fin n → EReal) (hu : ∀ f, ∃ x : ℝ, u f = (x : EReal))
    (hv : ∀ f, ∃ y : ℝ, v f = (y : EReal)) : ∃ s : ℝ, ∑ f, u f * v f = (s : EReal) := by
  choose x hx using hu
  choose y hy using hv
  refine ⟨∑ f, x f * y f, ?_⟩
  rw [← sum_coe_mul]
  exact Finset.sum_congr rfl fun f _ => by rw [hx f, hy f]

/-! ### The three sums of real arrays are reals -/

/-- A row's squared length is a real. -/
theorem real_sqAt {X : Mat 1280 32768} (hX : IsReal X) (p : Fin 2) (r : Fin 5) (a : Fin 128) :
    ∃ s : ℝ, sqAt X p r a = (s : EReal) :=
  real_sum_mul _ _ (fun f => hX _) (fun f => hX _)

/-- A Gram entry is a real. -/
theorem real_gramAt {X : Mat 1280 32768} (hX : IsReal X) (p : Fin 2) (r : Fin 5) (a b : Fin 128) :
    ∃ s : ℝ, gramAt X p r a b = (s : EReal) :=
  real_sum_mul _ _ (fun f => hX _) (fun f => hX _)

/-- A cross product of two rows is a real. -/
theorem real_crossAt {X Y : Mat 1280 32768} (hX : IsReal X) (hY : IsReal Y) (i j : Fin 1280) :
    ∃ s : ℝ, crossAt X Y i j = (s : EReal) :=
  real_sum_mul _ _ (fun f => hX _) (fun f => hY _)

/-- On the diagonal the Gram entry is the row's squared length. -/
theorem gramAt_diag (X : Mat 1280 32768) (p : Fin 2) (r : Fin 5) (a : Fin 128) :
    gramAt X p r a a = sqAt X p r a := rfl

/-! ### The literals -/

/-- The pattern 0x40000000 denotes 2. -/
theorem ofBits_two : Ideal.ofBits .f32 0x40000000#32 = ((2 : ℝ) : EReal) := by
  simp [Ideal.ofBits, Ideal.ieee, -EReal.coe_mul]; norm_num

/-- The pattern 0x3F000000 denotes 1/2. -/
theorem ofBits_half : Ideal.ofBits .f32 0x3F000000#32 = ((1 / 2 : ℝ) : EReal) := by
  simp [Ideal.ofBits, Ideal.ieee, -EReal.coe_mul]; norm_num

/-- The pattern 0x00000000 denotes 0. -/
theorem ofBits_zero : Ideal.ofBits .f32 0x00000000#32 = (0 : EReal) := Ideal.ofBits_zero_f32

/-! ### The diagonal -/

/-- For a real s, (s + s) − 2·s = 0. -/
theorem real_diag (s : ℝ) : ((s : EReal) + (s : EReal)) - ((2 : ℝ) : EReal) * (s : EReal) = 0 := by
  rw [← EReal.coe_add, ← EReal.coe_mul, ← EReal.coe_sub, ← EReal.coe_zero]
  congr 1
  ring

/-- A real row's squared distance from itself, as the programs compute it, is 0. -/
theorem diag_zero {X : Mat 1280 32768} (hX : IsReal X) (p : Fin 2) (r : Fin 5) (a : Fin 128) :
    (sqAt X p r a + sqAt X p r a) - Ideal.ofBits .f32 0x40000000#32 * gramAt X p r a a = 0 := by
  obtain ⟨s, hs⟩ := real_sqAt hX p r a
  rw [gramAt_diag, hs, ofBits_two]
  exact real_diag s

/-- The same, against the literal 0 the other program writes there. -/
theorem diag_zero_lit {X : Mat 1280 32768} (hX : IsReal X) (p : Fin 2) (r : Fin 5) (a : Fin 128) :
    (sqAt X p r a + sqAt X p r a) - Ideal.ofBits .f32 0x40000000#32 * gramAt X p r a a
      = Ideal.ofBits .f32 0x00000000#32 := by
  rw [diag_zero hX, ofBits_zero]

/-! ### The factor 2 across the sum -/

/-- For real sequences, 2·Σ x_f·y_f = Σ (2·x_f)·y_f. -/
theorem two_mul_sum {n : ℕ} (u v : Fin n → EReal) (hu : ∀ f, ∃ x : ℝ, u f = (x : EReal))
    (hv : ∀ f, ∃ y : ℝ, v f = (y : EReal)) :
    ((2 : ℝ) : EReal) * ∑ f, u f * v f = ∑ f, (((2 : ℝ) : EReal) * u f) * v f := by
  choose x hx using hu
  choose y hy using hv
  have hl : ∑ f, u f * v f = ∑ f, ((x f : EReal) * (y f : EReal)) :=
    Finset.sum_congr rfl fun f _ => by rw [hx f, hy f]
  have hr : ∑ f, (((2 : ℝ) : EReal) * u f) * v f = ∑ f, (((2 * x f : ℝ) : EReal) * (y f : EReal)) :=
    Finset.sum_congr rfl fun f _ => by rw [hx f, hy f, EReal.coe_mul]
  rw [hl, hr, sum_coe_mul, sum_coe_mul, ← EReal.coe_mul, Finset.mul_sum]
  congr 1
  exact Finset.sum_congr rfl fun f _ => (mul_assoc _ _ _).symm

/-- For real arrays, twice the cross product of rows i and j is the cross product of the doubled row i with row j. -/
theorem two_mul_crossAt {X Y : Mat 1280 32768} (hX : IsReal X) (hY : IsReal Y) (i j : Fin 1280) :
    Ideal.ofBits .f32 0x40000000#32 * crossAt X Y i j
      = ∑ f : Fin 32768, (Ideal.ofBits .f32 0x40000000#32 * X (ix2 i f)) * Y (ix2 j f) := by
  rw [ofBits_two]
  exact two_mul_sum _ _ (fun f => hX _) (fun f => hY _)

end Cert.MmdAlg

end
-- ==== Proof.RefGen.lean ====
/-
  The reference program's run and its operations read at an index, gathered for the modules that state what the
  reference computes.
-/
import proofs.«409862_j41274635715290_3_alg».proof.Proof.Gen.ReferenceIdeal.Run
import proofs.«409862_j41274635715290_3_alg».proof.Proof.Gen.ReferenceIdeal.Read
-- ==== Proof.Br.Mmd.lean ====
/-
  The mean-discrepancy result. After its one call the program turns five of the call's arrays — the ten regions'
  Gram matrices G and squared row lengths s of the source rows X and of the target rows Y, and the cross products
  X·Yᵀ — into one number: with k(d) = exp(−d/2),
    mmd = ( c₁·Σ k(dXX) − c₂·Σ k(dXY) + c₁·Σ k(dYY) ) / 100,
  where inside a region dXX[r,a,b] = s[r,a] + s[r,b] − 2·G[r,a,b] with the diagonal a = b set to 0, and across all
  rows dXY[i,j] = sX[i] + sY[j] − 2·(X·Yᵀ)[i,j]. The reference computes the same number from X and Y directly, without
  zeroing the diagonal, and with the factor 2 multiplied into X before the product with Yᵀ. The two agree when every
  entry of X and Y is a real number: on the diagonal s + s − 2·s = 0, and 2·Σ x·y = Σ (2·x)·y.
-/
import proofs.«409862_j41274635715290_3_alg».proof.Proof.KI.TailOps
import proofs.«409862_j41274635715290_3_alg».proof.Proof.Spec.Region
import proofs.«409862_j41274635715290_3_alg».proof.Proof.Spec.MmdAlg
import proofs.«409862_j41274635715290_3_alg».proof.Proof.RefGen
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

open scoped BigOperators

namespace Cert.Br

open Idealize.ShloMosaic Idealize.ShloMosaic.TcCoe Idealize.ShloMosaic.StableHlo Idealize.ShloMosaic.ValueIdx

/-! ## The shared shape of the computation, for any float family -/

section Shape
open Cert.KernelIdeal Cert.KernelIdeal.Gen

variable {F : FTy → Type} [FloatOps F]

/-- Squared lengths per region row, 10 × 128. -/
abbrev T2 (F : FTy → Type) : Type := (⟨S10x128, .f32⟩ : BufTy).Contents (Elt F)
/-- One 128 × 128 matrix per region, 10 × 128 × 128. -/
abbrev T3 (F : FTy → Type) : Type := (⟨S10x128x128, .f32⟩ : BufTy).Contents (Elt F)
/-- All rows against all rows, 1280 × 1280. -/
abbrev TX (F : FTy → Type) : Type := (⟨S1280x1280, .f32⟩ : BufTy).Contents (Elt F)
/-- A single number. -/
abbrev T0 (F : FTy → Type) : Type := (⟨S_, .f32⟩ : BufTy).Contents (Elt F)

/-- Inside each region: s[r,a] + s[r,b] − 2·G[r,a,b]. -/
def sqDist (s : T2 F) (G : T3 F) : T3 F :=
  subf
    (addf
      (broadcastInDim S10x128x128 ![0, 1, 2] bcast_S10x128x1_S10x128x128_0_1_2 (broadcastInDim S10x128x1 ![0, 1] bcast_S10x128_S10x128x1_0_1 s))
      (broadcastInDim S10x128x128 ![0, 1, 2] bcast_S10x1x128_S10x128x128_0_1_2 (broadcastInDim S10x1x128 ![0, 2] bcast_S10x128_S10x1x128_0_2 s)))
    (mulf (broadcastInDim S10x128x128 ![] bcast_S_S10x128x128 (constant S_ .f32 0x40000000#32)) G)

/-- k(d) = exp(−d · ½), entry by entry, on the regions' matrices. -/
def gaussOf (d : T3 F) : T3 F :=
  Host.exp (mulf (Host.negf d) (broadcastInDim S10x128x128 ![] bcast_S_S10x128x128 (constant S_ .f32 0x3F000000#32)))

/-- The regions' matrix with its diagonal a = b replaced by zero. -/
def zeroDiag (d : T3 F) : T3 F :=
  select (cmpi .eq (iotaInDim S10x128x128 32 1) (iotaInDim S10x128x128 32 2))
    (broadcastInDim S10x128x128 ![] bcast_S_S10x128x128 (constant S_ .f32 0x00000000#32)) d

/-- Across all rows: exp(−(sX[i] + sY[j] − P[i,j]) · ½), where P is twice the cross product. -/
def gaussCross (sx sy : T2 F) (P : TX F) : TX F :=
  Host.exp (mulf
    (Host.negf (subf
      (addf
        (broadcastInDim S1280x1280 ![0, 1] bcast_S1280x1_S1280x1280_0_1 (broadcastInDim S1280x1 ![0] bcast_S1280_S1280x1_0 (shapeCast S1280 sx shapeCasts_S10x128_S1280)))
        (broadcastInDim S1280x1280 ![0, 1] bcast_S1x1280_S1280x1280_0_1 (broadcastInDim S1x1280 ![1] bcast_S1280_S1x1280_1 (shapeCast S1280 sy shapeCasts_S10x128_S1280))))
      P))
    (broadcastInDim S1280x1280 ![] bcast_S_S1280x1280 (constant S_ .f32 0x3F000000#32)))

/-- Twice a 1280 × 1280 matrix. -/
def twice (C : TX F) : TX F :=
  mulf (broadcastInDim S1280x1280 ![] bcast_S_S1280x1280 (constant S_ .f32 0x40000000#32)) C

/-- The three kernel matrices' totals, weighted, combined and divided by 100. -/
def combine (kxx : T3 F) (kxy : TX F) (kyy : T3 F) : T0 F :=
  Host.divf
    (addf
      (subf
        (mulf (constant S_ .f32 0x3A214285#32) (Host.reduceAdd kxx (constant S_ .f32 0x00000000#32) reducesTo_S10x128x128_S_d0_1_2 h_S_))
        (mulf (constant S_ .f32 0x39000000#32) (Host.reduceAdd kxy (constant S_ .f32 0x00000000#32) reducesTo_S1280x1280_S_d0_1 h_S_)))
      (mulf (constant S_ .f32 0x3A214285#32) (Host.reduceAdd kyy (constant S_ .f32 0x00000000#32) reducesTo_S10x128x128_S_d0_1_2 h_S_)))
    (constant S_ .f32 0x42C80000#32)

/-- The call's 2 × 5 × 128 array of squared lengths seen as 10 × 128 (region 5p + r). -/
def regions2 (A : (⟨S2x5x128, .f32⟩ : BufTy).Contents (Elt F)) : T2 F := shapeCast S10x128 A shapeCasts_S2x5x128_S10x128
/-- The call's 2 × 5 × 128 × 128 array of Gram matrices seen as 10 × 128 × 128. -/
def regions3 (A : (⟨S2x5x128x128, .f32⟩ : BufTy).Contents (Elt F)) : T3 F := shapeCast S10x128x128 A shapeCasts_S2x5x128x128_S10x128x128

/-- What the host operations after the call make of its first five result arrays. -/
def Tmmd (GX GY : (⟨S2x5x128x128, .f32⟩ : BufTy).Contents (Elt F)) (sX sY : (⟨S2x5x128, .f32⟩ : BufTy).Contents (Elt F)) (C : TX F) : T0 F :=
  combine (gaussOf (zeroDiag (sqDist (regions2 sX) (regions3 GX))))
    (gaussCross (regions2 sX) (regions2 sY) (twice C))
    (gaussOf (zeroDiag (sqDist (regions2 sY) (regions3 GY))))

end Shape

/-! ## The program's host operations compute it -/

section Kernel
open Cert.KernelIdeal Cert.KernelIdeal.Gen

variable {F : FTy → Type} [FloatOps F]

set_option maxHeartbeats 4000000 in
/-- Reading the 59th value off the operations after the call, from any contents of the buffers. -/
theorem tail_mmd (W : Valuation τ sig (Elt F)) :
    StableHlo.after (Cert.KernelIdeal.Fr.tailOps (F := F)).flatten W (Proc.devRef .tc main_v59)
      = Tmmd (W (Proc.devRef .tc main_v0_0)) (W (Proc.devRef .tc main_v0_1)) (W (Proc.devRef .tc main_v0_2)) (W (Proc.devRef .tc main_v0_3)) (W (Proc.devRef .tc main_v0_4)) := by
  simp only [Cert.KernelIdeal.Fr.tailOps, hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, List.flatten_cons, List.flatten_nil, List.append_nil, List.cons_append, List.nil_append]
  after_results_simp
  rfl

end Kernel
/-! ## Reading the pieces at an index, over the extended reals -/

section Math
open Cert.KernelIdeal Cert.KernelIdeal.Gen

/-- s[r,a] + s[r,b] − 2·G[r,a,b], entry by entry. -/
theorem sqDist_apply (s : T2 Ideal) (G : T3 Ideal) (r : Fin 10) (a b : Fin 128) :
    sqDist s G (ix3 r a b) = (s (ix2 r a) + s (ix2 r b)) - Ideal.ofBits .f32 0x40000000#32 * G (ix3 r a b) := by
  have e1 : broadcastInDim S10x128x128 ![0, 1, 2] bcast_S10x128x1_S10x128x128_0_1_2 (broadcastInDim S10x128x1 ![0, 1] bcast_S10x128_S10x128x1_0_1 s) (ix3 r a b) = s (ix2 r a) :=
    (broadcastInDim_apply _ bcast_S10x128x1_S10x128x128_0_1_2 _ (ix3 r a b) (ix3 r a (0 : Fin 1))
      (fun x => match x with | ⟨0, _⟩ => rfl | ⟨1, _⟩ => rfl | ⟨2, _⟩ => rfl)).trans
    (broadcastInDim_apply _ bcast_S10x128_S10x128x1_0_1 s (ix3 r a (0 : Fin 1)) (ix2 r a)
      (fun x => match x with | ⟨0, _⟩ => rfl | ⟨1, _⟩ => rfl))
  have e2 : broadcastInDim S10x128x128 ![0, 1, 2] bcast_S10x1x128_S10x128x128_0_1_2 (broadcastInDim S10x1x128 ![0, 2] bcast_S10x128_S10x1x128_0_2 s) (ix3 r a b) = s (ix2 r b) :=
    (broadcastInDim_apply _ bcast_S10x1x128_S10x128x128_0_1_2 _ (ix3 r a b) (ix3 r (0 : Fin 1) b)
      (fun x => match x with | ⟨0, _⟩ => rfl | ⟨1, _⟩ => rfl | ⟨2, _⟩ => rfl)).trans
    (broadcastInDim_apply _ bcast_S10x128_S10x1x128_0_2 s (ix3 r (0 : Fin 1) b) (ix2 r b)
      (fun x => match x with | ⟨0, _⟩ => rfl | ⟨1, _⟩ => rfl))
  have e3 : broadcastInDim S10x128x128 ![] bcast_S_S10x128x128 (constant (F := Ideal) S_ .f32 0x40000000#32) (ix3 r a b) = Ideal.ofBits .f32 0x40000000#32 :=
    broadcastInDim_apply _ bcast_S_S10x128x128 _ (ix3 r a b) ix0 (fun x => x.elim0)
  unfold sqDist
  show (_ + _) - _ * _ = _
  rw [e1, e2, e3]

/-- Where every diagonal entry is already zero, zeroing the diagonal changes nothing. -/
theorem zeroDiag_eq (d : T3 Ideal) (h : ∀ (r : Fin 10) (a : Fin 128), d (ix3 r a a) = 0) : zeroDiag d = d := by
  funext i
  obtain ⟨r, a, b, rfl⟩ : ∃ (r : Fin 10) (a b : Fin 128), i = ix3 r a b := ⟨i 0, i 1, i 2, eq_ix3 i⟩
  unfold zeroDiag
  rw [select_apply]
  by_cases hab : a = b
  · subst hab
    have hc : cmpi .eq (iotaInDim S10x128x128 32 1) (iotaInDim S10x128x128 32 2) (ix3 r a a) = 1#1 := by
      show IntOp.cmpi .eq (BitVec.ofNat 32 a.val) (BitVec.ofNat 32 a.val) = 1#1
      simp [IntOp.cmpi]
    rw [hc, select_one, h r a]
    exact (broadcastInDim_apply _ bcast_S_S10x128x128 _ (ix3 r a a) ix0 (fun x => x.elim0)).trans Ideal.ofBits_zero_f32
  · have hc : cmpi .eq (iotaInDim S10x128x128 32 1) (iotaInDim S10x128x128 32 2) (ix3 r a b) = 0#1 := by
      show IntOp.cmpi .eq (BitVec.ofNat 32 a.val) (BitVec.ofNat 32 b.val) = 0#1
      have ha := a.isLt; have hb := b.isLt
      have hne : BitVec.ofNat 32 a.val ≠ BitVec.ofNat 32 b.val := by
        intro e
        have := congrArg BitVec.toNat e
        simp only [BitVec.toNat_ofNat] at this
        rw [Nat.mod_eq_of_lt (by omega), Nat.mod_eq_of_lt (by omega)] at this
        exact hab (Fin.ext this)
      have hbeq : (BitVec.ofNat 32 a.val == BitVec.ofNat 32 b.val) = false := beq_eq_false_iff_ne.mpr hne
      simp [IntOp.cmpi, hbeq]
    rw [hc, select_zero]

/-- The 2 × 5 × 128 array seen as 10 × 128: entry (5p + r, a) is entry (p, r, a). -/
theorem regions2_apply (A : (⟨S2x5x128, .f32⟩ : BufTy).Contents (Elt Ideal)) (p : Fin 2) (r : Fin 5) (a : Fin 128) (q : Fin 10) (hq : q.val = 5 * p.val + r.val) :
    regions2 A (ix2 q a) = A (ix3 p r a) := by
  unfold regions2
  refine shapeCast_apply A shapeCasts_S2x5x128_S10x128 (ix2 q a) (ix3 p r a) ?_
  rw [Shape.rowMajor_val_two, Shape.rowMajor_val_three]
  show (p.val * 5 + r.val) * 128 + a.val = q.val * 128 + a.val
  rw [hq]; ring

/-- The 2 × 5 × 128 × 128 array seen as 10 × 128 × 128. -/
theorem regions3_apply (A : (⟨S2x5x128x128, .f32⟩ : BufTy).Contents (Elt Ideal)) (p : Fin 2) (r : Fin 5) (a b : Fin 128) (q : Fin 10) (hq : q.val = 5 * p.val + r.val) :
    regions3 A (ix3 q a b) = A (ix4 p r a b) := by
  unfold regions3
  refine shapeCast_apply A shapeCasts_S2x5x128x128_S10x128x128 (ix3 q a b) (ix4 p r a b) ?_
  rw [Shape.rowMajor_val_three, Shape.rowMajor_val_four]
  show ((p.val * 5 + r.val) * 128 + a.val) * 128 + b.val = (q.val * 128 + a.val) * 128 + b.val
  rw [hq]; ring

/-- Every region index below 10 is 5p + r. -/
theorem split_region (q : Fin 10) : ∃ (p : Fin 2) (r : Fin 5), q.val = 5 * p.val + r.val :=
  ⟨⟨q.val / 5, by have := q.isLt; omega⟩, ⟨q.val % 5, Nat.mod_lt _ (by decide)⟩, by show q.val = 5 * (q.val / 5) + q.val % 5; omega⟩

end Math

/-! ## The reference computes the same shape from X and Y -/

section Reference
open Cert.ReferenceIdeal Cert.ReferenceIdeal.Gen Cert.ReferenceIdeal.Read

variable {F : FTy → Type} [FloatOps F]

/-- The reference's result, stage by stage, is the same combination of the same three kernel matrices, with no zeroing
    of the diagonal and with its own row sums, Gram matrices and doubled cross product. -/
theorem ref_shape (x0 x1 : (⟨S1280x32768, .f32⟩ : BufTy).Contents (Elt F)) :
    (val_main_v56 (F := F) x0 x1 : T0 F)
      = combine (gaussOf (sqDist (val_main_v3 (F := F) x0) (val_main_v11 (F := F) x0)))
          (gaussCross (val_main_v3 (F := F) x0) (val_main_v5 (F := F) x1) (val_main_v42 (F := F) x0 x1))
          (gaussOf (sqDist (val_main_v5 (F := F) x1) (val_main_v24 (F := F) x1))) := rfl

/-- Row a of region q = 5p + r of the 10 × 128 × 32768 view, column k, is entry (row p r a, k) of the 1280 × 32768 array. -/
theorem row_idx (p : Fin 2) (r : Fin 5) (a : Fin 128) (q : Fin 10) (hq : q.val = 5 * p.val + r.val) (k : Fin 32768) :
    idx_main_v0 (idx_main_v3 (ix2 q a) k) = ix2 (Cert.Region.row p r a) k := by
  refine Shape.idx_ext₂ ?_ ?_
  · show ((q.val * 128 + a.val) * 32768 + k.val) / 32768 = (5 * p.val + r.val) * 128 + a.val
    have := k.isLt; omega
  · show ((q.val * 128 + a.val) * 32768 + k.val) % 32768 = k.val
    have := k.isLt; omega

/-- The reference's row sums of squares are the call's squared lengths, region by region. -/
theorem ref_sq (X : Cert.Region.Mat 1280 32768) : (val_main_v3 (F := Ideal) X : T2 Ideal) = regions2 (F := Ideal) (Cert.Region.sq X) := by
  funext i
  obtain ⟨q, a, rfl⟩ : ∃ (q : Fin 10) (a : Fin 128), i = ix2 q a := ⟨i 0, i 1, eq_ix2 i⟩
  obtain ⟨p, r, hq⟩ := split_region q
  rw [regions2_apply (Cert.Region.sq X) p r a q hq, val_main_v3_apply]
  show Ideal.ofBits .f32 0x00000000#32 + ∑ k : Fin 32768, val_main_v0 (F := Ideal) X (idx_main_v3 (ix2 q a) k) * val_main_v0 (F := Ideal) X (idx_main_v3 (ix2 q a) k)
      = ∑ f : Fin 32768, X (ix2 (Cert.Region.row p r a) f) * X (ix2 (Cert.Region.row p r a) f)
  rw [Ideal.ofBits_zero_f32, zero_add]
  refine Finset.sum_congr rfl fun k _ => ?_
  rw [val_main_v0_apply, row_idx p r a q hq k]

/-- The same for the target rows Y. -/
theorem ref_sq' (Y : Cert.Region.Mat 1280 32768) : (val_main_v5 (F := Ideal) Y : T2 Ideal) = regions2 (F := Ideal) (Cert.Region.sq Y) := by
  funext i
  obtain ⟨q, a, rfl⟩ : ∃ (q : Fin 10) (a : Fin 128), i = ix2 q a := ⟨i 0, i 1, eq_ix2 i⟩
  obtain ⟨p, r, hq⟩ := split_region q
  rw [regions2_apply (Cert.Region.sq Y) p r a q hq, val_main_v5_apply]
  show Ideal.ofBits .f32 0x00000000#32 + ∑ k : Fin 32768, val_main_v1 (F := Ideal) Y (idx_main_v5 (ix2 q a) k) * val_main_v1 (F := Ideal) Y (idx_main_v5 (ix2 q a) k)
      = ∑ f : Fin 32768, Y (ix2 (Cert.Region.row p r a) f) * Y (ix2 (Cert.Region.row p r a) f)
  rw [Ideal.ofBits_zero_f32, zero_add]
  refine Finset.sum_congr rfl fun k _ => ?_
  rw [val_main_v1_apply]
  exact congrArg (fun z => Y z * Y z) (row_idx p r a q hq k)

/-- The reference's batched product of the regions' rows is the call's Gram matrices. -/
theorem ref_gram (X : Cert.Region.Mat 1280 32768) : (val_main_v11 (F := Ideal) X : T3 Ideal) = regions3 (F := Ideal) (Cert.Region.gram X) := by
  funext i
  obtain ⟨q, a, b, rfl⟩ : ∃ (q : Fin 10) (a b : Fin 128), i = ix3 q a b := ⟨i 0, i 1, i 2, eq_ix3 i⟩
  obtain ⟨p, r, hq⟩ := split_region q
  rw [regions3_apply (Cert.Region.gram X) p r a b q hq, val_main_v11_apply]
  show ∑ k : Fin 32768, val_main_v0 (F := Ideal) X (idx_main_v3 (ix2 q a) k) * val_main_v0 (F := Ideal) X (idx_main_v3 (ix2 q b) k)
      = ∑ f : Fin 32768, X (ix2 (Cert.Region.row p r a) f) * X (ix2 (Cert.Region.row p r b) f)
  refine Finset.sum_congr rfl fun k _ => ?_
  rw [val_main_v0_apply, val_main_v0_apply, row_idx p r a q hq k, row_idx p r b q hq k]

/-- The same for the target rows Y. -/
theorem ref_gram' (Y : Cert.Region.Mat 1280 32768) : (val_main_v24 (F := Ideal) Y : T3 Ideal) = regions3 (F := Ideal) (Cert.Region.gram Y) := by
  funext i
  obtain ⟨q, a, b, rfl⟩ : ∃ (q : Fin 10) (a b : Fin 128), i = ix3 q a b := ⟨i 0, i 1, i 2, eq_ix3 i⟩
  obtain ⟨p, r, hq⟩ := split_region q
  rw [regions3_apply (Cert.Region.gram Y) p r a b q hq, val_main_v24_apply]
  show ∑ k : Fin 32768, val_main_v1 (F := Ideal) Y (idx_main_v3 (ix2 q a) k) * val_main_v1 (F := Ideal) Y (idx_main_v3 (ix2 q b) k)
      = ∑ f : Fin 32768, Y (ix2 (Cert.Region.row p r a) f) * Y (ix2 (Cert.Region.row p r b) f)
  refine Finset.sum_congr rfl fun k _ => ?_
  rw [val_main_v1_apply, val_main_v1_apply]
  exact congrArg₂ (fun z z' => Y z * Y z') (row_idx p r a q hq k) (row_idx p r b q hq k)

/-- For real X and Y, the reference's product of the doubled X with Yᵀ is twice the call's cross products. -/
theorem ref_cross (X Y : Cert.Region.Mat 1280 32768) (hX : Cert.Region.IsReal X) (hY : Cert.Region.IsReal Y) :
    (val_main_v42 (F := Ideal) X Y : TX Ideal) = twice (F := Ideal) (Cert.Region.cross X Y) := by
  funext i
  obtain ⟨a, b, rfl⟩ : ∃ (a b : Fin 1280), i = ix2 a b := ⟨i 0, i 1, eq_ix2 i⟩
  have e2 : twice (F := Ideal) (Cert.Region.cross X Y) (ix2 a b) = Ideal.ofBits .f32 0x40000000#32 * Cert.Region.crossAt X Y a b := by
    unfold twice
    show _ * _ = _
    exact congrArg (· * Cert.Region.crossAt X Y a b)
      (broadcastInDim_apply _ Cert.KernelIdeal.Gen.bcast_S_S1280x1280 (constant (F := Ideal) Cert.KernelIdeal.S_ .f32 0x40000000#32) (ix2 a b) ix0 (fun x => x.elim0))
  rw [e2, Cert.MmdAlg.two_mul_crossAt hX hY a b, val_main_v42_apply]
  refine Finset.sum_congr rfl fun k _ => ?_
  rw [val_main_v40_apply, val_main_v39_apply, val_main_v41_apply]
  show (Ideal.ofBits .f32 0x40000000#32 * X (lidx_main_v42 (ix2 a b) k)) * Y (idx_main_v41 (ridx_main_v42 (ix2 a b) k)) = _
  have el : lidx_main_v42 (ix2 a b) k = ix2 a k := Shape.idx_ext₂ rfl rfl
  have er : idx_main_v41 (ridx_main_v42 (ix2 a b) k) = ix2 b k := Shape.idx_ext₂ rfl rfl
  rw [el, er]

end Reference

/-! ## The two agree -/

section Bridge

/-- On real rows, zeroing the diagonal of the regions' squared distances changes nothing: s + s − 2·s = 0. -/
theorem zeroDiag_sqDist {X : Cert.Region.Mat 1280 32768} (hX : Cert.Region.IsReal X) :
    zeroDiag (sqDist (regions2 (F := Ideal) (Cert.Region.sq X)) (regions3 (F := Ideal) (Cert.Region.gram X)))
      = sqDist (regions2 (F := Ideal) (Cert.Region.sq X)) (regions3 (F := Ideal) (Cert.Region.gram X)) := by
  refine zeroDiag_eq _ fun q a => ?_
  obtain ⟨p, r, hq⟩ := split_region q
  rw [sqDist_apply, regions2_apply (Cert.Region.sq X) p r a q hq, regions3_apply (Cert.Region.gram X) p r a a q hq]
  exact Cert.MmdAlg.diag_zero hX p r a

/-- The program's mean discrepancy, read off its host operations from the call's five arrays, is the reference's. -/
theorem bridge_mmd (W : Valuation Cert.KernelIdeal.τ Cert.KernelIdeal.sig (Elt Ideal))
    (m' : (ℓ : Loc Cert.ReferenceIdeal.nD Cert.ReferenceIdeal.τ Cert.ReferenceIdeal.sig) → Buf (Elt Ideal) ℓ) (c : Dev Cert.KernelIdeal.nD)
    (X Y : Cert.Region.Mat 1280 32768) (hX : Cert.Region.IsReal X) (hY : Cert.Region.IsReal Y)
    (h0 : m' ((c.tc : Thread Cert.ReferenceIdeal.nD Cert.ReferenceIdeal.τ).loc Cert.ReferenceIdeal.main_arg0) = X)
    (h1 : m' ((c.tc : Thread Cert.ReferenceIdeal.nD Cert.ReferenceIdeal.τ).loc Cert.ReferenceIdeal.main_arg1) = Y)
    (w4 : W (Proc.devRef .tc Cert.KernelIdeal.main_v0_0) = Cert.Region.gram X)
    (w5 : W (Proc.devRef .tc Cert.KernelIdeal.main_v0_1) = Cert.Region.gram Y)
    (w6 : W (Proc.devRef .tc Cert.KernelIdeal.main_v0_2) = Cert.Region.sq X)
    (w7 : W (Proc.devRef .tc Cert.KernelIdeal.main_v0_3) = Cert.Region.sq Y)
    (w8 : W (Proc.devRef .tc Cert.KernelIdeal.main_v0_4) = Cert.Region.cross X Y) :
    StableHlo.after (Cert.KernelIdeal.Fr.tailOps (F := Ideal)).flatten W (Proc.devRef .tc Cert.KernelIdeal.main_v59)
      = Cert.ReferenceIdeal.Value.res_main_v56 m' c := by
  rw [tail_mmd, w4, w5, w6, w7, w8, Cert.ReferenceIdeal.Read.val_main_v56_eq, h0, h1]
  refine Eq.trans ?_ (ref_shape (F := Ideal) X Y).symm
  rw [ref_sq, ref_sq', ref_gram, ref_gram', ref_cross X Y hX hY]
  unfold Tmmd
  rw [zeroDiag_sqDist hX, zeroDiag_sqDist hY]

end Bridge

end Cert.Br

end
-- ==== Proof.LibRowLayers.lean ====
/-
  Layers of a row-wise network read at an index, at the exact instance (floats read as extended reals).

  Every layer here sends a matrix of m rows to a matrix of m rows, and row r of the result reads row r of the
  matrix operands only. The readings are stated for an arbitrary number of rows, so they serve a block of rows and
  the whole array alike.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import Idealize.ShloMosaic.Lib.IdealHost

noncomputable section

open scoped BigOperators

namespace RowLayers

open Idealize.ShloMosaic Idealize.ShloMosaic.ValueIdx

variable {m k n : ℕ}

/-- Putting column c back into the reduced index r of a reduction along the columns gives (r, c). -/
theorem lift_cols (hred : (⟨2, ![m, k]⟩ : Shape).Reduces [1] ⟨1, ![m]⟩) (r : Fin m)
    (c : Fin ((⟨2, ![m, k]⟩ : Shape).size 1)) : hred.lift (ix1 r) c = ix2 r (⟨c.val, c.isLt⟩ : Fin k) := by
  funext a; apply Fin.ext
  fin_cases a <;> rfl

/-- The sum of a row's squares: a lane reduction of x * x along the columns, read at row r. -/
theorem rowSquares_apply (hred : (⟨2, ![m, k]⟩ : Shape).Reduces [1] ⟨1, ![m]⟩) (hfmt : FKind.Formats FTy.f32)
    (hacc : (0x00000000#32 : BitVec FTy.f32.bits) = FKind.add.neutral .f32 hfmt)
    (x : FVec Ideal ⟨2, ![m, k]⟩ .f32) (r : Fin m) :
    multiReduction .add [1] ⟨1, ![m]⟩ (mulf x x) 0x00000000#32 hred hfmt hacc (ix1 r)
      = ∑ c : Fin k, x (ix2 r c) * x (ix2 r c) := by
  rw [Ideal.multiReduction_add_single]
  refine Finset.sum_congr rfl fun c _ => ?_
  rw [lift_cols]; rfl

/-- A vector of m entries cast to a column reads, at (r, 0), entry r. -/
theorem column_apply {α : Type} (hsc : (⟨1, ![m]⟩ : Shape).ShapeCasts ⟨2, ![m, 1]⟩) (v : (⟨1, ![m]⟩ : Shape).Idx → α)
    (r : Fin m) (u : Fin 1) : shapeCast ⟨2, ![m, 1]⟩ v hsc (ix2 r u) = v (ix1 r) :=
  shapeCast_apply v hsc _ _ (by
    have hu : u.val = 0 := by omega
    rw [Shape.rowMajor_val_two, Shape.rowMajor_val_one]
    show r.val = r.val * 1 + u.val
    rw [hu]; omega)

/-- A column broadcast along the rows' entries reads, at (r, j), the column's entry r. -/
theorem broadcastColumn_apply {α : Type} (hbc : (⟨2, ![m, 1]⟩ : Shape).Broadcasts ⟨2, ![m, k]⟩)
    (v : (⟨2, ![m, 1]⟩ : Shape).Idx → α) (r : Fin m) (j : Fin k) :
    broadcastTo ⟨2, ![m, k]⟩ v hbc (ix2 r j) = v (ix2 r (0 : Fin 1)) := by
  refine broadcastTo_apply v hbc (ix2 r j) (ix2 r (0 : Fin 1)) fun ax => ?_
  match ax with
  | ⟨0, _⟩ =>
    show r.val = if m = 1 then 0 else r.val
    split
    · have := r.isLt; omega
    · rfl
  | ⟨1, _⟩ => rfl

/-- A row divided by the larger of its Euclidean length and a floor e: the tiled spelling, at (r, j). -/
theorem rowNormalize_apply (e : BitVec 32) (hred : (⟨2, ![m, k]⟩ : Shape).Reduces [1] ⟨1, ![m]⟩)
    (hfmt : FKind.Formats FTy.f32) (hacc : (0x00000000#32 : BitVec FTy.f32.bits) = FKind.add.neutral .f32 hfmt)
    (hsc : (⟨1, ![m]⟩ : Shape).ShapeCasts ⟨2, ![m, 1]⟩) (hbc : (⟨2, ![m, 1]⟩ : Shape).Broadcasts ⟨2, ![m, k]⟩)
    (x : FVec Ideal ⟨2, ![m, k]⟩ .f32) (r : Fin m) (j : Fin k) :
    divf x (broadcastTo ⟨2, ![m, k]⟩
        (maximumf (sqrt (shapeCast ⟨2, ![m, 1]⟩ (multiReduction .add [1] ⟨1, ![m]⟩ (mulf x x) 0x00000000#32 hred hfmt hacc) hsc))
          (broadcast ⟨2, ![m, 1]⟩ (Scalar.ofBits (F := Ideal) .f32 e))) hbc) (ix2 r j)
      = Ideal.div (x (ix2 r j))
          (max (Ideal.sqrt (∑ c : Fin k, x (ix2 r c) * x (ix2 r c))) (Ideal.ofBits .f32 e)) := by
  rw [divf_apply, broadcastColumn_apply, maximumf_apply]
  show Ideal.div _ (max (Ideal.sqrt (shapeCast _ _ hsc (ix2 r (0 : Fin 1)))) _) = _
  rw [column_apply, rowSquares_apply]
  rfl

/-- A vector of n entries cast to one row and broadcast down m rows reads, at (r, j), entry j. -/
theorem biasRow_apply {α : Type} (hsc : (⟨1, ![n]⟩ : Shape).ShapeCasts ⟨2, ![1, n]⟩)
    (hbc : (⟨2, ![1, n]⟩ : Shape).Broadcasts ⟨2, ![m, n]⟩) (b : (⟨1, ![n]⟩ : Shape).Idx → α) (r : Fin m) (j : Fin n) :
    broadcastTo ⟨2, ![m, n]⟩ (shapeCast ⟨2, ![1, n]⟩ b hsc) hbc (ix2 r j) = b (ix1 j) := by
  rw [broadcastTo_1b_ab_apply, shapeCast_a_1a_apply]

/-- One row broadcast down m rows reads, at (r, j), the row's entry j. -/
theorem oneRow_apply {α : Type} (hsc : (⟨2, ![1, n]⟩ : Shape).ShapeCasts ⟨2, ![1, n]⟩)
    (hbc : (⟨2, ![1, n]⟩ : Shape).Broadcasts ⟨2, ![m, n]⟩) (v : (⟨2, ![1, n]⟩ : Shape).Idx → α) (r : Fin m) (j : Fin n) :
    broadcastTo ⟨2, ![m, n]⟩ (shapeCast ⟨2, ![1, n]⟩ (shapeCast ⟨2, ![1, n]⟩ v hsc) hsc) hbc (ix2 r j) = v (ix2 (0 : Fin 1) j) := by
  rw [broadcastTo_1b_ab_apply, shapeCast_self, shapeCast_self]

/-! ## The matrix unit's product with the right operand contracted on its last axis -/

/-- An m×k matrix times the transpose of an n×k matrix, accumulated into the zero splat, at (a, b): the sum over the
    contracted coordinate of the products of the entries. -/
theorem matmulT_apply {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant ⟨2, ![m, n]⟩ .f32 0x00000000#32) (ix2 a b)
      = ∑ c : Fin k, A (ix2 a c) * B (ix2 b c) := by
  refine (Ideal.matmul_constant_zero_apply (DotDims.transposedRhs m k n) prec A B (ix2 a b)).trans ?_
  rw [← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- The affine layer in the tiled spelling — operands narrowed (the identity here), multiplied on the matrix unit
    into a zero accumulator, plus the bias vector as a row broadcast down the rows — at (r, j). -/
theorem affineRows_apply {φ₁ : FTy} (h16 : FTy.bf16.bits < FTy.f32.bits)
    (hsc : (⟨1, ![n]⟩ : Shape).ShapeCasts ⟨2, ![1, n]⟩) (hbc : (⟨2, ![1, n]⟩ : Shape).Broadcasts ⟨2, ![m, n]⟩)
    (x : FVec Ideal ⟨2, ![m, k]⟩ φ₁) (w : FVec Ideal ⟨2, ![n, k]⟩ .f32) (b : FVec Ideal ⟨1, ![n]⟩ .f32)
    (r : Fin m) (j : Fin n) :
    addf (matmul (DotDims.transposedRhs m k n) none x (truncf .bf16 w h16) (constant ⟨2, ![m, n]⟩ .f32 0x00000000#32))
        (broadcastTo ⟨2, ![m, n]⟩ (shapeCast ⟨2, ![1, n]⟩ b hsc) hbc) (ix2 r j)
      = (∑ c : Fin k, x (ix2 r c) * w (ix2 j c)) + b (ix1 j) := by
  rw [addf_apply, matmulT_apply, biasRow_apply]
  rfl

/-! ## Two matrices laid side by side -/

/-- Left of the seam a side-by-side concatenation reads the first matrix. -/
theorem catCols_left {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin p)
    (hc : c.val = j.val) :
    concatenate ⟨2, ![m, t]⟩ 1 [⟨⟨2, ![m, p]⟩, a⟩, ⟨⟨2, ![m, q]⟩, b⟩] h (ix2 r j) = a (ix2 r c) :=
  concatenate_pair_apply_left 1 a b h (ix2 r j) rfl (ix2 r c) (fun ax => by
    match ax with
    | ⟨0, _⟩ => rfl
    | ⟨1, _⟩ => exact hc)

/-- Right of the seam it reads the second matrix, p columns back. -/
theorem catCols_right {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin q)
    (hc : c.val + p = j.val) :
    concatenate ⟨2, ![m, t]⟩ 1 [⟨⟨2, ![m, p]⟩, a⟩, ⟨⟨2, ![m, q]⟩, b⟩] h (ix2 r j) = b (ix2 r c) :=
  concatenate_pair_apply_right 1 a b h (ix2 r j) rfl rfl (ix2 r c) (fun ax hax => by
    match ax with
    | ⟨0, _⟩ => rfl
    | ⟨1, _⟩ => exact absurd rfl hax) hc

/-! ## The same layers in the whole-array spelling: the host's operations with broadcast_in_dim -/

/-- A scalar broadcast over any shape reads the scalar. -/
theorem scalarBroadcast_apply {t : Shape} (w : BitVec 32) (h : (⟨0, ![]⟩ : Shape).BroadcastsInDim t ![]) (i : t.Idx) :
    broadcastInDim t ![] h (constant (F := Ideal) ⟨0, ![]⟩ .f32 w) i = Ideal.ofBits .f32 w :=
  broadcastInDim_apply ![] h _ i ix0 (fun a => a.elim0)

/-- A vector of n entries broadcast along the columns of m rows reads, at (r, j), entry j. -/
theorem rowBroadcast_apply {α : Type} (h : (⟨1, ![n]⟩ : Shape).BroadcastsInDim ⟨2, ![m, n]⟩ ![1])
    (v : (⟨1, ![n]⟩ : Shape).Idx → α) (r : Fin m) (j : Fin n) :
    broadcastInDim ⟨2, ![m, n]⟩ ![1] h v (ix2 r j) = v (ix1 j) := by
  refine broadcastInDim_apply ![1] h v (ix2 r j) (ix1 j) fun a => ?_
  match a with
  | ⟨0, _⟩ =>
    show j.val = if n = 1 then 0 else j.val
    split
    · have := j.isLt; omega
    · rfl

/-- A vector of m entries made a column by broadcast_in_dim reads, at (r, 0), entry r. -/
theorem columnBroadcast_apply {α : Type} (h : (⟨1, ![m]⟩ : Shape).BroadcastsInDim ⟨2, ![m, 1]⟩ ![0])
    (v : (⟨1, ![m]⟩ : Shape).Idx → α) (r : Fin m) (u : Fin 1) :
    broadcastInDim ⟨2, ![m, 1]⟩ ![0] h v (ix2 r u) = v (ix1 r) := by
  refine broadcastInDim_apply ![0] h v (ix2 r u) (ix1 r) fun a => ?_
  match a with
  | ⟨0, _⟩ =>
    show r.val = if m = 1 then 0 else r.val
    split
    · have := r.isLt; omega
    · rfl

/-- A column broadcast_in_dim'd along the rows' entries reads, at (r, j), the column's entry r. -/
theorem columnAcross_apply {α : Type} (h : (⟨2, ![m, 1]⟩ : Shape).BroadcastsInDim ⟨2, ![m, k]⟩ ![0, 1])
    (v : (⟨2, ![m, 1]⟩ : Shape).Idx → α) (r : Fin m) (j : Fin k) :
    broadcastInDim ⟨2, ![m, k]⟩ ![0, 1] h v (ix2 r j) = v (ix2 r (0 : Fin 1)) := by
  refine broadcastInDim_apply ![0, 1] h v (ix2 r j) (ix2 r (0 : Fin 1)) fun a => ?_
  match a with
  | ⟨0, _⟩ =>
    show r.val = if m = 1 then 0 else r.val
    split
    · have := r.isLt; omega
    · rfl
  | ⟨1, _⟩ => rfl

/-- One row broadcast_in_dim'd down m rows reads, at (r, j), the row's entry j. -/
theorem rowDown_apply {α : Type} (h : (⟨2, ![1, n]⟩ : Shape).BroadcastsInDim ⟨2, ![m, n]⟩ ![0, 1])
    (v : (⟨2, ![1, n]⟩ : Shape).Idx → α) (r : Fin m) (j : Fin n) :
    broadcastInDim ⟨2, ![m, n]⟩ ![0, 1] h v (ix2 r j) = v (ix2 (0 : Fin 1) j) := by
  refine broadcastInDim_apply ![0, 1] h v (ix2 r j) (ix2 (0 : Fin 1) j) fun a => ?_
  match a with
  | ⟨0, _⟩ => rfl
  | ⟨1, _⟩ =>
    show j.val = if n = 1 then 0 else j.val
    split
    · have := j.isLt; omega
    · rfl

/-- The host's quotient, entry by entry. -/
theorem hostDivf_apply {s : Shape} {φ : FTy} (a b : FVec Ideal s φ) (i : s.Idx) : Host.divf a b i = Ideal.div (a i) (b i) := rfl

/-- The host's square root, entry by entry. -/
theorem hostSqrt_apply {s : Shape} {φ : FTy} (a : FVec Ideal s φ) (i : s.Idx) : Host.sqrt a i = Ideal.sqrt (a i) := rfl

/-- The host's sum of a row's squares from the zero scalar, at row r. -/
theorem hostRowSquares_apply (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (X : FVec Ideal ⟨2, ![m, k]⟩ .f32) (r : Fin m) :
    Host.reduceAdd (mulf X X) (constant (F := Ideal) ⟨0, ![]⟩ .f32 0x00000000#32) hrt hu (ix1 r)
      = ∑ c : Fin k, X (ix2 r c) * X (ix2 r c) := by
  simp only [Host.reduceAdd, Ideal.hostReduceAdd_def]
  rw [Ideal.hostReduceAdd_single hrt hred]
  show Ideal.ofBits .f32 0x00000000#32 + _ = _
  rw [Ideal.ofBits_zero_f32, zero_add]
  refine Finset.sum_congr rfl fun c _ => ?_
  rw [lift_cols]; rfl

/-- The whole-array row normalisation at (r, j). -/
theorem hostRowNormalize_apply (e : BitVec 32) (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (h0 : (⟨1, ![m]⟩ : Shape).BroadcastsInDim ⟨2, ![m, 1]⟩ ![0])
    (hs : (⟨0, ![]⟩ : Shape).BroadcastsInDim ⟨2, ![m, 1]⟩ ![])
    (h01 : (⟨2, ![m, 1]⟩ : Shape).BroadcastsInDim ⟨2, ![m, k]⟩ ![0, 1])
    (X : FVec Ideal ⟨2, ![m, k]⟩ .f32) (r : Fin m) (j : Fin k) :
    Host.divf X (broadcastInDim ⟨2, ![m, k]⟩ ![0, 1] h01
        (maximumf (Host.sqrt (broadcastInDim ⟨2, ![m, 1]⟩ ![0] h0
            (Host.reduceAdd (mulf X X) (constant (F := Ideal) ⟨0, ![]⟩ .f32 0x00000000#32) hrt hu)))
          (broadcastInDim ⟨2, ![m, 1]⟩ ![] hs (constant (F := Ideal) ⟨0, ![]⟩ .f32 e)))) (ix2 r j)
      = Ideal.div (X (ix2 r j))
          (max (Ideal.sqrt (∑ c : Fin k, X (ix2 r c) * X (ix2 r c))) (Ideal.ofBits .f32 e)) := by
  rw [hostDivf_apply, columnAcross_apply, maximumf_apply, hostSqrt_apply, columnBroadcast_apply, scalarBroadcast_apply,
    hostRowSquares_apply hrt hred]

/-- The whole-array affine layer — the weight matrix transposed, the host's plain product, plus the bias vector made
    a row and broadcast down the rows — at (r, j). -/
theorem hostAffine_apply (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![m, n]⟩ ![0, 1])
    (X : FVec Ideal ⟨2, ![m, k]⟩ .f32) (w : FVec Ideal ⟨2, ![n, k]⟩ .f32) (b : FVec Ideal ⟨1, ![n]⟩ .f32)
    (r : Fin m) (j : Fin n) :
    addf (Host.dotGeneral (DotDims.plain m k n) none X (transpose ⟨2, ![k, n]⟩ [1, 0] w htr))
        (broadcastInDim ⟨2, ![m, n]⟩ ![0, 1] h01 (broadcastInDim ⟨2, ![1, n]⟩ ![1] h1 b)) (ix2 r j)
      = (∑ c : Fin k, X (ix2 r c) * w (ix2 j c)) + b (ix1 j) := by
  rw [addf_apply, StackMember.dotGeneral_plain_apply, rowDown_apply, rowBroadcast_apply]
  refine congrArg (· + b (ix1 j)) (Finset.sum_congr rfl fun c _ => ?_)
  rw [transpose_ix2_apply]

/-! ## Rows of a block are rows of the whole

A block of mb rows is cut out of a matrix of M rows by a map σ of row numbers. Every layer above reads, in row r
of its result, row r of its matrix operands only; so if the operands of the tiled layer are the σ-rows of the operands of
the whole-array layer, its result is the σ-rows of the whole-array result. -/

/-- Row p of the block b is row σ p of the matrix B. -/
def Rows {mb M k : ℕ} (σ : Fin mb → Fin M) (b : (⟨2, ![mb, k]⟩ : Shape).Idx → EReal)
    (B : (⟨2, ![M, k]⟩ : Shape).Idx → EReal) : Prop :=
  ∀ p c, b (ix2 p c) = B (ix2 (σ p) c)

section RowsLemmas

variable {mb M : ℕ} {σ : Fin mb → Fin M}

theorem Rows.addf {k : ℕ} {φ : FTy} {a b : FVec Ideal ⟨2, ![mb, k]⟩ φ} {A B : FVec Ideal ⟨2, ![M, k]⟩ φ}
    (ha : Rows σ a A) (hb : Rows σ b B) : Rows σ (addf a b) (addf A B) := fun p c => by
  show a _ + b _ = A _ + B _
  rw [ha p c, hb p c]

theorem Rows.mulf {k : ℕ} {φ : FTy} {a b : FVec Ideal ⟨2, ![mb, k]⟩ φ} {A B : FVec Ideal ⟨2, ![M, k]⟩ φ}
    (ha : Rows σ a A) (hb : Rows σ b B) : Rows σ (mulf a b) (mulf A B) := fun p c => by
  show a _ * b _ = A _ * B _
  rw [ha p c, hb p c]

theorem Rows.subf {k : ℕ} {φ : FTy} {a b : FVec Ideal ⟨2, ![mb, k]⟩ φ} {A B : FVec Ideal ⟨2, ![M, k]⟩ φ}
    (ha : Rows σ a A) (hb : Rows σ b B) : Rows σ (subf a b) (subf A B) := fun p c => by
  show a _ - b _ = A _ - B _
  rw [ha p c, hb p c]

/-- The vector unit's tanh against the host's. -/
theorem Rows.tanh {k : ℕ} {φ : FTy} {a : FVec Ideal ⟨2, ![mb, k]⟩ φ} {A : FVec Ideal ⟨2, ![M, k]⟩ φ}
    (ha : Rows σ a A) : Rows σ (tanh a) (Host.tanh A) := fun p c => congrArg Ideal.tanh (ha p c)

/-- A narrowing of the float format is the identity on extended reals. -/
theorem Rows.truncf {k : ℕ} {φ ψ : FTy} {a : FVec Ideal ⟨2, ![mb, k]⟩ φ} {A : (⟨2, ![M, k]⟩ : Shape).Idx → EReal}
    (h : ψ.bits < φ.bits) (ha : Rows σ a A) : Rows σ (truncf ψ a h) A := ha

/-- A scalar splat over the block against the same scalar broadcast over the whole matrix. -/
theorem Rows.splat {k : ℕ} (w : BitVec 32) (h : (⟨0, ![]⟩ : Shape).BroadcastsInDim ⟨2, ![M, k]⟩ ![]) :
    Rows σ (broadcast ⟨2, ![mb, k]⟩ (Scalar.ofBits (F := Ideal) .f32 w))
      (broadcastInDim ⟨2, ![M, k]⟩ ![] h (constant (F := Ideal) ⟨0, ![]⟩ .f32 w)) := fun p c => by
  rw [scalarBroadcast_apply]; rfl

/-- The larger of a value and zero: the splat of the scalar zero against the host's broadcast of it. -/
theorem Rows.relu {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (maximumf a (broadcast ⟨2, ![mb, k]⟩ (Scalar.ofBits (F := Ideal) .f32 0x00000000#32)))
      (maximumf A (broadcastInDim ⟨2, ![M, k]⟩ ![] h (constant (F := Ideal) ⟨0, ![]⟩ .f32 0x00000000#32))) := fun p c => by
  show max (a _) _ = max (A _) (broadcastInDim _ _ h _ _)
  rw [scalarBroadcast_apply, ha p c]; rfl

/-- The logistic function as one operation against its expansion 1 / (1 + exp (-x)) in the host's operations: both
    are the quotient of one by one plus the exponential of the negated argument. -/
theorem Rows.logistic {k : ℕ} {a : FVec Ideal ⟨2, ![mb, k]⟩ .f32} {A : FVec Ideal ⟨2, ![M, k]⟩ .f32}
    (h h' : (⟨0, ![]⟩ : Shape).BroadcastsInDim ⟨2, ![M, k]⟩ ![]) (ha : Rows σ a A) :
    Rows σ (logistic a)
      (Host.divf (broadcastInDim ⟨2, ![M, k]⟩ ![] h (constant (F := Ideal) ⟨0, ![]⟩ .f32 0x3F800000#32))
        (Idealize.ShloMosaic.addf (broadcastInDim ⟨2, ![M, k]⟩ ![] h' (constant (F := Ideal) ⟨0, ![]⟩ .f32 0x3F800000#32))
          (Host.exp (Host.negf A)))) := fun p c => by
  show Ideal.logistic (a _) = Ideal.div (broadcastInDim _ _ h _ _) (broadcastInDim _ _ h' _ _ + Ideal.exp (-(A _)))
  rw [scalarBroadcast_apply, Ideal.ofBits_one_f32, ha p c]
  rfl

/-- One minus a value: the splat of the scalar one against the host's broadcast of it. -/
theorem Rows.oneMinus {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (Idealize.ShloMosaic.subf (broadcast ⟨2, ![mb, k]⟩ (Scalar.ofBits (F := Ideal) .f32 0x3F800000#32)) a)
      (Idealize.ShloMosaic.subf (broadcastInDim ⟨2, ![M, k]⟩ ![] h (constant (F := Ideal) ⟨0, ![]⟩ .f32 0x3F800000#32)) A) :=
  Rows.subf (Rows.splat _ h) ha

/-- A band of columns cut from both. -/
theorem Rows.sliceCols {k w : ℕ} (o : ℕ) {y : (⟨2, ![mb, k]⟩ : Shape).Idx → EReal}
    {Y : (⟨2, ![M, k]⟩ : Shape).Idx → EReal}
    (hs : (⟨2, ![mb, k]⟩ : Shape).Slices ![0, o] ⟨2, ![mb, w]⟩) (hS : (⟨2, ![M, k]⟩ : Shape).Slices ![0, o] ⟨2, ![M, w]⟩)
    (hy : Rows σ y Y) :
    Rows σ (extractStridedSlice ⟨2, ![mb, w]⟩ ![0, o] y hs) (extractStridedSlice ⟨2, ![M, w]⟩ ![0, o] Y hS) := fun p c => by
  have hlt : o + c.val < k := by
    have := hs.2 1; simp at this; omega
  rw [slice2_axis1_apply o y hs p c ⟨o + c.val, hlt⟩ rfl, slice2_axis1_apply o Y hS (σ p) c ⟨o + c.val, hlt⟩ rfl]
  exact hy p _

/-- The row normalisation. -/
theorem Rows.normalize {k : ℕ} (e : BitVec 32)
    (hred : (⟨2, ![mb, k]⟩ : Shape).Reduces [1] ⟨1, ![mb]⟩) (hfmt : FKind.Formats FTy.f32)
    (hacc : (0x00000000#32 : BitVec FTy.f32.bits) = FKind.add.neutral .f32 hfmt)
    (hsc : (⟨1, ![mb]⟩ : Shape).ShapeCasts ⟨2, ![mb, 1]⟩) (hbc : (⟨2, ![mb, 1]⟩ : Shape).Broadcasts ⟨2, ![mb, k]⟩)
    (hrt : (⟨2, ![M, k]⟩ : Shape).ReducesTo [1] ⟨1, ![M]⟩) (hRed : (⟨2, ![M, k]⟩ : Shape).Reduces [1] ⟨1, ![M]⟩)
    (hu : 0 < (⟨0, ![]⟩ : Shape).numel)
    (h0 : (⟨1, ![M]⟩ : Shape).BroadcastsInDim ⟨2, ![M, 1]⟩ ![0]) (hs : (⟨0, ![]⟩ : Shape).BroadcastsInDim ⟨2, ![M, 1]⟩ ![])
    (h01 : (⟨2, ![M, 1]⟩ : Shape).BroadcastsInDim ⟨2, ![M, k]⟩ ![0, 1])
    {x : FVec Ideal ⟨2, ![mb, k]⟩ .f32} {X : FVec Ideal ⟨2, ![M, k]⟩ .f32} (hx : Rows σ x X) :
    Rows σ
      (divf x (broadcastTo ⟨2, ![mb, k]⟩
        (maximumf (sqrt (shapeCast ⟨2, ![mb, 1]⟩ (multiReduction .add [1] ⟨1, ![mb]⟩ (Idealize.ShloMosaic.mulf x x) 0x00000000#32 hred hfmt hacc) hsc))
          (broadcast ⟨2, ![mb, 1]⟩ (Scalar.ofBits (F := Ideal) .f32 e))) hbc))
      (Host.divf X (broadcastInDim ⟨2, ![M, k]⟩ ![0, 1] h01
        (maximumf (Host.sqrt (broadcastInDim ⟨2, ![M, 1]⟩ ![0] h0
            (Host.reduceAdd (Idealize.ShloMosaic.mulf X X) (constant (F := Ideal) ⟨0, ![]⟩ .f32 0x00000000#32) hrt hu)))
          (broadcastInDim ⟨2, ![M, 1]⟩ ![] hs (constant (F := Ideal) ⟨0, ![]⟩ .f32 e))))) := fun p c => by
  rw [rowNormalize_apply, hostRowNormalize_apply e hrt hRed]
  simp only [hx p]

/-- The affine layer: the tiled product with the weight matrix contracted on its last axis against the host's plain
    product with the transposed weight matrix; the bias vector as a row, cast and broadcast against broadcast twice. -/
theorem Rows.affine {k n : ℕ} (h16 : FTy.bf16.bits < FTy.f32.bits)
    (hsc : (⟨1, ![n]⟩ : Shape).ShapeCasts ⟨2, ![1, n]⟩) (hbc : (⟨2, ![1, n]⟩ : Shape).Broadcasts ⟨2, ![mb, n]⟩)
    (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    {φ₁ : FTy} {x : FVec Ideal ⟨2, ![mb, k]⟩ φ₁} {X : FVec Ideal ⟨2, ![M, k]⟩ .f32} (hx : Rows σ x X)
    (w : FVec Ideal ⟨2, ![n, k]⟩ .f32) (b : FVec Ideal ⟨1, ![n]⟩ .f32) :
    Rows σ
      (Idealize.ShloMosaic.addf (matmul (DotDims.transposedRhs mb k n) none x (Idealize.ShloMosaic.truncf .bf16 w h16) (constant ⟨2, ![mb, n]⟩ .f32 0x00000000#32))
        (broadcastTo ⟨2, ![mb, n]⟩ (shapeCast ⟨2, ![1, n]⟩ b hsc) hbc))
      (Idealize.ShloMosaic.addf (Host.dotGeneral (DotDims.plain M k n) none X (transpose ⟨2, ![k, n]⟩ [1, 0] w htr))
        (broadcastInDim ⟨2, ![M, n]⟩ ![0, 1] h01 (broadcastInDim ⟨2, ![1, n]⟩ ![1] h1 b))) := fun p c => by
  rw [affineRows_apply, hostAffine_apply]
  simp only [hx p]

/-- Two matrices side by side. -/
theorem Rows.catCols {p q t : ℕ} {a : (⟨2, ![mb, p]⟩ : Shape).Idx → EReal} {b : (⟨2, ![mb, q]⟩ : Shape).Idx → EReal}
    {A : (⟨2, ![M, p]⟩ : Shape).Idx → EReal} {B : (⟨2, ![M, q]⟩ : Shape).Idx → EReal}
    (h : Shape.Concatenates [(⟨2, ![mb, p]⟩ : Shape), ⟨2, ![mb, q]⟩] ⟨2, ![mb, t]⟩ 1)
    (H : Shape.Concatenates [(⟨2, ![M, p]⟩ : Shape), ⟨2, ![M, q]⟩] ⟨2, ![M, t]⟩ 1)
    (ha : Rows σ a A) (hb : Rows σ b B) :
    Rows σ (concatenate ⟨2, ![mb, t]⟩ 1 [⟨⟨2, ![mb, p]⟩, a⟩, ⟨⟨2, ![mb, q]⟩, b⟩] h)
      (concatenate ⟨2, ![M, t]⟩ 1 [⟨⟨2, ![M, p]⟩, A⟩, ⟨⟨2, ![M, q]⟩, B⟩] H) := fun r c => by
  have ht : p + q = t := by
    have := h.2.2; simpa using this
  by_cases hc : c.val < p
  · rw [catCols_left h a b r c ⟨c.val, hc⟩ rfl, catCols_left H A B (σ r) c ⟨c.val, hc⟩ rfl]
    exact ha r _
  · have hq : c.val - p < q := by have := c.isLt; omega
    rw [catCols_right h a b r c ⟨c.val - p, hq⟩ (by show c.val - p + p = c.val; omega),
      catCols_right H A B (σ r) c ⟨c.val - p, hq⟩ (by show c.val - p + p = c.val; omega)]
    exact hb r _

end RowsLemmas

/-! ## The whole-array layers, named

The same expressions as the right-hand sides above, at any float instance: a network over whole arrays is written with
these, and each unfolds to the host operations a whole-array program prints. -/

section Whole

variable {F : FTy → Type} [FloatOps F] {M : ℕ}

/-- Each row divided by the larger of its Euclidean length and the floor e. -/
abbrev Whole.normalize {k : ℕ} (e : BitVec 32) (hrt : (⟨2, ![M, k]⟩ : Shape).ReducesTo [1] ⟨1, ![M]⟩)
    (hu : 0 < (⟨0, ![]⟩ : Shape).numel) (h0 : (⟨1, ![M]⟩ : Shape).BroadcastsInDim ⟨2, ![M, 1]⟩ ![0])
    (hs : (⟨0, ![]⟩ : Shape).BroadcastsInDim ⟨2, ![M, 1]⟩ ![])
    (h01 : (⟨2, ![M, 1]⟩ : Shape).BroadcastsInDim ⟨2, ![M, k]⟩ ![0, 1])
    (X : FVec F ⟨2, ![M, k]⟩ .f32) : FVec F ⟨2, ![M, k]⟩ .f32 :=
  Host.divf X (broadcastInDim ⟨2, ![M, k]⟩ ![0, 1] h01
    (maximumf (Host.sqrt (broadcastInDim ⟨2, ![M, 1]⟩ ![0] h0
        (Host.reduceAdd (mulf X X) (constant (F := F) ⟨0, ![]⟩ .f32 0x00000000#32) hrt hu)))
      (broadcastInDim ⟨2, ![M, 1]⟩ ![] hs (constant (F := F) ⟨0, ![]⟩ .f32 e))))

/-- x · wᵀ + b, the bias vector added to every row. -/
abbrev Whole.affine {k n : ℕ} (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    (X : FVec F ⟨2, ![M, k]⟩ .f32) (w : FVec F ⟨2, ![n, k]⟩ .f32) (b : FVec F ⟨1, ![n]⟩ .f32) : FVec F ⟨2, ![M, n]⟩ .f32 :=
  addf (Host.dotGeneral (DotDims.plain M k n) none X (transpose ⟨2, ![k, n]⟩ [1, 0] w htr))
    (broadcastInDim ⟨2, ![M, n]⟩ ![0, 1] h01 (broadcastInDim ⟨2, ![1, n]⟩ ![1] h1 b))

/-- The larger of each entry and zero. -/
abbrev Whole.relu {k : ℕ} (h : (⟨0, ![]⟩ : Shape).BroadcastsInDim ⟨2, ![M, k]⟩ ![]) (Y : FVec F ⟨2, ![M, k]⟩ .f32) :
    FVec F ⟨2, ![M, k]⟩ .f32 :=
  maximumf Y (broadcastInDim ⟨2, ![M, k]⟩ ![] h (constant (F := F) ⟨0, ![]⟩ .f32 0x00000000#32))

/-- 1 / (1 + exp (-y)), entry by entry. -/
abbrev Whole.sigmoid {k : ℕ} (h : (⟨0, ![]⟩ : Shape).BroadcastsInDim ⟨2, ![M, k]⟩ ![]) (Y : FVec F ⟨2, ![M, k]⟩ .f32) :
    FVec F ⟨2, ![M, k]⟩ .f32 :=
  Host.divf (broadcastInDim ⟨2, ![M, k]⟩ ![] h (constant (F := F) ⟨0, ![]⟩ .f32 0x3F800000#32))
    (addf (broadcastInDim ⟨2, ![M, k]⟩ ![] h (constant (F := F) ⟨0, ![]⟩ .f32 0x3F800000#32)) (Host.exp (Host.negf Y)))

/-- One step of a gated recurrent cell from its two affine images gi, gh (each three bands of h columns: reset,
    update, candidate) and the previous state H:  r = σ(giᵣ + ghᵣ), z = σ(gi_z + gh_z), n = tanh(giₙ + r·ghₙ),
    result (1 − z)·n + z·H. -/
abbrev Whole.gru {h h3 : ℕ} (o1 o2 : ℕ)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    (gi gh : FVec F ⟨2, ![M, h3]⟩ .f32) (H : FVec F ⟨2, ![M, h]⟩ .f32) : FVec F ⟨2, ![M, h]⟩ .f32 :=
  addf
    (mulf (subf (broadcastInDim ⟨2, ![M, h]⟩ ![] hb (constant (F := F) ⟨0, ![]⟩ .f32 0x3F800000#32))
        (Whole.sigmoid hb (addf (extractStridedSlice ⟨2, ![M, h]⟩ ![0, o1] gi s1) (extractStridedSlice ⟨2, ![M, h]⟩ ![0, o1] gh s1))))
      (Host.tanh (addf (extractStridedSlice ⟨2, ![M, h]⟩ ![0, o2] gi s2)
        (mulf (Whole.sigmoid hb (addf (extractStridedSlice ⟨2, ![M, h]⟩ ![0, 0] gi s0) (extractStridedSlice ⟨2, ![M, h]⟩ ![0, 0] gh s0)))
          (extractStridedSlice ⟨2, ![M, h]⟩ ![0, o2] gh s2)))))
    (mulf (Whole.sigmoid hb (addf (extractStridedSlice ⟨2, ![M, h]⟩ ![0, o1] gi s1) (extractStridedSlice ⟨2, ![M, h]⟩ ![0, o1] gh s1))) H)

end Whole

section MoreRows

variable {mb M : ℕ} {σ : Fin mb → Fin M}

/-- One row repeated down the block against a vector broadcast along the columns of the whole matrix: both read
    entry j of the same list of n numbers. -/
theorem Rows.constRows {n : ℕ} (hsc : (⟨2, ![1, n]⟩ : Shape).ShapeCasts ⟨2, ![1, n]⟩)
    (hbc : (⟨2, ![1, n]⟩ : Shape).Broadcasts ⟨2, ![mb, n]⟩) (h : (⟨1, ![n]⟩ : Shape).BroadcastsInDim ⟨2, ![M, n]⟩ ![1])
    {v : (⟨2, ![1, n]⟩ : Shape).Idx → EReal} {E : (⟨1, ![n]⟩ : Shape).Idx → EReal} (hv : ∀ j : Fin n, v (ix2 (0 : Fin 1) j) = E (ix1 j)) :
    Rows σ (broadcastTo ⟨2, ![mb, n]⟩ (shapeCast ⟨2, ![1, n]⟩ (shapeCast ⟨2, ![1, n]⟩ v hsc) hsc) hbc)
      (broadcastInDim ⟨2, ![M, n]⟩ ![1] h E) := fun p c => by
  rw [oneRow_apply, rowBroadcast_apply, hv]

/-- Three matrices side by side. -/
theorem Rows.catCols3 {p q s t : ℕ} {a : (⟨2, ![mb, p]⟩ : Shape).Idx → EReal} {b : (⟨2, ![mb, q]⟩ : Shape).Idx → EReal}
    {d : (⟨2, ![mb, s]⟩ : Shape).Idx → EReal}
    {A : (⟨2, ![M, p]⟩ : Shape).Idx → EReal} {B : (⟨2, ![M, q]⟩ : Shape).Idx → EReal} {D : (⟨2, ![M, s]⟩ : Shape).Idx → EReal}
    (h : Shape.Concatenates [(⟨2, ![mb, p]⟩ : Shape), ⟨2, ![mb, q]⟩, ⟨2, ![mb, s]⟩] ⟨2, ![mb, t]⟩ 1)
    (H : Shape.Concatenates [(⟨2, ![M, p]⟩ : Shape), ⟨2, ![M, q]⟩, ⟨2, ![M, s]⟩] ⟨2, ![M, t]⟩ 1)
    (ha : Rows σ a A) (hb : Rows σ b B) (hd : Rows σ d D) :
    Rows σ (concatenate ⟨2, ![mb, t]⟩ 1 [⟨⟨2, ![mb, p]⟩, a⟩, ⟨⟨2, ![mb, q]⟩, b⟩, ⟨⟨2, ![mb, s]⟩, d⟩] h)
      (concatenate ⟨2, ![M, t]⟩ 1 [⟨⟨2, ![M, p]⟩, A⟩, ⟨⟨2, ![M, q]⟩, B⟩, ⟨⟨2, ![M, s]⟩, D⟩] H) := fun r c => by
  have ht : p + q + s = t := by
    have := h.2.2; simpa [Nat.add_assoc] using this
  have side : ∀ (mm : ℕ) (rr : Fin mm) (x : (⟨2, ![mm, p]⟩ : Shape).Idx → EReal) (y : (⟨2, ![mm, q]⟩ : Shape).Idx → EReal)
      (z : (⟨2, ![mm, s]⟩ : Shape).Idx → EReal)
      (hh : Shape.Concatenates [(⟨2, ![mm, p]⟩ : Shape), ⟨2, ![mm, q]⟩, ⟨2, ![mm, s]⟩] ⟨2, ![mm, t]⟩ 1),
      concatenate ⟨2, ![mm, t]⟩ 1 [⟨⟨2, ![mm, p]⟩, x⟩, ⟨⟨2, ![mm, q]⟩, y⟩, ⟨⟨2, ![mm, s]⟩, z⟩] hh (ix2 rr c)
        = if h1 : c.val < p then x (ix2 rr ⟨c.val, h1⟩)
          else if h2 : c.val < p + q then y (ix2 rr ⟨c.val - p, by omega⟩)
          else z (ix2 rr ⟨c.val - (p + q), by have := c.isLt; omega⟩) := by
    intro mm rr x y z hh
    by_cases h1 : c.val < p
    · rw [dif_pos h1]
      exact concatenate_apply_piece 1 [⟨⟨2, ![mm, p]⟩, x⟩, ⟨⟨2, ![mm, q]⟩, y⟩, ⟨⟨2, ![mm, s]⟩, z⟩] hh (ix2 rr c) 0 (by simp) _ x rfl rfl 0 (by simp) (ix2 rr ⟨c.val, h1⟩)
        (fun ax hax => by match ax with | ⟨0, _⟩ => rfl | ⟨1, _⟩ => exact absurd rfl hax) (by show 0 + c.val = c.val; omega)
    · rw [dif_neg h1]
      by_cases h2 : c.val < p + q
      · rw [dif_pos h2]
        exact concatenate_apply_piece 1 [⟨⟨2, ![mm, p]⟩, x⟩, ⟨⟨2, ![mm, q]⟩, y⟩, ⟨⟨2, ![mm, s]⟩, z⟩] hh (ix2 rr c) 1 (by simp) _ y rfl rfl p (by simp) (ix2 rr ⟨c.val - p, by omega⟩)
          (fun ax hax => by match ax with | ⟨0, _⟩ => rfl | ⟨1, _⟩ => exact absurd rfl hax) (by show p + (c.val - p) = c.val; omega)
      · rw [dif_neg h2]
        exact concatenate_apply_piece 1 [⟨⟨2, ![mm, p]⟩, x⟩, ⟨⟨2, ![mm, q]⟩, y⟩, ⟨⟨2, ![mm, s]⟩, z⟩] hh (ix2 rr c) 2 (by simp) _ z rfl rfl (p + q) (by simp)
          (ix2 rr ⟨c.val - (p + q), by have := c.isLt; omega⟩)
          (fun ax hax => by match ax with | ⟨0, _⟩ => rfl | ⟨1, _⟩ => exact absurd rfl hax) (by show p + q + (c.val - (p + q)) = c.val; omega)
  rw [side mb r a b d h, side M (σ r) A B D H]
  split
  · exact ha r _
  · split
    · exact hb r _
    · exact hd r _

/-- The recurrent cell: the tiled spelling (the logistic function as one operation, the vector unit's tanh, scalar
    splats) of a block against the whole-array cell, when the block's gi, gh and previous state are the σ-rows of the
    whole arrays'. -/
theorem Rows.gru {h h3 : ℕ} (o1 o2 : ℕ)
    (t0 : (⟨2, ![mb, h3]⟩ : Shape).Slices ![0, 0] ⟨2, ![mb, h]⟩) (t1 : (⟨2, ![mb, h3]⟩ : Shape).Slices ![0, o1] ⟨2, ![mb, h]⟩)
    (t2 : (⟨2, ![mb, h3]⟩ : Shape).Slices ![0, o2] ⟨2, ![mb, h]⟩)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    {gi gh : FVec Ideal ⟨2, ![mb, h3]⟩ .f32} {hp : FVec Ideal ⟨2, ![mb, h]⟩ .f32}
    {Gi Gh : FVec Ideal ⟨2, ![M, h3]⟩ .f32} {H : FVec Ideal ⟨2, ![M, h]⟩ .f32}
    (hgi : Rows σ gi Gi) (hgh : Rows σ gh Gh) (hH : Rows σ hp H) :
    Rows σ
      (Idealize.ShloMosaic.addf
        (Idealize.ShloMosaic.mulf (Idealize.ShloMosaic.subf (broadcast ⟨2, ![mb, h]⟩ (Scalar.ofBits (F := Ideal) .f32 0x3F800000#32))
            (Idealize.ShloMosaic.logistic (Idealize.ShloMosaic.addf (extractStridedSlice ⟨2, ![mb, h]⟩ ![0, o1] gi t1) (extractStridedSlice ⟨2, ![mb, h]⟩ ![0, o1] gh t1))))
          (Idealize.ShloMosaic.tanh (Idealize.ShloMosaic.addf (extractStridedSlice ⟨2, ![mb, h]⟩ ![0, o2] gi t2)
            (Idealize.ShloMosaic.mulf (Idealize.ShloMosaic.logistic (Idealize.ShloMosaic.addf (extractStridedSlice ⟨2, ![mb, h]⟩ ![0, 0] gi t0) (extractStridedSlice ⟨2, ![mb, h]⟩ ![0, 0] gh t0)))
              (extractStridedSlice ⟨2, ![mb, h]⟩ ![0, o2] gh t2)))))
        (Idealize.ShloMosaic.mulf (Idealize.ShloMosaic.logistic (Idealize.ShloMosaic.addf (extractStridedSlice ⟨2, ![mb, h]⟩ ![0, o1] gi t1) (extractStridedSlice ⟨2, ![mb, h]⟩ ![0, o1] gh t1))) hp))
      (Whole.gru (F := Ideal) o1 o2 s0 s1 s2 hb Gi Gh H) :=
  Rows.addf
    (Rows.mulf (Rows.oneMinus hb (Rows.logistic hb hb (Rows.addf (Rows.sliceCols o1 t1 s1 hgi) (Rows.sliceCols o1 t1 s1 hgh))))
      (Rows.tanh (Rows.addf (Rows.sliceCols o2 t2 s2 hgi)
        (Rows.mulf (Rows.logistic hb hb (Rows.addf (Rows.sliceCols 0 t0 s0 hgi) (Rows.sliceCols 0 t0 s0 hgh)))
          (Rows.sliceCols o2 t2 s2 hgh)))))
    (Rows.mulf (Rows.logistic hb hb (Rows.addf (Rows.sliceCols o1 t1 s1 hgi) (Rows.sliceCols o1 t1 s1 hgh))) hH)

end MoreRows

end RowLayers

end
-- ==== Proof.Br.DiscRows.lean ====
/-
  The discriminator's head, written once for a matrix of any number M of rows: given the first layer's product A
  (M × 128) it adds the first bias, takes the larger of each entry and zero, multiplies by the second weight matrix and
  adds the second bias, again the larger of each entry and zero, multiplies by the third weight matrix and adds the third
  bias, applies 1 / (1 + exp (−y)) and then the stable softplus  max(z, 0) + log1p (exp (−|z|))  (with z + 0 where
  z − 0 is not equal to itself). Every one of these layers computes row r of its result from row r of its matrix
  operand alone. Hence: if the rows of a are rows σ p of A, the rows of the head of a are the rows σ p of the head of A.
  With the rows of two matrices stacked one on the other this says that the head of the stack is the stack of the heads.
-/
import Idealize.ShloMosaic.PureOps.Ideal.Laws
import Idealize.ShloMosaic.Lib.ValueIdx
import Idealize.ShloMosaic.Lib.Pipeline.Value
import Idealize.ShloMosaic.Lib.StackMember
import proofs.«409862_j41274635715290_3_alg».proof.Proof.LibRowLayers

noncomputable section

open scoped BigOperators

namespace Cert.Br

open Idealize.ShloMosaic Idealize.ShloMosaic.ValueIdx RowLayers

/-! ## The layers, for any float values and any number of rows -/

section Net

variable {F : FTy → Type} [FloatOps F] {M : ℕ}

/-- The larger of each entry and zero. -/
def relu {k : ℕ} (h : (⟨0, ![]⟩ : Shape).BroadcastsInDim ⟨2, ![M, k]⟩ ![]) (Y : FVec F ⟨2, ![M, k]⟩ .f32) :
    FVec F ⟨2, ![M, k]⟩ .f32 :=
  maximumf Y (broadcastInDim ⟨2, ![M, k]⟩ ![] h (constant (F := F) ⟨0, ![]⟩ .f32 0x00000000#32))

/-- A vector of n entries added to every row. -/
def bias {n : ℕ} (h1 : (⟨1, ![n]⟩ : Shape).BroadcastsInDim ⟨2, ![1, n]⟩ ![1])
    (h01 : (⟨2, ![1, n]⟩ : Shape).BroadcastsInDim ⟨2, ![M, n]⟩ ![0, 1])
    (Y : FVec F ⟨2, ![M, n]⟩ .f32) (b : FVec F ⟨1, ![n]⟩ .f32) : FVec F ⟨2, ![M, n]⟩ .f32 :=
  addf Y (broadcastInDim ⟨2, ![M, n]⟩ ![0, 1] h01 (broadcastInDim ⟨2, ![1, n]⟩ ![1] h1 b))

/-- Y · w + b, the bias vector added to every row. -/
def dense {k n : ℕ} (h1 : (⟨1, ![n]⟩ : Shape).BroadcastsInDim ⟨2, ![1, n]⟩ ![1])
    (h01 : (⟨2, ![1, n]⟩ : Shape).BroadcastsInDim ⟨2, ![M, n]⟩ ![0, 1])
    (Y : FVec F ⟨2, ![M, k]⟩ .f32) (w : FVec F ⟨2, ![k, n]⟩ .f32) (b : FVec F ⟨1, ![n]⟩ .f32) : FVec F ⟨2, ![M, n]⟩ .f32 :=
  bias h1 h01 (Host.dotGeneral (DotDims.plain M k n) none Y w) b

/-- 1 / (1 + exp (−y)), entry by entry. -/
def sigmoid {k : ℕ} (h : (⟨0, ![]⟩ : Shape).BroadcastsInDim ⟨2, ![M, k]⟩ ![]) (Y : FVec F ⟨2, ![M, k]⟩ .f32) :
    FVec F ⟨2, ![M, k]⟩ .f32 :=
  Host.divf (broadcastInDim ⟨2, ![M, k]⟩ ![] h (constant (F := F) ⟨0, ![]⟩ .f32 0x3F800000#32))
    (addf (broadcastInDim ⟨2, ![M, k]⟩ ![] h (constant (F := F) ⟨0, ![]⟩ .f32 0x3F800000#32)) (Host.exp (Host.negf Y)))

/-- The stable softplus, entry by entry: max(z, 0) + log1p (exp (−|z − 0|)), and z + 0 where z − 0 differs from itself. -/
def softplus {k : ℕ} (h : (⟨0, ![]⟩ : Shape).BroadcastsInDim ⟨2, ![M, k]⟩ ![]) (Z : FVec F ⟨2, ![M, k]⟩ .f32) :
    FVec F ⟨2, ![M, k]⟩ .f32 :=
  select
    (cmpf .une (subf Z (broadcastInDim ⟨2, ![M, k]⟩ ![] h (constant (F := F) ⟨0, ![]⟩ .f32 0x00000000#32)))
      (subf Z (broadcastInDim ⟨2, ![M, k]⟩ ![] h (constant (F := F) ⟨0, ![]⟩ .f32 0x00000000#32))))
    (addf Z (broadcastInDim ⟨2, ![M, k]⟩ ![] h (constant (F := F) ⟨0, ![]⟩ .f32 0x00000000#32)))
    (addf (maximumf Z (broadcastInDim ⟨2, ![M, k]⟩ ![] h (constant (F := F) ⟨0, ![]⟩ .f32 0x00000000#32)))
      (Host.log1p (Host.exp (Host.negf (Host.absf
        (subf Z (broadcastInDim ⟨2, ![M, k]⟩ ![] h (constant (F := F) ⟨0, ![]⟩ .f32 0x00000000#32))))))))

/-- What the head needs to know of the shapes, for M rows. -/
structure Wit (M : ℕ) : Prop where
  z128 : (⟨0, ![]⟩ : Shape).BroadcastsInDim ⟨2, ![M, 128]⟩ ![]
  z64 : (⟨0, ![]⟩ : Shape).BroadcastsInDim ⟨2, ![M, 64]⟩ ![]
  z2 : (⟨0, ![]⟩ : Shape).BroadcastsInDim ⟨2, ![M, 2]⟩ ![]
  v128 : (⟨1, ![128]⟩ : Shape).BroadcastsInDim ⟨2, ![1, 128]⟩ ![1]
  v64 : (⟨1, ![64]⟩ : Shape).BroadcastsInDim ⟨2, ![1, 64]⟩ ![1]
  v2 : (⟨1, ![2]⟩ : Shape).BroadcastsInDim ⟨2, ![1, 2]⟩ ![1]
  r128 : (⟨2, ![1, 128]⟩ : Shape).BroadcastsInDim ⟨2, ![M, 128]⟩ ![0, 1]
  r64 : (⟨2, ![1, 64]⟩ : Shape).BroadcastsInDim ⟨2, ![M, 64]⟩ ![0, 1]
  r2 : (⟨2, ![1, 2]⟩ : Shape).BroadcastsInDim ⟨2, ![M, 2]⟩ ![0, 1]

/-- The head: from the first layer's product A to the softplus of the sigmoid of the third layer. -/
def head (w : Wit M) (A : FVec F ⟨2, ![M, 128]⟩ .f32) (b1 : FVec F ⟨1, ![128]⟩ .f32)
    (W2 : FVec F ⟨2, ![128, 64]⟩ .f32) (b2 : FVec F ⟨1, ![64]⟩ .f32)
    (W3 : FVec F ⟨2, ![64, 2]⟩ .f32) (b3 : FVec F ⟨1, ![2]⟩ .f32) : FVec F ⟨2, ![M, 2]⟩ .f32 :=
  softplus w.z2 (sigmoid w.z2
    (dense w.v2 w.r2 (relu w.z64 (dense w.v64 w.r64 (relu w.z128 (bias w.v128 w.r128 A b1)) W2 b2)) W3 b3))

/-- The sum of all 2560 × 2 entries from zero, divided by 5120. -/
def meanAll (hr : (⟨2, ![2560, 2]⟩ : Shape).ReducesTo [0, 1] ⟨0, ![]⟩) (hn : 0 < (⟨0, ![]⟩ : Shape).numel)
    (x : FVec F ⟨2, ![2560, 2]⟩ .f32) : FVec F ⟨0, ![]⟩ .f32 :=
  Host.divf (Host.reduceAdd x (constant (F := F) ⟨0, ![]⟩ .f32 0x00000000#32) hr hn) (constant (F := F) ⟨0, ![]⟩ .f32 0x45A00000#32)

end Net

/-! ## Rows of a block are rows of the whole, layer by layer (extended reals) -/

section RowsOf

variable {mb M : ℕ} {σ : Fin mb → Fin M}

theorem rows_relu {k : ℕ} (h : (⟨0, ![]⟩ : Shape).BroadcastsInDim ⟨2, ![mb, k]⟩ ![])
    (H : (⟨0, ![]⟩ : Shape).BroadcastsInDim ⟨2, ![M, k]⟩ ![])
    {a : FVec Ideal ⟨2, ![mb, k]⟩ .f32} {A : FVec Ideal ⟨2, ![M, k]⟩ .f32} (ha : Rows σ a A) :
    Rows σ (relu h a) (relu H A) := fun p c => by
  unfold relu
  dsimp only [maximumf]
  rw [scalarBroadcast_apply, scalarBroadcast_apply, ha p c]

theorem rows_bias {n : ℕ} (h1 : (⟨1, ![n]⟩ : Shape).BroadcastsInDim ⟨2, ![1, n]⟩ ![1])
    (h01 : (⟨2, ![1, n]⟩ : Shape).BroadcastsInDim ⟨2, ![mb, n]⟩ ![0, 1])
    (H01 : (⟨2, ![1, n]⟩ : Shape).BroadcastsInDim ⟨2, ![M, n]⟩ ![0, 1])
    {a : FVec Ideal ⟨2, ![mb, n]⟩ .f32} {A : FVec Ideal ⟨2, ![M, n]⟩ .f32} (ha : Rows σ a A) (b : FVec Ideal ⟨1, ![n]⟩ .f32) :
    Rows σ (bias h1 h01 a b) (bias h1 H01 A b) := fun p c => by
  unfold bias
  rw [addf_apply, addf_apply, rowDown_apply, rowDown_apply, ha p c]

theorem rows_dense {k n : ℕ} (h1 : (⟨1, ![n]⟩ : Shape).BroadcastsInDim ⟨2, ![1, n]⟩ ![1])
    (h01 : (⟨2, ![1, n]⟩ : Shape).BroadcastsInDim ⟨2, ![mb, n]⟩ ![0, 1])
    (H01 : (⟨2, ![1, n]⟩ : Shape).BroadcastsInDim ⟨2, ![M, n]⟩ ![0, 1])
    {a : FVec Ideal ⟨2, ![mb, k]⟩ .f32} {A : FVec Ideal ⟨2, ![M, k]⟩ .f32} (ha : Rows σ a A)
    (w : FVec Ideal ⟨2, ![k, n]⟩ .f32) (b : FVec Ideal ⟨1, ![n]⟩ .f32) :
    Rows σ (dense h1 h01 a w b) (dense h1 H01 A w b) := by
  unfold dense
  refine rows_bias h1 h01 H01 (fun p c => ?_) b
  rw [StackMember.dotGeneral_plain_apply, StackMember.dotGeneral_plain_apply]
  simp only [ha p]

theorem rows_sigmoid {k : ℕ} (h : (⟨0, ![]⟩ : Shape).BroadcastsInDim ⟨2, ![mb, k]⟩ ![])
    (H : (⟨0, ![]⟩ : Shape).BroadcastsInDim ⟨2, ![M, k]⟩ ![])
    {a : FVec Ideal ⟨2, ![mb, k]⟩ .f32} {A : FVec Ideal ⟨2, ![M, k]⟩ .f32} (ha : Rows σ a A) :
    Rows σ (sigmoid h a) (sigmoid H A) := fun p c => by
  unfold sigmoid
  dsimp only [Host.divf, addf, Host.exp, Host.negf]
  rw [scalarBroadcast_apply, scalarBroadcast_apply, ha p c]

theorem rows_softplus {k : ℕ} (h : (⟨0, ![]⟩ : Shape).BroadcastsInDim ⟨2, ![mb, k]⟩ ![])
    (H : (⟨0, ![]⟩ : Shape).BroadcastsInDim ⟨2, ![M, k]⟩ ![])
    {a : FVec Ideal ⟨2, ![mb, k]⟩ .f32} {A : FVec Ideal ⟨2, ![M, k]⟩ .f32} (ha : Rows σ a A) :
    Rows σ (softplus h a) (softplus H A) := fun p c => by
  unfold softplus
  dsimp only [select, cmpf, subf, addf, maximumf, Host.log1p, Host.exp, Host.negf, Host.absf]
  rw [scalarBroadcast_apply, scalarBroadcast_apply, ha p c]

/-- The head of the σ-rows is the σ-rows of the head. -/
theorem rows_head (w : Wit mb) (W : Wit M) {a : FVec Ideal ⟨2, ![mb, 128]⟩ .f32} {A : FVec Ideal ⟨2, ![M, 128]⟩ .f32}
    (ha : Rows σ a A) (b1 : FVec Ideal ⟨1, ![128]⟩ .f32) (W2 : FVec Ideal ⟨2, ![128, 64]⟩ .f32) (b2 : FVec Ideal ⟨1, ![64]⟩ .f32)
    (W3 : FVec Ideal ⟨2, ![64, 2]⟩ .f32) (b3 : FVec Ideal ⟨1, ![2]⟩ .f32) :
    Rows σ (head w a b1 W2 b2 W3 b3) (head W A b1 W2 b2 W3 b3) := by
  unfold head
  exact rows_softplus _ _ (rows_sigmoid _ _ (rows_dense _ _ _ (rows_relu _ _ (rows_dense _ _ _ (rows_relu _ _
    (rows_bias _ _ _ ha b1)) W2 b2)) W3 b3))

end RowsOf

/-! ## Two matrices stacked one on the other -/

section Stack

variable {p q t k : ℕ}

/-- Above the seam a stack reads the first matrix. -/
theorem catRows_top {α : Type} (h : Shape.Concatenates [(⟨2, ![p, k]⟩ : Shape), ⟨2, ![q, k]⟩] ⟨2, ![t, k]⟩ 0)
    (a : (⟨2, ![p, k]⟩ : Shape).Idx → α) (b : (⟨2, ![q, k]⟩ : Shape).Idx → α) (r : Fin t) (j : Fin k) (r' : Fin p)
    (hr : r'.val = r.val) :
    concatenate ⟨2, ![t, k]⟩ 0 [⟨⟨2, ![p, k]⟩, a⟩, ⟨⟨2, ![q, k]⟩, b⟩] h (ix2 r j) = a (ix2 r' j) :=
  concatenate_pair_apply_left 0 a b h (ix2 r j) rfl (ix2 r' j) (fun ax => by
    match ax with
    | ⟨0, _⟩ => exact hr
    | ⟨1, _⟩ => rfl)

/-- Below the seam it reads the second matrix, p rows up. -/
theorem catRows_bot {α : Type} (h : Shape.Concatenates [(⟨2, ![p, k]⟩ : Shape), ⟨2, ![q, k]⟩] ⟨2, ![t, k]⟩ 0)
    (a : (⟨2, ![p, k]⟩ : Shape).Idx → α) (b : (⟨2, ![q, k]⟩ : Shape).Idx → α) (r : Fin t) (j : Fin k) (r' : Fin q)
    (hr : r'.val + p = r.val) :
    concatenate ⟨2, ![t, k]⟩ 0 [⟨⟨2, ![p, k]⟩, a⟩, ⟨⟨2, ![q, k]⟩, b⟩] h (ix2 r j) = b (ix2 r' j) :=
  concatenate_pair_apply_right 0 a b h (ix2 r j) rfl rfl (ix2 r' j) (fun ax hax => by
    match ax with
    | ⟨0, _⟩ => exact absurd rfl hax
    | ⟨1, _⟩ => rfl) hr

/-- Row r of the first matrix is row r of the stack. -/
def top (hpt : p ≤ t) : Fin p → Fin t := fun r => ⟨r.val, lt_of_lt_of_le r.isLt hpt⟩

/-- Row r of the second matrix is row p + r of the stack. -/
def bot (hpq : p + q = t) : Fin q → Fin t := fun r => ⟨r.val + p, by have := r.isLt; omega⟩

/-- A matrix u whose upper rows are those of a and whose lower rows are those of b is the stack of a on b. -/
theorem eq_stack (h : Shape.Concatenates [(⟨2, ![p, k]⟩ : Shape), ⟨2, ![q, k]⟩] ⟨2, ![t, k]⟩ 0) (hpq : p + q = t)
    {a : (⟨2, ![p, k]⟩ : Shape).Idx → EReal} {b : (⟨2, ![q, k]⟩ : Shape).Idx → EReal} {u : (⟨2, ![t, k]⟩ : Shape).Idx → EReal}
    (ha : Rows (top (p := p) (t := t) (by omega)) a u) (hb : Rows (bot (p := p) (q := q) hpq) b u) :
    u = concatenate ⟨2, ![t, k]⟩ 0 [⟨⟨2, ![p, k]⟩, a⟩, ⟨⟨2, ![q, k]⟩, b⟩] h := by
  funext i
  obtain ⟨r, j, rfl⟩ : ∃ (r : Fin t) (j : Fin k), i = ix2 r j := ⟨i 0, i 1, eq_ix2 i⟩
  by_cases hi : r.val < p
  · rw [catRows_top h a b r j ⟨r.val, hi⟩ rfl, ha ⟨r.val, hi⟩ j]
    rfl
  · have hq : r.val - p < q := by have := r.isLt; omega
    rw [catRows_bot h a b r j ⟨r.val - p, hq⟩ (by show r.val - p + p = r.val; omega),
      hb ⟨r.val - p, hq⟩ j]
    refine congrArg u (congrArg (fun r' => ix2 r' j) (Fin.ext ?_))
    show r.val = r.val - p + p
    omega

/-- The stack of a on b, multiplied by w, has the rows of a · w above. -/
theorem rows_top_dot {n : ℕ} (h : Shape.Concatenates [(⟨2, ![p, k]⟩ : Shape), ⟨2, ![q, k]⟩] ⟨2, ![t, k]⟩ 0) (hpt : p ≤ t)
    (a : FVec Ideal ⟨2, ![p, k]⟩ .f32) (b : FVec Ideal ⟨2, ![q, k]⟩ .f32) (w : FVec Ideal ⟨2, ![k, n]⟩ .f32)
    (ab : (⟨2, ![p, n]⟩ : Shape).Idx → EReal) (hab : ∀ r c, ab (ix2 r c) = ∑ f : Fin k, a (ix2 r f) * w (ix2 f c)) :
    Rows (top hpt) ab
      (Host.dotGeneral (DotDims.plain t k n) none (concatenate ⟨2, ![t, k]⟩ 0 [⟨⟨2, ![p, k]⟩, a⟩, ⟨⟨2, ![q, k]⟩, b⟩] h) w) := fun r c => by
  rw [StackMember.dotGeneral_plain_apply, hab]
  refine Finset.sum_congr rfl fun f _ => ?_
  rw [catRows_top h a b (top hpt r) f r rfl]

/-- … and the rows of b · w below. -/
theorem rows_bot_dot {n : ℕ} (h : Shape.Concatenates [(⟨2, ![p, k]⟩ : Shape), ⟨2, ![q, k]⟩] ⟨2, ![t, k]⟩ 0) (hpq : p + q = t)
    (a : FVec Ideal ⟨2, ![p, k]⟩ .f32) (b : FVec Ideal ⟨2, ![q, k]⟩ .f32) (w : FVec Ideal ⟨2, ![k, n]⟩ .f32)
    (bb : (⟨2, ![q, n]⟩ : Shape).Idx → EReal) (hbb : ∀ r c, bb (ix2 r c) = ∑ f : Fin k, b (ix2 r f) * w (ix2 f c)) :
    Rows (bot hpq) bb
      (Host.dotGeneral (DotDims.plain t k n) none (concatenate ⟨2, ![t, k]⟩ 0 [⟨⟨2, ![p, k]⟩, a⟩, ⟨⟨2, ![q, k]⟩, b⟩] h) w) := fun r c => by
  rw [StackMember.dotGeneral_plain_apply, hbb]
  refine Finset.sum_congr rfl fun f _ => ?_
  rw [catRows_bot h a b (bot hpq r) f r rfl]

/-- The head of (the stack of X on Y) · D is the stack of the head of X · D on the head of Y · D. -/
theorem head_of_stack {n : ℕ} (hpq : p + q = t) (wp : Wit p) (wq : Wit q) (wt : Wit t)
    (hX : Shape.Concatenates [(⟨2, ![p, n]⟩ : Shape), ⟨2, ![q, n]⟩] ⟨2, ![t, n]⟩ 0)
    (hO : Shape.Concatenates [(⟨2, ![p, 2]⟩ : Shape), ⟨2, ![q, 2]⟩] ⟨2, ![t, 2]⟩ 0)
    (X : FVec Ideal ⟨2, ![p, n]⟩ .f32) (Y : FVec Ideal ⟨2, ![q, n]⟩ .f32) (D : FVec Ideal ⟨2, ![n, 128]⟩ .f32)
    (xd : FVec Ideal ⟨2, ![p, 128]⟩ .f32) (yd : FVec Ideal ⟨2, ![q, 128]⟩ .f32)
    (hxd : ∀ r c, xd (ix2 r c) = ∑ f : Fin n, X (ix2 r f) * D (ix2 f c))
    (hyd : ∀ r c, yd (ix2 r c) = ∑ f : Fin n, Y (ix2 r f) * D (ix2 f c))
    (b1 : FVec Ideal ⟨1, ![128]⟩ .f32) (W2 : FVec Ideal ⟨2, ![128, 64]⟩ .f32) (b2 : FVec Ideal ⟨1, ![64]⟩ .f32)
    (W3 : FVec Ideal ⟨2, ![64, 2]⟩ .f32) (b3 : FVec Ideal ⟨1, ![2]⟩ .f32) :
    head wt (Host.dotGeneral (DotDims.plain t n 128) none
        (concatenate ⟨2, ![t, n]⟩ 0 [⟨⟨2, ![p, n]⟩, X⟩, ⟨⟨2, ![q, n]⟩, Y⟩] hX) D) b1 W2 b2 W3 b3
      = concatenate ⟨2, ![t, 2]⟩ 0
          [⟨⟨2, ![p, 2]⟩, head wp xd b1 W2 b2 W3 b3⟩, ⟨⟨2, ![q, 2]⟩, head wq yd b1 W2 b2 W3 b3⟩] hO :=
  eq_stack hO hpq
    (rows_head wp wt (rows_top_dot hX (by omega) X Y D xd hxd) b1 W2 b2 W3 b3)
    (rows_head wq wt (rows_bot_dot hX hpq X Y D yd hyd) b1 W2 b2 W3 b3)

end Stack

end Cert.Br

end
-- ==== Proof.Br.DiscKernel.lean ====
/-
  What the program computes for the discriminator loss after its one pallas_call, read off its host operations: each of
  the two 1280 × 128 first-layer products (source rows, target rows) goes through the discriminator's head; the two
  1280 × 2 images are stacked one on the other, and all 2560 × 2 entries are summed and divided by 5120. Only the two
  products and the five weight and bias arrays of the head are read; everything else the host operations compute is
  beside the point here, and no operation before or after these writes any of the buffers involved.
-/
import proofs.«409862_j41274635715290_3_alg».proof.Proof.KI.TailOps
import proofs.«409862_j41274635715290_3_alg».proof.Proof.Br.DiscRows
import Idealize.ShloMosaic.Lib.StableHlo.Run
import Idealize.ShloMosaic.Lib.Pipeline.Frame

set_option maxRecDepth 16384

noncomputable section

namespace Cert.Br

open Idealize.ShloMosaic Idealize.ShloMosaic.TcCoe Idealize.ShloMosaic.StableHlo
open Cert.KernelIdeal Cert.KernelIdeal.Gen

variable {F : FTy → Type} [FloatOps F]

/-- The shape facts of the head on 1280 rows. -/
theorem witK : Wit 1280 :=
  ⟨bcast_S_S1280x128, bcast_S_S1280x64, bcast_S_S1280x2, bcast_S128_S1x128_1, bcast_S64_S1x64_1, bcast_S2_S1x2_1,
    bcast_S1x128_S1280x128_0_1, bcast_S1x64_S1280x64_0_1, bcast_S1x2_S1280x2_0_1⟩

/-- The host operations before the head's. -/
abbrev discBefore : List (HloOp τ sig (Elt F)) := hostOps1 ++ (hostOps1_1 ++ (hostOps1_2 ++ hostOps1_3))

/-- The head's operations on both products, up to the two softplus images. -/
abbrev discHead : List (HloOp τ sig (Elt F)) :=
  hostOps1_4 ++ (hostOps1_5 ++ (hostOps1_6 ++ (hostOps1_7 ++ (hostOps1_8 ++ (hostOps1_9 ++ (hostOps1_10 ++ (hostOps1_11 ++
    (hostOps1_12 ++ (hostOps1_13 ++ hostOps1_14)))))))))

/-- The host operations after the stretch that stacks and sums. -/
abbrev discAfter : List (HloOp τ sig (Elt F)) := hostOps1_16 ++ (hostOps1_17 ++ (hostOps1_18 ++ hostOps1_19))

theorem discTail_eq : (Fr.tailOps (F := F)).flatten = discBefore ++ (discHead ++ (hostOps1_15 ++ discAfter)) := by
  simp only [Fr.tailOps, discBefore, discHead, discAfter, List.flatten_cons, List.flatten_nil, List.append_nil, List.append_assoc]

/-- The stretch that stacks the two softplus images, sums and divides. -/
theorem stack_sum (V : Valuation τ sig (Elt F)) :
    after hostOps1_15 V (Proc.devRef .tc main_v102)
      = meanAll reducesTo_S2560x2_S_d0_1 h_S_
          (concatenate S2560x2 0 [⟨S1280x2, V (Proc.devRef .tc main_v98)⟩, ⟨S1280x2, V (Proc.devRef .tc main_v99)⟩]
            concatenates_S1280x2_S1280x2_S2560x2_d0) := by
  simp only [hostOps1_15]
  after_results
  rfl

set_option maxHeartbeats 4000000 in
/-- The source half's softplus image. -/
theorem head_src (V : Valuation τ sig (Elt F)) :
    after discHead V (Proc.devRef .tc main_v98)
      = head witK (V (Proc.devRef .tc main_v0_5)) (V (Proc.devRef .tc main_arg4)) (V (Proc.devRef .tc main_arg5))
          (V (Proc.devRef .tc main_arg6)) (V (Proc.devRef .tc main_arg7)) (V (Proc.devRef .tc main_arg8)) := by
  simp only [discHead, hostOps1_4, hostOps1_5, hostOps1_6, hostOps1_7, hostOps1_8, hostOps1_9, hostOps1_10, hostOps1_11,
    hostOps1_12, hostOps1_13, hostOps1_14, List.cons_append, List.nil_append]
  after_results_simp
  rfl

set_option maxHeartbeats 4000000 in
/-- The target half's softplus image. -/
theorem head_tgt (V : Valuation τ sig (Elt F)) :
    after discHead V (Proc.devRef .tc main_v99)
      = head witK (V (Proc.devRef .tc main_v0_6)) (V (Proc.devRef .tc main_arg4)) (V (Proc.devRef .tc main_arg5))
          (V (Proc.devRef .tc main_arg6)) (V (Proc.devRef .tc main_arg7)) (V (Proc.devRef .tc main_arg8)) := by
  simp only [discHead, hostOps1_4, hostOps1_5, hostOps1_6, hostOps1_7, hostOps1_8, hostOps1_9, hostOps1_10, hostOps1_11,
    hostOps1_12, hostOps1_13, hostOps1_14, List.cons_append, List.nil_append]
  after_results_simp
  rfl

set_option maxHeartbeats 4000000 in
/-- The operations before the head's leave the two products and the head's five arrays as they were. -/
theorem discBefore_keeps (V : Valuation τ sig (Elt F)) :
    after discBefore V (Proc.devRef .tc main_v0_5) = V (Proc.devRef .tc main_v0_5)
    ∧ after discBefore V (Proc.devRef .tc main_v0_6) = V (Proc.devRef .tc main_v0_6)
    ∧ after discBefore V (Proc.devRef .tc main_arg4) = V (Proc.devRef .tc main_arg4)
    ∧ after discBefore V (Proc.devRef .tc main_arg5) = V (Proc.devRef .tc main_arg5)
    ∧ after discBefore V (Proc.devRef .tc main_arg6) = V (Proc.devRef .tc main_arg6)
    ∧ after discBefore V (Proc.devRef .tc main_arg7) = V (Proc.devRef .tc main_arg7)
    ∧ after discBefore V (Proc.devRef .tc main_arg8) = V (Proc.devRef .tc main_arg8) := by
  simp only [discBefore, hostOps1, hostOps1_1, hostOps1_2, hostOps1_3, List.cons_append, List.nil_append]
  refine ⟨?_, ?_, ?_, ?_, ?_, ?_, ?_⟩ <;> after_results_simp

set_option maxHeartbeats 4000000 in
/-- The operations after leave the quotient as it was. -/
theorem after_keeps (V : Valuation τ sig (Elt F)) :
    after discAfter V (Proc.devRef .tc main_v102) = V (Proc.devRef .tc main_v102) := by
  simp only [discAfter, hostOps1_16, hostOps1_17, hostOps1_18, hostOps1_19, List.cons_append, List.nil_append]
  after_results_simp

/-- The discriminator loss the program returns, from the buffers' contents before its host operations. -/
theorem kernel_disc (W : Valuation τ sig (Elt F)) :
    after (Fr.tailOps (F := F)).flatten W (Proc.devRef .tc main_v102)
      = meanAll reducesTo_S2560x2_S_d0_1 h_S_
          (concatenate S2560x2 0
            [⟨S1280x2, head witK (W (Proc.devRef .tc main_v0_5)) (W (Proc.devRef .tc main_arg4)) (W (Proc.devRef .tc main_arg5))
                (W (Proc.devRef .tc main_arg6)) (W (Proc.devRef .tc main_arg7)) (W (Proc.devRef .tc main_arg8))⟩,
             ⟨S1280x2, head witK (W (Proc.devRef .tc main_v0_6)) (W (Proc.devRef .tc main_arg4)) (W (Proc.devRef .tc main_arg5))
                (W (Proc.devRef .tc main_arg6)) (W (Proc.devRef .tc main_arg7)) (W (Proc.devRef .tc main_arg8))⟩]
            concatenates_S1280x2_S1280x2_S2560x2_d0) := by
  obtain ⟨k5, k6, k4a, k5a, k6a, k7a, k8a⟩ := discBefore_keeps (F := F) W
  rw [discTail_eq, Idealize.ShloMosaic.StableHlo.after_append, Idealize.ShloMosaic.StableHlo.after_append,
    Idealize.ShloMosaic.StableHlo.after_append, after_keeps, stack_sum, head_src, head_tgt, k5, k6, k4a, k5a, k6a, k7a, k8a]

end Cert.Br

end
-- ==== Proof.Br.DiscRef.lean ====
/-
  What the reference computes for the discriminator loss: the source rows stacked on the target rows (2560 × 32768),
  multiplied by the first weight matrix, put through the discriminator's head on all 2560 rows at once; then all
  2560 × 2 entries are summed and divided by 5120. The reference's long composed term is exactly this, by unfolding.
-/
import proofs.«409862_j41274635715290_3_alg».proof.Proof.RefGen
import proofs.«409862_j41274635715290_3_alg».proof.Proof.Br.DiscRows

set_option maxRecDepth 16384

noncomputable section

namespace Cert.Br

open Idealize.ShloMosaic Idealize.ShloMosaic.TcCoe
open Cert.ReferenceIdeal Cert.ReferenceIdeal.Gen

variable {F : FTy → Type} [FloatOps F]

/-- The shape facts of the head on 2560 rows. -/
theorem witR : Wit 2560 :=
  ⟨bcast_S_S2560x128, bcast_S_S2560x64, bcast_S_S2560x2, bcast_S128_S1x128_1, bcast_S64_S1x64_1, bcast_S2_S1x2_1,
    bcast_S1x128_S2560x128_0_1, bcast_S1x64_S2560x64_0_1, bcast_S1x2_S2560x2_0_1⟩

set_option maxHeartbeats 4000000 in
/-- The reference's discriminator loss is the head of (source stacked on target) · dW1 on 2560 rows, summed and divided. -/
theorem ref_disc (m : (ℓ : Loc nD τ sig) → Buf (Elt F) ℓ) (c : Dev nD) :
    Value.res_main_v92 m c
      = meanAll reducesTo_S2560x2_S_d0_1 h_S_
          (head witR
            (Host.dotGeneral (DotDims.plain 2560 32768 128) none
              (concatenate S2560x32768 0
                [⟨S1280x32768, m ((c.tc : Thread nD τ).loc main_arg0)⟩, ⟨S1280x32768, m ((c.tc : Thread nD τ).loc main_arg1)⟩]
                concatenates_S1280x32768_S1280x32768_S2560x32768_d0)
              (m ((c.tc : Thread nD τ).loc main_arg3)))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8))) := by
  unfold Value.res_main_v92
  rfl

end Cert.Br

end
-- ==== Proof.Br.Disc.lean ====
/-
  The discriminator loss of the program is the reference's.

  After the pallas_call the program holds X · D and Y · D (X the 1280 source rows, Y the 1280 target rows, D the first
  weight matrix). It puts each through the discriminator's head (add bias, larger of each entry and zero, · dW2 + b,
  larger of each entry and zero, · dW3 + b, 1/(1 + exp(−x)), softplus), stacks the two 1280 × 2 images, sums all
  entries and divides by 5120. The reference stacks X on Y first (2560 × 32768), multiplies by D and puts all 2560 rows
  through the same head at once. Every layer of the head computes row r of its result from row r of its operand, and
  row r of (X stacked on Y) · D is row r of X · D for r < 1280 and row r − 1280 of Y · D otherwise; so the head of the
  stack is the stack of the two heads, entry by entry, and the two losses are the same function of the same array.
  Nothing here needs an entry to be finite.
-/
import proofs.«409862_j41274635715290_3_alg».proof.Proof.Spec.Region
import proofs.«409862_j41274635715290_3_alg».proof.Proof.Br.DiscKernel
import proofs.«409862_j41274635715290_3_alg».proof.Proof.Br.DiscRef

set_option maxRecDepth 16384

noncomputable section

open scoped BigOperators

namespace Cert.Br

open Idealize.ShloMosaic Idealize.ShloMosaic.TcCoe Idealize.ShloMosaic.ValueIdx

/-- Entry (r, c) of X · W. -/
theorem prod_apply (X : Cert.Region.Mat 1280 32768) (W : Cert.Region.Mat 32768 128) (r : Fin 1280) (c : Fin 128) :
    Cert.Region.prod X W (ix2 r c) = ∑ f : Fin 32768, X (ix2 r f) * W (ix2 f c) := rfl

set_option maxHeartbeats 1000000 in
/-- The program's discriminator loss, from any contents of its buffers in which the two first-layer products are in
    place and the head's five arrays are the reference's, is the reference's discriminator loss. -/
theorem bridge_disc (W : Valuation Cert.KernelIdeal.τ Cert.KernelIdeal.sig (Elt Ideal))
    (m' : (ℓ : Loc Cert.ReferenceIdeal.nD Cert.ReferenceIdeal.τ Cert.ReferenceIdeal.sig) → Buf (Elt Ideal) ℓ)
    (c : Dev Cert.ReferenceIdeal.nD)
    (X Y : Cert.Region.Mat 1280 32768) (D : Cert.Region.Mat 32768 128)
    (h0 : m' ((c.tc : Thread Cert.ReferenceIdeal.nD Cert.ReferenceIdeal.τ).loc Cert.ReferenceIdeal.main_arg0) = X)
    (h1 : m' ((c.tc : Thread Cert.ReferenceIdeal.nD Cert.ReferenceIdeal.τ).loc Cert.ReferenceIdeal.main_arg1) = Y)
    (h3 : m' ((c.tc : Thread Cert.ReferenceIdeal.nD Cert.ReferenceIdeal.τ).loc Cert.ReferenceIdeal.main_arg3) = D)
    (hk4 : (W (Proc.devRef .tc Cert.KernelIdeal.main_arg4) : FVec Ideal ⟨1, ![128]⟩ .f32)
      = m' ((c.tc : Thread Cert.ReferenceIdeal.nD Cert.ReferenceIdeal.τ).loc Cert.ReferenceIdeal.main_arg4))
    (hk5 : (W (Proc.devRef .tc Cert.KernelIdeal.main_arg5) : FVec Ideal ⟨2, ![128, 64]⟩ .f32)
      = m' ((c.tc : Thread Cert.ReferenceIdeal.nD Cert.ReferenceIdeal.τ).loc Cert.ReferenceIdeal.main_arg5))
    (hk6 : (W (Proc.devRef .tc Cert.KernelIdeal.main_arg6) : FVec Ideal ⟨1, ![64]⟩ .f32)
      = m' ((c.tc : Thread Cert.ReferenceIdeal.nD Cert.ReferenceIdeal.τ).loc Cert.ReferenceIdeal.main_arg6))
    (hk7 : (W (Proc.devRef .tc Cert.KernelIdeal.main_arg7) : FVec Ideal ⟨2, ![64, 2]⟩ .f32)
      = m' ((c.tc : Thread Cert.ReferenceIdeal.nD Cert.ReferenceIdeal.τ).loc Cert.ReferenceIdeal.main_arg7))
    (hk8 : (W (Proc.devRef .tc Cert.KernelIdeal.main_arg8) : FVec Ideal ⟨1, ![2]⟩ .f32)
      = m' ((c.tc : Thread Cert.ReferenceIdeal.nD Cert.ReferenceIdeal.τ).loc Cert.ReferenceIdeal.main_arg8))
    (w9 : W (Proc.devRef .tc Cert.KernelIdeal.main_v0_5) = Cert.Region.prod X D)
    (w10 : W (Proc.devRef .tc Cert.KernelIdeal.main_v0_6) = Cert.Region.prod Y D) :
    (StableHlo.after (Cert.KernelIdeal.Fr.tailOps (F := Ideal)).flatten W (Proc.devRef .tc Cert.KernelIdeal.main_v102)
        : FVec Ideal ⟨0, ![]⟩ .f32)
      = Cert.ReferenceIdeal.Value.res_main_v92 m' c := by
  rw [kernel_disc W, ref_disc m' c, w9, w10, hk4, hk5, hk6, hk7, hk8, h0, h1, h3]
  exact congrArg (meanAll Cert.KernelIdeal.Facts₀.reducesTo_S2560x2_S_d0_1 Cert.KernelIdeal.Facts₀.h_S_)
    (head_of_stack (p := 1280) (q := 1280) (t := 2560) (n := 32768) rfl witK witK witR
      Cert.ReferenceIdeal.Facts₀.concatenates_S1280x32768_S1280x32768_S2560x32768_d0
      Cert.KernelIdeal.Facts₀.concatenates_S1280x2_S1280x2_S2560x2_d0
      X Y D (Cert.Region.prod X D) (Cert.Region.prod Y D) (prod_apply X D) (prod_apply Y D)
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))).symm

end Cert.Br

end
-- ==== Proof.Br.Cls.lean ====
/-
  The classifier side of the two programs, compared. After its one call the kernel program holds in main_v0_7 the
  product P = Y · C of the target rows Y (1280 × 32768) with the classifier's first-layer weights C (32768 × 128), as the
  closed sum Σ_f Y[i, f] · C[f, j]; the reference computes the same array as a dot_general of its arguments 1 and 9, which
  over the extended reals is that sum. From P on, both programs apply the same operations, one for one: two more affine
  layers give the 1280 × 3 scores; a row-wise log-softmax; each row's entry at its label; minus the mean of those entries;
  plus 0.01 times the sum of the squares of the six parameter arrays. Here that chain is written once, as functions of P,
  the labels and the parameters, and never opened: the kernel program's last 86 host operations compute these functions of
  main_v0_7 and its arguments (the 156 host operations before them write none of those buffers), the reference's results
  are the same functions of its dot_general, and so the two agree once P is identified with the dot_general. The total
  loss is classifier + discriminator in the kernel program and discriminator + classifier in the reference: addition of
  extended reals commutes.
-/
import proofs.«409862_j41274635715290_3_alg».proof.Proof.KI.TailOps
import proofs.«409862_j41274635715290_3_alg».proof.Proof.RefGen
import proofs.«409862_j41274635715290_3_alg».proof.Proof.Spec.Region
import Idealize.ShloMosaic.Lib.StableHlo.Run
import Idealize.ShloMosaic.Lib.Pipeline.Frame
import Idealize.ShloMosaic.Lib.ValueIdx
import Idealize.ShloMosaic.PureOps.Ideal.Laws

set_option maxRecDepth 16384

noncomputable section

namespace Cert.Br

open Idealize.ShloMosaic Idealize.ShloMosaic.TcCoe Idealize.SL.Sem Idealize.ShloMosaic.StableHlo

/-! ## The reference's side: its memory, its arguments, its scores -/

section Reference

open Cert.ReferenceIdeal Cert.ReferenceIdeal.Gen

variable {F : FTy → Type} [FloatOps F]

/-- A memory of the reference program. -/
abbrev RMem (F : FTy → Type) : Type := (ℓ : Loc nD τ sig) → Buf (Elt F) ℓ

/-- The reference's arguments the classifier reads, in a memory, on a device's TensorCore: the target rows (1), the
    labels (2), the first layer's weights (9), and the later layers' parameters (10 to 14). -/
abbrev rArg1 (m : RMem F) (c : Dev nD) : Buf (Elt F) ((c.tc : Thread nD τ).loc main_arg1) := m ((c.tc : Thread nD τ).loc main_arg1)
abbrev rArg2 (m : RMem F) (c : Dev nD) : Buf (Elt F) ((c.tc : Thread nD τ).loc main_arg2) := m ((c.tc : Thread nD τ).loc main_arg2)
abbrev rArg9 (m : RMem F) (c : Dev nD) : Buf (Elt F) ((c.tc : Thread nD τ).loc main_arg9) := m ((c.tc : Thread nD τ).loc main_arg9)
abbrev rArg10 (m : RMem F) (c : Dev nD) : Buf (Elt F) ((c.tc : Thread nD τ).loc main_arg10) := m ((c.tc : Thread nD τ).loc main_arg10)
abbrev rArg11 (m : RMem F) (c : Dev nD) : Buf (Elt F) ((c.tc : Thread nD τ).loc main_arg11) := m ((c.tc : Thread nD τ).loc main_arg11)
abbrev rArg12 (m : RMem F) (c : Dev nD) : Buf (Elt F) ((c.tc : Thread nD τ).loc main_arg12) := m ((c.tc : Thread nD τ).loc main_arg12)
abbrev rArg13 (m : RMem F) (c : Dev nD) : Buf (Elt F) ((c.tc : Thread nD τ).loc main_arg13) := m ((c.tc : Thread nD τ).loc main_arg13)
abbrev rArg14 (m : RMem F) (c : Dev nD) : Buf (Elt F) ((c.tc : Thread nD τ).loc main_arg14) := m ((c.tc : Thread nD τ).loc main_arg14)

/-- The reference's scores, term for term as its run states them: the three affine layers applied to the product of the
    target rows with the first layer's weights. -/
abbrev refPreds (m : RMem F) (c : Dev nD) : FVec F S1280x3 .f32 :=
  addf (Host.dotGeneral dot_S1280x32_S32x3_S1280x3_1_0_0_1_n_n none (addf (Host.dotGeneral dot_S1280x128_S128x32_S1280x32_1_0_0_1_n_n none (addf (Host.dotGeneral dot_S1280x32768_S32768x128_S1280x128_1_0_0_1_n_n none (m ((c.tc : Thread nD τ).loc main_arg1)) (m ((c.tc : Thread nD τ).loc main_arg9))) (broadcastInDim S1280x128 ![0, 1] bcast_S1x128_S1280x128_0_1 (broadcastInDim S1x128 ![1] bcast_S128_S1x128_1 (m ((c.tc : Thread nD τ).loc main_arg10))))) (m ((c.tc : Thread nD τ).loc main_arg11))) (broadcastInDim S1280x32 ![0, 1] bcast_S1x32_S1280x32_0_1 (broadcastInDim S1x32 ![1] bcast_S32_S1x32_1 (m ((c.tc : Thread nD τ).loc main_arg12))))) (m ((c.tc : Thread nD τ).loc main_arg13))) (broadcastInDim S1280x3 ![0, 1] bcast_S1x3_S1280x3_0_1 (broadcastInDim S1x3 ![1] bcast_S3_S1x3_1 (m ((c.tc : Thread nD τ).loc main_arg14))))

end Reference

/-! ## The kernel program's side -/

section Kernel

open Cert.KernelIdeal Cert.KernelIdeal.Gen

/-- A buffer of the TensorCore, as a buffer of the device. -/
abbrev dr (b : Ref sig .tc) : DevRef τ sig := Proc.devRef .tc b

/-- The 156 host operations before the classifier head: none of them writes a buffer the head reads. -/
abbrev opsBefore : List (HloOp τ sig (Elt Ideal)) :=
  hostOps1 ++ (hostOps1_1 ++ (hostOps1_2 ++ (hostOps1_3 ++ (hostOps1_4 ++ (hostOps1_5 ++ (hostOps1_6 ++ (hostOps1_7 ++ (hostOps1_8 ++ (hostOps1_9 ++
    (hostOps1_10 ++ (hostOps1_11 ++ (hostOps1_12 ++ (hostOps1_13 ++ hostOps1_14)))))))))))))

/-- The last 86 host operations: the end of the discriminator loss, the classifier head, its log-softmax, the entry at the
    label, the mean, the weight penalty and the total. -/
abbrev opsHead : List (HloOp τ sig (Elt Ideal)) :=
  hostOps1_15 ++ (hostOps1_16 ++ (hostOps1_17 ++ (hostOps1_18 ++ hostOps1_19)))

/-- The 242 host operations are the first 156 followed by the last 86. -/
theorem tail_split (W : Valuation τ sig (Elt Ideal)) :
    StableHlo.after (Cert.KernelIdeal.Fr.tailOps (F := Ideal)).flatten W = StableHlo.after opsHead (StableHlo.after opsBefore W) := by
  rw [← StableHlo.after_append]
  congr 1

/-! ### The shared chain, written once -/

/-- The classifier head: from the first layer's product P (1280 × 128), add the bias, multiply by the second
    layer's weights, add its bias, multiply by the third layer's weights, add its bias: 1280 × 3 scores. -/
def headOf (P : FVec Ideal S1280x128 .f32) (b10 : FVec Ideal S128 .f32) (w11 : FVec Ideal S128x32 .f32)
    (b12 : FVec Ideal S32 .f32) (w13 : FVec Ideal S32x3 .f32) (b14 : FVec Ideal S3 .f32) : FVec Ideal S1280x3 .f32 :=
  addf (Host.dotGeneral dot_S1280x32_S32x3_S1280x3_1_0_0_1_n_n none
      (addf (Host.dotGeneral dot_S1280x128_S128x32_S1280x32_1_0_0_1_n_n none
          (addf P (broadcastInDim S1280x128 ![0, 1] bcast_S1x128_S1280x128_0_1 (broadcastInDim S1x128 ![1] bcast_S128_S1x128_1 b10))) w11)
        (broadcastInDim S1280x32 ![0, 1] bcast_S1x32_S1280x32_0_1 (broadcastInDim S1x32 ![1] bcast_S32_S1x32_1 b12))) w13)
    (broadcastInDim S1280x3 ![0, 1] bcast_S1x3_S1280x3_0_1 (broadcastInDim S1x3 ![1] bcast_S3_S1x3_1 b14))

/-- Each row's largest score (at least −∞), repeated along the row. -/
def rowMax (x : FVec Ideal S1280x3 .f32) : FVec Ideal S1280x3 .f32 :=
  broadcastInDim S1280x3 ![0, 1] bcast_S1280x1_S1280x3_0_1 (broadcastInDim S1280x1 ![0] bcast_S1280_S1280x1_0
    (maximumf (broadcastInDim S1280 ![] bcast_S_S1280 (constant (F := Ideal) S_ .f32 0xFF800000#32))
      (Host.reduce FloatOps.maximumf x (constant (F := Ideal) S_ .f32 0xFF800000#32) reducesTo_S1280x3_S1280_d1 h_S_)))

/-- Row-wise log-softmax: the score minus the row's maximum, minus the logarithm of the row's sum of the exponentials of those differences. -/
def lsmOf (x : FVec Ideal S1280x3 .f32) : FVec Ideal S1280x3 .f32 :=
  subf (subf x (rowMax x))
    (broadcastInDim S1280x3 ![0, 1] bcast_S1280x1_S1280x3_0_1 (Host.log (broadcastInDim S1280x1 ![0] bcast_S1280_S1280x1_0
      (Host.reduceAdd (Host.exp (subf x (rowMax x))) (constant (F := Ideal) S_ .f32 0x00000000#32) reducesTo_S1280x3_S1280_d1 h_S_))))

/-- The labels as a 1280 × 1 × 1 index array, a negative label counted from the end (label + 3). -/
def lblOf (lbl : IVec S1280 32) : IVec S1280x1x1 32 :=
  shapeCast S1280x1x1 (select (cmpi .slt (broadcastInDim S1280x1 ![0] bcast_S1280_S1280x1_0 lbl) (broadcastInDim S1280x1 ![] bcast_S_S1280x1 (constantI S_ 32 0#32)))
      (addi (broadcastInDim S1280x1 ![0] bcast_S1280_S1280x1_0 lbl) (broadcastInDim S1280x1 ![] bcast_S_S1280x1 (constantI S_ 32 3#32)))
      (broadcastInDim S1280x1 ![0] bcast_S1280_S1280x1_0 lbl)) shapeCasts_S1280x1_S1280x1x1

/-- Each row's entry at its label where the label lies in 0..2, not-a-number elsewhere. -/
def pickOf (l : FVec Ideal S1280x3 .f32) (lbl : IVec S1280 32) : FVec Ideal S1280x1 .f32 :=
  select (Host.reduce IntOp.andi
      (andi (cmpi .sge (lblOf lbl) (broadcastInDim S1280x1x1 ![] bcast_S_S1280x1x1 (constantI S_ 32 0#32)))
        (cmpi .sle (lblOf lbl) (broadcastInDim S1280x1x1 ![0, 1, 2] bcast_S1x1x1_S1280x1x1_0_1_2 (broadcastInDim S1x1x1 ![2] bcast_S1_S1x1x1_2 (constantI S1 32 2#32)))))
      (constantI S_ 1 1#1) reducesTo_S1280x1x1_S1280x1_d2 h_S_)
    (Host.gather gather_S1280x3_S1280x1x1_S1280x1_n_1_0_0_1_2_11 l (lblOf lbl))
    (broadcastInDim S1280x1 ![] bcast_S_S1280x1 (constant (F := Ideal) S_ .f32 0x7FC00000#32))

/-- Minus the mean of the 1280 picked entries, plus 0.01 times the sum of the squares of every classifier parameter. -/
def lossOf (g : FVec Ideal S1280x1 .f32) (c9 : FVec Ideal S32768x128 .f32) (b10 : FVec Ideal S128 .f32) (w11 : FVec Ideal S128x32 .f32)
    (b12 : FVec Ideal S32 .f32) (w13 : FVec Ideal S32x3 .f32) (b14 : FVec Ideal S3 .f32) : FVec Ideal S_ .f32 :=
  addf (Host.negf (Host.divf (Host.reduceAdd g (constant (F := Ideal) S_ .f32 0x00000000#32) reducesTo_S1280x1_S_d0_1 h_S_) (constant (F := Ideal) S_ .f32 0x44A00000#32)))
    (mulf (constant (F := Ideal) S_ .f32 0x3C23D70A#32)
      (addf (addf (addf (addf (addf
        (Host.reduceAdd (mulf c9 c9) (constant (F := Ideal) S_ .f32 0x00000000#32) reducesTo_S32768x128_S_d0_1 h_S_)
        (Host.reduceAdd (mulf b10 b10) (constant (F := Ideal) S_ .f32 0x00000000#32) reducesTo_S128_S_d0 h_S_))
        (Host.reduceAdd (mulf w11 w11) (constant (F := Ideal) S_ .f32 0x00000000#32) reducesTo_S128x32_S_d0_1 h_S_))
        (Host.reduceAdd (mulf b12 b12) (constant (F := Ideal) S_ .f32 0x00000000#32) reducesTo_S32_S_d0 h_S_))
        (Host.reduceAdd (mulf w13 w13) (constant (F := Ideal) S_ .f32 0x00000000#32) reducesTo_S32x3_S_d0_1 h_S_))
        (Host.reduceAdd (mulf b14 b14) (constant (F := Ideal) S_ .f32 0x00000000#32) reducesTo_S3_S_d0 h_S_)))

/-- The classifier loss as one function of the first layer's product, the labels and the classifier's parameters. -/
def clsOf (P : FVec Ideal S1280x128 .f32) (lbl : IVec S1280 32) (c9 : FVec Ideal S32768x128 .f32) (b10 : FVec Ideal S128 .f32)
    (w11 : FVec Ideal S128x32 .f32) (b12 : FVec Ideal S32 .f32) (w13 : FVec Ideal S32x3 .f32) (b14 : FVec Ideal S3 .f32) : FVec Ideal S_ .f32 :=
  lossOf (pickOf (lsmOf (headOf P b10 w11 b12 w13 b14)) lbl) c9 b10 w11 b12 w13 b14

/-! ### What the last 86 operations compute, from any contents -/

set_option maxHeartbeats 4000000 in
/-- The scores are the head of main_v0_7 and the arguments 10 to 14. -/
theorem head_v113 (V : Valuation τ sig (Elt Ideal)) :
    StableHlo.after opsHead V (dr main_v113)
      = headOf (V (dr main_v0_7)) (V (dr main_arg10)) (V (dr main_arg11)) (V (dr main_arg12)) (V (dr main_arg13)) (V (dr main_arg14)) := by
  simp only [opsHead, hostOps1_15, hostOps1_16, hostOps1_17, hostOps1_18, hostOps1_19, List.cons_append, List.nil_append]
  after_results_simp
  rfl

set_option maxHeartbeats 4000000 in
/-- The classifier loss is the chain applied to main_v0_7, the labels and the arguments 9 to 14. -/
theorem head_v138 (V : Valuation τ sig (Elt Ideal)) :
    StableHlo.after opsHead V (dr main_v138)
      = clsOf (V (dr main_v0_7)) (V (dr main_arg2)) (V (dr main_arg9)) (V (dr main_arg10)) (V (dr main_arg11)) (V (dr main_arg12)) (V (dr main_arg13)) (V (dr main_arg14)) := by
  simp only [opsHead, hostOps1_15, hostOps1_16, hostOps1_17, hostOps1_18, hostOps1_19, List.cons_append, List.nil_append]
  after_results_simp
  rfl

set_option maxHeartbeats 4000000 in
/-- The total is the classifier loss plus the discriminator loss. -/
theorem head_v139 (V : Valuation τ sig (Elt Ideal)) :
    @Eq (FVec Ideal S_ .f32) (StableHlo.after opsHead V (dr main_v139))
      (addf (StableHlo.after opsHead V (dr main_v138)) (StableHlo.after opsHead V (dr main_v102))) := by
  simp only [opsHead, hostOps1_15, hostOps1_16, hostOps1_17, hostOps1_18, hostOps1_19, List.cons_append, List.nil_append]
  after_results_simp

set_option maxHeartbeats 4000000 in
/-- The first 156 operations write none of the buffers the classifier chain reads. -/
theorem before_keeps (W : Valuation τ sig (Elt Ideal)) :
    StableHlo.after opsBefore W (dr main_v0_7) = W (dr main_v0_7)
    ∧ StableHlo.after opsBefore W (dr main_arg2) = W (dr main_arg2)
    ∧ StableHlo.after opsBefore W (dr main_arg9) = W (dr main_arg9)
    ∧ StableHlo.after opsBefore W (dr main_arg10) = W (dr main_arg10)
    ∧ StableHlo.after opsBefore W (dr main_arg11) = W (dr main_arg11)
    ∧ StableHlo.after opsBefore W (dr main_arg12) = W (dr main_arg12)
    ∧ StableHlo.after opsBefore W (dr main_arg13) = W (dr main_arg13)
    ∧ StableHlo.after opsBefore W (dr main_arg14) = W (dr main_arg14) := by
  simp only [opsBefore, hostOps1, hostOps1_1, hostOps1_2, hostOps1_3, hostOps1_4, hostOps1_5, hostOps1_6, hostOps1_7, hostOps1_8, hostOps1_9,
    hostOps1_10, hostOps1_11, hostOps1_12, hostOps1_13, hostOps1_14, List.cons_append, List.nil_append]
  refine ⟨?_, ?_, ?_, ?_, ?_, ?_, ?_, ?_⟩ <;> after_results_simp

/-! ### What all 242 operations compute -/

/-- The scores after the whole tail. -/
theorem tail_v113 (W : Valuation τ sig (Elt Ideal)) :
    StableHlo.after (Cert.KernelIdeal.Fr.tailOps (F := Ideal)).flatten W (dr main_v113)
      = headOf (W (dr main_v0_7)) (W (dr main_arg10)) (W (dr main_arg11)) (W (dr main_arg12)) (W (dr main_arg13)) (W (dr main_arg14)) := by
  obtain ⟨k7, k2, k9, k10, k11, k12, k13, k14⟩ := before_keeps W
  rw [tail_split, head_v113, k7, k10, k11, k12, k13, k14]

/-- The classifier loss after the whole tail. -/
theorem tail_v138 (W : Valuation τ sig (Elt Ideal)) :
    StableHlo.after (Cert.KernelIdeal.Fr.tailOps (F := Ideal)).flatten W (dr main_v138)
      = clsOf (W (dr main_v0_7)) (W (dr main_arg2)) (W (dr main_arg9)) (W (dr main_arg10)) (W (dr main_arg11)) (W (dr main_arg12)) (W (dr main_arg13)) (W (dr main_arg14)) := by
  obtain ⟨k7, k2, k9, k10, k11, k12, k13, k14⟩ := before_keeps W
  rw [tail_split, head_v138, k7, k2, k9, k10, k11, k12, k13, k14]

/-- The total after the whole tail: the classifier loss plus the discriminator loss. -/
theorem tail_v139 (W : Valuation τ sig (Elt Ideal)) :
    @Eq (FVec Ideal S_ .f32) (StableHlo.after (Cert.KernelIdeal.Fr.tailOps (F := Ideal)).flatten W (dr main_v139))
      (addf (StableHlo.after (Cert.KernelIdeal.Fr.tailOps (F := Ideal)).flatten W (dr main_v138))
        (StableHlo.after (Cert.KernelIdeal.Fr.tailOps (F := Ideal)).flatten W (dr main_v102))) := by
  rw [tail_split]
  exact head_v139 _

/-! ### The reference's results are the same functions of its dot_general -/

/-- The kernel's closed sum Σ_f Y[i, f] · C[f, j] is the reference's dot_general of the target rows with the first
    layer's weights: over the extended reals that dot_general is the sum over the contracted axis. -/
theorem prod_eq (Y : Cert.Region.Mat 1280 32768) (C : Cert.Region.Mat 32768 128) :
    @Eq (FVec Ideal S1280x128 .f32) (Cert.Region.prod Y C) (Cert.ReferenceIdeal.Read.val_main_v78 (F := Ideal) Y C) := by
  funext i
  rw [Cert.ReferenceIdeal.Read.val_main_v78_apply]
  show Cert.Region.prodAt Y C (i 0) (i 1) = _
  unfold Cert.Region.prodAt
  refine Finset.sum_congr rfl fun k _ => ?_
  have el : ValueIdx.ix2 (i 0) k = Cert.ReferenceIdeal.Read.lidx_main_v78 i k := by
    funext a; match a with | ⟨0, _⟩ => rfl | ⟨1, _⟩ => rfl
  have er : ValueIdx.ix2 k (i 1) = Cert.ReferenceIdeal.Read.ridx_main_v78 i k := by
    funext a; match a with | ⟨0, _⟩ => rfl | ⟨1, _⟩ => rfl
  exact congrArg₂ (· * ·) (congrArg Y el) (congrArg C er)

/-- The reference's scores are the head applied to its first-layer product. -/
theorem ref_preds (m : RMem Ideal) (c : Dev nD) :
    refPreds m c = headOf (Cert.ReferenceIdeal.Read.val_main_v78 (F := Ideal) (rArg1 m c) (rArg9 m c))
      (rArg10 m c) (rArg11 m c) (rArg12 m c) (rArg13 m c) (rArg14 m c) := rfl

/-- The reference's classifier loss is the chain applied to its first-layer product, its labels and its parameters. -/
theorem ref_cls (m : RMem Ideal) (c : Dev nD) :
    @Eq (FVec Ideal S_ .f32) (Cert.ReferenceIdeal.Value.res_main_v117 (F := Ideal) m c)
      (clsOf (Cert.ReferenceIdeal.Read.val_main_v78 (F := Ideal) (rArg1 m c) (rArg9 m c))
        (rArg2 m c) (rArg9 m c) (rArg10 m c) (rArg11 m c) (rArg12 m c) (rArg13 m c) (rArg14 m c)) := by
  unfold Cert.ReferenceIdeal.Value.res_main_v117
  rfl

/-- The reference's total is its discriminator loss plus its classifier loss. -/
theorem ref_loss (m : RMem Ideal) (c : Dev nD) :
    @Eq (FVec Ideal S_ .f32) (Cert.ReferenceIdeal.Value.res_main_v118 (F := Ideal) m c)
      (addf (Cert.ReferenceIdeal.Value.res_main_v92 (F := Ideal) m c) (Cert.ReferenceIdeal.Value.res_main_v117 (F := Ideal) m c)) := by
  unfold Cert.ReferenceIdeal.Value.res_main_v118 Cert.ReferenceIdeal.Value.res_main_v92 Cert.ReferenceIdeal.Value.res_main_v117
  rfl

/-! ### The bridges -/

/-- The scores agree: the kernel program's main_v113 after its host operations is the reference's main_v89, when
    main_v0_7 holds Y · C and the classifier's later parameters are the reference's. -/
theorem bridge_preds (W : Valuation τ sig (Elt Ideal)) (m' : RMem Ideal) (c : Dev nD)
    (Y : Cert.Region.Mat 1280 32768) (C : Cert.Region.Mat 32768 128)
    (h1 : rArg1 m' c = Y) (h9 : rArg9 m' c = C)
    (hk10 : W (dr main_arg10) = rArg10 m' c) (hk11 : W (dr main_arg11) = rArg11 m' c) (hk12 : W (dr main_arg12) = rArg12 m' c)
    (hk13 : W (dr main_arg13) = rArg13 m' c) (hk14 : W (dr main_arg14) = rArg14 m' c)
    (w11 : W (dr main_v0_7) = Cert.Region.prod Y C) :
    StableHlo.after (Cert.KernelIdeal.Fr.tailOps (F := Ideal)).flatten W (dr main_v113) = refPreds m' c := by
  subst h1 h9
  rw [tail_v113, w11, hk10, hk11, hk12, hk13, hk14, prod_eq]
  exact (ref_preds m' c).symm

/-- The classifier losses agree: the kernel program's main_v138 is the reference's main_v117. -/
theorem bridge_cls (W : Valuation τ sig (Elt Ideal)) (m' : RMem Ideal) (c : Dev nD)
    (Y : Cert.Region.Mat 1280 32768) (C : Cert.Region.Mat 32768 128)
    (h1 : rArg1 m' c = Y) (h9 : rArg9 m' c = C)
    (hk2 : W (dr main_arg2) = rArg2 m' c) (hk9 : W (dr main_arg9) = rArg9 m' c)
    (hk10 : W (dr main_arg10) = rArg10 m' c) (hk11 : W (dr main_arg11) = rArg11 m' c) (hk12 : W (dr main_arg12) = rArg12 m' c)
    (hk13 : W (dr main_arg13) = rArg13 m' c) (hk14 : W (dr main_arg14) = rArg14 m' c)
    (w11 : W (dr main_v0_7) = Cert.Region.prod Y C) :
    StableHlo.after (Cert.KernelIdeal.Fr.tailOps (F := Ideal)).flatten W (dr main_v138)
      = Cert.ReferenceIdeal.Value.res_main_v117 (F := Ideal) m' c := by
  subst h1 h9
  rw [tail_v138, w11, hk2, hk9, hk10, hk11, hk12, hk13, hk14, prod_eq]
  exact (ref_cls m' c).symm

/-- The totals agree, given that the discriminator losses do: the kernel program adds classifier + discriminator, the
    reference discriminator + classifier, and addition of extended reals commutes. -/
theorem bridge_loss (W : Valuation τ sig (Elt Ideal)) (m' : RMem Ideal) (c : Dev nD)
    (Y : Cert.Region.Mat 1280 32768) (C : Cert.Region.Mat 32768 128)
    (h1 : rArg1 m' c = Y) (h9 : rArg9 m' c = C)
    (hk2 : W (dr main_arg2) = rArg2 m' c) (hk9 : W (dr main_arg9) = rArg9 m' c)
    (hk10 : W (dr main_arg10) = rArg10 m' c) (hk11 : W (dr main_arg11) = rArg11 m' c) (hk12 : W (dr main_arg12) = rArg12 m' c)
    (hk13 : W (dr main_arg13) = rArg13 m' c) (hk14 : W (dr main_arg14) = rArg14 m' c)
    (w11 : W (dr main_v0_7) = Cert.Region.prod Y C)
    (hd : StableHlo.after (Cert.KernelIdeal.Fr.tailOps (F := Ideal)).flatten W (dr main_v102)
      = Cert.ReferenceIdeal.Value.res_main_v92 (F := Ideal) m' c) :
    StableHlo.after (Cert.KernelIdeal.Fr.tailOps (F := Ideal)).flatten W (dr main_v139)
      = Cert.ReferenceIdeal.Value.res_main_v118 (F := Ideal) m' c := by
  have hc := bridge_cls W m' c Y C h1 h9 hk2 hk9 hk10 hk11 hk12 hk13 hk14 w11
  refine (tail_v139 W).trans ?_
  rw [hc, hd]
  refine Eq.trans ?_ (ref_loss m' c).symm
  funext i
  rw [ValueIdx.addf_apply, ValueIdx.addf_apply]
  exact add_comm _ _

end Kernel

end Cert.Br

end
-- ==== Proof.Assemble.lean ====
/-
  The five claims, assembled. The two kernel programs' frames are the launch of the one pallas_call followed by its
  242 host operations; the reference's frame is its run with the results dropped. For the equivalence both programs
  are run from memories that agree on the fifteen arguments: the kernel program's five results are its host operations
  applied to the eight arrays the pallas_call leaves — each a plain sum over the 32768 feature columns — and each is
  shown equal to what the reference computes: the classifier's outputs and loss by the same operations on the same
  product; the discriminator's loss by running the row-wise network on the two halves of the rows or on their
  concatenation; the kernel distance by the diagonal of a region's Gram matrix being the rows' squared lengths and by
  moving the factor 2 across a finite sum of reals, the one place where the inputs' finiteness is used.
-/
import proofs.«409862_j41274635715290_3_alg».proof.Proof.KI.Frame
import proofs.«409862_j41274635715290_3_alg».proof.Proof.K.Frame
import proofs.«409862_j41274635715290_3_alg».proof.Proof.KI.Final
import proofs.«409862_j41274635715290_3_alg».proof.Proof.Pre
import proofs.«409862_j41274635715290_3_alg».proof.Proof.Br.Mmd
import proofs.«409862_j41274635715290_3_alg».proof.Proof.Br.Disc
import proofs.«409862_j41274635715290_3_alg».proof.Proof.Br.Cls
import proofs.«409862_j41274635715290_3_alg».proof.Proof.RefGen

set_option maxRecDepth 16384

noncomputable section

namespace Cert.Proof.Parts

open Idealize.ShloMosaic Idealize.ShloMosaic.TcCoe Idealize.SL.Sem

theorem frame_kernel : Cert.frame_Kernel := fun m ρ _ => Cert.Kernel.Fr.frame m ρ

theorem frame_kernelIdeal : Cert.frame_KernelIdeal := fun m ρ _ => Cert.KernelIdeal.Fr.frame m ρ

/-- The reference has no kernel: its frame is its run, the five results dropped. -/
theorem frame_reference : Cert.frame_ReferenceIdeal := fun m ρ _ =>
  (θ_run Cert.ReferenceIdeal.defs _ _).mono (fun _ h c => (h c).2.2.2.2.2) (Cert.ReferenceIdeal.Value.run (F := Ideal) m ρ)

section Core
open Cert.KernelIdeal Cert.KernelIdeal.Gen Cert.KernelIdeal.Fr

variable (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
  (dats : (p : Fin 1) → (c : Dev nD) → Pipeline.Dat τ (Elt Ideal) Unit ℕ (UR sig nD τ) ℕ (cfgs p) c)
  (c : Dev nD)

/-- The core's buffers when the lines after the region start: the pipeline's arrays as the region leaves them, every
    other buffer at its launch contents. -/
abbrev Wof : Valuation τ sig (Elt Ideal) :=
  Pipeline.withArrays spec0 c (V0 m c) fun w => (dats 0 c).arrAt w cfg0.N

/-- An array of the pipeline holds there what the region leaves in it. -/
theorem W_arr (w : Fin 12) : Wof m dats c (Proc.devRef .tc (Pipeline.arrRef spec0 w)) = (dats 0 c).arrAt w cfg0.N :=
  Pipeline.withArrays_arr spec0 launch0.win.arr_inj c _ _ w

/-- A buffer that is no array of the pipeline holds there its launch contents. -/
theorem W_arg (b : Ref sig .tc) (hb : ∀ w, Pipeline.arrRef spec0 w ≠ b) : Wof m dats c (Proc.devRef .tc b) = V m c b :=
  Pipeline.withArrays_of_ne spec0 c _ _ b hb

/-- An input array is left by the region as it was launched. -/
theorem W_staged (hA : ∀ c w, (dats 0 c).A w = V m c (Pipeline.arrRef spec0 w)) (w : Fin 12) (hin : (cfg0.win w).isOut = false) :
    Wof m dats c (Proc.devRef .tc (Pipeline.arrRef spec0 w)) = V m c (Pipeline.arrRef spec0 w) :=
  (W_arr m dats c w).trans (((dats 0 c).arrAt_in w hin _).trans (hA c w))

/-- The kernel program's five results at a final state of the frame run, each the reference's. -/
theorem results_of_post
    (hpre : Cert.Pre_KernelIdeal m)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (hA : ∀ c w, (dats 0 c).A w = V m c (Pipeline.arrRef spec0 w))
    (f4 : (dats 0 c).arrAt 4 cfg0.N = Cert.Region.gram (V m c main_arg0)) (f5 : (dats 0 c).arrAt 5 cfg0.N = Cert.Region.gram (V m c main_arg1))
    (f6 : (dats 0 c).arrAt 6 cfg0.N = Cert.Region.sq (V m c main_arg0)) (f7 : (dats 0 c).arrAt 7 cfg0.N = Cert.Region.sq (V m c main_arg1))
    (f8 : (dats 0 c).arrAt 8 cfg0.N = Cert.Region.cross (V m c main_arg0) (V m c main_arg1))
    (f9 : (dats 0 c).arrAt 9 cfg0.N = Cert.Region.prod (V m c main_arg0) (V m c main_arg3))
    (f10 : (dats 0 c).arrAt 10 cfg0.N = Cert.Region.prod (V m c main_arg1) (V m c main_arg3))
    (f11 : (dats 0 c).arrAt 11 cfg0.N = Cert.Region.prod (V m c main_arg1) (V m c main_arg9))
    (r : PUnit × MemSt nD τ sig (Elt Ideal))
    (h : Pipeline.FramePost cfgs dats 0 (Pipeline.afterTail₀ cfgs dats 0 (V0 m) tailOps) r) :
    r.2.mem ((c.tc : Thread nD τ).loc main_v113) = Cert.Br.refPreds (F := Ideal) m' c
      ∧ r.2.mem ((c.tc : Thread nD τ).loc main_v138) = Cert.ReferenceIdeal.Value.res_main_v117 m' c
      ∧ r.2.mem ((c.tc : Thread nD τ).loc main_v102) = Cert.ReferenceIdeal.Value.res_main_v92 m' c
      ∧ r.2.mem ((c.tc : Thread nD τ).loc main_v139) = Cert.ReferenceIdeal.Value.res_main_v118 m' c
      ∧ r.2.mem ((c.tc : Thread nD τ).loc main_v59) = Cert.ReferenceIdeal.Value.res_main_v56 m' c := by
  have hX := Cert.PreFacts.real_arg0 m hpre c
  have hY := Cert.PreFacts.real_arg1 m hpre c
  have w4 : Wof m dats c (Proc.devRef .tc main_v0_0) = Cert.Region.gram (m ((c.tc : Thread nD τ).loc main_arg0)) := (W_arr m dats c 4).trans f4
  have w5 : Wof m dats c (Proc.devRef .tc main_v0_1) = Cert.Region.gram (m ((c.tc : Thread nD τ).loc main_arg1)) := (W_arr m dats c 5).trans f5
  have w6 : Wof m dats c (Proc.devRef .tc main_v0_2) = Cert.Region.sq (m ((c.tc : Thread nD τ).loc main_arg0)) := (W_arr m dats c 6).trans f6
  have w7 : Wof m dats c (Proc.devRef .tc main_v0_3) = Cert.Region.sq (m ((c.tc : Thread nD τ).loc main_arg1)) := (W_arr m dats c 7).trans f7
  have w8 : Wof m dats c (Proc.devRef .tc main_v0_4) = Cert.Region.cross (m ((c.tc : Thread nD τ).loc main_arg0)) (m ((c.tc : Thread nD τ).loc main_arg1)) := (W_arr m dats c 8).trans f8
  have w9 : Wof m dats c (Proc.devRef .tc main_v0_5) = Cert.Region.prod (m ((c.tc : Thread nD τ).loc main_arg0)) (m ((c.tc : Thread nD τ).loc main_arg3)) := (W_arr m dats c 9).trans f9
  have w10 : Wof m dats c (Proc.devRef .tc main_v0_6) = Cert.Region.prod (m ((c.tc : Thread nD τ).loc main_arg1)) (m ((c.tc : Thread nD τ).loc main_arg3)) := (W_arr m dats c 10).trans f10
  have w11 : Wof m dats c (Proc.devRef .tc main_v0_7) = Cert.Region.prod (m ((c.tc : Thread nD τ).loc main_arg1)) (m ((c.tc : Thread nD τ).loc main_arg9)) := (W_arr m dats c 11).trans f11
  have k2 : Wof m dats c (Proc.devRef .tc main_arg2) = m' ((c.tc : Thread Cert.ReferenceIdeal.nD Cert.ReferenceIdeal.τ).loc Cert.ReferenceIdeal.main_arg2) := (W_arg m dats c main_arg2 (by decide)).trans hag.2.2.1.symm
  have k4 : Wof m dats c (Proc.devRef .tc main_arg4) = m' ((c.tc : Thread Cert.ReferenceIdeal.nD Cert.ReferenceIdeal.τ).loc Cert.ReferenceIdeal.main_arg4) := (W_arg m dats c main_arg4 (by decide)).trans hag.2.2.2.2.1.symm
  have k5 : Wof m dats c (Proc.devRef .tc main_arg5) = m' ((c.tc : Thread Cert.ReferenceIdeal.nD Cert.ReferenceIdeal.τ).loc Cert.ReferenceIdeal.main_arg5) := (W_arg m dats c main_arg5 (by decide)).trans hag.2.2.2.2.2.1.symm
  have k6 : Wof m dats c (Proc.devRef .tc main_arg6) = m' ((c.tc : Thread Cert.ReferenceIdeal.nD Cert.ReferenceIdeal.τ).loc Cert.ReferenceIdeal.main_arg6) := (W_arg m dats c main_arg6 (by decide)).trans hag.2.2.2.2.2.2.1.symm
  have k7 : Wof m dats c (Proc.devRef .tc main_arg7) = m' ((c.tc : Thread Cert.ReferenceIdeal.nD Cert.ReferenceIdeal.τ).loc Cert.ReferenceIdeal.main_arg7) := (W_arg m dats c main_arg7 (by decide)).trans hag.2.2.2.2.2.2.2.1.symm
  have k8 : Wof m dats c (Proc.devRef .tc main_arg8) = m' ((c.tc : Thread Cert.ReferenceIdeal.nD Cert.ReferenceIdeal.τ).loc Cert.ReferenceIdeal.main_arg8) := (W_arg m dats c main_arg8 (by decide)).trans hag.2.2.2.2.2.2.2.2.1.symm
  have k10 : Wof m dats c (Proc.devRef .tc main_arg10) = m' ((c.tc : Thread Cert.ReferenceIdeal.nD Cert.ReferenceIdeal.τ).loc Cert.ReferenceIdeal.main_arg10) := (W_arg m dats c main_arg10 (by decide)).trans hag.2.2.2.2.2.2.2.2.2.2.1.symm
  have k11 : Wof m dats c (Proc.devRef .tc main_arg11) = m' ((c.tc : Thread Cert.ReferenceIdeal.nD Cert.ReferenceIdeal.τ).loc Cert.ReferenceIdeal.main_arg11) := (W_arg m dats c main_arg11 (by decide)).trans hag.2.2.2.2.2.2.2.2.2.2.2.1.symm
  have k12 : Wof m dats c (Proc.devRef .tc main_arg12) = m' ((c.tc : Thread Cert.ReferenceIdeal.nD Cert.ReferenceIdeal.τ).loc Cert.ReferenceIdeal.main_arg12) := (W_arg m dats c main_arg12 (by decide)).trans hag.2.2.2.2.2.2.2.2.2.2.2.2.1.symm
  have k13 : Wof m dats c (Proc.devRef .tc main_arg13) = m' ((c.tc : Thread Cert.ReferenceIdeal.nD Cert.ReferenceIdeal.τ).loc Cert.ReferenceIdeal.main_arg13) := (W_arg m dats c main_arg13 (by decide)).trans hag.2.2.2.2.2.2.2.2.2.2.2.2.2.1.symm
  have k14 : Wof m dats c (Proc.devRef .tc main_arg14) = m' ((c.tc : Thread Cert.ReferenceIdeal.nD Cert.ReferenceIdeal.τ).loc Cert.ReferenceIdeal.main_arg14) := (W_arg m dats c main_arg14 (by decide)).trans hag.2.2.2.2.2.2.2.2.2.2.2.2.2.2.symm
  have k9 : Wof m dats c (Proc.devRef .tc main_arg9) = m' ((c.tc : Thread Cert.ReferenceIdeal.nD Cert.ReferenceIdeal.τ).loc Cert.ReferenceIdeal.main_arg9) := (W_staged m dats c hA 3 rfl).trans hag.2.2.2.2.2.2.2.2.2.1.symm
  have hd := Cert.Br.bridge_disc (Wof m dats c) m' c _ _ _ hag.1 hag.2.1 hag.2.2.2.1 k4 k5 k6 k7 k8 w9 w10
  refine ⟨?_, ?_, ?_, ?_, ?_⟩
  · exact ((h c).2 main_v113 rest_mem_main_v113).trans
      (Cert.Br.bridge_preds (Wof m dats c) m' c _ _ hag.2.1 hag.2.2.2.2.2.2.2.2.2.1 k10 k11 k12 k13 k14 w11)
  · exact ((h c).2 main_v138 rest_mem_main_v138).trans
      (Cert.Br.bridge_cls (Wof m dats c) m' c _ _ hag.2.1 hag.2.2.2.2.2.2.2.2.2.1 k2 k9 k10 k11 k12 k13 k14 w11)
  · exact ((h c).2 main_v102 rest_mem_main_v102).trans hd
  · exact ((h c).2 main_v139 rest_mem_main_v139).trans
      (Cert.Br.bridge_loss (Wof m dats c) m' c _ _ hag.2.1 hag.2.2.2.2.2.2.2.2.2.1 k2 k9 k10 k11 k12 k13 k14 w11 hd)
  · exact ((h c).2 main_v59 rest_mem_main_v59).trans
      (Cert.Br.bridge_mmd (Wof m dats c) m' c _ _ hX hY hag.1 hag.2.1 w4 w5 w6 w7 w8)

end Core

/-- Run from memories that agree on the fifteen arguments, the kernel program and the reference end with equal results
    — the reference's terms — and unchanged arguments. -/
theorem algebraic : Cert.algebraic_KernelIdeal_ReferenceIdeal := by
  intro m ρ m' ρ' hpre hag
  refine ⟨fun c => Cert.Br.refPreds (F := Ideal) m' c, fun c => Cert.ReferenceIdeal.Value.res_main_v117 m' c, fun c => Cert.ReferenceIdeal.Value.res_main_v92 m' c,
    fun c => Cert.ReferenceIdeal.Value.res_main_v118 m' c, fun c => Cert.ReferenceIdeal.Value.res_main_v56 m' c, ?_, Cert.ReferenceIdeal.Value.run (F := Ideal) m' ρ'⟩
  refine (θ_run Cert.KernelIdeal.defs _ _).mono (fun r h c => ?_) (Cert.KernelIdeal.Fr.run_main (F := Ideal) m ρ)
  obtain ⟨r0, r1, r2, r3, r4⟩ := results_of_post m m' (Cert.KernelIdeal.Fr.dats (F := Ideal) m) c hpre (hag c) (Cert.KernelIdeal.Fr.A_eq m) (Cert.KernelIdeal.Val.final4 m c) (Cert.KernelIdeal.Val.final5 m c)
    (Cert.KernelIdeal.Val.final6 m c) (Cert.KernelIdeal.Val.final7 m c) (Cert.KernelIdeal.Val.final8 m c) (Cert.KernelIdeal.Val.final9 m c) (Cert.KernelIdeal.Val.final10 m c) (Cert.KernelIdeal.Val.final11 m c) r h
  exact ⟨r0, r1, r2, r3, r4, Cert.KernelIdeal.Fr.args_kept m (Cert.KernelIdeal.Fr.dats (F := Ideal) m) (Cert.KernelIdeal.Fr.A_eq m) r h c⟩

end Cert.Proof.Parts

end
-- ==== Proof.lean ====
/-
  Two programs compute a domain-adaptation loss over 1280 source and 1280 target rows of 32768 features: a kernel
  distance between the rows' regions (ten regions of 128 rows; Gaussian kernels of squared distances), a small
  discriminator network on all 2560 rows, and a classifier on the target rows with a softmax loss and a weight penalty.
  The reference is plain array code. The kernel program streams the 32768 feature columns once, in 128 tiles of 256
  per half of the rows, keeping eight running sums — each region's Gram matrix and each row's squared length for both
  inputs, the 1280 × 1280 cross products, and the first layer of the discriminator and of the classifier —, and finishes
  with the same small array operations on those sums.
  The certificate: both kernel programs (the printed one, and the one read over the extended reals) run to the end and
  leave their arguments unchanged, so does the reference, and over the extended reals, from finite inputs, the kernel
  program's five results are the reference's. The equalities rest on three facts: a sum over the columns is the sum of
  the tiles' sums; a network applied row by row commutes with stacking the two halves of the rows; and on the diagonal
  of a region the squared distance s + s − 2·s is zero, as the kernel program says outright, because s is a real — the
  only use of the inputs' finiteness, together with moving the factor 2 across a finite sum of reals.
-/
import proofs.«409862_j41274635715290_3_alg».proof.Defs
import proofs.«409862_j41274635715290_3_alg».proof.Proof.Assemble
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Parts.frame_kernel, Parts.frame_kernelIdeal, Parts.frame_reference, trivial, Parts.algebraic⟩

end Cert.Proof

end
